-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x1x512x512 : Shape := ⟨4, ![16, 1, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn_part1 {F : FTy → Type} [FloatOps F] (main_v10 : IVec S_ 1) (main_v15 : IVec S16x8x512x512 1) (main_c_5 : IVec S_ 1) : IVec S_ 1 :=
  let main_v16 : IVec S_ 1 := (fun x v => Host.reduce IntOp.andi x v reducesTo_S16x8x512x512_S_d0_1_2_3 h_S_) main_v15 main_c_5
  let main_v17 : IVec S_ 1 := andi main_v10 main_v16
  main_v17

def fn {F : FTy → Type} [FloatOps F] (main_arg0 : FVec F S16x8x512x512 .f32) (main_arg1 : IVec S16x1x512x512 32) (main_arg2 : IVec S16x8x512x512 32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_c_0 : IVec S_ 32 := constantI S_ 32 0#32
  let main_v4 : IVec S16x1x512x512 32 := broadcastInDim S16x1x512x512 ![] bcast_S_S16x1x512x512 main_c_0
  let main_v5 : IVec S16x1x512x512 1 := cmpi .eq main_arg1 main_v4
  let main_c_1 : IVec S_ 32 := constantI S_ 32 1#32
  let main_v6 : IVec S16x1x512x512 32 := broadcastInDim S16x1x512x512 ![] bcast_S_S16x1x512x512 main_c_1
  let main_v7 : IVec S16x1x512x512 1 := cmpi .eq main_arg1 main_v6
  let main_v8 : IVec S16x1x512x512 1 := ori main_v5 main_v7
  let main_c_2 : IVec S_ 1 := constantI S_ 1 1#1
  let main_v9 : IVec S_ 1 := (fun x v => Host.reduce IntOp.andi x v reducesTo_S16x1x512x512_S_d0_1_2_3 h_S_) main_v8 main_c_2
  let main_v10 : IVec S_ 1 := andi main_v3 main_v9
  let main_c_3 : IVec S_ 32 := constantI S_ 32 0#32
  let main_v11 : IVec S16x8x512x512 32 := broadcastInDim S16x8x512x512 ![] bcast_S_S16x8x512x512 main_c_3
  let main_v12 : IVec S16x8x512x512 1 := cmpi .eq main_arg2 main_v11
  let main_c_4 : IVec S_ 32 := constantI S_ 32 1#32
  let main_v13 : IVec S16x8x512x512 32 := broadcastInDim S16x8x512x512 ![] bcast_S_S16x8x512x512 main_c_4
  let main_v14 : IVec S16x8x512x512 1 := cmpi .eq main_arg2 main_v13
  let main_v15 : IVec S16x8x512x512 1 := ori main_v12 main_v14
  let main_c_5 : IVec S_ 1 := constantI S_ 1 1#1
  fn_part1 (F := F) main_v10 main_v15 main_c_5
-- ==== Kernel.lean ====
abbrev S16x8x512x512 : Shape := ⟨4, ![16, 8, 512, 512]⟩
abbrev S16x1x512x512 : Shape := ⟨4, ![16, 1, 512, 512]⟩
abbrev S16x1x512 : Shape := ⟨3, ![16, 1, 512]⟩
abbrev S16x1x128 : Shape := ⟨3, ![16, 1, 128]⟩
abbrev S1x1x512x512 : Shape := ⟨4, ![1, 1, 512, 512]⟩
abbrev S1x1x512 : Shape := ⟨3, ![1, 1, 512]⟩
abbrev S1x1x128 : Shape := ⟨3, ![1, 1, 128]⟩
abbrev S512x512 : Shape := ⟨2, ![512, 512]⟩
abbrev S1x1 : Shape := ⟨2, ![1, 1]⟩
abbrev S512x511 : Shape := ⟨2, ![512, 511]⟩
abbrev S512x1 : Shape := ⟨2, ![512, 1]⟩
abbrev S511x512 : Shape := ⟨2, ![511, 512]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩
abbrev S512 : Shape := ⟨1, ![512]⟩
abbrev S1x128 : Shape := ⟨2, ![1, 128]⟩
abbrev S16x512 : Shape := ⟨2, ![16, 512]⟩
abbrev S16x1x1 : Shape := ⟨3, ![16, 1, 1]⟩
abbrev S16 : Shape := ⟨1, ![16]⟩
abbrev S_ : Shape := ⟨0, ![]⟩

abbrev nBuf : Space → Nat
  | .hbm => 67
  | .vmem => 29
  | .smem => 0
  | _ => 0

abbrev bufTy : (tb : Table) → Fin (tcTables nBuf tb) → BufTy
  | .hbm, ⟨0, _⟩ => ⟨S16x8x512x512, .f32⟩
  | .hbm, ⟨1, _⟩ => ⟨S16x1x512x512, .i32⟩
  | .hbm, ⟨2, _⟩ => ⟨S16x8x512x512, .i32⟩
  | .hbm, ⟨3, _⟩ => ⟨S16x1x512, .f32⟩
  | .hbm, ⟨4, _⟩ => ⟨S16x1x512, .f32⟩
  | .hbm, ⟨5, _⟩ => ⟨S16x1x512, .f32⟩
  | .hbm, ⟨6, _⟩ => ⟨S16x1x128, .f32⟩
  | .hbm, ⟨7, _⟩ => ⟨S16x1x128, .f32⟩
  | .hbm, ⟨8, _⟩ => ⟨S16x1x128, .f32⟩
  | .hbm, ⟨9, _⟩ => ⟨S16x1x128, .f32⟩
  | .hbm, ⟨10, _⟩ => ⟨S16x512, .f32⟩
  | .hbm, ⟨11, _⟩ => ⟨S16x512, .f32⟩
  | .hbm, ⟨12, _⟩ => ⟨S16x512, .f32⟩
  | .hbm, ⟨13, _⟩ => ⟨S16x1x1, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S16x1x1, .f32⟩
  | .hbm, ⟨18, _⟩ => ⟨S16, .f32⟩
  | .hbm, ⟨19, _⟩ => ⟨S_, .f32⟩
  | .hbm, ⟨20, _⟩ => ⟨S_, .f32⟩
  | .hbm, ⟨21, _⟩ => ⟨S16x1x1, .f32⟩
  | .hbm, ⟨22, _⟩ => ⟨S16, .f32⟩
  | .hbm, ⟨23, _⟩ => ⟨S_, .f32⟩
  | .hbm, ⟨24, _⟩ => ⟨S_, .f32⟩
  | .hbm, ⟨25, _⟩ => ⟨S16x1x1, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x512, .f32⟩
  | .hbm, ⟨31, _⟩ => ⟨S16x512, .f32⟩
  | .hbm, ⟨32, _⟩ => ⟨S_, .f32⟩
  | .hbm, ⟨33, _⟩ => ⟨S16x512, .f32⟩
  | .hbm, ⟨34, _⟩ => ⟨S16x512, .f32⟩
  | .hbm, ⟨35, _⟩ => ⟨S16x512, .f32⟩
  | .hbm, ⟨36, _⟩ => ⟨S_, .f32⟩
  | .hbm, ⟨37, _⟩ => ⟨S16x512, .f32⟩
  | .hbm, ⟨38, _⟩ => ⟨S16x512, .f32⟩
  | .hbm, ⟨39, _⟩ => ⟨S16x512, .f32⟩
  | .hbm, ⟨40, _⟩ => ⟨S_, .f32⟩
  | .hbm, ⟨41, _⟩ => ⟨S16x512, .f32⟩
  | .hbm, ⟨42, _⟩ => ⟨S16x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .i32⟩
  | .local _ .vmem, ⟨5, _⟩ => ⟨S1x1x512x512, .i32⟩
  | .local _ .vmem, ⟨6, _⟩ => ⟨S1x1x512x512, .i32⟩
  | .local _ .vmem, ⟨7, _⟩ => ⟨S1x1x512x512, .i32⟩
  | .local _ .vmem, ⟨8, _⟩ => ⟨S1x1x512x512, .i32⟩
  | .local _ .vmem, ⟨9, _⟩ => ⟨S1x1x512x512, .i32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S1x1, .f32⟩
  | .local _ .vmem, ⟨28, _⟩ => ⟨S1x1, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def k0_cond6 (i : grid0.Coords) : BitVec 1 :=
  let arg1 : BitVec 32 := BitVec.ofNat 32 (i 1).val
  let c3_i32_6 : BitVec 32 := 3#32
  let v15 : BitVec 1 := Scalar.cmpi .eq arg1 c3_i32_6
  let v16 : BitVec 32 := Scalar.extui v15
  let c0_i32_7 : BitVec 32 := 0#32
  let v17 : BitVec 1 := Scalar.cmpi .ne v16 c0_i32_7
  v17

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  slices_S512x512_o0_0_S512x511 : S512x512.Slices ![0, 0] S512x511
  concatenates_S512x1_S512x511_S512x512_d1 : Shape.Concatenates [S512x1, S512x511] S512x512 1
  slices_S512x512_o0_0_S511x512 : S512x512.Slices ![0, 0] S511x512
  concatenates_S1x512_S511x512_S512x512_d0 : Shape.Concatenates [S1x512, S511x512] S512x512 0
  slices_S512x512_o0_1_S512x511 : S512x512.Slices ![0, 1] S512x511
  concatenates_S512x511_S512x1_S512x512_d1 : Shape.Concatenates [S512x511, S512x1] S512x512 1
  slices_S512x512_o1_0_S511x512 : S512x512.Slices ![1, 0] S511x512
  concatenates_S511x512_S1x512_S512x512_d0 : Shape.Concatenates [S511x512, S1x512] S512x512 0
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  reduces_S512x512_S512 : S512x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S16x1x512_S16x512 : S16x1x512.ShapeCasts S16x512
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  bcast_S_S16x512 : S_.BroadcastsInDim S16x512 (![] : Fin 0 → Fin S16x512.rank)
  reducesTo_S16x512_S_d0_1 : S16x512.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x8x512x512.size a
  hwx0_0 : ∀ i : grid0.Coords, EltTy.bits .f32 = 32 ∨ (Rect.block (s := S16x8x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x8x512x512.size a
  hwx0_1 : ∀ i : grid0.Coords, EltTy.bits .f32 = 32 ∨ (Rect.block (s := S16x8x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x8x512x512.size a
  hwx0_2 : ∀ i : grid0.Coords, EltTy.bits .i32 = 32 ∨ (Rect.block (s := S16x8x512x512) S1x1x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S16x8x512x512.size a
  hwx0_3 : ∀ i : grid0.Coords, EltTy.bits .i32 = 32 ∨ (Rect.block (s := S16x8x512x512) S1x1x512x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x512.size a ≤ S16x1x512x512.size a
  hwx0_4 : ∀ i : grid0.Coords, EltTy.bits .i32 = 32 ∨ (Rect.block (s := S16x1x512x512) S1x1x512x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S16x1x512.size a
  hwx0_5 : ∀ i : grid0.Coords, EltTy.bits .f32 = 32 ∨ (Rect.block (s := S16x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S16x1x512.size a
  hwx0_6 : ∀ i : grid0.Coords, EltTy.bits .f32 = 32 ∨ (Rect.block (s := S16x1x512) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512.size a ≤ S16x1x512.size a
  hwx0_7 : ∀ i : grid0.Coords, EltTy.bits .f32 = 32 ∨ (Rect.block (s := S16x1x512) S1x1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S16x1x128.size a
  hwx0_8 : ∀ i : grid0.Coords, EltTy.bits .f32 = 32 ∨ (Rect.block (s := S16x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S16x1x128.size a
  hwx0_9 : ∀ i : grid0.Coords, EltTy.bits .f32 = 32 ∨ (Rect.block (s := S16x1x128) S1x1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S16x1x128.size a
  hwx0_10 : ∀ i : grid0.Coords, EltTy.bits .f32 = 32 ∨ (Rect.block (s := S16x1x128) S1x1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S16x1x128.size a
  hwx0_11 : ∀ i : grid0.Coords, EltTy.bits .f32 = 32 ∨ (Rect.block (s := S16x1x128) S1x1x128.size (cc0_transform_11 i) (hinb0_11 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_3) S1x1x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_4) S1x1x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_5) S1x1x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_6) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun i => !(k0_cond6 i == 1#1) | 6 => fun i => !(k0_cond6 i == 1#1) | 7 => fun i => !(k0_cond6 i == 1#1) | 8 => fun i => !(k0_cond6 i == 1#1) | 9 => fun i => !(k0_cond6 i == 1#1) | 10 => fun i => !(k0_cond6 i == 1#1) | 11 => fun i => !(k0_cond6 i == 1#1) | ⟨_ + 12, h⟩ => absurd h (Nat.not_lt.2 (Nat.le_add_left _ _))

class Facts : Prop extends Facts₀ where

variable [Facts]
-- ==== ReferenceIdeal.lean ====
abbrev S16x8x512x512 : Shape := ⟨4, ![16, 8, 512, 512]⟩
abbrev S16x1x512x512 : Shape := ⟨4, ![16, 1, 512, 512]⟩
abbrev S_ : Shape := ⟨0, ![]⟩
abbrev S16x512x512 : Shape := ⟨3, ![16, 512, 512]⟩
abbrev S16x512x511 : Shape := ⟨3, ![16, 512, 511]⟩
abbrev S16x511x512 : Shape := ⟨3, ![16, 511, 512]⟩
abbrev S16x512 : Shape := ⟨2, ![16, 512]⟩

abbrev nBuf : Space → Nat
  | .hbm => 226
  | .vmem => 0
  | .smem => 0
  | _ => 0

abbrev hbmTy0_0 (i : Nat) : BufTy := match i % 128 with
  | 0 => ⟨S16x8x512x512, .f32⟩
  | 1 => ⟨S16x1x512x512, .i32⟩
  | 2 => ⟨S16x8x512x512, .i32⟩
  | 3 => ⟨S16x1x512x512, .f32⟩
  | 4 => ⟨S16x8x512x512, .f32⟩
  | 5 => ⟨S16x8x512x512, .f32⟩
  | 6 => ⟨S16x8x512x512, .f32⟩
  | 7 => ⟨S_, .f32⟩
  | 8 => ⟨S16x8x512x512, .f32⟩
  | 9 => ⟨S16x8x512x512, .f32⟩
  | 10 => ⟨S_, .f32⟩
  | 11 => ⟨S16x8x512x512, .f32⟩
  | 12 => ⟨S16x8x512x512, .f32⟩
  | 13 => ⟨S16x1x512x512, .f32⟩
  | 14 => ⟨S16x512x512, .f32⟩
  | 15 => ⟨S16x512x511, .f32⟩
  | 16 => ⟨S_, .i32⟩
  | 17 => ⟨S_, .f32⟩
  | 18 => ⟨S16x512x512, .f32⟩
  | 19 => ⟨S16x511x512, .f32⟩
  | 20 => ⟨S_, .i32⟩
  | 21 => ⟨S_, .f32⟩
  | 22 => ⟨S16x512x512, .f32⟩
  | 23 => ⟨S16x1x512x512, .f32⟩
  | 24 => ⟨S16x512x512, .f32⟩
  | 25 => ⟨S16x511x512, .f32⟩
  | 26 => ⟨S_, .i32⟩
  | 27 => ⟨S_, .f32⟩
  | 28 => ⟨S16x512x512, .f32⟩
  | 29 => ⟨S16x1x512x512, .f32⟩
  | 30 => ⟨S16x512x512, .f32⟩
  | 31 => ⟨S16x512x511, .f32⟩
  | 32 => ⟨S_, .i32⟩
  | 33 => ⟨S_, .f32⟩
  | 34 => ⟨S16x512x512, .f32⟩
  | 35 => ⟨S16x511x512, .f32⟩
  | 36 => ⟨S_, .i32⟩
  | 37 => ⟨S_, .f32⟩
  | 38 => ⟨S16x512x512, .f32⟩
  | 39 => ⟨S16x1x512x512, .f32⟩
  | 40 => ⟨S16x512x512, .f32⟩
  | 41 => ⟨S16x512x511, .f32⟩
  | 42 => ⟨S_, .i32⟩
  | 43 => ⟨S_, .f32⟩
  | 44 => ⟨S16x512x512, .f32⟩
  | 45 => ⟨S16x1x512x512, .f32⟩
  | 46 => ⟨S16x512x512, .f32⟩
  | 47 => ⟨S16x512x511, .f32⟩
  | 48 => ⟨S_, .i32⟩
  | 49 => ⟨S_, .f32⟩
  | 50 => ⟨S16x512x512, .f32⟩
  | 51 => ⟨S16x1x512x512, .f32⟩
  | 52 => ⟨S16x512x512, .f32⟩
  | 53 => ⟨S16x512x511, .f32⟩
  | 54 => ⟨S_, .i32⟩
  | 55 => ⟨S_, .f32⟩
  | 56 => ⟨S16x512x512, .f32⟩
  | 57 => ⟨S16x511x512, .f32⟩
  | 58 => ⟨S_, .i32⟩
  | 59 => ⟨S_, .f32⟩
  | 60 => ⟨S16x512x512, .f32⟩
  | 61 => ⟨S16x1x512x512, .f32⟩
  | 62 => ⟨S16x512x512, .f32⟩
  | 63 => ⟨S16x511x512, .f32⟩
  | 64 => ⟨S_, .i32⟩
  | 65 => ⟨S_, .f32⟩
  | 66 => ⟨S16x512x512, .f32⟩
  | 67 => ⟨S16x1x512x512, .f32⟩
  | 68 => ⟨S16x512x512, .f32⟩
  | 69 => ⟨S16x512x511, .f32⟩
  | 70 => ⟨S_, .i32⟩
  | 71 => ⟨S_, .f32⟩
  | 72 => ⟨S16x512x512, .f32⟩
  | 73 => ⟨S16x511x512, .f32⟩
  | 74 => ⟨S_, .i32⟩
  | 75 => ⟨S_, .f32⟩
  | 76 => ⟨S16x512x512, .f32⟩
  | 77 => ⟨S16x1x512x512, .f32⟩
  | 78 => ⟨S16x1x512x512, .f32⟩
  | 79 => ⟨S16x1x512x512, .f32⟩
  | 80 => ⟨S16x1x512x512, .f32⟩
  | 81 => ⟨S16x1x512x512, .f32⟩
  | 82 => ⟨S16x1x512x512, .f32⟩
  | 83 => ⟨S16x1x512x512, .f32⟩
  | 84 => ⟨S16x1x512x512, .f32⟩
  | 85 => ⟨S16x8x512x512, .f32⟩
  | 86 => ⟨S16x8x512x512, .f32⟩
  | 87 => ⟨S_, .f32⟩
  | 88 => ⟨S16x512x512, .f32⟩
  | 89 => ⟨S16x1x512x512, .f32⟩
  | 90 => ⟨S_, .f32⟩
  | 91 => ⟨S16x512, .f32⟩
  | 92 => ⟨S_, .f32⟩
  | 93 => ⟨S16x512, .f32⟩
  | 94 => ⟨S16x1x512x512, .f32⟩
  | 95 => ⟨S_, .f32⟩
  | 96 => ⟨S16x512, .f32⟩
  | 97 => ⟨S_, .f32⟩
  | 98 => ⟨S16x512, .f32⟩
  | 99 => ⟨S16x512, .f32⟩
  | 100 => ⟨S_, .f32⟩
  | 101 => ⟨S16x512, .f32⟩
  | 102 => ⟨S16x512, .f32⟩
  | 103 => ⟨S16x512, .f32⟩
  | 104 => ⟨S_, .f32⟩
  | 105 => ⟨S16x512, .f32⟩
  | 106 => ⟨S16x512, .f32⟩
  | 107 => ⟨S16x512, .f32⟩
  | 108 => ⟨S_, .f32⟩
  | 109 => ⟨S16x512, .f32⟩
  | 110 => ⟨S16x512, .f32⟩
  | 111 => ⟨S_, .f32⟩
  | 112 => ⟨S_, .f32⟩
  | 113 => ⟨S_, .f32⟩
  | 114 => ⟨S_, .f32⟩
  | 115 => ⟨S_, .f32⟩
  | 116 => ⟨S16x512x512, .f32⟩
  | 117 => ⟨S_, .f32⟩
  | 118 => ⟨S16x512x512, .f32⟩
  | 119 => ⟨S16x512x512, .i1⟩
  | 120 => ⟨S_, .f32⟩
  | 121 => ⟨S16x512x512, .f32⟩
  | 122 => ⟨S16x512x512, .i1⟩
  | 123 => ⟨S16x512x512, .i1⟩
  | 124 => ⟨S16x512x512, .f32⟩
  | 125 => ⟨S_, .f32⟩
  | 126 => ⟨S16x512x512, .f32⟩
  | 127 => ⟨S16x512x512, .f32⟩
  | _ => ⟨S16x8x512x512, .f32⟩

abbrev hbmTy0_1 (i : Nat) : BufTy := match i % 128 with
  | 0 => ⟨S_, .f32⟩
  | 1 => ⟨S16x512x512, .f32⟩
  | 2 => ⟨S16x512x512, .f32⟩
  | 3 => ⟨S_, .f32⟩
  | 4 => ⟨S16x512x512, .f32⟩
  | 5 => ⟨S16x512x512, .f32⟩
  | 6 => ⟨S_, .f32⟩
  | 7 => ⟨S16x512x512, .f32⟩
  | 8 => ⟨S16x512x512, .f32⟩
  | 9 => ⟨S16x512x512, .f32⟩
  | 10 => ⟨S_, .f32⟩
  | 11 => ⟨S16x512x512, .f32⟩
  | 12 => ⟨S16x512x512, .f32⟩
  | 13 => ⟨S16x512x512, .f32⟩
  | 14 => ⟨S_, .f32⟩
  | 15 => ⟨S16x512x512, .f32⟩
  | 16 => ⟨S16x512x512, .f32⟩
  | 17 => ⟨S16x512x512, .f32⟩
  | 18 => ⟨S16x512x512, .f32⟩
  | 19 => ⟨S_, .f32⟩
  | 20 => ⟨S_, .f32⟩
  | 21 => ⟨S_, .f32⟩
  | 22 => ⟨S_, .f32⟩
  | 23 => ⟨S_, .f32⟩
  | 24 => ⟨S16x1x512x512, .f32⟩
  | 25 => ⟨S_, .f32⟩
  | 26 => ⟨S16x1x512x512, .f32⟩
  | 27 => ⟨S16x1x512x512, .f32⟩
  | 28 => ⟨S_, .f32⟩
  | 29 => ⟨S16x1x512x512, .f32⟩
  | 30 => ⟨S16x1x512x512, .f32⟩
  | 31 => ⟨S16x1x512x512, .f32⟩
  | 32 => ⟨S_, .f32⟩
  | 33 => ⟨S16x1x512x512, .f32⟩
  | 34 => ⟨S16x1x512x512, .f32⟩
  | 35 => ⟨S16x1x512x512, .f32⟩
  | 36 => ⟨S_, .f32⟩
  | 37 => ⟨S16x1x512x512, .f32⟩
  | 38 => ⟨S16x1x512x512, .f32⟩
  | 39 => ⟨S16x1x512x512, .f32⟩
  | 40 => ⟨S16x1x512x512, .f32⟩
  | 41 => ⟨S_, .f32⟩
  | 42 => ⟨S_, .f32⟩
  | 43 => ⟨S_, .f32⟩
  | 44 => ⟨S_, .f32⟩
  | 45 => ⟨S_, .f32⟩
  | 46 => ⟨S16x8x512x512, .f32⟩
  | 47 => ⟨S_, .f32⟩
  | 48 => ⟨S16x8x512x512, .f32⟩
  | 49 => ⟨S16x8x512x512, .f32⟩
  | 50 => ⟨S_, .f32⟩
  | 51 => ⟨S16x8x512x512, .f32⟩
  | 52 => ⟨S16x8x512x512, .f32⟩
  | 53 => ⟨S16x8x512x512, .f32⟩
  | 54 => ⟨S_, .f32⟩
  | 55 => ⟨S16x8x512x512, .f32⟩
  | 56 => ⟨S16x8x512x512, .f32⟩
  | 57 => ⟨S16x8x512x512, .f32⟩
  | 58 => ⟨S_, .f32⟩
  | 59 => ⟨S16x8x512x512, .f32⟩
  | 60 => ⟨S16x8x512x512, .f32⟩
  | 61 => ⟨S16x8x512x512, .f32⟩
  | 62 => ⟨S16x8x512x512, .f32⟩
  | 63 => ⟨S_, .f32⟩
  | 64 => ⟨S_, .f32⟩
  | 65 => ⟨S_, .f32⟩
  | 66 => ⟨S_, .f32⟩
  | 67 => ⟨S_, .f32⟩
  | 68 => ⟨S16x8x512x512, .f32⟩
  | 69 => ⟨S_, .f32⟩
  | 70 => ⟨S16x8x512x512, .f32⟩
  | 71 => ⟨S16x8x512x512, .f32⟩
  | 72 => ⟨S_, .f32⟩
  | 73 => ⟨S16x8x512x512, .f32⟩
  | 74 => ⟨S16x8x512x512, .f32⟩
  | 75 => ⟨S16x8x512x512, .f32⟩
  | 76 => ⟨S_, .f32⟩
  | 77 => ⟨S16x8x512x512, .f32⟩
  | 78 => ⟨S16x8x512x512, .f32⟩
  | 79 => ⟨S16x8x512x512, .f32⟩
  | 80 => ⟨S_, .f32⟩
  | 81 => ⟨S16x8x512x512, .f32⟩
  | 82 => ⟨S16x8x512x512, .f32⟩
  | 83 => ⟨S16x8x512x512, .f32⟩
  | 84 => ⟨S16x8x512x512, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | _ => ⟨S16x8x512x512, .f32⟩

abbrev hbmTy (i : Nat) : BufTy := match i / 128 with
  | 0 => hbmTy0_0 i
  | 1 => hbmTy0_1 i
  | _ => ⟨S16x8x512x512, .f32⟩

abbrev bufTy : (tb : Table) → Fin (tcTables nBuf tb) → BufTy
  | .hbm, ⟨i, _⟩ => hbmTy i
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_call3_v0 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_call4_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_call5_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_call6_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_call7_v0 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_call8_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_call9_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_call10_v0 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_call11_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_cst_17 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_18 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_19 : Ref sig .tc := ⟨.hbm, 108, rfl⟩
abbrev main_v72 : Ref sig .tc := ⟨.hbm, 109, rfl⟩
abbrev main_v73 : Ref sig .tc := ⟨.hbm, 110, rfl⟩
abbrev main_cst_20 : Ref sig .tc := ⟨.hbm, 111, rfl⟩
abbrev main_v74 : Ref sig .tc := ⟨.hbm, 112, rfl⟩
abbrev main_cst_21 : Ref sig .tc := ⟨.hbm, 113, rfl⟩
abbrev main_v75 : Ref sig .tc := ⟨.hbm, 114, rfl⟩
abbrev main_cst_22 : Ref sig .tc := ⟨.hbm, 115, rfl⟩
abbrev main_v76 : Ref sig .tc := ⟨.hbm, 116, rfl⟩
abbrev main_cst_23 : Ref sig .tc := ⟨.hbm, 117, rfl⟩
abbrev main_v77 : Ref sig .tc := ⟨.hbm, 118, rfl⟩
abbrev main_v78 : Ref sig .tc := ⟨.hbm, 119, rfl⟩
abbrev main_cst_24 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_25 : Ref sig .tc := ⟨.hbm, 125, rfl⟩
abbrev main_v83 : Ref sig .tc := ⟨.hbm, 126, rfl⟩
abbrev main_v84 : Ref sig .tc := ⟨.hbm, 127, rfl⟩
abbrev main_cst_26 : Ref sig .tc := ⟨.hbm, 128, rfl⟩
abbrev main_v85 : Ref sig .tc := ⟨.hbm, 129, rfl⟩
abbrev main_v86 : Ref sig .tc := ⟨.hbm, 130, rfl⟩
abbrev main_cst_27 : Ref sig .tc := ⟨.hbm, 131, rfl⟩
abbrev main_v87 : Ref sig .tc := ⟨.hbm, 132, rfl⟩
abbrev main_v88 : Ref sig .tc := ⟨.hbm, 133, rfl⟩
abbrev main_cst_28 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_29 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_30 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_31 : Ref sig .tc := ⟨.hbm, 147, rfl⟩
abbrev main_v99 : Ref sig .tc := ⟨.hbm, 148, rfl⟩
abbrev main_cst_32 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_33 : Ref sig .tc := ⟨.hbm, 153, rfl⟩
abbrev main_v103 : Ref sig .tc := ⟨.hbm, 154, rfl⟩
abbrev main_v104 : Ref sig .tc := ⟨.hbm, 155, rfl⟩
abbrev main_cst_34 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_35 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_36 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_37 : Ref sig .tc := ⟨.hbm, 169, rfl⟩
abbrev main_v115 : Ref sig .tc := ⟨.hbm, 170, rfl⟩
abbrev main_cst_38 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_39 : Ref sig .tc := ⟨.hbm, 175, rfl⟩
abbrev main_v119 : Ref sig .tc := ⟨.hbm, 176, rfl⟩
abbrev main_v120 : Ref sig .tc := ⟨.hbm, 177, rfl⟩
abbrev main_cst_40 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_41 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_42 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_43 : Ref sig .tc := ⟨.hbm, 191, rfl⟩
abbrev main_v131 : Ref sig .tc := ⟨.hbm, 192, rfl⟩
abbrev main_cst_44 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_cst_45 : Ref sig .tc := ⟨.hbm, 197, rfl⟩
abbrev main_v135 : Ref sig .tc := ⟨.hbm, 198, rfl⟩
abbrev main_v136 : Ref sig .tc := ⟨.hbm, 199, rfl⟩
abbrev main_cst_46 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_47 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_cst_48 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_49 : Ref sig .tc := ⟨.hbm, 213, rfl⟩
abbrev main_v147 : Ref sig .tc := ⟨.hbm, 214, rfl⟩
abbrev main_cst_50 : Ref sig .tc := ⟨.hbm, 215, rfl⟩
abbrev main_v148 : Ref sig .tc := ⟨.hbm, 216, rfl⟩
abbrev main_v149 : Ref sig .tc := ⟨.hbm, 217, rfl⟩
abbrev main_cst_51 : Ref sig .tc := ⟨.hbm, 218, rfl⟩
abbrev main_v150 : Ref sig .tc := ⟨.hbm, 219, rfl⟩
abbrev main_v151 : Ref sig .tc := ⟨.hbm, 220, rfl⟩
abbrev main_cst_52 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩

abbrev nD : Nat := 1
abbrev τ : Topo := Topo.v7x

variable {F : FTy → Type} [FloatOps F]

class Facts₀ : Prop where
  bcast_S_S16x8x512x512 : S_.BroadcastsInDim S16x8x512x512 (![] : Fin 0 → Fin S16x8x512x512.rank)
  slices_S16x8x512x512_S16x1x512x512_0_7_0_0 : S16x8x512x512.Slices ![0, 7, 0, 0] S16x1x512x512
  shapeCasts_S16x1x512x512_S16x512x512 : S16x1x512x512.ShapeCasts S16x512x512
  slices_S16x512x512_S16x512x511_0_0_0 : S16x512x512.Slices ![0, 0, 0] S16x512x511
  pads_S16x512x511_S16x512x512_000_000_100 : S16x512x511.Pads (![0, 0, 1] : Fin 3 → Nat) ![0, 0, 0] ![0, 0, 0] S16x512x512
  h_S_ : 0 < S_.numel
  slices_S16x512x512_S16x511x512_0_0_0 : S16x512x512.Slices ![0, 0, 0] S16x511x512
  pads_S16x511x512_S16x512x512_000_100_000 : S16x511x512.Pads (![0, 1, 0] : Fin 3 → Nat) ![0, 0, 0] ![0, 0, 0] S16x512x512
  slices_S16x8x512x512_S16x1x512x512_0_6_0_0 : S16x8x512x512.Slices ![0, 6, 0, 0] S16x1x512x512
  slices_S16x8x512x512_S16x1x512x512_0_5_0_0 : S16x8x512x512.Slices ![0, 5, 0, 0] S16x1x512x512
  slices_S16x512x512_S16x512x511_0_0_1 : S16x512x512.Slices ![0, 0, 1] S16x512x511
  pads_S16x512x511_S16x512x512_000_000_010 : S16x512x511.Pads (![0, 0, 0] : Fin 3 → Nat) ![0, 0, 1] ![0, 0, 0] S16x512x512
  slices_S16x8x512x512_S16x1x512x512_0_4_0_0 : S16x8x512x512.Slices ![0, 4, 0, 0] S16x1x512x512
  slices_S16x8x512x512_S16x1x512x512_0_3_0_0 : S16x8x512x512.Slices ![0, 3, 0, 0] S16x1x512x512
  slices_S16x8x512x512_S16x1x512x512_0_2_0_0 : S16x8x512x512.Slices ![0, 2, 0, 0] S16x1x512x512
  slices_S16x512x512_S16x511x512_0_1_0 : S16x512x512.Slices ![0, 1, 0] S16x511x512
  pads_S16x511x512_S16x512x512_000_010_000 : S16x511x512.Pads (![0, 0, 0] : Fin 3 → Nat) ![0, 1, 0] ![0, 0, 0] S16x512x512
  slices_S16x8x512x512_S16x1x512x512_0_1_0_0 : S16x8x512x512.Slices ![0, 1, 0, 0] S16x1x512x512
  slices_S16x8x512x512_S16x1x512x512_0_0_0_0 : S16x8x512x512.Slices ![0, 0, 0, 0] S16x1x512x512
  bcast_S16x512x512_S16x1x512x512_0_2_3 : S16x512x512.BroadcastsInDim S16x1x512x512 (![0, 2, 3] : Fin 3 → Fin S16x1x512x512.rank)
  concatenates_S16x1x512x512_S16x1x512x512_S16x1x512x512_S16x1x512x512_S16x1x512x512_S16x1x512x512_S16x1x512x512_S16x1x512x512_S16x8x512x512_d1 : Shape.Concatenates [S16x1x512x512, S16x1x512x512, S16x1x512x512, S16x1x512x512, S16x1x512x512, S16x1x512x512, S16x1x512x512, S16x1x512x512] S16x8x512x512 1
  reducesTo_S16x8x512x512_S16x512x512_d1 : S16x8x512x512.ReducesTo [1] S16x512x512
  reducesTo_S16x1x512x512_S16x512_d1_2 : S16x1x512x512.ReducesTo [1, 2] S16x512
  bcast_S_S16x512 : S_.BroadcastsInDim S16x512 (![] : Fin 0 → Fin S16x512.rank)
  reducesTo_S16x512_S_d0_1 : S16x512.ReducesTo [0, 1] S_
  bcast_S_S16x512x512 : S_.BroadcastsInDim S16x512x512 (![] : Fin 0 → Fin S16x512x512.rank)
  reducesTo_S16x512x512_S_d0_1_2 : S16x512x512.ReducesTo [0, 1, 2] S_
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  reducesTo_S16x8x512x512_S_d0_1_2_3 : S16x8x512x512.ReducesTo [0, 1, 2, 3] S_

variable [Facts₀]

class Facts : Prop extends Facts₀ where

variable [Facts]
-- ==== Proof.KB.Runs.lean ====
/- What the four whole-body runs of the kernel body share: the contents the region is entered with, the windows'
   blocks read off their arrays, the body's branch conditions decided over the grid, where the output windows are idle
   and where they are written back, the staging and scratch memrefs the body is called on, and the invariant of the
   scratch buffers as owned memrefs. -/
import proofs.«411553_j46600395162340_3_alg».proof.Proof.Gen.Kernel.Launch
import proofs.«411553_j46600395162340_3_alg».proof.Proof.Gen.Kernel.Skeleton
import proofs.«411553_j46600395162340_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- What core `c`'s buffers hold at the region's entry. Nothing of @main runs before the region, so this is the initial
    memory. -/
abbrev V0 (c : Dev nD) : Valuation τ sig (Elt F) := fun b => m (c, b)
/-- Those contents at one TensorCore buffer. -/
abbrev V (c : Dev nD) (b : Ref sig .tc) : Buf (Elt F) ((c : Thread nD τ).loc b) := V0 m c (Proc.devRef .tc b)

/-! ## The windows' blocks -/

/-- The part of window `w`'s array under its block at point `t`, in the contents the region starts from. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The condition "the pair index is `k`" as the body computes it from grid coordinate 1: compare, widen, compare
    with zero. The body's first five `scf.if` test it at `k = 0, 0, 1, 2, 3`. -/
abbrev condP (k : BitVec 32) (i : grid0.Coords) : Prop :=
  (Scalar.cmpi .ne (Scalar.extui (Scalar.cmpi .eq (BitVec.ofNat 32 (i 1).val) k)) 0#32) = 1#1
/-- The condition of the body's last `scf.if` (the pair index is 3 again): the finalizing block. -/
abbrev cond6 (i : grid0.Coords) : Prop := k0_cond6 i = 1#1

/-- The pair index is 0 exactly at the points whose number is a multiple of 4. -/
theorem hcondP0 : ∀ t : Fin cfg0.N, condP 0#32 (grid0.coords t) ↔ t.val % 4 = 0 :=
  (by decide +kernel : ∀ t : Fin grid0.N, condP 0#32 (grid0.coords t) ↔ t.val % 4 = 0)
/-- The pair index is 1 at the points ≡ 1 (mod 4). -/
theorem hcondP1 : ∀ t : Fin cfg0.N, condP 1#32 (grid0.coords t) ↔ t.val % 4 = 1 :=
  (by decide +kernel : ∀ t : Fin grid0.N, condP 1#32 (grid0.coords t) ↔ t.val % 4 = 1)
/-- The pair index is 2 at the points ≡ 2 (mod 4). -/
theorem hcondP2 : ∀ t : Fin cfg0.N, condP 2#32 (grid0.coords t) ↔ t.val % 4 = 2 :=
  (by decide +kernel : ∀ t : Fin grid0.N, condP 2#32 (grid0.coords t) ↔ t.val % 4 = 2)
/-- The pair index is 3 at the points ≡ 3 (mod 4). -/
theorem hcondP3 : ∀ t : Fin cfg0.N, condP 3#32 (grid0.coords t) ↔ t.val % 4 = 3 :=
  (by decide +kernel : ∀ t : Fin grid0.N, condP 3#32 (grid0.coords t) ↔ t.val % 4 = 3)
/-- The finalizing block runs at the points ≡ 3 (mod 4). -/
theorem hcond6 : ∀ t : Fin cfg0.N, cond6 (grid0.coords t) ↔ t.val % 4 = 3 :=
  (by decide +kernel : ∀ t : Fin grid0.N, cond6 (grid0.coords t) ↔ t.val % 4 = 3)

/-! ## Where the windows are idle, and where the outputs are written back -/

/-- Window 0, an input, is live at every point in the table of idle points. -/
theorem liveAt0_0 : ∀ t : Fin cfg0.N, cfg0.idle 0 (grid0.coords t) = false := by decide +kernel
/-- Window 1, an input, is live at every point in the table of idle points. -/
theorem liveAt0_1 : ∀ t : Fin cfg0.N, cfg0.idle 1 (grid0.coords t) = false := by decide +kernel
/-- Window 2, an input, is live at every point in the table of idle points. -/
theorem liveAt0_2 : ∀ t : Fin cfg0.N, cfg0.idle 2 (grid0.coords t) = false := by decide +kernel
/-- Window 3, an input, is live at every point in the table of idle points. -/
theorem liveAt0_3 : ∀ t : Fin cfg0.N, cfg0.idle 3 (grid0.coords t) = false := by decide +kernel
/-- Window 4, an input, is live at every point in the table of idle points. -/
theorem liveAt0_4 : ∀ t : Fin cfg0.N, cfg0.idle 4 (grid0.coords t) = false := by decide +kernel
/-- Away from the points ≡ 3 (mod 4) output window 5 is idle: the body stores nothing into it there. -/
theorem idleAt0_5 : ∀ t : Fin cfg0.N, ¬ t.val % 4 = 3 → cfg0.idle 5 (grid0.coords t) = true := by decide +kernel
/-- Away from the points ≡ 3 (mod 4) output window 5's block is not written back. -/
theorem noFlush0_5 : ∀ t : Fin cfg0.N, ¬ t.val % 4 = 3 → (cfg0.win 5).flush t = false := by decide +kernel
/-- At the points ≡ 3 (mod 4) output window 5 is live: the body stores into it. -/
theorem liveAt0_5 : ∀ t : Fin cfg0.N, t.val % 4 = 3 → cfg0.idle 5 (grid0.coords t) = false := by decide +kernel
/-- Away from the points ≡ 3 (mod 4) output window 6 is idle: the body stores nothing into it there. -/
theorem idleAt0_6 : ∀ t : Fin cfg0.N, ¬ t.val % 4 = 3 → cfg0.idle 6 (grid0.coords t) = true := by decide +kernel
/-- Away from the points ≡ 3 (mod 4) output window 6's block is not written back. -/
theorem noFlush0_6 : ∀ t : Fin cfg0.N, ¬ t.val % 4 = 3 → (cfg0.win 6).flush t = false := by decide +kernel
/-- At the points ≡ 3 (mod 4) output window 6 is live: the body stores into it. -/
theorem liveAt0_6 : ∀ t : Fin cfg0.N, t.val % 4 = 3 → cfg0.idle 6 (grid0.coords t) = false := by decide +kernel
/-- Away from the points ≡ 3 (mod 4) output window 7 is idle: the body stores nothing into it there. -/
theorem idleAt0_7 : ∀ t : Fin cfg0.N, ¬ t.val % 4 = 3 → cfg0.idle 7 (grid0.coords t) = true := by decide +kernel
/-- Away from the points ≡ 3 (mod 4) output window 7's block is not written back. -/
theorem noFlush0_7 : ∀ t : Fin cfg0.N, ¬ t.val % 4 = 3 → (cfg0.win 7).flush t = false := by decide +kernel
/-- At the points ≡ 3 (mod 4) output window 7 is live: the body stores into it. -/
theorem liveAt0_7 : ∀ t : Fin cfg0.N, t.val % 4 = 3 → cfg0.idle 7 (grid0.coords t) = false := by decide +kernel
/-- Away from the points ≡ 3 (mod 4) output window 8 is idle: the body stores nothing into it there. -/
theorem idleAt0_8 : ∀ t : Fin cfg0.N, ¬ t.val % 4 = 3 → cfg0.idle 8 (grid0.coords t) = true := by decide +kernel
/-- Away from the points ≡ 3 (mod 4) output window 8's block is not written back. -/
theorem noFlush0_8 : ∀ t : Fin cfg0.N, ¬ t.val % 4 = 3 → (cfg0.win 8).flush t = false := by decide +kernel
/-- At the points ≡ 3 (mod 4) output window 8 is live: the body stores into it. -/
theorem liveAt0_8 : ∀ t : Fin cfg0.N, t.val % 4 = 3 → cfg0.idle 8 (grid0.coords t) = false := by decide +kernel
/-- Away from the points ≡ 3 (mod 4) output window 9 is idle: the body stores nothing into it there. -/
theorem idleAt0_9 : ∀ t : Fin cfg0.N, ¬ t.val % 4 = 3 → cfg0.idle 9 (grid0.coords t) = true := by decide +kernel
/-- Away from the points ≡ 3 (mod 4) output window 9's block is not written back. -/
theorem noFlush0_9 : ∀ t : Fin cfg0.N, ¬ t.val % 4 = 3 → (cfg0.win 9).flush t = false := by decide +kernel
/-- At the points ≡ 3 (mod 4) output window 9 is live: the body stores into it. -/
theorem liveAt0_9 : ∀ t : Fin cfg0.N, t.val % 4 = 3 → cfg0.idle 9 (grid0.coords t) = false := by decide +kernel
/-- Away from the points ≡ 3 (mod 4) output window 10 is idle: the body stores nothing into it there. -/
theorem idleAt0_10 : ∀ t : Fin cfg0.N, ¬ t.val % 4 = 3 → cfg0.idle 10 (grid0.coords t) = true := by decide +kernel
/-- Away from the points ≡ 3 (mod 4) output window 10's block is not written back. -/
theorem noFlush0_10 : ∀ t : Fin cfg0.N, ¬ t.val % 4 = 3 → (cfg0.win 10).flush t = false := by decide +kernel
/-- At the points ≡ 3 (mod 4) output window 10 is live: the body stores into it. -/
theorem liveAt0_10 : ∀ t : Fin cfg0.N, t.val % 4 = 3 → cfg0.idle 10 (grid0.coords t) = false := by decide +kernel
/-- Away from the points ≡ 3 (mod 4) output window 11 is idle: the body stores nothing into it there. -/
theorem idleAt0_11 : ∀ t : Fin cfg0.N, ¬ t.val % 4 = 3 → cfg0.idle 11 (grid0.coords t) = true := by decide +kernel
/-- Away from the points ≡ 3 (mod 4) output window 11's block is not written back. -/
theorem noFlush0_11 : ∀ t : Fin cfg0.N, ¬ t.val % 4 = 3 → (cfg0.win 11).flush t = false := by decide +kernel
/-- At the points ≡ 3 (mod 4) output window 11 is live: the body stores into it. -/
theorem liveAt0_11 : ∀ t : Fin cfg0.N, t.val % 4 = 3 → cfg0.idle 11 (grid0.coords t) = false := by decide +kernel

/-! ## The memrefs the body is called on -/

/-- One of output window 5's staging buffers: the window's contents are stated over its index set, whichever is current. -/
abbrev VO0_5 : View sig .tc .vmem S1x1x512 .f32 := (Memref.whole cc0_stg5_0 : Memref sig .tc .vmem S1x1x512 .f32).view
/-- One of output window 6's staging buffers: the window's contents are stated over its index set, whichever is current. -/
abbrev VO0_6 : View sig .tc .vmem S1x1x512 .f32 := (Memref.whole cc0_stg6_0 : Memref sig .tc .vmem S1x1x512 .f32).view
/-- One of output window 7's staging buffers: the window's contents are stated over its index set, whichever is current. -/
abbrev VO0_7 : View sig .tc .vmem S1x1x512 .f32 := (Memref.whole cc0_stg7_0 : Memref sig .tc .vmem S1x1x512 .f32).view
/-- One of output window 8's staging buffers: the window's contents are stated over its index set, whichever is current. -/
abbrev VO0_8 : View sig .tc .vmem S1x1x128 .f32 := (Memref.whole cc0_stg8_0 : Memref sig .tc .vmem S1x1x128 .f32).view
/-- One of output window 9's staging buffers: the window's contents are stated over its index set, whichever is current. -/
abbrev VO0_9 : View sig .tc .vmem S1x1x128 .f32 := (Memref.whole cc0_stg9_0 : Memref sig .tc .vmem S1x1x128 .f32).view
/-- One of output window 10's staging buffers: the window's contents are stated over its index set, whichever is current. -/
abbrev VO0_10 : View sig .tc .vmem S1x1x128 .f32 := (Memref.whole cc0_stg10_0 : Memref sig .tc .vmem S1x1x128 .f32).view
/-- One of output window 11's staging buffers: the window's contents are stated over its index set, whichever is current. -/
abbrev VO0_11 : View sig .tc .vmem S1x1x128 .f32 := (Memref.whole cc0_stg11_0 : Memref sig .tc .vmem S1x1x128 .f32).view
/-- The buffer of each window that is current at point `t` — the one the body is called on — and that it is a whole buffer. -/
abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128 .f32 := win0_11.stage (cfg0.slots t 11)
abbrev hs0_11 (t : Fin cfg0.N) : (ms0_11 t).IsWhole := hstage0_11 ((cfg0.slots t 11).cast nbuf0_11)
/-- The five buffers the kernel keeps for itself from point to point (running maximum, running minimum, channel sum,
    two one-cell accumulators): each a whole buffer, and each with its index set, over which its contents are written. -/
abbrev scM0_0 : Memref sig .tc .vmem S512x512 .f32 := Memref.whole cc0_scratch0
abbrev VS0_0 : View sig .tc .vmem S512x512 .f32 := scM0_0.view
abbrev scM0_1 : Memref sig .tc .vmem S512x512 .f32 := Memref.whole cc0_scratch1
abbrev VS0_1 : View sig .tc .vmem S512x512 .f32 := scM0_1.view
abbrev scM0_2 : Memref sig .tc .vmem S512x512 .f32 := Memref.whole cc0_scratch2
abbrev VS0_2 : View sig .tc .vmem S512x512 .f32 := scM0_2.view
abbrev scM0_3 : Memref sig .tc .vmem S1x1 .f32 := Memref.whole cc0_scratch3
abbrev VS0_3 : View sig .tc .vmem S1x1 .f32 := scM0_3.view
abbrev scM0_4 : Memref sig .tc .vmem S1x1 .f32 := Memref.whole cc0_scratch4
abbrev VS0_4 : View sig .tc .vmem S1x1 .f32 := scM0_4.view

/-- Holding the buffers that are no window's staging buffer, each at something, with the generator register at some
    state, is holding the five scratch buffers each at some contents, with that register; a run of the body starts from
    this form and ends in it. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KB.Region.lean ====
import proofs.«411553_j46600395162340_3_alg».proof.Proof.KB.Runs
import Idealize.ShloMosaic.Lib.Pipeline.RegionsLoop

/-! The launch: @main is the one kernel region followed by a line of host operations.

The region is entered from every buffer that is not scoped, held whole at the launch contents. The buffers behind the
windows' arrays are sorted out and shared among the windows; the scratch buffers and the generator register go into
the body's invariant. At the exit the windows' holdings rejoin, and the same buffers are held at the launch contents
updated at the seven output arrays by what the pipeline wrote back. The host operations then run over them. Read at
the end, every such buffer holds what the host operations compute from those contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (c : Dev nD) → Dat τ (Elt F) Unit ℕ (UR sig nD τ) ℕ cfg0 c)

/-- The contents at the region's exit: the launch contents, with each output array at what the write-backs of all
    points leave in it. -/
def W2 (c : Dev nD) : Valuation τ sig (Elt F) :=
  Function.update (Function.update (Function.update (Function.update (Function.update (Function.update (Function.update (V0 m c)
    (Proc.devRef .tc main_v0_0) ((dats c).arrAt 5 cfg0.N)) (Proc.devRef .tc main_v0_1) ((dats c).arrAt 6 cfg0.N))
    (Proc.devRef .tc main_v0_2) ((dats c).arrAt 7 cfg0.N)) (Proc.devRef .tc main_v0_3) ((dats c).arrAt 8 cfg0.N))
    (Proc.devRef .tc main_v0_4) ((dats c).arrAt 9 cfg0.N)) (Proc.devRef .tc main_v0_5) ((dats c).arrAt 10 cfg0.N))
    (Proc.devRef .tc main_v0_6) ((dats c).arrAt 11 cfg0.N)

/-- The contents after the host operations that follow the region. -/
abbrev W3 (c : Dev nD) : Valuation τ sig (Elt F) := StableHlo.after hostOps1 (W2 m dats c)

/-! ## What the exit contents hold -/

theorem W2_out0 (c : Dev nD) : W2 m dats c (Proc.devRef .tc main_v0_0) = (dats c).arrAt 5 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]
theorem W2_out1 (c : Dev nD) : W2 m dats c (Proc.devRef .tc main_v0_1) = (dats c).arrAt 6 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide)), Function.update_self]
theorem W2_out2 (c : Dev nD) : W2 m dats c (Proc.devRef .tc main_v0_2) = (dats c).arrAt 7 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]
theorem W2_out3 (c : Dev nD) : W2 m dats c (Proc.devRef .tc main_v0_3) = (dats c).arrAt 8 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_self]
theorem W2_out4 (c : Dev nD) : W2 m dats c (Proc.devRef .tc main_v0_4) = (dats c).arrAt 9 cfg0.N := by
  unfold W2
  rw [Function.update_of_ne (StableHlo.devRef_ne_of_ne (by decide)), Function.update_of_ne (StableHlo.devRef_ne_of_ne (by decide)),
    Function.update_self]
theorem W2_out5 (c : Dev nD) : W2 m dats c (Proc.devRef .tc main_v0_5) = (dats c).arrAt 10 cfg0.N := by
  unfold W2
  rw [Function.update_of_ne (StableHlo.devRef_ne_of_ne (by decide)), Function.update_self]
theorem W2_out6 (c : Dev nD) : W2 m dats c (Proc.devRef .tc main_v0_6) = (dats c).arrAt 11 cfg0.N := by
  unfold W2; rw [Function.update_self]

/-- Off the seven output arrays the exit contents are the launch contents. -/
theorem W2_of_ne (c : Dev nD) (b : Ref sig .tc) (h0 : b ≠ main_v0_0) (h1 : b ≠ main_v0_1) (h2 : b ≠ main_v0_2) (h3 : b ≠ main_v0_3)
    (h4 : b ≠ main_v0_4) (h5 : b ≠ main_v0_5) (h6 : b ≠ main_v0_6) :
    W2 m dats c (Proc.devRef .tc b) = V0 m c (Proc.devRef .tc b) := by
  unfold W2
  rw [Function.update_of_ne (StableHlo.devRef_ne_of_ne h6), Function.update_of_ne (StableHlo.devRef_ne_of_ne h5),
    Function.update_of_ne (StableHlo.devRef_ne_of_ne h4), Function.update_of_ne (StableHlo.devRef_ne_of_ne h3),
    Function.update_of_ne (StableHlo.devRef_ne_of_ne h2), Function.update_of_ne (StableHlo.devRef_ne_of_ne h1),
    Function.update_of_ne (StableHlo.devRef_ne_of_ne h0)]

/-- The exit contents read at the TensorCore's references. -/
abbrev V2 (c : Dev nD) (b : Ref sig .tc) : Buf (Elt F) ((c : Thread nD τ).loc b) := W2 m dats c (Proc.devRef .tc b)

section Launch

variable (hA : ∀ c w, (dats c).A w = V m c (Pipeline.arrRef spec0 w))
variable (hq : ∀ c, (dats c).q 0 = fullShare.left ∧ (dats c).q 1 = fullShare.right ∧ (dats c).q 2 = fullShare.left
    ∧ (dats c).q 3 = fullShare.right ∧ (dats c).q 4 = fullShare)
variable (howed : ∀ c t, (dats c).owed t = 0) (hrec : ∀ c t, (dats c).recorded t = Set.univ)
variable (hsplitArr : ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    ((Pipeline.arrBufs (Ix := Unit) (Name := ℕ) (U := UR sig nD τ) (Lvl := ℕ) spec0 c Vv : sProp 𝕄) ⊢ (dats c).arrays Fv))
variable (hjoinArr : ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    (((dats c).arrays Fv : sProp 𝕄) ⊢ Pipeline.arrBufs (Ix := Unit) (Name := ℕ) (U := UR sig nD τ) (Lvl := ℕ) spec0 c Vv))

include hA in
/-- Each window's array holds, at the exit contents, what the pipeline leaves in it: an output what its write-backs
    left, an input its launch contents (an input array is never written). -/
theorem hF2 (c : Dev nD) (w : Fin cfg0.W) : (dats c).arrAt w cfg0.N = V2 m dats c (Pipeline.arrRef spec0 w) := by
  fin_cases w
  · exact ((dats c).arrAt_in 0 rfl _).trans ((hA c 0).trans (W2_of_ne m dats c main_arg0 (by decide) (by decide) (by decide) (by decide) (by decide) (by decide) (by decide)).symm)
  · exact ((dats c).arrAt_in 1 rfl _).trans ((hA c 1).trans (W2_of_ne m dats c main_arg0 (by decide) (by decide) (by decide) (by decide) (by decide) (by decide) (by decide)).symm)
  · exact ((dats c).arrAt_in 2 rfl _).trans ((hA c 2).trans (W2_of_ne m dats c main_arg2 (by decide) (by decide) (by decide) (by decide) (by decide) (by decide) (by decide)).symm)
  · exact ((dats c).arrAt_in 3 rfl _).trans ((hA c 3).trans (W2_of_ne m dats c main_arg2 (by decide) (by decide) (by decide) (by decide) (by decide) (by decide) (by decide)).symm)
  · exact ((dats c).arrAt_in 4 rfl _).trans ((hA c 4).trans (W2_of_ne m dats c main_arg1 (by decide) (by decide) (by decide) (by decide) (by decide) (by decide) (by decide)).symm)
  · exact (W2_out0 m dats c).symm
  · exact (W2_out1 m dats c).symm
  · exact (W2_out2 m dats c).symm
  · exact (W2_out3 m dats c).symm
  · exact (W2_out4 m dats c).symm
  · exact (W2_out5 m dats c).symm
  · exact (W2_out6 m dats c).symm

/-- A buffer that is no window's array holds at the exit what it held at the launch. -/
theorem hrest2 (c : Dev nD) : ∀ b, b ∉ Finset.univ.image (Pipeline.arrRef spec0) → V2 m dats c b = V m c b := fun b hb =>
  W2_of_ne m dats c b (fun e => hb (Finset.mem_image.mpr ⟨5, Finset.mem_univ _, e.symm⟩)) (fun e => hb (Finset.mem_image.mpr ⟨6, Finset.mem_univ _, e.symm⟩))
    (fun e => hb (Finset.mem_image.mpr ⟨7, Finset.mem_univ _, e.symm⟩)) (fun e => hb (Finset.mem_image.mpr ⟨8, Finset.mem_univ _, e.symm⟩))
    (fun e => hb (Finset.mem_image.mpr ⟨9, Finset.mem_univ _, e.symm⟩)) (fun e => hb (Finset.mem_image.mpr ⟨10, Finset.mem_univ _, e.symm⟩))
    (fun e => hb (Finset.mem_image.mpr ⟨11, Finset.mem_univ _, e.symm⟩))

end Launch

/-! ## The facts the launch takes of the proof data, named -/

/-- The buffers behind the windows' arrays, each whole, give the windows' holdings. -/
def SplitArr : Prop := ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    ((Pipeline.arrBufs (Ix := Unit) (Name := ℕ) (U := UR sig nD τ) (Lvl := ℕ) spec0 c Vv : sProp 𝕄) ⊢ (dats c).arrays Fv)
/-- And back. -/
def JoinArr : Prop := ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    (((dats c).arrays Fv : sProp 𝕄) ⊢ Pipeline.arrBufs (Ix := Unit) (Name := ℕ) (U := UR sig nD τ) (Lvl := ℕ) spec0 c Vv)
/-- The arrays' entry contents are the launch contents. -/
def EntryA : Prop := ∀ c w, (dats c).A w = V m c (Pipeline.arrRef spec0 w)
/-- Nothing owed, nothing bounded. -/
def OwesNothing : Prop := (∀ c t, (dats c).owed t = 0) ∧ (∀ c t, (dats c).recorded t = Set.univ)
/-- The body obligation at every point, on every core. -/
def BodyOb : Prop := ∀ c, Pipeline.BodyObligationLoose (dats c) (defs₀ (F := F)) Variants.none () Set.univ
/-- The invariant before the first point is what the launch hands over; after the last point it gives that back. -/
def InPhi : Prop := ∀ c, (Pipeline.ΦA spec0 c : sProp 𝕄) ⊢ (dats c).Φ 0
def OutPhi : Prop := ∀ c, ((dats c).Φ (Fin.last cfg0.N) : sProp 𝕄) ⊢ Pipeline.ΦA spec0 c

section Run

variable (hA : EntryA m dats) (hO : OwesNothing dats) (hsplitArr : SplitArr dats) (hjoinArr : JoinArr dats)
variable (hbody : BodyOb dats) (hinΦ : InPhi dats) (houtΦ : OutPhi dats)

include hO in
/-- The core owing nothing is the pipeline's owes at any point of proof data that owe nothing and bound nothing. -/
theorem owesAt_intro (c : Dev nD) (t : Fin (cfg0.N + 1)) :
    iprop(∃ W, owes (c : Thread nD τ) (0 : CellTallies nD τ sig Unit) W) ⊢ ((dats c).owesAt () t : sProp 𝕄) := by
  unfold Pipeline.Dat.owesAt Pipeline.owesWithin Pipeline.Dat.bound; rw [hO.1 c t, hO.2 c t]
  iintro ⟨%W, HO⟩; iexists W; isplitr; · ipureintro; exact fun _ _ => Or.inl trivial
  iexact HO

include hO in
theorem owesAt_elim (c : Dev nD) (t : Fin (cfg0.N + 1)) :
    ((dats c).owesAt () t : sProp 𝕄) ⊢ iprop(∃ W, owes (c : Thread nD τ) (0 : CellTallies nD τ sig Unit) W) := by
  unfold Pipeline.Dat.owesAt Pipeline.owesWithin; rw [hO.1 c t]
  iintro ⟨%W, -, HO⟩; iexists W; iexact HO

include hA hsplitArr in
/-- ENTRY: every unscoped buffer held whole at the launch contents gives the windows' holdings at the entry contents,
    and the unscoped buffers that are no window's array. -/
theorem entry_split (c : Dev nD) :
    (StableHlo.held (c : Thread nD τ) (Pipeline.ucRefs τ sig) (V0 m c) : sProp 𝕄)
      ⊢ iprop((dats c).arrays (fun w => (dats c).arrAt w 0) ∗ Pipeline.unscopedRest (Ix := Unit) (Name := ℕ) (U := UR sig nD τ) (Lvl := ℕ) spec0 c (V m c)) := by
  rw [← Pipeline.unscopedBufs_held (Ix := Unit) (Name := ℕ) (U := UR sig nD τ) (Lvl := ℕ) c (V0 m c)]
  rw [show (fun b : Ref sig .tc => V0 m c b) = V m c from rfl, Pipeline.unscopedBufs_split₀ cfgs (0 : Fin 1) winFacts₀0.arr_unscoped c (V m c)]
  exact sep_mono (hsplitArr c (V m c) (fun w => (dats c).arrAt w 0) (fun w => (show (dats c).arrAt w 0 = (dats c).A w from rfl).trans (hA c w))) .rfl

include hA hjoinArr in
/-- EXIT: the windows' holdings at what the pipeline leaves, with the other unscoped buffers as they were, are every
    unscoped buffer held whole at the exit contents. -/
theorem exit_join (c : Dev nD) :
    iprop((dats c).arrays (fun w => (dats c).arrAt w cfg0.N) ∗ Pipeline.unscopedRest (Ix := Unit) (Name := ℕ) (U := UR sig nD τ) (Lvl := ℕ) spec0 c (V m c))
      ⊢ (StableHlo.held (c : Thread nD τ) (Pipeline.ucRefs τ sig) (W2 m dats c) : sProp 𝕄) := by
  have hrestEq : (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (V2 m dats c) := by
    unfold Pipeline.unscopedRest
    exact bigSep_congr fun b hb => by rw [hrest2 m dats c b (Finset.mem_sdiff.mp hb).2]
  rw [← Pipeline.unscopedBufs_held (Ix := Unit) (Name := ℕ) (U := UR sig nD τ) (Lvl := ℕ) c (W2 m dats c)]
  rw [show (fun b : Ref sig .tc => W2 m dats c b) = V2 m dats c from rfl, Pipeline.unscopedBufs_split₀ cfgs (0 : Fin 1) winFacts₀0.arr_unscoped c (V2 m dats c), hrestEq]
  exact sep_mono (hjoinArr c (V2 m dats c) (fun w => (dats c).arrAt w cfg0.N) (hF2 m dats hA c)) .rfl

/-! ## The proof data family, the thread state, the segments -/

abbrev adm : (p : Fin 1) → (pcfgs (F := F) p).Adm := fun p => (cfgs p).toPCfg_adm
/-- The one pipeline's proof data, as a family over the pipeline index (a literal match). -/
def pdats : (p : Fin 1) → (c : Dev nD) → Dat τ (Elt F) Unit ℕ (UR sig nD τ) ℕ (Pipeline.pin (pcfgs (F := F)) adm p) c
  | ⟨0, _⟩ => fun c => dats c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host operations after the region, as a segment over every unscoped buffer from the exit contents. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m dats) R

/-- The last thread state, the owes apart. -/
abbrev Tₙ (c : Dev nD) : sProp 𝕄 := iprop(StableHlo.held (c : Thread nD τ) (Pipeline.ucRefs τ sig) (W3 m dats c) ∗ ∃ r, prngReg c r)

set_option backward.isDefEq.respectTransparency.types false in
/-- The kernel region over the thread state: entered from every unscoped buffer at the launch contents, left at the
    exit contents. -/
def reg0 : Pipeline.RegionSeg (pcfgs (F := F)) adm (pdats dats) () defs₀ 𝒱₀ L lv 0 where
  win := winFacts₀0
  block_pos := block_pos0
  stage_whole := stage_whole0
  K := PEmpty
  osem k := k.elim
  ho := Pipeline.OwnSemFacts.none _
  hbody c := hbody c
  hwaits := Pipeline.hwaits_of_owed_zero _ _ _ _ L lv 0 fun c t => hO.1 c t
  pre c := iprop(StableHlo.held (c : Thread nD τ) (Pipeline.ucRefs τ sig) (V0 m c) ∗ R c)
  post c := iprop(StableHlo.held (c : Thread nD τ) (Pipeline.ucRefs τ sig) (W2 m dats c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    refine (sep_mono (sep_mono (entry_split m dats hA hsplitArr c) .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owesAt_intro dats hO c 0); iexact HO
    isplitl [Hp]; · iexact Hp
    iexact Hrest
  hin c := (show _ ⊢ (Pipeline.ΦA spec0 c : sProp 𝕄) from by
      unfold Pipeline.ΦA
      iintro ⟨Hp, -, Hr⟩
      isplitl [Hr]; · iexact Hr
      iexact Hp).trans (hinΦ c)
  hout c := (houtΦ c).trans (by
      rw [Pipeline.ownSems0_none]; unfold Pipeline.ΦA
      iintro ⟨Hr, Hp⟩
      isplitl [Hp]; · iexact Hp
      isplitr; · iempintro
      iexact Hr)
  hexit c := by
    have hjoin := exit_join m dats hA hjoinArr c
    iintro ⟨Ha, HO, HY, Hrest⟩
    imodintro
    isplitl [Ha Hrest]
    · iapply hjoin
      isplitl [Ha]; · iexact Ha
      iexact Hrest
    isplitl [HY]; · iexact HY
    iapply (owesAt_elim dats hO c _); iexact HO

/-! ## @main as its two segments, and the launch -/

/-- @main's segments: the kernel region, then the host operations. -/
abbrev segs : List (Pipeline.Seg (pcfgs (F := F)) adm (pdats dats) () defs₀ 𝒱₀ L lv) :=
  [ .region (reg0 m dats hA hO hsplitArr hjoinArr hbody hinΦ houtΦ),
    .host (tailSeg m dats) ]

/-- @main is the run of its segments. -/
theorem main_run (c : Dev nD) : main (F := F) c = Pipeline.Seg.run (segs m dats hA hO hsplitArr hjoinArr hbody hinΦ houtΦ) :=
  (main_chain c).trans (by chain_rfl)

include hA hO hsplitArr hjoinArr hbody hinΦ houtΦ in
set_option backward.isDefEq.respectTransparency.types false in
/-- The kernel program's run. Start @main on any memory whose counters are zero; every weakly fair execution ends
    without a fault, and each buffer that is not scoped then holds the host operations' result on the region's exit
    contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m dats c b) :=
  Pipeline.θ_run_regions_kit (pcfgs (F := F)) adm (pdats dats) () cellOf_inj emb₁ defs₀ 𝒱₀ L lv m ρ main
    (segs m dats hA hO hsplitArr hjoinArr hbody hinΦ houtΦ)
    (fun c Q => by rw [main_run m dats hA hO hsplitArr hjoinArr hbody hinΦ houtΦ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m dats)
    (hch := ⟨fun _ => .rfl, fun _ => .rfl, fun c => by
      show iprop(StableHlo.held (c : Thread nD τ) (Pipeline.ucRefs τ sig) (W3 m dats c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dats c b)
    (hfin := fun c s' => by
      iintro ⟨⟨Hh, -⟩, HSI⟩
      unfold StableHlo.held
      imodintro
      iapply (pointsTo_read_all (Pipeline.ucRefs τ sig) (fun b => (((c : Thread nD τ)).1, b)) (W3 m dats c) s')
      isplitl [Hh] <;> iassumption)
    (hQ := fun s h c => h c)

end Run

end Cert.Kernel.Hand

end
-- ==== Proof.KB.Shares.lean ====
import proofs.«411553_j46600395162340_3_alg».proof.Proof.Gen.Kernel.Launch
import proofs.«411553_j46600395162340_3_alg».proof.Proof.Gen.Kernel.Points
import Idealize.ShloMosaic.Lib.Pipeline.Regions
import Idealize.ShloMosaic.Lib.Pipeline.Frame

/-! Two windows on one array: the halves of a buffer.

Windows 0 and 1 read one array, and so do windows 2 and 3. The region is handed each distinct buffer behind the
windows' arrays whole; the pipeline wants one holding per window. A whole holding of a buffer is the separating
conjunction of its left-half and right-half holdings at the same contents, so the two descriptions entail each other
when windows 0 and 2 take the left halves, windows 1 and 3 the right halves, and every other window a whole buffer. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The buffers behind the twelve windows' arrays are ten: windows 0 and 1 sit on one, windows 2 and 3 on another. -/
theorem arrRefs_eq : Finset.univ.image (Pipeline.arrRef spec0)
    = [main_arg0, main_arg2, main_arg1, main_v0_0, main_v0_1, main_v0_2, main_v0_3, main_v0_4, main_v0_5, main_v0_6].toFinset := by decide

/-- The ten are pairwise distinct. -/
theorem arrRefs_nodup :
    [main_arg0, main_arg2, main_arg1, main_v0_0, main_v0_1, main_v0_2, main_v0_3, main_v0_4, main_v0_5, main_v0_6].Nodup := by decide

section Chains

variable (c : Dev nD) (dat : Dat τ (Elt F) Unit ℕ (UR sig nD τ) ℕ cfg0 c)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w))

/-- The distinct buffers, each whole, conjoined one by one. -/
theorem arrBufs_chain :
    (Pipeline.arrBufs (Ix := Unit) (Name := ℕ) (U := UR sig nD τ) (Lvl := ℕ) spec0 c Vv : sProp 𝕄)
      = iprop(((c : Thread nD τ).loc main_arg0 ↦{fullShare} Vv main_arg0) ∗
      ((c : Thread nD τ).loc main_arg2 ↦{fullShare} Vv main_arg2) ∗
      ((c : Thread nD τ).loc main_arg1 ↦{fullShare} Vv main_arg1) ∗
      ((c : Thread nD τ).loc main_v0_0 ↦{fullShare} Vv main_v0_0) ∗
      ((c : Thread nD τ).loc main_v0_1 ↦{fullShare} Vv main_v0_1) ∗
      ((c : Thread nD τ).loc main_v0_2 ↦{fullShare} Vv main_v0_2) ∗
      ((c : Thread nD τ).loc main_v0_3 ↦{fullShare} Vv main_v0_3) ∗
      ((c : Thread nD τ).loc main_v0_4 ↦{fullShare} Vv main_v0_4) ∗
      ((c : Thread nD τ).loc main_v0_5 ↦{fullShare} Vv main_v0_5) ∗
      ((c : Thread nD τ).loc main_v0_6 ↦{fullShare} Vv main_v0_6)) := by
  unfold Pipeline.arrBufs
  rw [bigSep_eq_bigSepL_of_eq _ arrRefs_eq arrRefs_nodup]
  rfl

include hF in
/-- One window's holding, its array a whole buffer `b`: the plain points-to of `b` at the window's share `q`,
    at the contents the region was handed of `b`. -/
theorem win_pt (w : Fin 12) (b : Ref sig .tc) (hb : Pipeline.arrRef spec0 w = b) (q : PosShare TreeShare) (hq : dat.share w = q) :
    ((cfg0.win w).arr.view.loc (c : Thread nD τ) ↦[(cfg0.win w).arr.view.set]{dat.share w} Fv w : sProp 𝕄)
      = ((c : Thread nD τ).loc b ↦{q} Vv b) := by
  subst hb
  rw [(arr_whole0 w).set_eq_univ, hq, hF w]

include hF in
/-- The twelve windows' holdings conjoined one by one: an input window at its own share, an output window whole. -/
theorem arrays_chain (hq0 : dat.q 0 = fullShare.left) (hq1 : dat.q 1 = fullShare.right) (hq2 : dat.q 2 = fullShare.left)
    (hq3 : dat.q 3 = fullShare.right) (hq4 : dat.q 4 = fullShare) :
    (dat.arrays Fv : sProp 𝕄)
      = iprop(((c : Thread nD τ).loc main_arg0 ↦{fullShare.left} Vv main_arg0) ∗
      ((c : Thread nD τ).loc main_arg0 ↦{fullShare.right} Vv main_arg0) ∗
      ((c : Thread nD τ).loc main_arg2 ↦{fullShare.left} Vv main_arg2) ∗
      ((c : Thread nD τ).loc main_arg2 ↦{fullShare.right} Vv main_arg2) ∗
      ((c : Thread nD τ).loc main_arg1 ↦{fullShare} Vv main_arg1) ∗
      ((c : Thread nD τ).loc main_v0_0 ↦{fullShare} Vv main_v0_0) ∗
      ((c : Thread nD τ).loc main_v0_1 ↦{fullShare} Vv main_v0_1) ∗
      ((c : Thread nD τ).loc main_v0_2 ↦{fullShare} Vv main_v0_2) ∗
      ((c : Thread nD τ).loc main_v0_3 ↦{fullShare} Vv main_v0_3) ∗
      ((c : Thread nD τ).loc main_v0_4 ↦{fullShare} Vv main_v0_4) ∗
      ((c : Thread nD τ).loc main_v0_5 ↦{fullShare} Vv main_v0_5) ∗
      ((c : Thread nD τ).loc main_v0_6 ↦{fullShare} Vv main_v0_6)) := by
  unfold Dat.arrays
  rw [bigSep_W0,
    win_pt c dat Vv Fv hF 0 main_arg0 rfl fullShare.left hq0,
    win_pt c dat Vv Fv hF 1 main_arg0 rfl fullShare.right hq1,
    win_pt c dat Vv Fv hF 2 main_arg2 rfl fullShare.left hq2,
    win_pt c dat Vv Fv hF 3 main_arg2 rfl fullShare.right hq3,
    win_pt c dat Vv Fv hF 4 main_arg1 rfl fullShare hq4,
    win_pt c dat Vv Fv hF 5 main_v0_0 rfl fullShare rfl,
    win_pt c dat Vv Fv hF 6 main_v0_1 rfl fullShare rfl,
    win_pt c dat Vv Fv hF 7 main_v0_2 rfl fullShare rfl,
    win_pt c dat Vv Fv hF 8 main_v0_3 rfl fullShare rfl,
    win_pt c dat Vv Fv hF 9 main_v0_4 rfl fullShare rfl,
    win_pt c dat Vv Fv hF 10 main_v0_5 rfl fullShare rfl,
    win_pt c dat Vv Fv hF 11 main_v0_6 rfl fullShare rfl]

end Chains

/-- The distinct buffers behind the windows' arrays, each whole, give one holding per window at the shares named. -/
theorem arrBufs_arrays (c : Dev nD) (dat : Dat τ (Elt F) Unit ℕ (UR sig nD τ) ℕ cfg0 c)
    (hq0 : dat.q 0 = fullShare.left) (hq1 : dat.q 1 = fullShare.right) (hq2 : dat.q 2 = fullShare.left)
    (hq3 : dat.q 3 = fullShare.right) (hq4 : dat.q 4 = fullShare)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w)) :
    (Pipeline.arrBufs (Ix := Unit) (Name := ℕ) (U := UR sig nD τ) (Lvl := ℕ) spec0 c Vv : sProp 𝕄) ⊢ dat.arrays Fv := by
  rw [arrBufs_chain c Vv, arrays_chain c dat Vv Fv hF hq0 hq1 hq2 hq3 hq4]
  iintro ⟨HA, HB, HC, H0, H1, H2, H3, H4, H5, H6⟩
  -- each of the two shared buffers is cut into its halves
  ihave HA := (pointsTo_share (PosShare.mem_left_op_right fullShare)).1 $$ HA
  icases HA with ⟨HAl, HAr⟩
  ihave HB := (pointsTo_share (PosShare.mem_left_op_right fullShare)).1 $$ HB
  icases HB with ⟨HBl, HBr⟩
  isplitl [HAl]; · iexact HAl
  isplitl [HAr]; · iexact HAr
  isplitl [HBl]; · iexact HBl
  isplitl [HBr]; · iexact HBr
  isplitl [HC]; · iexact HC
  isplitl [H0]; · iexact H0
  isplitl [H1]; · iexact H1
  isplitl [H2]; · iexact H2
  isplitl [H3]; · iexact H3
  isplitl [H4]; · iexact H4
  isplitl [H5]; · iexact H5
  iexact H6

/-- And back: the per-window holdings at those shares rejoin into the distinct buffers, each whole. -/
theorem arrays_arrBufs (c : Dev nD) (dat : Dat τ (Elt F) Unit ℕ (UR sig nD τ) ℕ cfg0 c)
    (hq0 : dat.q 0 = fullShare.left) (hq1 : dat.q 1 = fullShare.right) (hq2 : dat.q 2 = fullShare.left)
    (hq3 : dat.q 3 = fullShare.right) (hq4 : dat.q 4 = fullShare)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w)) :
    (dat.arrays Fv : sProp 𝕄) ⊢ Pipeline.arrBufs (Ix := Unit) (Name := ℕ) (U := UR sig nD τ) (Lvl := ℕ) spec0 c Vv := by
  rw [arrBufs_chain c Vv, arrays_chain c dat Vv Fv hF hq0 hq1 hq2 hq3 hq4]
  iintro ⟨HAl, HAr, HBl, HBr, HC, H0, H1, H2, H3, H4, H5, H6⟩
  -- the two halves of each shared buffer, at one contents, are the buffer whole
  isplitl [HAl HAr]
  · iapply (pointsTo_share (PosShare.mem_left_op_right fullShare)).2
    isplitl [HAl]; · iexact HAl
    iexact HAr
  isplitl [HBl HBr]
  · iapply (pointsTo_share (PosShare.mem_left_op_right fullShare)).2
    isplitl [HBl]; · iexact HBl
    iexact HBr
  isplitl [HC]; · iexact HC
  isplitl [H0]; · iexact H0
  isplitl [H1]; · iexact H1
  isplitl [H2]; · iexact H2
  isplitl [H3]; · iexact H3
  isplitl [H4]; · iexact H4
  isplitl [H5]; · iexact H5
  iexact H6

end Cert.Kernel.Hand

end
-- ==== Proof.KB.RunA.lean ====
/- The whole-body run of the kernel body in case A (pair index 0): the scratch buffers are reset and pair 0's update
   is accumulated into them; nothing is stored into the outputs. The stores each scratch buffer ends with are
   part of what is proved, not given in advance. -/
import proofs.«411553_j46600395162340_3_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (the pair index is 0: the first two conditionals taken, the other four not). Given every buffer whole — the
    inputs at `x·`, the outputs at `xi·`, each scratch at anything (the reset stores each whole before any load of it) —
    the body ends with the inputs and the outputs as they were (no store reaches an output in this case) and each
    scratch buffer at the listed stores, latest first, written over some contents.
    The lists are part of the statement: they are produced together with the proof. -/
noncomputable def kernelRun0_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) :
    Σ' (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (xi5 xi6 xi7 : Vec F S1x1x512 .f32) (xi8 xi9 xi10 xi11 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun xi5 xi6 xi7 xi8 xi9 xi10 xi11 E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; iexact HS0
    isplitl [HS1]
    · iexists _; iexact HS1
    isplitl [HS2]
    · iexists _; iexact HS2
    isplitl [HS3]
    · iexists _; iexact HS3
    iexists _; iexact HS4

end Cert.Kernel.Hand

end
-- ==== Proof.KB.RunB.lean ====
/- The whole-body run of the kernel body in case B (pair index 1): pair 1's update is accumulated into the five
   scratch buffers, each read at the contents the point before left; nothing is stored into the outputs. The stores
   each scratch buffer ends with are part of what is proved, not given in advance. -/
import proofs.«411553_j46600395162340_3_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (the pair index is 1: the third conditional taken, the other five not). Given every buffer whole — the
    inputs at `x·`, the outputs at `xi·`, each scratch at the contents `xs·` the point before left — the body ends with
    the inputs and the outputs as they were (no store reaches an output in this case) and each scratch buffer at the
    listed stores, latest first, written over some contents. Each scratch is loaded before it is stored into, so the
    stored values are terms over `xs·`. The lists are part of the statement: they are produced together with the proof. -/
noncomputable def kernelRun0_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32)
    (xs0 xs1 xs2 : Vec F S512x512 .f32) (xs3 xs4 : Vec F S1x1 .f32) :
    Σ' (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (xi5 xi6 xi7 : Vec F S1x1x512 .f32) (xi8 xi9 xi10 xi11 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun xi5 xi6 xi7 xi8 xi9 xi10 xi11 E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; iexact HS0
    isplitl [HS1]
    · iexists _; iexact HS1
    isplitl [HS2]
    · iexists _; iexact HS2
    isplitl [HS3]
    · iexists _; iexact HS3
    iexists _; iexact HS4

end Cert.Kernel.Hand

end
-- ==== Proof.KB.RunC.lean ====
/- The whole-body run of the kernel body in case C (pair index 2): pair 2's update is accumulated into the five
   scratch buffers, each taken at the contents the point before left; nothing is stored into the outputs. The stores
   each scratch buffer ends with are part of what is proved, not given in advance. -/
import proofs.«411553_j46600395162340_3_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (the pair index is 2: the fourth conditional taken, the other five not). Given every buffer whole — the
    inputs at `x·`, the outputs at `xi·`, each scratch at the contents `xs·` the point before left — the body ends with
    the inputs and the outputs as they were (no store reaches an output in this case) and each scratch buffer at the
    listed stores, latest first, written over some contents (each scratch is loaded before it is stored into). The lists are part of
    the statement: they are produced together with the proof. -/
noncomputable def kernelRun0_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    Σ' (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (xi5 xi6 xi7 : Vec F S1x1x512 .f32) (xi8 xi9 xi10 xi11 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun xi5 xi6 xi7 xi8 xi9 xi10 xi11 E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; iexact HS0
    isplitl [HS1]
    · iexists _; iexact HS1
    isplitl [HS2]
    · iexists _; iexact HS2
    isplitl [HS3]
    · iexists _; iexact HS3
    iexists _; iexact HS4

end Cert.Kernel.Hand

end
-- ==== Proof.KB.RunD.lean ====
/- The whole-body run of the kernel body in case D (pair index 3): the last pair's update is accumulated into the
   five scratch buffers, and then the finalizing block reads them back and stores into all seven outputs. The stores
   each scratch buffer and each output ends with are part of what is proved, not given in advance. -/
import proofs.«411553_j46600395162340_3_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case D (the pair index is 3: the first four conditionals not taken, the fifth and the finalizing sixth taken).
    Given every buffer whole — the inputs at `x·`, the outputs at anything (each is stored whole; the loads before the
    stores are dead), each scratch at the contents `xs·` the point before left (the update loads them before it stores) —
    the body ends with the inputs as they were and each output and each scratch buffer at the listed stores, latest
    first, written over some contents. The finalizing block's loads of the scratch buffers read what the update has just
    stored. The lists are part of the statement: they are produced together with the proof. -/
noncomputable def kernelRun0_D (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    Σ' (L5 : List (View.Piece (Elt F) S1x1x512 .f32)) (L6 : List (View.Piece (Elt F) S1x1x512 .f32)) (L7 : List (View.Piece (Elt F) S1x1x512 .f32)) (L8 : List (View.Piece (Elt F) S1x1x128 .f32)) (L9 : List (View.Piece (Elt F) S1x1x128 .f32)) (L10 : List (View.Piece (Elt F) S1x1x128 .f32)) (L11 : List (View.Piece (Elt F) S1x1x128 .f32)) (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, ?_, fun E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [HS0]
    · iexists _; iexact HS0
    isplitl [HS1]
    · iexists _; iexact HS1
    isplitl [HS2]
    · iexists _; iexact HS2
    isplitl [HS3]
    · iexists _; iexact HS3
    iexists _; iexact HS4

end Cert.Kernel.Hand

end
-- ==== Proof.KB.Outs.lean ====
/- What the four runs leave: per case, that the pieces found for each scratch buffer (and, in the finalizing case, for
   each output) cover it, and the contents they leave read back; the accumulation of these over the grid's points
   (`outsAt0`: case by the point's residue mod 4, the scratch carried from the point before); and the region
   invariant that carries the scratch buffers at those contents from point to point. -/
import proofs.«411553_j46600395162340_3_alg».proof.Proof.KB.RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the twelve buffers the body stores into hold after a point: the seven outputs' staging buffers (windows 5..11)
    and the five scratch buffers. -/
structure Outs (F : FTy → Type) where
  o5 : Vec F S1x1x512 .f32
  o6 : Vec F S1x1x512 .f32
  o7 : Vec F S1x1x512 .f32
  o8 : Vec F S1x1x128 .f32
  o9 : Vec F S1x1x128 .f32
  o10 : Vec F S1x1x128 .f32
  o11 : Vec F S1x1x128 .f32
  s0 : Vec F S512x512 .f32
  s1 : Vec F S512x512 .f32
  s2 : Vec F S512x512 .f32
  s3 : Vec F S1x1 .f32
  s4 : Vec F S1x1 .f32

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each scratch buffer, and case D in each output -/

/-- Every entry of scratch 0 (the running maximum) lies in one of the boxes case A stores into it. -/
theorem scover0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).1 S512x512.size (by sl_kernel_rfl) y

/-- Scratch 0 after case A: the case's stores into it, laid over a placeholder and read back. -/
def sout0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S512x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).1)

/-- Every entry of scratch 1 (the running minimum) lies in one of the boxes case A stores into it. -/
theorem scover0_A_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.1 S512x512.size (by sl_kernel_rfl) y

/-- Scratch 1 after case A: the case's stores into it, laid over a placeholder and read back. -/
def sout0_A_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S512x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.1)

/-- Every entry of scratch 2 (the channel sum) lies in one of the boxes case A stores into it. -/
theorem scover0_A_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.1 S512x512.size (by sl_kernel_rfl) y

/-- Scratch 2 after case A: the case's stores into it, laid over a placeholder and read back. -/
def sout0_A_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S512x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.1)

/-- Every entry of scratch 3 (the first one-cell accumulator) lies in one of the boxes case A stores into it. -/
theorem scover0_A_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.1 S1x1.size (by sl_kernel_rfl) y

/-- Scratch 3 after case A: the case's stores into it, laid over a placeholder and read back. -/
def sout0_A_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.1)

/-- Every entry of scratch 4 (the second one-cell accumulator) lies in one of the boxes case A stores into it. -/
theorem scover0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.2.1 S1x1.size (by sl_kernel_rfl) y

/-- Scratch 4 after case A: the case's stores into it, laid over a placeholder and read back. -/
def sout0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S1x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.2.1)

/-- Every entry of scratch 0 (the running maximum) lies in one of the boxes case B stores into it. -/
theorem scover0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1 S512x512.size (by sl_kernel_rfl) y

/-- Scratch 0 after case B: the case's stores into it, laid over a placeholder and read back. -/
def sout0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1)

/-- Every entry of scratch 1 (the running minimum) lies in one of the boxes case B stores into it. -/
theorem scover0_B_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1 S512x512.size (by sl_kernel_rfl) y

/-- Scratch 1 after case B: the case's stores into it, laid over a placeholder and read back. -/
def sout0_B_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1)

/-- Every entry of scratch 2 (the channel sum) lies in one of the boxes case B stores into it. -/
theorem scover0_B_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1 S512x512.size (by sl_kernel_rfl) y

/-- Scratch 2 after case B: the case's stores into it, laid over a placeholder and read back. -/
def sout0_B_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1)

/-- Every entry of scratch 3 (the first one-cell accumulator) lies in one of the boxes case B stores into it. -/
theorem scover0_B_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1 S1x1.size (by sl_kernel_rfl) y

/-- Scratch 3 after case B: the case's stores into it, laid over a placeholder and read back. -/
def sout0_B_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1)

/-- Every entry of scratch 4 (the second one-cell accumulator) lies in one of the boxes case B stores into it. -/
theorem scover0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1 S1x1.size (by sl_kernel_rfl) y

/-- Scratch 4 after case B: the case's stores into it, laid over a placeholder and read back. -/
def sout0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1)

/-- Every entry of scratch 0 (the running maximum) lies in one of the boxes case C stores into it. -/
theorem scover0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1 S512x512.size (by sl_kernel_rfl) y

/-- Scratch 0 after case C: the case's stores into it, laid over a placeholder and read back. -/
def sout0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1)

/-- Every entry of scratch 1 (the running minimum) lies in one of the boxes case C stores into it. -/
theorem scover0_C_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1 S512x512.size (by sl_kernel_rfl) y

/-- Scratch 1 after case C: the case's stores into it, laid over a placeholder and read back. -/
def sout0_C_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1)

/-- Every entry of scratch 2 (the channel sum) lies in one of the boxes case C stores into it. -/
theorem scover0_C_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1 S512x512.size (by sl_kernel_rfl) y

/-- Scratch 2 after case C: the case's stores into it, laid over a placeholder and read back. -/
def sout0_C_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1)

/-- Every entry of scratch 3 (the first one-cell accumulator) lies in one of the boxes case C stores into it. -/
theorem scover0_C_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1 S1x1.size (by sl_kernel_rfl) y

/-- Scratch 3 after case C: the case's stores into it, laid over a placeholder and read back. -/
def sout0_C_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1)

/-- Every entry of scratch 4 (the second one-cell accumulator) lies in one of the boxes case C stores into it. -/
theorem scover0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1 S1x1.size (by sl_kernel_rfl) y

/-- Scratch 4 after case C: the case's stores into it, laid over a placeholder and read back. -/
def sout0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1)

/-- Every entry of scratch 0 (the running maximum) lies in one of the boxes case D stores into it. -/
theorem scover0_D_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.1 S512x512.size (by sl_kernel_rfl) y

/-- Scratch 0 after case D: the case's stores into it, laid over a placeholder and read back. -/
def sout0_D_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.1)

/-- Every entry of scratch 1 (the running minimum) lies in one of the boxes case D stores into it. -/
theorem scover0_D_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.1 S512x512.size (by sl_kernel_rfl) y

/-- Scratch 1 after case D: the case's stores into it, laid over a placeholder and read back. -/
def sout0_D_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.1)

/-- Every entry of scratch 2 (the channel sum) lies in one of the boxes case D stores into it. -/
theorem scover0_D_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.1 S512x512.size (by sl_kernel_rfl) y

/-- Scratch 2 after case D: the case's stores into it, laid over a placeholder and read back. -/
def sout0_D_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_2.read (Elt F) (VS0_2.writes (Elt F) VS0_2.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.1)

/-- Every entry of scratch 3 (the first one-cell accumulator) lies in one of the boxes case D stores into it. -/
theorem scover0_D_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.1 S1x1.size (by sl_kernel_rfl) y

/-- Scratch 3 after case D: the case's stores into it, laid over a placeholder and read back. -/
def sout0_D_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.1)

/-- Every entry of scratch 4 (the second one-cell accumulator) lies in one of the boxes case D stores into it. -/
theorem scover0_D_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.2.1 S1x1.size (by sl_kernel_rfl) y

/-- Scratch 4 after case D: the case's stores into it, laid over a placeholder and read back. -/
def sout0_D_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_4.read (Elt F) (VS0_4.writes (Elt F) VS0_4.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.2.1)

/-- Every entry of output 5's block lies in one of the boxes case D stores into it. -/
theorem cover0_D_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1 S1x1x512.size (by sl_kernel_rfl) y

/-- Output 5's buffer after case D: the case's stores into it, laid over a placeholder and read back. -/
def out0_D_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x512 .f32 :=
  VO0_5.read (Elt F) (VO0_5.writes (Elt F) VO0_5.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1)

/-- Every entry of output 6's block lies in one of the boxes case D stores into it. -/
theorem cover0_D_6 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1 S1x1x512.size (by sl_kernel_rfl) y

/-- Output 6's buffer after case D: the case's stores into it, laid over a placeholder and read back. -/
def out0_D_6 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x512 .f32 :=
  VO0_6.read (Elt F) (VO0_6.writes (Elt F) VO0_6.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1)

/-- Every entry of output 7's block lies in one of the boxes case D stores into it. -/
theorem cover0_D_7 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1 S1x1x512.size (by sl_kernel_rfl) y

/-- Output 7's buffer after case D: the case's stores into it, laid over a placeholder and read back. -/
def out0_D_7 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x512 .f32 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1)

/-- Every entry of output 8's block lies in one of the boxes case D stores into it. -/
theorem cover0_D_8 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1 S1x1x128.size (by sl_kernel_rfl) y

/-- Output 8's buffer after case D: the case's stores into it, laid over a placeholder and read back. -/
def out0_D_8 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1)

/-- Every entry of output 9's block lies in one of the boxes case D stores into it. -/
theorem cover0_D_9 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1 S1x1x128.size (by sl_kernel_rfl) y

/-- Output 9's buffer after case D: the case's stores into it, laid over a placeholder and read back. -/
def out0_D_9 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1)

/-- Every entry of output 10's block lies in one of the boxes case D stores into it. -/
theorem cover0_D_10 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.1 S1x1x128.size (by sl_kernel_rfl) y

/-- Output 10's buffer after case D: the case's stores into it, laid over a placeholder and read back. -/
def out0_D_10 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.1)

/-- Every entry of output 11's block lies in one of the boxes case D stores into it. -/
theorem cover0_D_11 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.1 S1x1x128.size (by sl_kernel_rfl) y

/-- Output 11's buffer after case D: the case's stores into it, laid over a placeholder and read back. -/
def out0_D_11 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.1)

/-! ## The case a point is in, from its residue mod 4 -/

theorem hcA0 (t : Fin cfg0.N) (h : t.val % 4 = 0) : condP 0#32 (grid0.coords t) := (hcondP0 t).mpr h
theorem hcA1 (t : Fin cfg0.N) (h : t.val % 4 = 0) : ¬condP 1#32 (grid0.coords t) := fun h' => by have := (hcondP1 t).mp h'; omega
theorem hcA2 (t : Fin cfg0.N) (h : t.val % 4 = 0) : ¬condP 2#32 (grid0.coords t) := fun h' => by have := (hcondP2 t).mp h'; omega
theorem hcA3 (t : Fin cfg0.N) (h : t.val % 4 = 0) : ¬condP 3#32 (grid0.coords t) := fun h' => by have := (hcondP3 t).mp h'; omega
theorem hcA6 (t : Fin cfg0.N) (h : t.val % 4 = 0) : ¬cond6 (grid0.coords t) := fun h' => by have := (hcond6 t).mp h'; omega
theorem hcB0 (t : Fin cfg0.N) (h : t.val % 4 = 1) : ¬condP 0#32 (grid0.coords t) := fun h' => by have := (hcondP0 t).mp h'; omega
theorem hcB1 (t : Fin cfg0.N) (h : t.val % 4 = 1) : condP 1#32 (grid0.coords t) := (hcondP1 t).mpr h
theorem hcB2 (t : Fin cfg0.N) (h : t.val % 4 = 1) : ¬condP 2#32 (grid0.coords t) := fun h' => by have := (hcondP2 t).mp h'; omega
theorem hcB3 (t : Fin cfg0.N) (h : t.val % 4 = 1) : ¬condP 3#32 (grid0.coords t) := fun h' => by have := (hcondP3 t).mp h'; omega
theorem hcB6 (t : Fin cfg0.N) (h : t.val % 4 = 1) : ¬cond6 (grid0.coords t) := fun h' => by have := (hcond6 t).mp h'; omega
theorem hcC0 (t : Fin cfg0.N) (h : t.val % 4 = 2) : ¬condP 0#32 (grid0.coords t) := fun h' => by have := (hcondP0 t).mp h'; omega
theorem hcC1 (t : Fin cfg0.N) (h : t.val % 4 = 2) : ¬condP 1#32 (grid0.coords t) := fun h' => by have := (hcondP1 t).mp h'; omega
theorem hcC2 (t : Fin cfg0.N) (h : t.val % 4 = 2) : condP 2#32 (grid0.coords t) := (hcondP2 t).mpr h
theorem hcC3 (t : Fin cfg0.N) (h : t.val % 4 = 2) : ¬condP 3#32 (grid0.coords t) := fun h' => by have := (hcondP3 t).mp h'; omega
theorem hcC6 (t : Fin cfg0.N) (h : t.val % 4 = 2) : ¬cond6 (grid0.coords t) := fun h' => by have := (hcond6 t).mp h'; omega
theorem hcD0 (t : Fin cfg0.N) (h : t.val % 4 = 3) : ¬condP 0#32 (grid0.coords t) := fun h' => by have := (hcondP0 t).mp h'; omega
theorem hcD1 (t : Fin cfg0.N) (h : t.val % 4 = 3) : ¬condP 1#32 (grid0.coords t) := fun h' => by have := (hcondP1 t).mp h'; omega
theorem hcD2 (t : Fin cfg0.N) (h : t.val % 4 = 3) : ¬condP 2#32 (grid0.coords t) := fun h' => by have := (hcondP2 t).mp h'; omega
theorem hcD3 (t : Fin cfg0.N) (h : t.val % 4 = 3) : condP 3#32 (grid0.coords t) := (hcondP3 t).mpr h
theorem hcD6 (t : Fin cfg0.N) (h : t.val % 4 = 3) : cond6 (grid0.coords t) := (hcond6 t).mpr h

/-! ## What the buffers hold after each point -/

/-- What a point of case A (pair index 0) leaves: the scratch buffers at the case's pieces read
    back; the outputs at a placeholder nothing consults (the windows are idle and not written back there). -/
abbrev outsA (c : Dev nD) (t : Fin cfg0.N) (h : t.val % 4 = 0) : Outs F :=
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t) }

/-- What a point of case B (pair index 1) leaves, over what the point before left in the scratch buffers (`p`): the scratch buffers at the case's pieces read
    back; the outputs at a placeholder nothing consults (the windows are idle and not written back there). -/
abbrev outsB (c : Dev nD) (t : Fin cfg0.N) (h : t.val % 4 = 1) (p : Outs F) : Outs F :=
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4 }

/-- What a point of case C (pair index 2) leaves, over what the point before left in the scratch buffers (`p`): the scratch buffers at the case's pieces read
    back; the outputs at a placeholder nothing consults (the windows are idle and not written back there). -/
abbrev outsC (c : Dev nD) (t : Fin cfg0.N) (h : t.val % 4 = 2) (p : Outs F) : Outs F :=
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4 }

/-- What a point of case D (pair index 3) leaves, over what the point before left in the scratch buffers (`p`): the scratch buffers at the case's pieces read
    back; the outputs at case D's pieces read back. -/
abbrev outsD (c : Dev nD) (t : Fin cfg0.N) (h : t.val % 4 = 3) (p : Outs F) : Outs F :=
    { o5 := out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o6 := out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o7 := out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o8 := out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o9 := out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o10 := out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o11 := out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s2 := sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s3 := sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s4 := sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4 }

/-- The contents of the twelve buffers the body stores into, by recursion on the point's number `n`: the stores of the
    case `n`'s residue mod 4 selects, computed from the point's memrefs and input blocks and — but for case A (residue 0),
    which resets the scratch buffers and takes nothing — from the scratch contents this gives at `n - 1`. -/
def outsAt0 (c : Dev nD) : (n : ℕ) → n < cfg0.N → Outs F
  | 0, hn => outsA m c ⟨0, hn⟩ (Nat.zero_mod _)
  | n + 1, hn =>
    if h0 : (n + 1) % 4 = 0 then outsA m c ⟨n + 1, hn⟩ h0
    else if h1 : (n + 1) % 4 = 1 then outsB m c ⟨n + 1, hn⟩ h1 (outsAt0 c n (Nat.lt_of_succ_lt hn))
    else if h2 : (n + 1) % 4 = 2 then outsC m c ⟨n + 1, hn⟩ h2 (outsAt0 c n (Nat.lt_of_succ_lt hn))
    else outsD m c ⟨n + 1, hn⟩ (show (n + 1) % 4 = 3 by omega) (outsAt0 c n (Nat.lt_of_succ_lt hn))

/-- At a point whose number is a multiple of 4 the accumulated contents are case A's. -/
theorem outsAt0_A (c : Dev nD) (t : Fin cfg0.N) (h : t.val % 4 = 0) :
    outsAt0 m c t.val t.isLt =
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t) } := by
  obtain ⟨n, hn⟩ := t
  cases n with
  | zero => exact rfl
  | succ n => exact (dif_pos h).trans rfl

/-- At a point whose number is ≡ 1 (mod 4) the accumulated contents are case B's, over what the point before left. -/
theorem outsAt0_B (c : Dev nD) (t : Fin cfg0.N) (h : t.val % 4 = 1) :
    outsAt0 m c t.val t.isLt =
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact absurd (show 0 % 4 = 1 from h) (by decide)
  | succ n =>
    have h' : (n + 1) % 4 = 1 := h
    have h0 : ¬(n + 1) % 4 = 0 := by omega
    exact (dif_neg h0).trans ((dif_pos h').trans rfl)

/-- At a point whose number is ≡ 2 (mod 4) the accumulated contents are case C's, over what the point before left. -/
theorem outsAt0_C (c : Dev nD) (t : Fin cfg0.N) (h : t.val % 4 = 2) :
    outsAt0 m c t.val t.isLt =
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact absurd (show 0 % 4 = 2 from h) (by decide)
  | succ n =>
    have h' : (n + 1) % 4 = 2 := h
    have h0 : ¬(n + 1) % 4 = 0 := by omega
    have h1 : ¬(n + 1) % 4 = 1 := by omega
    exact (dif_neg h0).trans ((dif_neg h1).trans ((dif_pos h').trans rfl))

/-- At a point whose number is ≡ 3 (mod 4) the accumulated contents are case D's, over what the point before left. -/
theorem outsAt0_D (c : Dev nD) (t : Fin cfg0.N) (h : t.val % 4 = 3) :
    outsAt0 m c t.val t.isLt =
    { o5 := out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o6 := out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o7 := out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o8 := out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o9 := out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o10 := out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o11 := out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s2 := sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s3 := sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s4 := sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact absurd (show 0 % 4 = 3 from h) (by decide)
  | succ n =>
    have h' : (n + 1) % 4 = 3 := h
    have h0 : ¬(n + 1) % 4 = 0 := by omega
    have h1 : ¬(n + 1) % 4 = 1 := by omega
    have h2 : ¬(n + 1) % 4 = 2 := by omega
    exact (dif_neg h0).trans ((dif_neg h1).trans ((dif_neg h2).trans rfl))

/-! ## The region invariant, carrying the scratch buffers -/

/-- What is held between points besides the windows' buffers. Before point 0: the buffers no window stages, each at
    anything (`ΦA`). Before point `n + 1`: each scratch buffer at its component of `outsAt0` at `n`, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r))

theorem PhiS_zero (c : Dev nD) (n : ℕ) (h : n ≤ cfg0.N) (hz : n = 0) : PhiS m c n h = Pipeline.ΦA spec0 c := by
  subst hz; rfl

/-- Between point `n` and the next the five scratch buffers are held at what `outsAt0` gives at `n`. -/
theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r)) := rfl

/-- From the second point on, a point starts with the five scratch buffers at what `outsAt0` gives for the point before. -/
theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4)) ∗ (∃ r, prngReg c r)) := by
  cases n with
  | zero => exact absurd rfl hz
  | succ n => rfl

end Cert.Kernel.Hand

end
-- ==== Proof.KB.Dats.lean ====
/- What is claimed of the pipeline on a core. The arrays start at the region's entry contents; after the body at a
   point an input's staging buffer holds its block and an output's what the accumulation `outsAt0` says; the invariant
   carries the scratch buffers (`PhiS`); two windows on one array take half of it each; nothing is owed. With the
   projections of the data, and what the body finds in each input's buffer: its block. -/
import proofs.«411553_j46600395162340_3_alg».proof.Proof.KB.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is claimed of the pipeline on core `c`. The arrays start at the region's entry contents (`V`). After the body
    at point `t` an input's buffer holds its block and an output's its component of `outsAt0`. The invariant is `PhiS`
    (the buffers no window stages at anything before the first point, then the scratch buffers at `outsAt0`'s
    components). Windows 0 and 1 read one array and take half of it each, and so do windows 2 and 3. Nothing is owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
    | ⟨_ + 12, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨_ + 12, h⟩ => absurd h (Nat.not_lt.2 (Nat.le_add_left _ _))
  owed _ := 0

/-- The arrays the pipeline starts from are the contents the region is entered with. -/
theorem A_eq (c : Dev nD) (w : Fin cfg0.W) : (dats m c).A w = V m c (Pipeline.arrRef spec0 w) := by
  dsimp only [dats]

/-- The shares: a half of the array each for the two pairs of windows on one array, the whole for the others. -/
theorem q0 (c : Dev nD) : (dats m c).q 0 = fullShare.left := rfl
theorem q1 (c : Dev nD) : (dats m c).q 1 = fullShare.right := rfl
theorem q2 (c : Dev nD) : (dats m c).q 2 = fullShare.left := rfl
theorem q3 (c : Dev nD) : (dats m c).q 3 = fullShare.right := rfl
theorem q4 (c : Dev nD) : (dats m c).q 4 = fullShare := rfl
theorem q5 (c : Dev nD) : (dats m c).q 5 = fullShare := rfl
theorem q6 (c : Dev nD) : (dats m c).q 6 = fullShare := rfl
theorem q7 (c : Dev nD) : (dats m c).q 7 = fullShare := rfl
theorem q8 (c : Dev nD) : (dats m c).q 8 = fullShare := rfl
theorem q9 (c : Dev nD) : (dats m c).q 9 = fullShare := rfl
theorem q10 (c : Dev nD) : (dats m c).q 10 = fullShare := rfl
theorem q11 (c : Dev nD) : (dats m c).q 11 = fullShare := rfl

/-- Nothing is owed at any position, and the bound on the recorded waits is everything. -/
theorem owed_eq (c : Dev nD) (t : Fin (cfg0.N + 1)) : (dats m c).owed t = 0 := rfl
theorem recorded_eq (c : Dev nD) (t : Fin (cfg0.N + 1)) : (dats m c).recorded t = Set.univ := rfl

/-- At the start of point `t` the invariant is the scratch invariant `PhiS` at the number `t.val`. -/
theorem PhiS_castSucc (c : Dev nD) (t : Fin cfg0.N) :
    (dats m c).Φ t.castSucc = PhiS m c t.val (Nat.le_of_lt t.isLt) := by
  dsimp only [dats]; simp only [Fin.coe_castSucc]

/-- After the body at point `t`: an input's buffer holds its block; an output's holds its component of the accumulated
    contents. -/
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = (outsAt0 m c t.val t.isLt).o5 := by dsimp only [dats]
theorem after0_6 (c : Dev nD) (t : Fin cfg0.N) : (dats m c).after 6 t = (outsAt0 m c t.val t.isLt).o6 := by dsimp only [dats]
theorem after0_7 (c : Dev nD) (t : Fin cfg0.N) : (dats m c).after 7 t = (outsAt0 m c t.val t.isLt).o7 := by dsimp only [dats]
theorem after0_8 (c : Dev nD) (t : Fin cfg0.N) : (dats m c).after 8 t = (outsAt0 m c t.val t.isLt).o8 := by dsimp only [dats]
theorem after0_9 (c : Dev nD) (t : Fin cfg0.N) : (dats m c).after 9 t = (outsAt0 m c t.val t.isLt).o9 := by dsimp only [dats]
theorem after0_10 (c : Dev nD) (t : Fin cfg0.N) : (dats m c).after 10 t = (outsAt0 m c t.val t.isLt).o10 := by dsimp only [dats]
theorem after0_11 (c : Dev nD) (t : Fin cfg0.N) : (dats m c).after 11 t = (outsAt0 m c t.val t.isLt).o11 := by dsimp only [dats]

/-! ## What the body finds in each input's buffer

Whether or not the pipeline fetches at a point, the body finds each input's block in the buffer it is handed: the body
leaves the block in place, the window is never idle and its blocks are whole, and where the pipeline does not fetch (window 4 away from
the points ≡ 0 mod 4) the block index has not moved. -/

theorem before0_0 (c : Dev nD) (t : Fin cfg0.N) (d) : (dats m c).before 0 t d = iblk m c 0 t :=
  ((dats m c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m c).before 1 t d = iblk m c 1 t :=
  ((dats m c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m c).before 2 t d = iblk m c 2 t :=
  ((dats m c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m c).before 3 t d = iblk m c 3 t :=
  ((dats m c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m c).before 4 t d = iblk m c 4 t :=
  ((dats m c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

end Cert.Kernel.Hand

end
-- ==== Proof.KB.BodyPre.lean ====
/- The body obligation's two sides at a generic point, conjunct by conjunct, and what each window's buffer is left at:
   an input's at its block, an output's as found where the window is idle and not written back, and at what the
   accumulation says where it is live. -/
import proofs.«411553_j46600395162340_3_alg».proof.Proof.KB.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's precondition at point `t`, conjunct by conjunct: the invariant, the debts, then each of the twelve
    windows' current buffers. -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ d, owns (c : Thread nD τ) (ms0_7 t) fullShare ((dats m c).before 7 t d))
    ∗ (∃ d, owns (c : Thread nD τ) (ms0_8 t) fullShare ((dats m c).before 8 t d))
    ∗ (∃ d, owns (c : Thread nD τ) (ms0_9 t) fullShare ((dats m c).before 9 t d))
    ∗ (∃ d, owns (c : Thread nD τ) (ms0_10 t) fullShare ((dats m c).before 10 t d))
    ∗ (∃ d, owns (c : Thread nD τ) (ms0_11 t) fullShare ((dats m c).before 11 t d)))

/-- Its postcondition: the next invariant, the debts, then what each window's buffer is left at. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t
    ∗ (dats m c).leavesExact 5 t
    ∗ (dats m c).leavesExact 6 t
    ∗ (dats m c).leavesExact 7 t
    ∗ (dats m c).leavesExact 8 t
    ∗ (dats m c).leavesExact 9 t
    ∗ (dats m c).leavesExact 10 t
    ∗ (dats m c).leavesExact 11 t)

/-! ## What each window's buffer is left at -/

/-- An input window is never idle: its buffer is left at its block. -/
theorem leaves_in0 (c : Dev nD) (t : Fin cfg0.N) :
    (dats m c).leavesExact 0 t = owns (c : Thread nD τ) (ms0_0 t) fullShare (iblk m c 0 t) := by
  unfold Dat.leavesExact; rw [liveAt0_0 t, after0_0]
theorem leaves_in1 (c : Dev nD) (t : Fin cfg0.N) :
    (dats m c).leavesExact 1 t = owns (c : Thread nD τ) (ms0_1 t) fullShare (iblk m c 1 t) := by
  unfold Dat.leavesExact; rw [liveAt0_1 t, after0_1]
theorem leaves_in2 (c : Dev nD) (t : Fin cfg0.N) :
    (dats m c).leavesExact 2 t = owns (c : Thread nD τ) (ms0_2 t) fullShare (iblk m c 2 t) := by
  unfold Dat.leavesExact; rw [liveAt0_2 t, after0_2]
theorem leaves_in3 (c : Dev nD) (t : Fin cfg0.N) :
    (dats m c).leavesExact 3 t = owns (c : Thread nD τ) (ms0_3 t) fullShare (iblk m c 3 t) := by
  unfold Dat.leavesExact; rw [liveAt0_3 t, after0_3]
theorem leaves_in4 (c : Dev nD) (t : Fin cfg0.N) :
    (dats m c).leavesExact 4 t = owns (c : Thread nD τ) (ms0_4 t) fullShare (iblk m c 4 t) := by
  unfold Dat.leavesExact; rw [liveAt0_4 t, after0_4]

/-- Away from the points ≡ 3 (mod 4) an output window is idle and not written back: its buffer is left as found. -/
theorem leaves_idle5 (c : Dev nD) (t : Fin cfg0.N) (h3 : ¬ t.val % 4 = 3) :
    (dats m c).leavesExact 5 t = iprop(∃ d, owns (c : Thread nD τ) (ms0_5 t) fullShare ((dats m c).before 5 t d)) :=
  Dat.leavesExact_idle (dats m c) 5 t (idleAt0_5 t h3) (noFlush0_5 t h3)
theorem leaves_idle6 (c : Dev nD) (t : Fin cfg0.N) (h3 : ¬ t.val % 4 = 3) :
    (dats m c).leavesExact 6 t = iprop(∃ d, owns (c : Thread nD τ) (ms0_6 t) fullShare ((dats m c).before 6 t d)) :=
  Dat.leavesExact_idle (dats m c) 6 t (idleAt0_6 t h3) (noFlush0_6 t h3)
theorem leaves_idle7 (c : Dev nD) (t : Fin cfg0.N) (h3 : ¬ t.val % 4 = 3) :
    (dats m c).leavesExact 7 t = iprop(∃ d, owns (c : Thread nD τ) (ms0_7 t) fullShare ((dats m c).before 7 t d)) :=
  Dat.leavesExact_idle (dats m c) 7 t (idleAt0_7 t h3) (noFlush0_7 t h3)
theorem leaves_idle8 (c : Dev nD) (t : Fin cfg0.N) (h3 : ¬ t.val % 4 = 3) :
    (dats m c).leavesExact 8 t = iprop(∃ d, owns (c : Thread nD τ) (ms0_8 t) fullShare ((dats m c).before 8 t d)) :=
  Dat.leavesExact_idle (dats m c) 8 t (idleAt0_8 t h3) (noFlush0_8 t h3)
theorem leaves_idle9 (c : Dev nD) (t : Fin cfg0.N) (h3 : ¬ t.val % 4 = 3) :
    (dats m c).leavesExact 9 t = iprop(∃ d, owns (c : Thread nD τ) (ms0_9 t) fullShare ((dats m c).before 9 t d)) :=
  Dat.leavesExact_idle (dats m c) 9 t (idleAt0_9 t h3) (noFlush0_9 t h3)
theorem leaves_idle10 (c : Dev nD) (t : Fin cfg0.N) (h3 : ¬ t.val % 4 = 3) :
    (dats m c).leavesExact 10 t = iprop(∃ d, owns (c : Thread nD τ) (ms0_10 t) fullShare ((dats m c).before 10 t d)) :=
  Dat.leavesExact_idle (dats m c) 10 t (idleAt0_10 t h3) (noFlush0_10 t h3)
theorem leaves_idle11 (c : Dev nD) (t : Fin cfg0.N) (h3 : ¬ t.val % 4 = 3) :
    (dats m c).leavesExact 11 t = iprop(∃ d, owns (c : Thread nD τ) (ms0_11 t) fullShare ((dats m c).before 11 t d)) :=
  Dat.leavesExact_idle (dats m c) 11 t (idleAt0_11 t h3) (noFlush0_11 t h3)

/-- At the points ≡ 3 (mod 4) an output window is live: its buffer is left at what the accumulation says. -/
theorem leaves_out5 (c : Dev nD) (t : Fin cfg0.N) (h : t.val % 4 = 3) :
    (dats m c).leavesExact 5 t = owns (c : Thread nD τ) (ms0_5 t) fullShare ((outsAt0 m c t.val t.isLt).o5) := by
  unfold Dat.leavesExact; rw [liveAt0_5 t h, after0_5]
theorem leaves_out6 (c : Dev nD) (t : Fin cfg0.N) (h : t.val % 4 = 3) :
    (dats m c).leavesExact 6 t = owns (c : Thread nD τ) (ms0_6 t) fullShare ((outsAt0 m c t.val t.isLt).o6) := by
  unfold Dat.leavesExact; rw [liveAt0_6 t h, after0_6]
theorem leaves_out7 (c : Dev nD) (t : Fin cfg0.N) (h : t.val % 4 = 3) :
    (dats m c).leavesExact 7 t = owns (c : Thread nD τ) (ms0_7 t) fullShare ((outsAt0 m c t.val t.isLt).o7) := by
  unfold Dat.leavesExact; rw [liveAt0_7 t h, after0_7]
theorem leaves_out8 (c : Dev nD) (t : Fin cfg0.N) (h : t.val % 4 = 3) :
    (dats m c).leavesExact 8 t = owns (c : Thread nD τ) (ms0_8 t) fullShare ((outsAt0 m c t.val t.isLt).o8) := by
  unfold Dat.leavesExact; rw [liveAt0_8 t h, after0_8]
theorem leaves_out9 (c : Dev nD) (t : Fin cfg0.N) (h : t.val % 4 = 3) :
    (dats m c).leavesExact 9 t = owns (c : Thread nD τ) (ms0_9 t) fullShare ((outsAt0 m c t.val t.isLt).o9) := by
  unfold Dat.leavesExact; rw [liveAt0_9 t h, after0_9]
theorem leaves_out10 (c : Dev nD) (t : Fin cfg0.N) (h : t.val % 4 = 3) :
    (dats m c).leavesExact 10 t = owns (c : Thread nD τ) (ms0_10 t) fullShare ((outsAt0 m c t.val t.isLt).o10) := by
  unfold Dat.leavesExact; rw [liveAt0_10 t h, after0_10]
theorem leaves_out11 (c : Dev nD) (t : Fin cfg0.N) (h : t.val % 4 = 3) :
    (dats m c).leavesExact 11 t = owns (c : Thread nD τ) (ms0_11 t) fullShare ((outsAt0 m c t.val t.isLt).o11) := by
  unfold Dat.leavesExact; rw [liveAt0_11 t h, after0_11]

end Cert.Kernel.Hand

end
-- ==== Proof.KB.BodyA.lean ====
/- The body obligation at the points of case A (pair index 0), where the run resets the five scratch buffers: at the
   first point they come from the launch at anything, at a later one they hold what the point before left. -/
import proofs.«411553_j46600395162340_3_alg».proof.Proof.KB.BodyPre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A at the first point: the scratch buffers come from the launch at anything; the run resets them. -/
theorem sound_A0 (c : Dev nD) (t : Fin cfg0.N) (h : t.val % 4 = 0) (hz : t.val = 0) :
    bodyPre m c t ⊢ wp frame (wpE (defs₀ (F := F)) Variants.none c none) Set.univ (bodyAt0 t) (fun _ => bodyPost m c t) := by
  have h3 : ¬ t.val % 4 = 3 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_A m c t h]
  dsimp only
  unfold sout0_A_0 sout0_A_1 sout0_A_2 sout0_A_3 sout0_A_4
  rw [PhiS_castSucc m c t, PhiS_zero m c _ _ hz, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS1]
      · unfold owns; iexists _; isplitr
        swap; · iexact HS1
        ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS2]
      · unfold owns; iexists _; isplitr
        swap; · iexact HS2
        ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS3]
      · unfold owns; iexists _; isplitr
        swap; · iexact HS3
        ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      unfold owns; iexists _; isplitr
      swap; · iexact HS4
      ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

set_option maxHeartbeats 4000000 in
/-- Case A at a later point: the scratch buffers hold what the point before left; the run resets them all the same. -/
theorem sound_A (c : Dev nD) (t : Fin cfg0.N) (h : t.val % 4 = 0) (hz : t.val ≠ 0) :
    bodyPre m c t ⊢ wp frame (wpE (defs₀ (F := F)) Variants.none c none) Set.univ (bodyAt0 t) (fun _ => bodyPost m c t) := by
  have h3 : ¬ t.val % 4 = 3 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_A m c t h]
  dsimp only
  unfold sout0_A_0 sout0_A_1 sout0_A_2 sout0_A_3 sout0_A_4
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS1]
      · unfold owns; iexists _; isplitr
        swap; · iexact HS1
        ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS2]
      · unfold owns; iexists _; isplitr
        swap; · iexact HS2
        ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS3]
      · unfold owns; iexists _; isplitr
        swap; · iexact HS3
        ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      unfold owns; iexists _; isplitr
      swap; · iexact HS4
      ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Kernel.Hand

end
-- ==== Proof.KB.BodyB.lean ====
/- The body obligation at the points of case B (pair index 1): the scratch buffers at what the point before left, the
   run accumulating pair 1 into them; the outputs idle. -/
import proofs.«411553_j46600395162340_3_alg».proof.Proof.KB.BodyPre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the scratch buffers at what the point before left; the run accumulates pair 1 into them. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  have h3 : ¬ t.val % 4 = 3 := by omega
  have hz : t.val ≠ 0 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_B m c t h]
  dsimp only
  unfold sout0_B_0 sout0_B_1 sout0_B_2 sout0_B_3 sout0_B_4
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS1]
      · unfold owns; iexists _; isplitr
        swap; · iexact HS1
        ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS2]
      · unfold owns; iexists _; isplitr
        swap; · iexact HS2
        ipureintro; exact View.read_writes_of_cover _ _ _ _ _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS3]
      · unfold owns; iexists _; isplitr
        swap; · iexact HS3
        ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      unfold owns; iexists _; isplitr
      swap; · iexact HS4
      ipureintro; exact View.read_writes_of_cover _ _ _ _ _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Kernel.Hand

end
-- ==== Proof.KB.BodyC.lean ====
/- The body obligation at the points of case C (pair index 2): the scratch buffers at what the point before left, the
   run accumulating pair 2 into them; the outputs idle. -/
import proofs.«411553_j46600395162340_3_alg».proof.Proof.KB.BodyPre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the scratch buffers at what the point before left; the run accumulates pair 2 into them. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  have h3 : ¬ t.val % 4 = 3 := by omega
  have hz : t.val ≠ 0 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_C m c t h]
  dsimp only
  unfold sout0_C_0 sout0_C_1 sout0_C_2 sout0_C_3 sout0_C_4
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS1]
      · unfold owns; iexists _; isplitr
        swap; · iexact HS1
        ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS2]
      · unfold owns; iexists _; isplitr
        swap; · iexact HS2
        ipureintro; exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS3]
      · unfold owns; iexists _; isplitr
        swap; · iexact HS3
        ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      unfold owns; iexists _; isplitr
      swap; · iexact HS4
      ipureintro; exact View.read_writes_of_cover _ _ _ _ _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Kernel.Hand

end
-- ==== Proof.KB.BodyD.lean ====
/- The body obligation at the points of case D (pair index 3): the scratch buffers at what the point before left, the
   run accumulating pair 3 into them and then storing all seven outputs, which are live and written back there. -/
import proofs.«411553_j46600395162340_3_alg».proof.Proof.KB.BodyPre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case D: the scratch buffers at what the point before left; the run accumulates pair 3 and stores the seven outputs. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [PhiS_castSucc m c t, PhiS_pos m c _ _ hz]
  rw [leaves_in0, leaves_in1, leaves_in2, leaves_in3, leaves_in4]
  rw [leaves_out5 m c t h, leaves_out6 m c t h, leaves_out7 m c t h, leaves_out8 m c t h, leaves_out9 m c t h, leaves_out10 m c t h, leaves_out11 m c t h]
  rw [outsAt0_D m c t h]
  dsimp only
  unfold sout0_D_0 sout0_D_1 sout0_D_2 sout0_D_3 sout0_D_4 out0_D_5 out0_D_6 out0_D_7 out0_D_8 out0_D_9 out0_D_10 out0_D_11
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS1]
      · unfold owns; iexists _; isplitr
        swap; · iexact HS1
        ipureintro; exact View.read_writes_of_cover _ _ _ _ _ (scover0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS2]
      · unfold owns; iexists _; isplitr
        swap; · iexact HS2
        ipureintro; exact View.read_writes_of_cover _ _ _ _ _ (scover0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS3]
      · unfold owns; iexists _; isplitr
        swap; · iexact HS3
        ipureintro; exact View.read_writes_of_cover _ _ _ _ _ (scover0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      unfold owns; iexists _; isplitr
      swap; · iexact HS4
      ipureintro; exact View.read_writes_of_cover _ _ _ _ _ (scover0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H6]
  · unfold owns; iexists _; isplitr
    swap; · iexact H6
    ipureintro; exact View.read_writes_of_cover _ _ _ _ _ (cover0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H7]
  · unfold owns; iexists _; isplitr
    swap; · iexact H7
    ipureintro; exact View.read_writes_of_cover _ _ _ _ _ (cover0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H8]
  · unfold owns; iexists _; isplitr
    swap; · iexact H8
    ipureintro; exact View.read_writes_of_cover _ _ _ _ _ (cover0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H9]
  · unfold owns; iexists _; isplitr
    swap; · iexact H9
    ipureintro; exact View.read_writes_of_cover _ _ _ _ _ (cover0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H10]
  · unfold owns; iexists _; isplitr
    swap; · iexact H10
    ipureintro; exact View.read_writes_of_cover _ _ _ _ _ (cover0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  unfold owns; iexists _; isplitr
  swap; · iexact H11
  ipureintro; exact View.read_writes_of_cover _ _ _ _ _ (cover0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)

end Cert.Kernel.Hand

end
-- ==== Proof.KB.Body.lean ====
/- The body obligation at every point, from the four cases by the point's residue mod 4; and the invariant's two ends:
   what the launch hands the region is the invariant before the first point, and the invariant after the last point
   gives it back. -/
import proofs.«411553_j46600395162340_3_alg».proof.Proof.KB.BodyA
import proofs.«411553_j46600395162340_3_alg».proof.Proof.KB.BodyB
import proofs.«411553_j46600395162340_3_alg».proof.Proof.KB.BodyC
import proofs.«411553_j46600395162340_3_alg».proof.Proof.KB.BodyD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: its residue mod 4 says which case it is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases hz : t.val = 0
    · exact sound_A0 m c t h0 hz
    · exact sound_A m c t h0 hz
  · by_cases h1 : t.val % 4 = 1
    · exact sound_B m c t h1
    · by_cases h2 : t.val % 4 = 2
      · exact sound_C m c t h2
      · exact sound_D m c t (by omega)

/-- At every point the body, started from the invariant, the debts and the twelve buffers as the pipeline hands them
    over, ends with the next invariant and every buffer at what the proof data say. -/
theorem body_obligation (c : Dev nD) : BodyObligation (dats (F := F) m c) (defs₀ (F := F)) Variants.none () Set.univ := fun t => by
  rw [bigSep_W0, bigSep_W0]
  exact sound_body m c t

/-- What the launch hands the region is the invariant before the first point. -/
theorem hinΦ (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- From the invariant after any point one recovers the scratch buffers at arbitrary contents, which is all the exit of
    the region asks. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-- The same after the last point. -/
theorem houtΦ (c : Dev nD) : (dats m c).Φ (Fin.last cfg0.N) ⊢ Pipeline.ΦA spec0 c :=
  Phi_out m c _ (by rw [Fin.val_last]; have : cfg0.N = 64 := N_0; omega)

end Cert.Kernel.Hand

end
-- ==== Proof.KB.TailKeeps.lean ====
import proofs.«411553_j46600395162340_3_alg».proof.Proof.Gen.Kernel.Launch
import Idealize.ShloMosaic.Lib.StableHlo.Run

/-! The host operations after the kernel region leave the three arguments as they were.

Each of the 57 operations writes exactly one array, its own result, and no result is an argument. So an argument
holds after the whole list what it held before it. -/

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]

/-- An array that differs from every operation's result is written by no operation of the list: the set an
    operation writes is the singleton of its result, so membership is one inequality of names per operation. -/
theorem tail_keeps_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_keeps_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_keeps_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.Kernel.Hand

end
-- ==== Proof.KB.FrameK.lean ====
import proofs.«411553_j46600395162340_3_alg».proof.Proof.KB.Region
import proofs.«411553_j46600395162340_3_alg».proof.Proof.KB.Shares
import proofs.«411553_j46600395162340_3_alg».proof.Proof.KB.Body
import proofs.«411553_j46600395162340_3_alg».proof.Proof.KB.TailKeeps

/-! The kernel program's run and its frame, at any float family.

The launch of Region.lean at this kernel's proof data: the arrays' entry contents are the launch contents, nothing is
owed, the two shared arrays are halved between their windows, the body meets its obligation at every point, and the
invariant starts from and returns the scratch buffers at some contents. Each argument array is read back at the end
through the host operations (which write no argument) and the exit contents (which change only the output arrays) to
what it held at launch. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN of the kernel program: every unscoped buffer ends at what the host operations compute from the exit contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m (dats m) c b) :=
  run_main m ρ (dats m) (A_eq m) ⟨owed_eq m, recorded_eq m⟩
    (fun c Vv Fv hF => arrBufs_arrays c (dats m c) (q0 m c) (q1 m c) (q2 m c) (q3 m c) (q4 m c) Vv Fv hF)
    (fun c Vv Fv hF => arrays_arrBufs c (dats m c) (q0 m c) (q1 m c) (q2 m c) (q3 m c) (q4 m c) Vv Fv hF)
    (fun c => (body_obligation m c).loose) (hinΦ m) (houtΦ m)

/-- Every TensorCore buffer that is not scoped is one of the buffers the run's conclusion ranges over. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The three arguments end as launched. -/
theorem W3_arg0 (c : Dev nD) : W3 m (dats m) c (Proc.devRef .tc main_arg0) = m ((c.tc : Thread nD τ).loc main_arg0) :=
  (tail_keeps_arg0 _).trans (W2_of_ne m (dats m) c main_arg0 (by decide) (by decide) (by decide) (by decide) (by decide) (by decide) (by decide))
theorem W3_arg1 (c : Dev nD) : W3 m (dats m) c (Proc.devRef .tc main_arg1) = m ((c.tc : Thread nD τ).loc main_arg1) :=
  (tail_keeps_arg1 _).trans (W2_of_ne m (dats m) c main_arg1 (by decide) (by decide) (by decide) (by decide) (by decide) (by decide) (by decide))
theorem W3_arg2 (c : Dev nD) : W3 m (dats m) c (Proc.devRef .tc main_arg2) = m ((c.tc : Thread nD τ).loc main_arg2) :=
  (tail_keeps_arg2 _).trans (W2_of_ne m (dats m) c main_arg2 (by decide) (by decide) (by decide) (by decide) (by decide) (by decide) (by decide))

/-- THE RUN with the result named and the arguments read back: what both the frame and the value claim start from. -/
theorem run_named : θ_run defs (onTc (τ := τ) (main (F := F))) ⟨m, fun _ => 0, ρ⟩ (fun r => ∀ c : Dev nD,
      r.2.mem ((c.tc : Thread nD τ).loc main_v41) = W3 m (dats m) c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v41 (by decide)),
     (h c _ (mem_uc main_arg0 (by decide))).trans (W3_arg0 m c),
     (h c _ (mem_uc main_arg1 (by decide))).trans (W3_arg1 m c),
     (h c _ (mem_uc main_arg2 (by decide))).trans (W3_arg2 m c)⟩) (run_all m ρ)

/-- THE FRAME: the program runs to the end, faulting nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.Kernel.Hand

end
-- ==== Proof.K.Runs.lean ====
/- What the four whole-body runs of the kernel body share: the contents the region is entered with, the windows'
   blocks read off their arrays, the body's branch conditions decided over the grid, where the output windows are idle
   and where they are written back, the staging and scratch memrefs the body is called on, and the invariant of the
   scratch buffers as owned memrefs. -/
import proofs.«411553_j46600395162340_3_alg».proof.Proof.Gen.KernelIdeal.Launch
import proofs.«411553_j46600395162340_3_alg».proof.Proof.Gen.KernelIdeal.Skeleton
import proofs.«411553_j46600395162340_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- What core `c`'s buffers hold at the region's entry. Nothing of @main runs before the region, so this is the initial
    memory. -/
abbrev V0 (c : Dev nD) : Valuation τ sig (Elt F) := fun b => m (c, b)
/-- Those contents at one TensorCore buffer. -/
abbrev V (c : Dev nD) (b : Ref sig .tc) : Buf (Elt F) ((c : Thread nD τ).loc b) := V0 m c (Proc.devRef .tc b)

/-! ## The windows' blocks -/

/-- The part of window `w`'s array under its block at point `t`, in the contents the region starts from. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The condition "the pair index is `k`" as the body computes it from grid coordinate 1: compare, widen, compare
    with zero. The body's first five `scf.if` test it at `k = 0, 0, 1, 2, 3`. -/
abbrev condP (k : BitVec 32) (i : grid0.Coords) : Prop :=
  (Scalar.cmpi .ne (Scalar.extui (Scalar.cmpi .eq (BitVec.ofNat 32 (i 1).val) k)) 0#32) = 1#1
/-- The condition of the body's last `scf.if` (the pair index is 3 again): the finalizing block. -/
abbrev cond6 (i : grid0.Coords) : Prop := k0_cond6 i = 1#1

/-- The pair index is 0 exactly at the points whose number is a multiple of 4. -/
theorem hcondP0 : ∀ t : Fin cfg0.N, condP 0#32 (grid0.coords t) ↔ t.val % 4 = 0 :=
  (by decide +kernel : ∀ t : Fin grid0.N, condP 0#32 (grid0.coords t) ↔ t.val % 4 = 0)
/-- The pair index is 1 at the points ≡ 1 (mod 4). -/
theorem hcondP1 : ∀ t : Fin cfg0.N, condP 1#32 (grid0.coords t) ↔ t.val % 4 = 1 :=
  (by decide +kernel : ∀ t : Fin grid0.N, condP 1#32 (grid0.coords t) ↔ t.val % 4 = 1)
/-- The pair index is 2 at the points ≡ 2 (mod 4). -/
theorem hcondP2 : ∀ t : Fin cfg0.N, condP 2#32 (grid0.coords t) ↔ t.val % 4 = 2 :=
  (by decide +kernel : ∀ t : Fin grid0.N, condP 2#32 (grid0.coords t) ↔ t.val % 4 = 2)
/-- The pair index is 3 at the points ≡ 3 (mod 4). -/
theorem hcondP3 : ∀ t : Fin cfg0.N, condP 3#32 (grid0.coords t) ↔ t.val % 4 = 3 :=
  (by decide +kernel : ∀ t : Fin grid0.N, condP 3#32 (grid0.coords t) ↔ t.val % 4 = 3)
/-- The finalizing block runs at the points ≡ 3 (mod 4). -/
theorem hcond6 : ∀ t : Fin cfg0.N, cond6 (grid0.coords t) ↔ t.val % 4 = 3 :=
  (by decide +kernel : ∀ t : Fin grid0.N, cond6 (grid0.coords t) ↔ t.val % 4 = 3)

/-! ## Where the windows are idle, and where the outputs are written back -/

/-- Window 0, an input, is live at every point in the table of idle points. -/
theorem liveAt0_0 : ∀ t : Fin cfg0.N, cfg0.idle 0 (grid0.coords t) = false := by decide +kernel
/-- Window 1, an input, is live at every point in the table of idle points. -/
theorem liveAt0_1 : ∀ t : Fin cfg0.N, cfg0.idle 1 (grid0.coords t) = false := by decide +kernel
/-- Window 2, an input, is live at every point in the table of idle points. -/
theorem liveAt0_2 : ∀ t : Fin cfg0.N, cfg0.idle 2 (grid0.coords t) = false := by decide +kernel
/-- Window 3, an input, is live at every point in the table of idle points. -/
theorem liveAt0_3 : ∀ t : Fin cfg0.N, cfg0.idle 3 (grid0.coords t) = false := by decide +kernel
/-- Window 4, an input, is live at every point in the table of idle points. -/
theorem liveAt0_4 : ∀ t : Fin cfg0.N, cfg0.idle 4 (grid0.coords t) = false := by decide +kernel
/-- Away from the points ≡ 3 (mod 4) output window 5 is idle: the body stores nothing into it there. -/
theorem idleAt0_5 : ∀ t : Fin cfg0.N, ¬ t.val % 4 = 3 → cfg0.idle 5 (grid0.coords t) = true := by decide +kernel
/-- Away from the points ≡ 3 (mod 4) output window 5's block is not written back. -/
theorem noFlush0_5 : ∀ t : Fin cfg0.N, ¬ t.val % 4 = 3 → (cfg0.win 5).flush t = false := by decide +kernel
/-- At the points ≡ 3 (mod 4) output window 5 is live: the body stores into it. -/
theorem liveAt0_5 : ∀ t : Fin cfg0.N, t.val % 4 = 3 → cfg0.idle 5 (grid0.coords t) = false := by decide +kernel
/-- Away from the points ≡ 3 (mod 4) output window 6 is idle: the body stores nothing into it there. -/
theorem idleAt0_6 : ∀ t : Fin cfg0.N, ¬ t.val % 4 = 3 → cfg0.idle 6 (grid0.coords t) = true := by decide +kernel
/-- Away from the points ≡ 3 (mod 4) output window 6's block is not written back. -/
theorem noFlush0_6 : ∀ t : Fin cfg0.N, ¬ t.val % 4 = 3 → (cfg0.win 6).flush t = false := by decide +kernel
/-- At the points ≡ 3 (mod 4) output window 6 is live: the body stores into it. -/
theorem liveAt0_6 : ∀ t : Fin cfg0.N, t.val % 4 = 3 → cfg0.idle 6 (grid0.coords t) = false := by decide +kernel
/-- Away from the points ≡ 3 (mod 4) output window 7 is idle: the body stores nothing into it there. -/
theorem idleAt0_7 : ∀ t : Fin cfg0.N, ¬ t.val % 4 = 3 → cfg0.idle 7 (grid0.coords t) = true := by decide +kernel
/-- Away from the points ≡ 3 (mod 4) output window 7's block is not written back. -/
theorem noFlush0_7 : ∀ t : Fin cfg0.N, ¬ t.val % 4 = 3 → (cfg0.win 7).flush t = false := by decide +kernel
/-- At the points ≡ 3 (mod 4) output window 7 is live: the body stores into it. -/
theorem liveAt0_7 : ∀ t : Fin cfg0.N, t.val % 4 = 3 → cfg0.idle 7 (grid0.coords t) = false := by decide +kernel
/-- Away from the points ≡ 3 (mod 4) output window 8 is idle: the body stores nothing into it there. -/
theorem idleAt0_8 : ∀ t : Fin cfg0.N, ¬ t.val % 4 = 3 → cfg0.idle 8 (grid0.coords t) = true := by decide +kernel
/-- Away from the points ≡ 3 (mod 4) output window 8's block is not written back. -/
theorem noFlush0_8 : ∀ t : Fin cfg0.N, ¬ t.val % 4 = 3 → (cfg0.win 8).flush t = false := by decide +kernel
/-- At the points ≡ 3 (mod 4) output window 8 is live: the body stores into it. -/
theorem liveAt0_8 : ∀ t : Fin cfg0.N, t.val % 4 = 3 → cfg0.idle 8 (grid0.coords t) = false := by decide +kernel
/-- Away from the points ≡ 3 (mod 4) output window 9 is idle: the body stores nothing into it there. -/
theorem idleAt0_9 : ∀ t : Fin cfg0.N, ¬ t.val % 4 = 3 → cfg0.idle 9 (grid0.coords t) = true := by decide +kernel
/-- Away from the points ≡ 3 (mod 4) output window 9's block is not written back. -/
theorem noFlush0_9 : ∀ t : Fin cfg0.N, ¬ t.val % 4 = 3 → (cfg0.win 9).flush t = false := by decide +kernel
/-- At the points ≡ 3 (mod 4) output window 9 is live: the body stores into it. -/
theorem liveAt0_9 : ∀ t : Fin cfg0.N, t.val % 4 = 3 → cfg0.idle 9 (grid0.coords t) = false := by decide +kernel
/-- Away from the points ≡ 3 (mod 4) output window 10 is idle: the body stores nothing into it there. -/
theorem idleAt0_10 : ∀ t : Fin cfg0.N, ¬ t.val % 4 = 3 → cfg0.idle 10 (grid0.coords t) = true := by decide +kernel
/-- Away from the points ≡ 3 (mod 4) output window 10's block is not written back. -/
theorem noFlush0_10 : ∀ t : Fin cfg0.N, ¬ t.val % 4 = 3 → (cfg0.win 10).flush t = false := by decide +kernel
/-- At the points ≡ 3 (mod 4) output window 10 is live: the body stores into it. -/
theorem liveAt0_10 : ∀ t : Fin cfg0.N, t.val % 4 = 3 → cfg0.idle 10 (grid0.coords t) = false := by decide +kernel
/-- Away from the points ≡ 3 (mod 4) output window 11 is idle: the body stores nothing into it there. -/
theorem idleAt0_11 : ∀ t : Fin cfg0.N, ¬ t.val % 4 = 3 → cfg0.idle 11 (grid0.coords t) = true := by decide +kernel
/-- Away from the points ≡ 3 (mod 4) output window 11's block is not written back. -/
theorem noFlush0_11 : ∀ t : Fin cfg0.N, ¬ t.val % 4 = 3 → (cfg0.win 11).flush t = false := by decide +kernel
/-- At the points ≡ 3 (mod 4) output window 11 is live: the body stores into it. -/
theorem liveAt0_11 : ∀ t : Fin cfg0.N, t.val % 4 = 3 → cfg0.idle 11 (grid0.coords t) = false := by decide +kernel

/-! ## The memrefs the body is called on -/

/-- One of output window 5's staging buffers: the window's contents are stated over its index set, whichever is current. -/
abbrev VO0_5 : View sig .tc .vmem S1x1x512 .f32 := (Memref.whole cc0_stg5_0 : Memref sig .tc .vmem S1x1x512 .f32).view
/-- One of output window 6's staging buffers: the window's contents are stated over its index set, whichever is current. -/
abbrev VO0_6 : View sig .tc .vmem S1x1x512 .f32 := (Memref.whole cc0_stg6_0 : Memref sig .tc .vmem S1x1x512 .f32).view
/-- One of output window 7's staging buffers: the window's contents are stated over its index set, whichever is current. -/
abbrev VO0_7 : View sig .tc .vmem S1x1x512 .f32 := (Memref.whole cc0_stg7_0 : Memref sig .tc .vmem S1x1x512 .f32).view
/-- One of output window 8's staging buffers: the window's contents are stated over its index set, whichever is current. -/
abbrev VO0_8 : View sig .tc .vmem S1x1x128 .f32 := (Memref.whole cc0_stg8_0 : Memref sig .tc .vmem S1x1x128 .f32).view
/-- One of output window 9's staging buffers: the window's contents are stated over its index set, whichever is current. -/
abbrev VO0_9 : View sig .tc .vmem S1x1x128 .f32 := (Memref.whole cc0_stg9_0 : Memref sig .tc .vmem S1x1x128 .f32).view
/-- One of output window 10's staging buffers: the window's contents are stated over its index set, whichever is current. -/
abbrev VO0_10 : View sig .tc .vmem S1x1x128 .f32 := (Memref.whole cc0_stg10_0 : Memref sig .tc .vmem S1x1x128 .f32).view
/-- One of output window 11's staging buffers: the window's contents are stated over its index set, whichever is current. -/
abbrev VO0_11 : View sig .tc .vmem S1x1x128 .f32 := (Memref.whole cc0_stg11_0 : Memref sig .tc .vmem S1x1x128 .f32).view
/-- The buffer of each window that is current at point `t` — the one the body is called on — and that it is a whole buffer. -/
abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128 .f32 := win0_11.stage (cfg0.slots t 11)
abbrev hs0_11 (t : Fin cfg0.N) : (ms0_11 t).IsWhole := hstage0_11 ((cfg0.slots t 11).cast nbuf0_11)
/-- The five buffers the kernel keeps for itself from point to point (running maximum, running minimum, channel sum,
    two one-cell accumulators): each a whole buffer, and each with its index set, over which its contents are written. -/
abbrev scM0_0 : Memref sig .tc .vmem S512x512 .f32 := Memref.whole cc0_scratch0
abbrev VS0_0 : View sig .tc .vmem S512x512 .f32 := scM0_0.view
abbrev scM0_1 : Memref sig .tc .vmem S512x512 .f32 := Memref.whole cc0_scratch1
abbrev VS0_1 : View sig .tc .vmem S512x512 .f32 := scM0_1.view
abbrev scM0_2 : Memref sig .tc .vmem S512x512 .f32 := Memref.whole cc0_scratch2
abbrev VS0_2 : View sig .tc .vmem S512x512 .f32 := scM0_2.view
abbrev scM0_3 : Memref sig .tc .vmem S1x1 .f32 := Memref.whole cc0_scratch3
abbrev VS0_3 : View sig .tc .vmem S1x1 .f32 := scM0_3.view
abbrev scM0_4 : Memref sig .tc .vmem S1x1 .f32 := Memref.whole cc0_scratch4
abbrev VS0_4 : View sig .tc .vmem S1x1 .f32 := scM0_4.view

/-- Holding the buffers that are no window's staging buffer, each at something, with the generator register at some
    state, is holding the five scratch buffers each at some contents, with that register; a run of the body starts from
    this form and ends in it. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.K.Region.lean ====
import proofs.«411553_j46600395162340_3_alg».proof.Proof.K.Runs
import Idealize.ShloMosaic.Lib.Pipeline.RegionsLoop

/-! The launch: @main is the one kernel region followed by a line of host operations.

The region is entered from every buffer that is not scoped, held whole at the launch contents. The buffers behind the
windows' arrays are sorted out and shared among the windows; the scratch buffers and the generator register go into
the body's invariant. At the exit the windows' holdings rejoin, and the same buffers are held at the launch contents
updated at the seven output arrays by what the pipeline wrote back. The host operations then run over them. Read at
the end, every such buffer holds what the host operations compute from those contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (c : Dev nD) → Dat τ (Elt F) Unit ℕ (UR sig nD τ) ℕ cfg0 c)

/-- The contents at the region's exit: the launch contents, with each output array at what the write-backs of all
    points leave in it. -/
def W2 (c : Dev nD) : Valuation τ sig (Elt F) :=
  Function.update (Function.update (Function.update (Function.update (Function.update (Function.update (Function.update (V0 m c)
    (Proc.devRef .tc main_v0_0) ((dats c).arrAt 5 cfg0.N)) (Proc.devRef .tc main_v0_1) ((dats c).arrAt 6 cfg0.N))
    (Proc.devRef .tc main_v0_2) ((dats c).arrAt 7 cfg0.N)) (Proc.devRef .tc main_v0_3) ((dats c).arrAt 8 cfg0.N))
    (Proc.devRef .tc main_v0_4) ((dats c).arrAt 9 cfg0.N)) (Proc.devRef .tc main_v0_5) ((dats c).arrAt 10 cfg0.N))
    (Proc.devRef .tc main_v0_6) ((dats c).arrAt 11 cfg0.N)

/-- The contents after the host operations that follow the region. -/
abbrev W3 (c : Dev nD) : Valuation τ sig (Elt F) := StableHlo.after hostOps1 (W2 m dats c)

/-! ## What the exit contents hold -/

theorem W2_out0 (c : Dev nD) : W2 m dats c (Proc.devRef .tc main_v0_0) = (dats c).arrAt 5 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]
theorem W2_out1 (c : Dev nD) : W2 m dats c (Proc.devRef .tc main_v0_1) = (dats c).arrAt 6 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide)), Function.update_self]
theorem W2_out2 (c : Dev nD) : W2 m dats c (Proc.devRef .tc main_v0_2) = (dats c).arrAt 7 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]
theorem W2_out3 (c : Dev nD) : W2 m dats c (Proc.devRef .tc main_v0_3) = (dats c).arrAt 8 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_self]
theorem W2_out4 (c : Dev nD) : W2 m dats c (Proc.devRef .tc main_v0_4) = (dats c).arrAt 9 cfg0.N := by
  unfold W2
  rw [Function.update_of_ne (StableHlo.devRef_ne_of_ne (by decide)), Function.update_of_ne (StableHlo.devRef_ne_of_ne (by decide)),
    Function.update_self]
theorem W2_out5 (c : Dev nD) : W2 m dats c (Proc.devRef .tc main_v0_5) = (dats c).arrAt 10 cfg0.N := by
  unfold W2
  rw [Function.update_of_ne (StableHlo.devRef_ne_of_ne (by decide)), Function.update_self]
theorem W2_out6 (c : Dev nD) : W2 m dats c (Proc.devRef .tc main_v0_6) = (dats c).arrAt 11 cfg0.N := by
  unfold W2; rw [Function.update_self]

/-- Off the seven output arrays the exit contents are the launch contents. -/
theorem W2_of_ne (c : Dev nD) (b : Ref sig .tc) (h0 : b ≠ main_v0_0) (h1 : b ≠ main_v0_1) (h2 : b ≠ main_v0_2) (h3 : b ≠ main_v0_3)
    (h4 : b ≠ main_v0_4) (h5 : b ≠ main_v0_5) (h6 : b ≠ main_v0_6) :
    W2 m dats c (Proc.devRef .tc b) = V0 m c (Proc.devRef .tc b) := by
  unfold W2
  rw [Function.update_of_ne (StableHlo.devRef_ne_of_ne h6), Function.update_of_ne (StableHlo.devRef_ne_of_ne h5),
    Function.update_of_ne (StableHlo.devRef_ne_of_ne h4), Function.update_of_ne (StableHlo.devRef_ne_of_ne h3),
    Function.update_of_ne (StableHlo.devRef_ne_of_ne h2), Function.update_of_ne (StableHlo.devRef_ne_of_ne h1),
    Function.update_of_ne (StableHlo.devRef_ne_of_ne h0)]

/-- The exit contents read at the TensorCore's references. -/
abbrev V2 (c : Dev nD) (b : Ref sig .tc) : Buf (Elt F) ((c : Thread nD τ).loc b) := W2 m dats c (Proc.devRef .tc b)

section Launch

variable (hA : ∀ c w, (dats c).A w = V m c (Pipeline.arrRef spec0 w))
variable (hq : ∀ c, (dats c).q 0 = fullShare.left ∧ (dats c).q 1 = fullShare.right ∧ (dats c).q 2 = fullShare.left
    ∧ (dats c).q 3 = fullShare.right ∧ (dats c).q 4 = fullShare)
variable (howed : ∀ c t, (dats c).owed t = 0) (hrec : ∀ c t, (dats c).recorded t = Set.univ)
variable (hsplitArr : ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    ((Pipeline.arrBufs (Ix := Unit) (Name := ℕ) (U := UR sig nD τ) (Lvl := ℕ) spec0 c Vv : sProp 𝕄) ⊢ (dats c).arrays Fv))
variable (hjoinArr : ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    (((dats c).arrays Fv : sProp 𝕄) ⊢ Pipeline.arrBufs (Ix := Unit) (Name := ℕ) (U := UR sig nD τ) (Lvl := ℕ) spec0 c Vv))

include hA in
/-- Each window's array holds, at the exit contents, what the pipeline leaves in it: an output what its write-backs
    left, an input its launch contents (an input array is never written). -/
theorem hF2 (c : Dev nD) (w : Fin cfg0.W) : (dats c).arrAt w cfg0.N = V2 m dats c (Pipeline.arrRef spec0 w) := by
  fin_cases w
  · exact ((dats c).arrAt_in 0 rfl _).trans ((hA c 0).trans (W2_of_ne m dats c main_arg0 (by decide) (by decide) (by decide) (by decide) (by decide) (by decide) (by decide)).symm)
  · exact ((dats c).arrAt_in 1 rfl _).trans ((hA c 1).trans (W2_of_ne m dats c main_arg0 (by decide) (by decide) (by decide) (by decide) (by decide) (by decide) (by decide)).symm)
  · exact ((dats c).arrAt_in 2 rfl _).trans ((hA c 2).trans (W2_of_ne m dats c main_arg2 (by decide) (by decide) (by decide) (by decide) (by decide) (by decide) (by decide)).symm)
  · exact ((dats c).arrAt_in 3 rfl _).trans ((hA c 3).trans (W2_of_ne m dats c main_arg2 (by decide) (by decide) (by decide) (by decide) (by decide) (by decide) (by decide)).symm)
  · exact ((dats c).arrAt_in 4 rfl _).trans ((hA c 4).trans (W2_of_ne m dats c main_arg1 (by decide) (by decide) (by decide) (by decide) (by decide) (by decide) (by decide)).symm)
  · exact (W2_out0 m dats c).symm
  · exact (W2_out1 m dats c).symm
  · exact (W2_out2 m dats c).symm
  · exact (W2_out3 m dats c).symm
  · exact (W2_out4 m dats c).symm
  · exact (W2_out5 m dats c).symm
  · exact (W2_out6 m dats c).symm

/-- A buffer that is no window's array holds at the exit what it held at the launch. -/
theorem hrest2 (c : Dev nD) : ∀ b, b ∉ Finset.univ.image (Pipeline.arrRef spec0) → V2 m dats c b = V m c b := fun b hb =>
  W2_of_ne m dats c b (fun e => hb (Finset.mem_image.mpr ⟨5, Finset.mem_univ _, e.symm⟩)) (fun e => hb (Finset.mem_image.mpr ⟨6, Finset.mem_univ _, e.symm⟩))
    (fun e => hb (Finset.mem_image.mpr ⟨7, Finset.mem_univ _, e.symm⟩)) (fun e => hb (Finset.mem_image.mpr ⟨8, Finset.mem_univ _, e.symm⟩))
    (fun e => hb (Finset.mem_image.mpr ⟨9, Finset.mem_univ _, e.symm⟩)) (fun e => hb (Finset.mem_image.mpr ⟨10, Finset.mem_univ _, e.symm⟩))
    (fun e => hb (Finset.mem_image.mpr ⟨11, Finset.mem_univ _, e.symm⟩))

end Launch

/-! ## The facts the launch takes of the proof data, named -/

/-- The buffers behind the windows' arrays, each whole, give the windows' holdings. -/
def SplitArr : Prop := ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    ((Pipeline.arrBufs (Ix := Unit) (Name := ℕ) (U := UR sig nD τ) (Lvl := ℕ) spec0 c Vv : sProp 𝕄) ⊢ (dats c).arrays Fv)
/-- And back. -/
def JoinArr : Prop := ∀ (c : Dev nD) (Vv : (b : Ref sig .tc) → Buf (Elt F) ((c : Thread nD τ).loc b))
    (Fv : (w : Fin cfg0.W) → Buf (Elt F) ((cfg0.win w).arr.view.loc (c : Thread nD τ))), (∀ w, Fv w = Vv (Pipeline.arrRef spec0 w)) →
    (((dats c).arrays Fv : sProp 𝕄) ⊢ Pipeline.arrBufs (Ix := Unit) (Name := ℕ) (U := UR sig nD τ) (Lvl := ℕ) spec0 c Vv)
/-- The arrays' entry contents are the launch contents. -/
def EntryA : Prop := ∀ c w, (dats c).A w = V m c (Pipeline.arrRef spec0 w)
/-- Nothing owed, nothing bounded. -/
def OwesNothing : Prop := (∀ c t, (dats c).owed t = 0) ∧ (∀ c t, (dats c).recorded t = Set.univ)
/-- The body obligation at every point, on every core. -/
def BodyOb : Prop := ∀ c, Pipeline.BodyObligationLoose (dats c) (defs₀ (F := F)) Variants.none () Set.univ
/-- The invariant before the first point is what the launch hands over; after the last point it gives that back. -/
def InPhi : Prop := ∀ c, (Pipeline.ΦA spec0 c : sProp 𝕄) ⊢ (dats c).Φ 0
def OutPhi : Prop := ∀ c, ((dats c).Φ (Fin.last cfg0.N) : sProp 𝕄) ⊢ Pipeline.ΦA spec0 c

section Run

variable (hA : EntryA m dats) (hO : OwesNothing dats) (hsplitArr : SplitArr dats) (hjoinArr : JoinArr dats)
variable (hbody : BodyOb dats) (hinΦ : InPhi dats) (houtΦ : OutPhi dats)

include hO in
/-- The core owing nothing is the pipeline's owes at any point of proof data that owe nothing and bound nothing. -/
theorem owesAt_intro (c : Dev nD) (t : Fin (cfg0.N + 1)) :
    iprop(∃ W, owes (c : Thread nD τ) (0 : CellTallies nD τ sig Unit) W) ⊢ ((dats c).owesAt () t : sProp 𝕄) := by
  unfold Pipeline.Dat.owesAt Pipeline.owesWithin Pipeline.Dat.bound; rw [hO.1 c t, hO.2 c t]
  iintro ⟨%W, HO⟩; iexists W; isplitr; · ipureintro; exact fun _ _ => Or.inl trivial
  iexact HO

include hO in
theorem owesAt_elim (c : Dev nD) (t : Fin (cfg0.N + 1)) :
    ((dats c).owesAt () t : sProp 𝕄) ⊢ iprop(∃ W, owes (c : Thread nD τ) (0 : CellTallies nD τ sig Unit) W) := by
  unfold Pipeline.Dat.owesAt Pipeline.owesWithin; rw [hO.1 c t]
  iintro ⟨%W, -, HO⟩; iexists W; iexact HO

include hA hsplitArr in
/-- ENTRY: every unscoped buffer held whole at the launch contents gives the windows' holdings at the entry contents,
    and the unscoped buffers that are no window's array. -/
theorem entry_split (c : Dev nD) :
    (StableHlo.held (c : Thread nD τ) (Pipeline.ucRefs τ sig) (V0 m c) : sProp 𝕄)
      ⊢ iprop((dats c).arrays (fun w => (dats c).arrAt w 0) ∗ Pipeline.unscopedRest (Ix := Unit) (Name := ℕ) (U := UR sig nD τ) (Lvl := ℕ) spec0 c (V m c)) := by
  rw [← Pipeline.unscopedBufs_held (Ix := Unit) (Name := ℕ) (U := UR sig nD τ) (Lvl := ℕ) c (V0 m c)]
  rw [show (fun b : Ref sig .tc => V0 m c b) = V m c from rfl, Pipeline.unscopedBufs_split₀ cfgs (0 : Fin 1) winFacts₀0.arr_unscoped c (V m c)]
  exact sep_mono (hsplitArr c (V m c) (fun w => (dats c).arrAt w 0) (fun w => (show (dats c).arrAt w 0 = (dats c).A w from rfl).trans (hA c w))) .rfl

include hA hjoinArr in
/-- EXIT: the windows' holdings at what the pipeline leaves, with the other unscoped buffers as they were, are every
    unscoped buffer held whole at the exit contents. -/
theorem exit_join (c : Dev nD) :
    iprop((dats c).arrays (fun w => (dats c).arrAt w cfg0.N) ∗ Pipeline.unscopedRest (Ix := Unit) (Name := ℕ) (U := UR sig nD τ) (Lvl := ℕ) spec0 c (V m c))
      ⊢ (StableHlo.held (c : Thread nD τ) (Pipeline.ucRefs τ sig) (W2 m dats c) : sProp 𝕄) := by
  have hrestEq : (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (V2 m dats c) := by
    unfold Pipeline.unscopedRest
    exact bigSep_congr fun b hb => by rw [hrest2 m dats c b (Finset.mem_sdiff.mp hb).2]
  rw [← Pipeline.unscopedBufs_held (Ix := Unit) (Name := ℕ) (U := UR sig nD τ) (Lvl := ℕ) c (W2 m dats c)]
  rw [show (fun b : Ref sig .tc => W2 m dats c b) = V2 m dats c from rfl, Pipeline.unscopedBufs_split₀ cfgs (0 : Fin 1) winFacts₀0.arr_unscoped c (V2 m dats c), hrestEq]
  exact sep_mono (hjoinArr c (V2 m dats c) (fun w => (dats c).arrAt w cfg0.N) (hF2 m dats hA c)) .rfl

/-! ## The proof data family, the thread state, the segments -/

abbrev adm : (p : Fin 1) → (pcfgs (F := F) p).Adm := fun p => (cfgs p).toPCfg_adm
/-- The one pipeline's proof data, as a family over the pipeline index (a literal match). -/
def pdats : (p : Fin 1) → (c : Dev nD) → Dat τ (Elt F) Unit ℕ (UR sig nD τ) ℕ (Pipeline.pin (pcfgs (F := F)) adm p) c
  | ⟨0, _⟩ => fun c => dats c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host operations after the region, as a segment over every unscoped buffer from the exit contents. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m dats) R

/-- The last thread state, the owes apart. -/
abbrev Tₙ (c : Dev nD) : sProp 𝕄 := iprop(StableHlo.held (c : Thread nD τ) (Pipeline.ucRefs τ sig) (W3 m dats c) ∗ ∃ r, prngReg c r)

set_option backward.isDefEq.respectTransparency.types false in
/-- The kernel region over the thread state: entered from every unscoped buffer at the launch contents, left at the
    exit contents. -/
def reg0 : Pipeline.RegionSeg (pcfgs (F := F)) adm (pdats dats) () defs₀ 𝒱₀ L lv 0 where
  win := winFacts₀0
  block_pos := block_pos0
  stage_whole := stage_whole0
  K := PEmpty
  osem k := k.elim
  ho := Pipeline.OwnSemFacts.none _
  hbody c := hbody c
  hwaits := Pipeline.hwaits_of_owed_zero _ _ _ _ L lv 0 fun c t => hO.1 c t
  pre c := iprop(StableHlo.held (c : Thread nD τ) (Pipeline.ucRefs τ sig) (V0 m c) ∗ R c)
  post c := iprop(StableHlo.held (c : Thread nD τ) (Pipeline.ucRefs τ sig) (W2 m dats c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    refine (sep_mono (sep_mono (entry_split m dats hA hsplitArr c) .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owesAt_intro dats hO c 0); iexact HO
    isplitl [Hp]; · iexact Hp
    iexact Hrest
  hin c := (show _ ⊢ (Pipeline.ΦA spec0 c : sProp 𝕄) from by
      unfold Pipeline.ΦA
      iintro ⟨Hp, -, Hr⟩
      isplitl [Hr]; · iexact Hr
      iexact Hp).trans (hinΦ c)
  hout c := (houtΦ c).trans (by
      rw [Pipeline.ownSems0_none]; unfold Pipeline.ΦA
      iintro ⟨Hr, Hp⟩
      isplitl [Hp]; · iexact Hp
      isplitr; · iempintro
      iexact Hr)
  hexit c := by
    have hjoin := exit_join m dats hA hjoinArr c
    iintro ⟨Ha, HO, HY, Hrest⟩
    imodintro
    isplitl [Ha Hrest]
    · iapply hjoin
      isplitl [Ha]; · iexact Ha
      iexact Hrest
    isplitl [HY]; · iexact HY
    iapply (owesAt_elim dats hO c _); iexact HO

/-! ## @main as its two segments, and the launch -/

/-- @main's segments: the kernel region, then the host operations. -/
abbrev segs : List (Pipeline.Seg (pcfgs (F := F)) adm (pdats dats) () defs₀ 𝒱₀ L lv) :=
  [ .region (reg0 m dats hA hO hsplitArr hjoinArr hbody hinΦ houtΦ),
    .host (tailSeg m dats) ]

/-- @main is the run of its segments. -/
theorem main_run (c : Dev nD) : main (F := F) c = Pipeline.Seg.run (segs m dats hA hO hsplitArr hjoinArr hbody hinΦ houtΦ) :=
  (main_chain c).trans (by chain_rfl)

include hA hO hsplitArr hjoinArr hbody hinΦ houtΦ in
set_option backward.isDefEq.respectTransparency.types false in
/-- The kernel program's run. Start @main on any memory whose counters are zero; every weakly fair execution ends
    without a fault, and each buffer that is not scoped then holds the host operations' result on the region's exit
    contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m dats c b) :=
  Pipeline.θ_run_regions_kit (pcfgs (F := F)) adm (pdats dats) () cellOf_inj emb₁ defs₀ 𝒱₀ L lv m ρ main
    (segs m dats hA hO hsplitArr hjoinArr hbody hinΦ houtΦ)
    (fun c Q => by rw [main_run m dats hA hO hsplitArr hjoinArr hbody hinΦ houtΦ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m dats)
    (hch := ⟨fun _ => .rfl, fun _ => .rfl, fun c => by
      show iprop(StableHlo.held (c : Thread nD τ) (Pipeline.ucRefs τ sig) (W3 m dats c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dats c b)
    (hfin := fun c s' => by
      iintro ⟨⟨Hh, -⟩, HSI⟩
      unfold StableHlo.held
      imodintro
      iapply (pointsTo_read_all (Pipeline.ucRefs τ sig) (fun b => (((c : Thread nD τ)).1, b)) (W3 m dats c) s')
      isplitl [Hh] <;> iassumption)
    (hQ := fun s h c => h c)

end Run

end Cert.KernelIdeal.Hand

end
-- ==== Proof.K.Shares.lean ====
import proofs.«411553_j46600395162340_3_alg».proof.Proof.Gen.KernelIdeal.Launch
import proofs.«411553_j46600395162340_3_alg».proof.Proof.Gen.KernelIdeal.Points
import Idealize.ShloMosaic.Lib.Pipeline.Regions
import Idealize.ShloMosaic.Lib.Pipeline.Frame

/-! Two windows on one array: the halves of a buffer.

Windows 0 and 1 read one array, and so do windows 2 and 3. The region is handed each distinct buffer behind the
windows' arrays whole; the pipeline wants one holding per window. A whole holding of a buffer is the separating
conjunction of its left-half and right-half holdings at the same contents, so the two descriptions entail each other
when windows 0 and 2 take the left halves, windows 1 and 3 the right halves, and every other window a whole buffer. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The buffers behind the twelve windows' arrays are ten: windows 0 and 1 sit on one, windows 2 and 3 on another. -/
theorem arrRefs_eq : Finset.univ.image (Pipeline.arrRef spec0)
    = [main_arg0, main_arg2, main_arg1, main_v0_0, main_v0_1, main_v0_2, main_v0_3, main_v0_4, main_v0_5, main_v0_6].toFinset := by decide

/-- The ten are pairwise distinct. -/
theorem arrRefs_nodup :
    [main_arg0, main_arg2, main_arg1, main_v0_0, main_v0_1, main_v0_2, main_v0_3, main_v0_4, main_v0_5, main_v0_6].Nodup := by decide

section Chains

variable (c : Dev nD) (dat : Dat τ (Elt F) Unit ℕ (UR sig nD τ) ℕ cfg0 c)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w))

/-- The distinct buffers, each whole, conjoined one by one. -/
theorem arrBufs_chain :
    (Pipeline.arrBufs (Ix := Unit) (Name := ℕ) (U := UR sig nD τ) (Lvl := ℕ) spec0 c Vv : sProp 𝕄)
      = iprop(((c : Thread nD τ).loc main_arg0 ↦{fullShare} Vv main_arg0) ∗
      ((c : Thread nD τ).loc main_arg2 ↦{fullShare} Vv main_arg2) ∗
      ((c : Thread nD τ).loc main_arg1 ↦{fullShare} Vv main_arg1) ∗
      ((c : Thread nD τ).loc main_v0_0 ↦{fullShare} Vv main_v0_0) ∗
      ((c : Thread nD τ).loc main_v0_1 ↦{fullShare} Vv main_v0_1) ∗
      ((c : Thread nD τ).loc main_v0_2 ↦{fullShare} Vv main_v0_2) ∗
      ((c : Thread nD τ).loc main_v0_3 ↦{fullShare} Vv main_v0_3) ∗
      ((c : Thread nD τ).loc main_v0_4 ↦{fullShare} Vv main_v0_4) ∗
      ((c : Thread nD τ).loc main_v0_5 ↦{fullShare} Vv main_v0_5) ∗
      ((c : Thread nD τ).loc main_v0_6 ↦{fullShare} Vv main_v0_6)) := by
  unfold Pipeline.arrBufs
  rw [bigSep_eq_bigSepL_of_eq _ arrRefs_eq arrRefs_nodup]
  rfl

include hF in
/-- One window's holding, its array a whole buffer `b`: the plain points-to of `b` at the window's share `q`,
    at the contents the region was handed of `b`. -/
theorem win_pt (w : Fin 12) (b : Ref sig .tc) (hb : Pipeline.arrRef spec0 w = b) (q : PosShare TreeShare) (hq : dat.share w = q) :
    ((cfg0.win w).arr.view.loc (c : Thread nD τ) ↦[(cfg0.win w).arr.view.set]{dat.share w} Fv w : sProp 𝕄)
      = ((c : Thread nD τ).loc b ↦{q} Vv b) := by
  subst hb
  rw [(arr_whole0 w).set_eq_univ, hq, hF w]

include hF in
/-- The twelve windows' holdings conjoined one by one: an input window at its own share, an output window whole. -/
theorem arrays_chain (hq0 : dat.q 0 = fullShare.left) (hq1 : dat.q 1 = fullShare.right) (hq2 : dat.q 2 = fullShare.left)
    (hq3 : dat.q 3 = fullShare.right) (hq4 : dat.q 4 = fullShare) :
    (dat.arrays Fv : sProp 𝕄)
      = iprop(((c : Thread nD τ).loc main_arg0 ↦{fullShare.left} Vv main_arg0) ∗
      ((c : Thread nD τ).loc main_arg0 ↦{fullShare.right} Vv main_arg0) ∗
      ((c : Thread nD τ).loc main_arg2 ↦{fullShare.left} Vv main_arg2) ∗
      ((c : Thread nD τ).loc main_arg2 ↦{fullShare.right} Vv main_arg2) ∗
      ((c : Thread nD τ).loc main_arg1 ↦{fullShare} Vv main_arg1) ∗
      ((c : Thread nD τ).loc main_v0_0 ↦{fullShare} Vv main_v0_0) ∗
      ((c : Thread nD τ).loc main_v0_1 ↦{fullShare} Vv main_v0_1) ∗
      ((c : Thread nD τ).loc main_v0_2 ↦{fullShare} Vv main_v0_2) ∗
      ((c : Thread nD τ).loc main_v0_3 ↦{fullShare} Vv main_v0_3) ∗
      ((c : Thread nD τ).loc main_v0_4 ↦{fullShare} Vv main_v0_4) ∗
      ((c : Thread nD τ).loc main_v0_5 ↦{fullShare} Vv main_v0_5) ∗
      ((c : Thread nD τ).loc main_v0_6 ↦{fullShare} Vv main_v0_6)) := by
  unfold Dat.arrays
  rw [bigSep_W0,
    win_pt c dat Vv Fv hF 0 main_arg0 rfl fullShare.left hq0,
    win_pt c dat Vv Fv hF 1 main_arg0 rfl fullShare.right hq1,
    win_pt c dat Vv Fv hF 2 main_arg2 rfl fullShare.left hq2,
    win_pt c dat Vv Fv hF 3 main_arg2 rfl fullShare.right hq3,
    win_pt c dat Vv Fv hF 4 main_arg1 rfl fullShare hq4,
    win_pt c dat Vv Fv hF 5 main_v0_0 rfl fullShare rfl,
    win_pt c dat Vv Fv hF 6 main_v0_1 rfl fullShare rfl,
    win_pt c dat Vv Fv hF 7 main_v0_2 rfl fullShare rfl,
    win_pt c dat Vv Fv hF 8 main_v0_3 rfl fullShare rfl,
    win_pt c dat Vv Fv hF 9 main_v0_4 rfl fullShare rfl,
    win_pt c dat Vv Fv hF 10 main_v0_5 rfl fullShare rfl,
    win_pt c dat Vv Fv hF 11 main_v0_6 rfl fullShare rfl]

end Chains

/-- The distinct buffers behind the windows' arrays, each whole, give one holding per window at the shares named. -/
theorem arrBufs_arrays (c : Dev nD) (dat : Dat τ (Elt F) Unit ℕ (UR sig nD τ) ℕ cfg0 c)
    (hq0 : dat.q 0 = fullShare.left) (hq1 : dat.q 1 = fullShare.right) (hq2 : dat.q 2 = fullShare.left)
    (hq3 : dat.q 3 = fullShare.right) (hq4 : dat.q 4 = fullShare)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w)) :
    (Pipeline.arrBufs (Ix := Unit) (Name := ℕ) (U := UR sig nD τ) (Lvl := ℕ) spec0 c Vv : sProp 𝕄) ⊢ dat.arrays Fv := by
  rw [arrBufs_chain c Vv, arrays_chain c dat Vv Fv hF hq0 hq1 hq2 hq3 hq4]
  iintro ⟨HA, HB, HC, H0, H1, H2, H3, H4, H5, H6⟩
  -- each of the two shared buffers is cut into its halves
  ihave HA := (pointsTo_share (PosShare.mem_left_op_right fullShare)).1 $$ HA
  icases HA with ⟨HAl, HAr⟩
  ihave HB := (pointsTo_share (PosShare.mem_left_op_right fullShare)).1 $$ HB
  icases HB with ⟨HBl, HBr⟩
  isplitl [HAl]; · iexact HAl
  isplitl [HAr]; · iexact HAr
  isplitl [HBl]; · iexact HBl
  isplitl [HBr]; · iexact HBr
  isplitl [HC]; · iexact HC
  isplitl [H0]; · iexact H0
  isplitl [H1]; · iexact H1
  isplitl [H2]; · iexact H2
  isplitl [H3]; · iexact H3
  isplitl [H4]; · iexact H4
  isplitl [H5]; · iexact H5
  iexact H6

/-- And back: the per-window holdings at those shares rejoin into the distinct buffers, each whole. -/
theorem arrays_arrBufs (c : Dev nD) (dat : Dat τ (Elt F) Unit ℕ (UR sig nD τ) ℕ cfg0 c)
    (hq0 : dat.q 0 = fullShare.left) (hq1 : dat.q 1 = fullShare.right) (hq2 : dat.q 2 = fullShare.left)
    (hq3 : dat.q 3 = fullShare.right) (hq4 : dat.q 4 = fullShare)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w)) :
    (dat.arrays Fv : sProp 𝕄) ⊢ Pipeline.arrBufs (Ix := Unit) (Name := ℕ) (U := UR sig nD τ) (Lvl := ℕ) spec0 c Vv := by
  rw [arrBufs_chain c Vv, arrays_chain c dat Vv Fv hF hq0 hq1 hq2 hq3 hq4]
  iintro ⟨HAl, HAr, HBl, HBr, HC, H0, H1, H2, H3, H4, H5, H6⟩
  -- the two halves of each shared buffer, at one contents, are the buffer whole
  isplitl [HAl HAr]
  · iapply (pointsTo_share (PosShare.mem_left_op_right fullShare)).2
    isplitl [HAl]; · iexact HAl
    iexact HAr
  isplitl [HBl HBr]
  · iapply (pointsTo_share (PosShare.mem_left_op_right fullShare)).2
    isplitl [HBl]; · iexact HBl
    iexact HBr
  isplitl [HC]; · iexact HC
  isplitl [H0]; · iexact H0
  isplitl [H1]; · iexact H1
  isplitl [H2]; · iexact H2
  isplitl [H3]; · iexact H3
  isplitl [H4]; · iexact H4
  isplitl [H5]; · iexact H5
  iexact H6

end Cert.KernelIdeal.Hand

end
-- ==== Proof.K.RunA.lean ====
/- The whole-body run of the kernel body in case A (pair index 0): the scratch buffers are reset and pair 0's update
   is accumulated into them; nothing is stored into the outputs. The stores each scratch buffer ends with are
   part of what is proved, not given in advance. -/
import proofs.«411553_j46600395162340_3_alg».proof.Proof.K.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (the pair index is 0: the first two conditionals taken, the other four not). Given every buffer whole — the
    inputs at `x·`, the outputs at `xi·`, each scratch at anything (the reset stores each whole before any load of it) —
    the body ends with the inputs and the outputs as they were (no store reaches an output in this case) and each
    scratch buffer at the listed stores, latest first, written over some contents.
    The lists are part of the statement: they are produced together with the proof. -/
noncomputable def kernelRun0_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) :
    Σ' (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (xi5 xi6 xi7 : Vec F S1x1x512 .f32) (xi8 xi9 xi10 xi11 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun xi5 xi6 xi7 xi8 xi9 xi10 xi11 E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; iexact HS0
    isplitl [HS1]
    · iexists _; iexact HS1
    isplitl [HS2]
    · iexists _; iexact HS2
    isplitl [HS3]
    · iexists _; iexact HS3
    iexists _; iexact HS4

end Cert.KernelIdeal.Hand

end
-- ==== Proof.K.RunB.lean ====
/- The whole-body run of the kernel body in case B (pair index 1): pair 1's update is accumulated into the five
   scratch buffers, each read at the contents the point before left; nothing is stored into the outputs. The stores
   each scratch buffer ends with are part of what is proved, not given in advance. -/
import proofs.«411553_j46600395162340_3_alg».proof.Proof.K.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (the pair index is 1: the third conditional taken, the other five not). Given every buffer whole — the
    inputs at `x·`, the outputs at `xi·`, each scratch at the contents `xs·` the point before left — the body ends with
    the inputs and the outputs as they were (no store reaches an output in this case) and each scratch buffer at the
    listed stores, latest first, written over some contents. Each scratch is loaded before it is stored into, so the
    stored values are terms over `xs·`. The lists are part of the statement: they are produced together with the proof. -/
noncomputable def kernelRun0_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32)
    (xs0 xs1 xs2 : Vec F S512x512 .f32) (xs3 xs4 : Vec F S1x1 .f32) :
    Σ' (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (xi5 xi6 xi7 : Vec F S1x1x512 .f32) (xi8 xi9 xi10 xi11 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun xi5 xi6 xi7 xi8 xi9 xi10 xi11 E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; iexact HS0
    isplitl [HS1]
    · iexists _; iexact HS1
    isplitl [HS2]
    · iexists _; iexact HS2
    isplitl [HS3]
    · iexists _; iexact HS3
    iexists _; iexact HS4

end Cert.KernelIdeal.Hand

end
-- ==== Proof.K.RunC.lean ====
/- The whole-body run of the kernel body in case C (pair index 2): pair 2's update is accumulated into the five
   scratch buffers, each taken at the contents the point before left; nothing is stored into the outputs. The stores
   each scratch buffer ends with are part of what is proved, not given in advance. -/
import proofs.«411553_j46600395162340_3_alg».proof.Proof.K.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (the pair index is 2: the fourth conditional taken, the other five not). Given every buffer whole — the
    inputs at `x·`, the outputs at `xi·`, each scratch at the contents `xs·` the point before left — the body ends with
    the inputs and the outputs as they were (no store reaches an output in this case) and each scratch buffer at the
    listed stores, latest first, written over some contents (each scratch is loaded before it is stored into). The lists are part of
    the statement: they are produced together with the proof. -/
noncomputable def kernelRun0_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    Σ' (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (xi5 xi6 xi7 : Vec F S1x1x512 .f32) (xi8 xi9 xi10 xi11 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun xi5 xi6 xi7 xi8 xi9 xi10 xi11 E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; iexact HS0
    isplitl [HS1]
    · iexists _; iexact HS1
    isplitl [HS2]
    · iexists _; iexact HS2
    isplitl [HS3]
    · iexists _; iexact HS3
    iexists _; iexact HS4

end Cert.KernelIdeal.Hand

end
-- ==== Proof.K.RunD.lean ====
/- The whole-body run of the kernel body in case D (pair index 3): the last pair's update is accumulated into the
   five scratch buffers, and then the finalizing block reads them back and stores into all seven outputs. The stores
   each scratch buffer and each output ends with are part of what is proved, not given in advance. -/
import proofs.«411553_j46600395162340_3_alg».proof.Proof.K.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case D (the pair index is 3: the first four conditionals not taken, the fifth and the finalizing sixth taken).
    Given every buffer whole — the inputs at `x·`, the outputs at anything (each is stored whole; the loads before the
    stores are dead), each scratch at the contents `xs·` the point before left (the update loads them before it stores) —
    the body ends with the inputs as they were and each output and each scratch buffer at the listed stores, latest
    first, written over some contents. The finalizing block's loads of the scratch buffers read what the update has just
    stored. The lists are part of the statement: they are produced together with the proof. -/
noncomputable def kernelRun0_D (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    Σ' (L5 : List (View.Piece (Elt F) S1x1x512 .f32)) (L6 : List (View.Piece (Elt F) S1x1x512 .f32)) (L7 : List (View.Piece (Elt F) S1x1x512 .f32)) (L8 : List (View.Piece (Elt F) S1x1x128 .f32)) (L9 : List (View.Piece (Elt F) S1x1x128 .f32)) (L10 : List (View.Piece (Elt F) S1x1x128 .f32)) (L11 : List (View.Piece (Elt F) S1x1x128 .f32)) (LS0 : List (View.Piece (Elt F) S512x512 .f32)) (LS1 : List (View.Piece (Elt F) S512x512 .f32)) (LS2 : List (View.Piece (Elt F) S512x512 .f32)) (LS3 : List (View.Piece (Elt F) S1x1 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__bicon_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, ?_, fun E K => ?run⟩
  case run =>
    simp only [cc0__bicon_kernel_eq_skeleton]; unfold cc0__bicon_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg14.eq_unread hfs0; obtain rfl := harg15.eq_unread hfs1; obtain rfl := harg16.eq_unread hfs2; obtain rfl := harg17.eq_unread hfs3; obtain rfl := harg18.eq_unread hfs4
    sl_exec (disch := first | exact hc0 | exact hc1 | exact hc2 | exact hc3 | exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [HS0]
    · iexists _; iexact HS0
    isplitl [HS1]
    · iexists _; iexact HS1
    isplitl [HS2]
    · iexists _; iexact HS2
    isplitl [HS3]
    · iexists _; iexact HS3
    iexists _; iexact HS4

end Cert.KernelIdeal.Hand

end
-- ==== Proof.K.Outs.lean ====
/- What the four runs leave: per case, that the pieces found for each scratch buffer (and, in the finalizing case, for
   each output) cover it, and the contents they leave read back; the accumulation of these over the grid's points
   (`outsAt0`: case by the point's residue mod 4, the scratch carried from the point before); and the region
   invariant that carries the scratch buffers at those contents from point to point. -/
import proofs.«411553_j46600395162340_3_alg».proof.Proof.K.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the twelve buffers the body stores into hold after a point: the seven outputs' staging buffers (windows 5..11)
    and the five scratch buffers. -/
structure Outs (F : FTy → Type) where
  o5 : Vec F S1x1x512 .f32
  o6 : Vec F S1x1x512 .f32
  o7 : Vec F S1x1x512 .f32
  o8 : Vec F S1x1x128 .f32
  o9 : Vec F S1x1x128 .f32
  o10 : Vec F S1x1x128 .f32
  o11 : Vec F S1x1x128 .f32
  s0 : Vec F S512x512 .f32
  s1 : Vec F S512x512 .f32
  s2 : Vec F S512x512 .f32
  s3 : Vec F S1x1 .f32
  s4 : Vec F S1x1 .f32

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each scratch buffer, and case D in each output -/

/-- Every entry of scratch 0 (the running maximum) lies in one of the boxes case A stores into it. -/
theorem scover0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).1 S512x512.size (by sl_kernel_rfl) y

/-- Scratch 0 after case A: the case's stores into it, laid over a placeholder and read back. -/
def sout0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S512x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).1)

/-- Every entry of scratch 1 (the running minimum) lies in one of the boxes case A stores into it. -/
theorem scover0_A_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.1 S512x512.size (by sl_kernel_rfl) y

/-- Scratch 1 after case A: the case's stores into it, laid over a placeholder and read back. -/
def sout0_A_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S512x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.1)

/-- Every entry of scratch 2 (the channel sum) lies in one of the boxes case A stores into it. -/
theorem scover0_A_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.1 S512x512.size (by sl_kernel_rfl) y

/-- Scratch 2 after case A: the case's stores into it, laid over a placeholder and read back. -/
def sout0_A_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S512x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.1)

/-- Every entry of scratch 3 (the first one-cell accumulator) lies in one of the boxes case A stores into it. -/
theorem scover0_A_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.1 S1x1.size (by sl_kernel_rfl) y

/-- Scratch 3 after case A: the case's stores into it, laid over a placeholder and read back. -/
def sout0_A_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.1)

/-- Every entry of scratch 4 (the second one-cell accumulator) lies in one of the boxes case A stores into it. -/
theorem scover0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.2.1 S1x1.size (by sl_kernel_rfl) y

/-- Scratch 4 after case A: the case's stores into it, laid over a placeholder and read back. -/
def sout0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) : Vec F S1x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4).2.2.2.2.1)

/-- Every entry of scratch 0 (the running maximum) lies in one of the boxes case B stores into it. -/
theorem scover0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1 S512x512.size (by sl_kernel_rfl) y

/-- Scratch 0 after case B: the case's stores into it, laid over a placeholder and read back. -/
def sout0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1)

/-- Every entry of scratch 1 (the running minimum) lies in one of the boxes case B stores into it. -/
theorem scover0_B_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1 S512x512.size (by sl_kernel_rfl) y

/-- Scratch 1 after case B: the case's stores into it, laid over a placeholder and read back. -/
def sout0_B_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1)

/-- Every entry of scratch 2 (the channel sum) lies in one of the boxes case B stores into it. -/
theorem scover0_B_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1 S512x512.size (by sl_kernel_rfl) y

/-- Scratch 2 after case B: the case's stores into it, laid over a placeholder and read back. -/
def sout0_B_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1)

/-- Every entry of scratch 3 (the first one-cell accumulator) lies in one of the boxes case B stores into it. -/
theorem scover0_B_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1 S1x1.size (by sl_kernel_rfl) y

/-- Scratch 3 after case B: the case's stores into it, laid over a placeholder and read back. -/
def sout0_B_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1)

/-- Every entry of scratch 4 (the second one-cell accumulator) lies in one of the boxes case B stores into it. -/
theorem scover0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1 S1x1.size (by sl_kernel_rfl) y

/-- Scratch 4 after case B: the case's stores into it, laid over a placeholder and read back. -/
def sout0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1)

/-- Every entry of scratch 0 (the running maximum) lies in one of the boxes case C stores into it. -/
theorem scover0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1 S512x512.size (by sl_kernel_rfl) y

/-- Scratch 0 after case C: the case's stores into it, laid over a placeholder and read back. -/
def sout0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1)

/-- Every entry of scratch 1 (the running minimum) lies in one of the boxes case C stores into it. -/
theorem scover0_C_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1 S512x512.size (by sl_kernel_rfl) y

/-- Scratch 1 after case C: the case's stores into it, laid over a placeholder and read back. -/
def sout0_C_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1)

/-- Every entry of scratch 2 (the channel sum) lies in one of the boxes case C stores into it. -/
theorem scover0_C_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1 S512x512.size (by sl_kernel_rfl) y

/-- Scratch 2 after case C: the case's stores into it, laid over a placeholder and read back. -/
def sout0_C_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1)

/-- Every entry of scratch 3 (the first one-cell accumulator) lies in one of the boxes case C stores into it. -/
theorem scover0_C_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1 S1x1.size (by sl_kernel_rfl) y

/-- Scratch 3 after case C: the case's stores into it, laid over a placeholder and read back. -/
def sout0_C_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1)

/-- Every entry of scratch 4 (the second one-cell accumulator) lies in one of the boxes case C stores into it. -/
theorem scover0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1 S1x1.size (by sl_kernel_rfl) y

/-- Scratch 4 after case C: the case's stores into it, laid over a placeholder and read back. -/
def sout0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1)

/-- Every entry of scratch 0 (the running maximum) lies in one of the boxes case D stores into it. -/
theorem scover0_D_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.1 S512x512.size (by sl_kernel_rfl) y

/-- Scratch 0 after case D: the case's stores into it, laid over a placeholder and read back. -/
def sout0_D_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.1)

/-- Every entry of scratch 1 (the running minimum) lies in one of the boxes case D stores into it. -/
theorem scover0_D_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.1 S512x512.size (by sl_kernel_rfl) y

/-- Scratch 1 after case D: the case's stores into it, laid over a placeholder and read back. -/
def sout0_D_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.1)

/-- Every entry of scratch 2 (the channel sum) lies in one of the boxes case D stores into it. -/
theorem scover0_D_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.1 S512x512.size (by sl_kernel_rfl) y

/-- Scratch 2 after case D: the case's stores into it, laid over a placeholder and read back. -/
def sout0_D_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S512x512 .f32 :=
  VS0_2.read (Elt F) (VS0_2.writes (Elt F) VS0_2.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.1)

/-- Every entry of scratch 3 (the first one-cell accumulator) lies in one of the boxes case D stores into it. -/
theorem scover0_D_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.1 S1x1.size (by sl_kernel_rfl) y

/-- Scratch 3 after case D: the case's stores into it, laid over a placeholder and read back. -/
def sout0_D_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.1)

/-- Every entry of scratch 4 (the second one-cell accumulator) lies in one of the boxes case D stores into it. -/
theorem scover0_D_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.2.1 S1x1.size (by sl_kernel_rfl) y

/-- Scratch 4 after case D: the case's stores into it, laid over a placeholder and read back. -/
def sout0_D_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1 .f32 :=
  VS0_4.read (Elt F) (VS0_4.writes (Elt F) VS0_4.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.2.2.2.2.2.1)

/-- Every entry of output 5's block lies in one of the boxes case D stores into it. -/
theorem cover0_D_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1 S1x1x512.size (by sl_kernel_rfl) y

/-- Output 5's buffer after case D: the case's stores into it, laid over a placeholder and read back. -/
def out0_D_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x512 .f32 :=
  VO0_5.read (Elt F) (VO0_5.writes (Elt F) VO0_5.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).1)

/-- Every entry of output 6's block lies in one of the boxes case D stores into it. -/
theorem cover0_D_6 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1 S1x1x512.size (by sl_kernel_rfl) y

/-- Output 6's buffer after case D: the case's stores into it, laid over a placeholder and read back. -/
def out0_D_6 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x512 .f32 :=
  VO0_6.read (Elt F) (VO0_6.writes (Elt F) VO0_6.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.1)

/-- Every entry of output 7's block lies in one of the boxes case D stores into it. -/
theorem cover0_D_7 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1 S1x1x512.size (by sl_kernel_rfl) y

/-- Output 7's buffer after case D: the case's stores into it, laid over a placeholder and read back. -/
def out0_D_7 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x512 .f32 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.1)

/-- Every entry of output 8's block lies in one of the boxes case D stores into it. -/
theorem cover0_D_8 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1 S1x1x128.size (by sl_kernel_rfl) y

/-- Output 8's buffer after case D: the case's stores into it, laid over a placeholder and read back. -/
def out0_D_8 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.1)

/-- Every entry of output 9's block lies in one of the boxes case D stores into it. -/
theorem cover0_D_9 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1 S1x1x128.size (by sl_kernel_rfl) y

/-- Output 9's buffer after case D: the case's stores into it, laid over a placeholder and read back. -/
def out0_D_9 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.1)

/-- Every entry of output 10's block lies in one of the boxes case D stores into it. -/
theorem cover0_D_10 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.1 S1x1x128.size (by sl_kernel_rfl) y

/-- Output 10's buffer after case D: the case's stores into it, laid over a placeholder and read back. -/
def out0_D_10 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.1)

/-- Every entry of output 11's block lies in one of the boxes case D stores into it. -/
theorem cover0_D_11 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) (y : S1x1x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.1 S1x1x128.size (by sl_kernel_rfl) y

/-- Output 11's buffer after case D: the case's stores into it, laid over a placeholder and read back. -/
def out0_D_11 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) : Vec F S1x1x128 .f32 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4).2.2.2.2.2.2.1)

/-! ## The case a point is in, from its residue mod 4 -/

theorem hcA0 (t : Fin cfg0.N) (h : t.val % 4 = 0) : condP 0#32 (grid0.coords t) := (hcondP0 t).mpr h
theorem hcA1 (t : Fin cfg0.N) (h : t.val % 4 = 0) : ¬condP 1#32 (grid0.coords t) := fun h' => by have := (hcondP1 t).mp h'; omega
theorem hcA2 (t : Fin cfg0.N) (h : t.val % 4 = 0) : ¬condP 2#32 (grid0.coords t) := fun h' => by have := (hcondP2 t).mp h'; omega
theorem hcA3 (t : Fin cfg0.N) (h : t.val % 4 = 0) : ¬condP 3#32 (grid0.coords t) := fun h' => by have := (hcondP3 t).mp h'; omega
theorem hcA6 (t : Fin cfg0.N) (h : t.val % 4 = 0) : ¬cond6 (grid0.coords t) := fun h' => by have := (hcond6 t).mp h'; omega
theorem hcB0 (t : Fin cfg0.N) (h : t.val % 4 = 1) : ¬condP 0#32 (grid0.coords t) := fun h' => by have := (hcondP0 t).mp h'; omega
theorem hcB1 (t : Fin cfg0.N) (h : t.val % 4 = 1) : condP 1#32 (grid0.coords t) := (hcondP1 t).mpr h
theorem hcB2 (t : Fin cfg0.N) (h : t.val % 4 = 1) : ¬condP 2#32 (grid0.coords t) := fun h' => by have := (hcondP2 t).mp h'; omega
theorem hcB3 (t : Fin cfg0.N) (h : t.val % 4 = 1) : ¬condP 3#32 (grid0.coords t) := fun h' => by have := (hcondP3 t).mp h'; omega
theorem hcB6 (t : Fin cfg0.N) (h : t.val % 4 = 1) : ¬cond6 (grid0.coords t) := fun h' => by have := (hcond6 t).mp h'; omega
theorem hcC0 (t : Fin cfg0.N) (h : t.val % 4 = 2) : ¬condP 0#32 (grid0.coords t) := fun h' => by have := (hcondP0 t).mp h'; omega
theorem hcC1 (t : Fin cfg0.N) (h : t.val % 4 = 2) : ¬condP 1#32 (grid0.coords t) := fun h' => by have := (hcondP1 t).mp h'; omega
theorem hcC2 (t : Fin cfg0.N) (h : t.val % 4 = 2) : condP 2#32 (grid0.coords t) := (hcondP2 t).mpr h
theorem hcC3 (t : Fin cfg0.N) (h : t.val % 4 = 2) : ¬condP 3#32 (grid0.coords t) := fun h' => by have := (hcondP3 t).mp h'; omega
theorem hcC6 (t : Fin cfg0.N) (h : t.val % 4 = 2) : ¬cond6 (grid0.coords t) := fun h' => by have := (hcond6 t).mp h'; omega
theorem hcD0 (t : Fin cfg0.N) (h : t.val % 4 = 3) : ¬condP 0#32 (grid0.coords t) := fun h' => by have := (hcondP0 t).mp h'; omega
theorem hcD1 (t : Fin cfg0.N) (h : t.val % 4 = 3) : ¬condP 1#32 (grid0.coords t) := fun h' => by have := (hcondP1 t).mp h'; omega
theorem hcD2 (t : Fin cfg0.N) (h : t.val % 4 = 3) : ¬condP 2#32 (grid0.coords t) := fun h' => by have := (hcondP2 t).mp h'; omega
theorem hcD3 (t : Fin cfg0.N) (h : t.val % 4 = 3) : condP 3#32 (grid0.coords t) := (hcondP3 t).mpr h
theorem hcD6 (t : Fin cfg0.N) (h : t.val % 4 = 3) : cond6 (grid0.coords t) := (hcond6 t).mpr h

/-! ## What the buffers hold after each point -/

/-- What a point of case A (pair index 0) leaves: the scratch buffers at the case's pieces read
    back; the outputs at a placeholder nothing consults (the windows are idle and not written back there). -/
abbrev outsA (c : Dev nD) (t : Fin cfg0.N) (h : t.val % 4 = 0) : Outs F :=
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t) }

/-- What a point of case B (pair index 1) leaves, over what the point before left in the scratch buffers (`p`): the scratch buffers at the case's pieces read
    back; the outputs at a placeholder nothing consults (the windows are idle and not written back there). -/
abbrev outsB (c : Dev nD) (t : Fin cfg0.N) (h : t.val % 4 = 1) (p : Outs F) : Outs F :=
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4
      s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (p).s0 (p).s1 (p).s2 (p).s3 (p).s4 }

/-- What a point of case C (pair index 2) leaves, over what the point before left in the scratch buffers (`p`): the scratch buffers at the case's pieces read
    back; the outputs at a placeholder nothing consults (the windows are idle and not written back there). -/
abbrev outsC (c : Dev nD) (t : Fin cfg0.N) (h : t.val % 4 = 2) (p : Outs F) : Outs F :=
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4
      s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (p).s0 (p).s1 (p).s2 (p).s3 (p).s4 }

/-- What a point of case D (pair index 3) leaves, over what the point before left in the scratch buffers (`p`): the scratch buffers at the case's pieces read
    back; the outputs at case D's pieces read back. -/
abbrev outsD (c : Dev nD) (t : Fin cfg0.N) (h : t.val % 4 = 3) (p : Outs F) : Outs F :=
    { o5 := out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o6 := out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o7 := out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o8 := out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o9 := out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o10 := out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      o11 := out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s2 := sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s3 := sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4
      s4 := sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (p).s0 (p).s1 (p).s2 (p).s3 (p).s4 }

/-- The contents of the twelve buffers the body stores into, by recursion on the point's number `n`: the stores of the
    case `n`'s residue mod 4 selects, computed from the point's memrefs and input blocks and — but for case A (residue 0),
    which resets the scratch buffers and takes nothing — from the scratch contents this gives at `n - 1`. -/
def outsAt0 (c : Dev nD) : (n : ℕ) → n < cfg0.N → Outs F
  | 0, hn => outsA m c ⟨0, hn⟩ (Nat.zero_mod _)
  | n + 1, hn =>
    if h0 : (n + 1) % 4 = 0 then outsA m c ⟨n + 1, hn⟩ h0
    else if h1 : (n + 1) % 4 = 1 then outsB m c ⟨n + 1, hn⟩ h1 (outsAt0 c n (Nat.lt_of_succ_lt hn))
    else if h2 : (n + 1) % 4 = 2 then outsC m c ⟨n + 1, hn⟩ h2 (outsAt0 c n (Nat.lt_of_succ_lt hn))
    else outsD m c ⟨n + 1, hn⟩ (show (n + 1) % 4 = 3 by omega) (outsAt0 c n (Nat.lt_of_succ_lt hn))

/-- At a point whose number is a multiple of 4 the accumulated contents are case A's. -/
theorem outsAt0_A (c : Dev nD) (t : Fin cfg0.N) (h : t.val % 4 = 0) :
    outsAt0 m c t.val t.isLt =
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)
      s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t) } := by
  obtain ⟨n, hn⟩ := t
  cases n with
  | zero => exact rfl
  | succ n => exact (dif_pos h).trans rfl

/-- At a point whose number is ≡ 1 (mod 4) the accumulated contents are case B's, over what the point before left. -/
theorem outsAt0_B (c : Dev nD) (t : Fin cfg0.N) (h : t.val % 4 = 1) :
    outsAt0 m c t.val t.isLt =
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact absurd (show 0 % 4 = 1 from h) (by decide)
  | succ n =>
    have h' : (n + 1) % 4 = 1 := h
    have h0 : ¬(n + 1) % 4 = 0 := by omega
    exact (dif_neg h0).trans ((dif_pos h').trans rfl)

/-- At a point whose number is ≡ 2 (mod 4) the accumulated contents are case C's, over what the point before left. -/
theorem outsAt0_C (c : Dev nD) (t : Fin cfg0.N) (h : t.val % 4 = 2) :
    outsAt0 m c t.val t.isLt =
    { o5 := VO0_5.read (Elt F) VO0_5.junk
      o6 := VO0_6.read (Elt F) VO0_6.junk
      o7 := VO0_7.read (Elt F) VO0_7.junk
      o8 := VO0_8.read (Elt F) VO0_8.junk
      o9 := VO0_9.read (Elt F) VO0_9.junk
      o10 := VO0_10.read (Elt F) VO0_10.junk
      o11 := VO0_11.read (Elt F) VO0_11.junk
      s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact absurd (show 0 % 4 = 2 from h) (by decide)
  | succ n =>
    have h' : (n + 1) % 4 = 2 := h
    have h0 : ¬(n + 1) % 4 = 0 := by omega
    have h1 : ¬(n + 1) % 4 = 1 := by omega
    exact (dif_neg h0).trans ((dif_neg h1).trans ((dif_pos h').trans rfl))

/-- At a point whose number is ≡ 3 (mod 4) the accumulated contents are case D's, over what the point before left. -/
theorem outsAt0_D (c : Dev nD) (t : Fin cfg0.N) (h : t.val % 4 = 3) :
    outsAt0 m c t.val t.isLt =
    { o5 := out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o6 := out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o7 := out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o8 := out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o9 := out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o10 := out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      o11 := out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s2 := sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s3 := sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4
      s4 := sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact absurd (show 0 % 4 = 3 from h) (by decide)
  | succ n =>
    have h' : (n + 1) % 4 = 3 := h
    have h0 : ¬(n + 1) % 4 = 0 := by omega
    have h1 : ¬(n + 1) % 4 = 1 := by omega
    have h2 : ¬(n + 1) % 4 = 2 := by omega
    exact (dif_neg h0).trans ((dif_neg h1).trans ((dif_neg h2).trans rfl))

/-! ## The region invariant, carrying the scratch buffers -/

/-- What is held between points besides the windows' buffers. Before point 0: the buffers no window stages, each at
    anything (`ΦA`). Before point `n + 1`: each scratch buffer at its component of `outsAt0` at `n`, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r))

theorem PhiS_zero (c : Dev nD) (n : ℕ) (h : n ≤ cfg0.N) (hz : n = 0) : PhiS m c n h = Pipeline.ΦA spec0 c := by
  subst hz; rfl

/-- Between point `n` and the next the five scratch buffers are held at what `outsAt0` gives at `n`. -/
theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r)) := rfl

/-- From the second point on, a point starts with the five scratch buffers at what `outsAt0` gives for the point before. -/
theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4)) ∗ (∃ r, prngReg c r)) := by
  cases n with
  | zero => exact absurd rfl hz
  | succ n => rfl

end Cert.KernelIdeal.Hand

end
-- ==== Proof.K.Dats.lean ====
/- What is claimed of the pipeline on a core. The arrays start at the region's entry contents; after the body at a
   point an input's staging buffer holds its block and an output's what the accumulation `outsAt0` says; the invariant
   carries the scratch buffers (`PhiS`); two windows on one array take half of it each; nothing is owed. With the
   projections of the data, and what the body finds in each input's buffer: its block. -/
import proofs.«411553_j46600395162340_3_alg».proof.Proof.K.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is claimed of the pipeline on core `c`. The arrays start at the region's entry contents (`V`). After the body
    at point `t` an input's buffer holds its block and an output's its component of `outsAt0`. The invariant is `PhiS`
    (the buffers no window stages at anything before the first point, then the scratch buffers at `outsAt0`'s
    components). Windows 0 and 1 read one array and take half of it each, and so do windows 2 and 3. Nothing is owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
    | ⟨_ + 12, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨_ + 12, h⟩ => absurd h (Nat.not_lt.2 (Nat.le_add_left _ _))
  owed _ := 0

/-- The arrays the pipeline starts from are the contents the region is entered with. -/
theorem A_eq (c : Dev nD) (w : Fin cfg0.W) : (dats m c).A w = V m c (Pipeline.arrRef spec0 w) := by
  dsimp only [dats]

/-- The shares: a half of the array each for the two pairs of windows on one array, the whole for the others. -/
theorem q0 (c : Dev nD) : (dats m c).q 0 = fullShare.left := rfl
theorem q1 (c : Dev nD) : (dats m c).q 1 = fullShare.right := rfl
theorem q2 (c : Dev nD) : (dats m c).q 2 = fullShare.left := rfl
theorem q3 (c : Dev nD) : (dats m c).q 3 = fullShare.right := rfl
theorem q4 (c : Dev nD) : (dats m c).q 4 = fullShare := rfl
theorem q5 (c : Dev nD) : (dats m c).q 5 = fullShare := rfl
theorem q6 (c : Dev nD) : (dats m c).q 6 = fullShare := rfl
theorem q7 (c : Dev nD) : (dats m c).q 7 = fullShare := rfl
theorem q8 (c : Dev nD) : (dats m c).q 8 = fullShare := rfl
theorem q9 (c : Dev nD) : (dats m c).q 9 = fullShare := rfl
theorem q10 (c : Dev nD) : (dats m c).q 10 = fullShare := rfl
theorem q11 (c : Dev nD) : (dats m c).q 11 = fullShare := rfl

/-- Nothing is owed at any position, and the bound on the recorded waits is everything. -/
theorem owed_eq (c : Dev nD) (t : Fin (cfg0.N + 1)) : (dats m c).owed t = 0 := rfl
theorem recorded_eq (c : Dev nD) (t : Fin (cfg0.N + 1)) : (dats m c).recorded t = Set.univ := rfl

/-- At the start of point `t` the invariant is the scratch invariant `PhiS` at the number `t.val`. -/
theorem PhiS_castSucc (c : Dev nD) (t : Fin cfg0.N) :
    (dats m c).Φ t.castSucc = PhiS m c t.val (Nat.le_of_lt t.isLt) := by
  dsimp only [dats]; simp only [Fin.coe_castSucc]

/-- After the body at point `t`: an input's buffer holds its block; an output's holds its component of the accumulated
    contents. -/
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = (outsAt0 m c t.val t.isLt).o5 := by dsimp only [dats]
theorem after0_6 (c : Dev nD) (t : Fin cfg0.N) : (dats m c).after 6 t = (outsAt0 m c t.val t.isLt).o6 := by dsimp only [dats]
theorem after0_7 (c : Dev nD) (t : Fin cfg0.N) : (dats m c).after 7 t = (outsAt0 m c t.val t.isLt).o7 := by dsimp only [dats]
theorem after0_8 (c : Dev nD) (t : Fin cfg0.N) : (dats m c).after 8 t = (outsAt0 m c t.val t.isLt).o8 := by dsimp only [dats]
theorem after0_9 (c : Dev nD) (t : Fin cfg0.N) : (dats m c).after 9 t = (outsAt0 m c t.val t.isLt).o9 := by dsimp only [dats]
theorem after0_10 (c : Dev nD) (t : Fin cfg0.N) : (dats m c).after 10 t = (outsAt0 m c t.val t.isLt).o10 := by dsimp only [dats]
theorem after0_11 (c : Dev nD) (t : Fin cfg0.N) : (dats m c).after 11 t = (outsAt0 m c t.val t.isLt).o11 := by dsimp only [dats]

/-! ## What the body finds in each input's buffer

Whether or not the pipeline fetches at a point, the body finds each input's block in the buffer it is handed: the body
leaves the block in place, the window is never idle and its blocks are whole, and where the pipeline does not fetch (window 4 away from
the points ≡ 0 mod 4) the block index has not moved. -/

theorem before0_0 (c : Dev nD) (t : Fin cfg0.N) (d) : (dats m c).before 0 t d = iblk m c 0 t :=
  ((dats m c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m c).before 1 t d = iblk m c 1 t :=
  ((dats m c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m c).before 2 t d = iblk m c 2 t :=
  ((dats m c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m c).before 3 t d = iblk m c 3 t :=
  ((dats m c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m c).before 4 t d = iblk m c 4 t :=
  ((dats m c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

end Cert.KernelIdeal.Hand

end
-- ==== Proof.K.BodyPre.lean ====
/- The body obligation's two sides at a generic point, conjunct by conjunct, and what each window's buffer is left at:
   an input's at its block, an output's as found where the window is idle and not written back, and at what the
   accumulation says where it is live. -/
import proofs.«411553_j46600395162340_3_alg».proof.Proof.K.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's precondition at point `t`, conjunct by conjunct: the invariant, the debts, then each of the twelve
    windows' current buffers. -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ d, owns (c : Thread nD τ) (ms0_7 t) fullShare ((dats m c).before 7 t d))
    ∗ (∃ d, owns (c : Thread nD τ) (ms0_8 t) fullShare ((dats m c).before 8 t d))
    ∗ (∃ d, owns (c : Thread nD τ) (ms0_9 t) fullShare ((dats m c).before 9 t d))
    ∗ (∃ d, owns (c : Thread nD τ) (ms0_10 t) fullShare ((dats m c).before 10 t d))
    ∗ (∃ d, owns (c : Thread nD τ) (ms0_11 t) fullShare ((dats m c).before 11 t d)))

/-- Its postcondition: the next invariant, the debts, then what each window's buffer is left at. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t
    ∗ (dats m c).leavesExact 5 t
    ∗ (dats m c).leavesExact 6 t
    ∗ (dats m c).leavesExact 7 t
    ∗ (dats m c).leavesExact 8 t
    ∗ (dats m c).leavesExact 9 t
    ∗ (dats m c).leavesExact 10 t
    ∗ (dats m c).leavesExact 11 t)

/-! ## What each window's buffer is left at -/

/-- An input window is never idle: its buffer is left at its block. -/
theorem leaves_in0 (c : Dev nD) (t : Fin cfg0.N) :
    (dats m c).leavesExact 0 t = owns (c : Thread nD τ) (ms0_0 t) fullShare (iblk m c 0 t) := by
  unfold Dat.leavesExact; rw [liveAt0_0 t, after0_0]
theorem leaves_in1 (c : Dev nD) (t : Fin cfg0.N) :
    (dats m c).leavesExact 1 t = owns (c : Thread nD τ) (ms0_1 t) fullShare (iblk m c 1 t) := by
  unfold Dat.leavesExact; rw [liveAt0_1 t, after0_1]
theorem leaves_in2 (c : Dev nD) (t : Fin cfg0.N) :
    (dats m c).leavesExact 2 t = owns (c : Thread nD τ) (ms0_2 t) fullShare (iblk m c 2 t) := by
  unfold Dat.leavesExact; rw [liveAt0_2 t, after0_2]
theorem leaves_in3 (c : Dev nD) (t : Fin cfg0.N) :
    (dats m c).leavesExact 3 t = owns (c : Thread nD τ) (ms0_3 t) fullShare (iblk m c 3 t) := by
  unfold Dat.leavesExact; rw [liveAt0_3 t, after0_3]
theorem leaves_in4 (c : Dev nD) (t : Fin cfg0.N) :
    (dats m c).leavesExact 4 t = owns (c : Thread nD τ) (ms0_4 t) fullShare (iblk m c 4 t) := by
  unfold Dat.leavesExact; rw [liveAt0_4 t, after0_4]

/-- Away from the points ≡ 3 (mod 4) an output window is idle and not written back: its buffer is left as found. -/
theorem leaves_idle5 (c : Dev nD) (t : Fin cfg0.N) (h3 : ¬ t.val % 4 = 3) :
    (dats m c).leavesExact 5 t = iprop(∃ d, owns (c : Thread nD τ) (ms0_5 t) fullShare ((dats m c).before 5 t d)) :=
  Dat.leavesExact_idle (dats m c) 5 t (idleAt0_5 t h3) (noFlush0_5 t h3)
theorem leaves_idle6 (c : Dev nD) (t : Fin cfg0.N) (h3 : ¬ t.val % 4 = 3) :
    (dats m c).leavesExact 6 t = iprop(∃ d, owns (c : Thread nD τ) (ms0_6 t) fullShare ((dats m c).before 6 t d)) :=
  Dat.leavesExact_idle (dats m c) 6 t (idleAt0_6 t h3) (noFlush0_6 t h3)
theorem leaves_idle7 (c : Dev nD) (t : Fin cfg0.N) (h3 : ¬ t.val % 4 = 3) :
    (dats m c).leavesExact 7 t = iprop(∃ d, owns (c : Thread nD τ) (ms0_7 t) fullShare ((dats m c).before 7 t d)) :=
  Dat.leavesExact_idle (dats m c) 7 t (idleAt0_7 t h3) (noFlush0_7 t h3)
theorem leaves_idle8 (c : Dev nD) (t : Fin cfg0.N) (h3 : ¬ t.val % 4 = 3) :
    (dats m c).leavesExact 8 t = iprop(∃ d, owns (c : Thread nD τ) (ms0_8 t) fullShare ((dats m c).before 8 t d)) :=
  Dat.leavesExact_idle (dats m c) 8 t (idleAt0_8 t h3) (noFlush0_8 t h3)
theorem leaves_idle9 (c : Dev nD) (t : Fin cfg0.N) (h3 : ¬ t.val % 4 = 3) :
    (dats m c).leavesExact 9 t = iprop(∃ d, owns (c : Thread nD τ) (ms0_9 t) fullShare ((dats m c).before 9 t d)) :=
  Dat.leavesExact_idle (dats m c) 9 t (idleAt0_9 t h3) (noFlush0_9 t h3)
theorem leaves_idle10 (c : Dev nD) (t : Fin cfg0.N) (h3 : ¬ t.val % 4 = 3) :
    (dats m c).leavesExact 10 t = iprop(∃ d, owns (c : Thread nD τ) (ms0_10 t) fullShare ((dats m c).before 10 t d)) :=
  Dat.leavesExact_idle (dats m c) 10 t (idleAt0_10 t h3) (noFlush0_10 t h3)
theorem leaves_idle11 (c : Dev nD) (t : Fin cfg0.N) (h3 : ¬ t.val % 4 = 3) :
    (dats m c).leavesExact 11 t = iprop(∃ d, owns (c : Thread nD τ) (ms0_11 t) fullShare ((dats m c).before 11 t d)) :=
  Dat.leavesExact_idle (dats m c) 11 t (idleAt0_11 t h3) (noFlush0_11 t h3)

/-- At the points ≡ 3 (mod 4) an output window is live: its buffer is left at what the accumulation says. -/
theorem leaves_out5 (c : Dev nD) (t : Fin cfg0.N) (h : t.val % 4 = 3) :
    (dats m c).leavesExact 5 t = owns (c : Thread nD τ) (ms0_5 t) fullShare ((outsAt0 m c t.val t.isLt).o5) := by
  unfold Dat.leavesExact; rw [liveAt0_5 t h, after0_5]
theorem leaves_out6 (c : Dev nD) (t : Fin cfg0.N) (h : t.val % 4 = 3) :
    (dats m c).leavesExact 6 t = owns (c : Thread nD τ) (ms0_6 t) fullShare ((outsAt0 m c t.val t.isLt).o6) := by
  unfold Dat.leavesExact; rw [liveAt0_6 t h, after0_6]
theorem leaves_out7 (c : Dev nD) (t : Fin cfg0.N) (h : t.val % 4 = 3) :
    (dats m c).leavesExact 7 t = owns (c : Thread nD τ) (ms0_7 t) fullShare ((outsAt0 m c t.val t.isLt).o7) := by
  unfold Dat.leavesExact; rw [liveAt0_7 t h, after0_7]
theorem leaves_out8 (c : Dev nD) (t : Fin cfg0.N) (h : t.val % 4 = 3) :
    (dats m c).leavesExact 8 t = owns (c : Thread nD τ) (ms0_8 t) fullShare ((outsAt0 m c t.val t.isLt).o8) := by
  unfold Dat.leavesExact; rw [liveAt0_8 t h, after0_8]
theorem leaves_out9 (c : Dev nD) (t : Fin cfg0.N) (h : t.val % 4 = 3) :
    (dats m c).leavesExact 9 t = owns (c : Thread nD τ) (ms0_9 t) fullShare ((outsAt0 m c t.val t.isLt).o9) := by
  unfold Dat.leavesExact; rw [liveAt0_9 t h, after0_9]
theorem leaves_out10 (c : Dev nD) (t : Fin cfg0.N) (h : t.val % 4 = 3) :
    (dats m c).leavesExact 10 t = owns (c : Thread nD τ) (ms0_10 t) fullShare ((outsAt0 m c t.val t.isLt).o10) := by
  unfold Dat.leavesExact; rw [liveAt0_10 t h, after0_10]
theorem leaves_out11 (c : Dev nD) (t : Fin cfg0.N) (h : t.val % 4 = 3) :
    (dats m c).leavesExact 11 t = owns (c : Thread nD τ) (ms0_11 t) fullShare ((outsAt0 m c t.val t.isLt).o11) := by
  unfold Dat.leavesExact; rw [liveAt0_11 t h, after0_11]

end Cert.KernelIdeal.Hand

end
-- ==== Proof.K.BodyA.lean ====
/- The body obligation at the points of case A (pair index 0), where the run resets the five scratch buffers: at the
   first point they come from the launch at anything, at a later one they hold what the point before left. -/
import proofs.«411553_j46600395162340_3_alg».proof.Proof.K.BodyPre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A at the first point: the scratch buffers come from the launch at anything; the run resets them. -/
theorem sound_A0 (c : Dev nD) (t : Fin cfg0.N) (h : t.val % 4 = 0) (hz : t.val = 0) :
    bodyPre m c t ⊢ wp frame (wpE (defs₀ (F := F)) Variants.none c none) Set.univ (bodyAt0 t) (fun _ => bodyPost m c t) := by
  have h3 : ¬ t.val % 4 = 3 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_A m c t h]
  dsimp only
  unfold sout0_A_0 sout0_A_1 sout0_A_2 sout0_A_3 sout0_A_4
  rw [PhiS_castSucc m c t, PhiS_zero m c _ _ hz, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS1]
      · unfold owns; iexists _; isplitr
        swap; · iexact HS1
        ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS2]
      · unfold owns; iexists _; isplitr
        swap; · iexact HS2
        ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS3]
      · unfold owns; iexists _; isplitr
        swap; · iexact HS3
        ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      unfold owns; iexists _; isplitr
      swap; · iexact HS4
      ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

set_option maxHeartbeats 4000000 in
/-- Case A at a later point: the scratch buffers hold what the point before left; the run resets them all the same. -/
theorem sound_A (c : Dev nD) (t : Fin cfg0.N) (h : t.val % 4 = 0) (hz : t.val ≠ 0) :
    bodyPre m c t ⊢ wp frame (wpE (defs₀ (F := F)) Variants.none c none) Set.univ (bodyAt0 t) (fun _ => bodyPost m c t) := by
  have h3 : ¬ t.val % 4 = 3 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_A m c t h]
  dsimp only
  unfold sout0_A_0 sout0_A_1 sout0_A_2 sout0_A_3 sout0_A_4
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t)).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS1]
      · unfold owns; iexists _; isplitr
        swap; · iexact HS1
        ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS2]
      · unfold owns; iexists _; isplitr
        swap; · iexact HS2
        ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      isplitl [HS3]
      · unfold owns; iexists _; isplitr
        swap; · iexact HS3
        ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
      unfold owns; iexists _; isplitr
      swap; · iexact HS4
      ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcA0 t h) (hcA1 t h) (hcA2 t h) (hcA3 t h) (hcA6 t h) (iblk m c 0 t) (iblk m c 1 t) (iblk m c 2 t) (iblk m c 3 t) (iblk m c 4 t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdeal.Hand

end
-- ==== Proof.K.BodyB.lean ====
/- The body obligation at the points of case B (pair index 1): the scratch buffers at what the point before left, the
   run accumulating pair 1 into them; the outputs idle. -/
import proofs.«411553_j46600395162340_3_alg».proof.Proof.K.BodyPre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the scratch buffers at what the point before left; the run accumulates pair 1 into them. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  have h3 : ¬ t.val % 4 = 3 := by omega
  have hz : t.val ≠ 0 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_B m c t h]
  dsimp only
  unfold sout0_B_0 sout0_B_1 sout0_B_2 sout0_B_3 sout0_B_4
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS1]
      · unfold owns; iexists _; isplitr
        swap; · iexact HS1
        ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS2]
      · unfold owns; iexists _; isplitr
        swap; · iexact HS2
        ipureintro; exact View.read_writes_of_cover _ _ _ _ _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS3]
      · unfold owns; iexists _; isplitr
        swap; · iexact HS3
        ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      unfold owns; iexists _; isplitr
      swap; · iexact HS4
      ipureintro; exact View.read_writes_of_cover _ _ _ _ _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcB0 t h) (hcB1 t h) (hcB2 t h) (hcB3 t h) (hcB6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdeal.Hand

end
-- ==== Proof.K.BodyC.lean ====
/- The body obligation at the points of case C (pair index 2): the scratch buffers at what the point before left, the
   run accumulating pair 2 into them; the outputs idle. -/
import proofs.«411553_j46600395162340_3_alg».proof.Proof.K.BodyPre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the scratch buffers at what the point before left; the run accumulates pair 2 into them. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  have h3 : ¬ t.val % 4 = 3 := by omega
  have hz : t.val ≠ 0 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [leaves_in0, leaves_in1, leaves_in2, leaves_in3, leaves_in4]
  rw [leaves_idle5 m c t h3, leaves_idle6 m c t h3, leaves_idle7 m c t h3, leaves_idle8 m c t h3, leaves_idle9 m c t h3, leaves_idle10 m c t h3, leaves_idle11 m c t h3]
  rw [outsAt0_C m c t h]
  dsimp only
  unfold sout0_C_0 sout0_C_1 sout0_C_2 sout0_C_3 sout0_C_4
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS1]
      · unfold owns; iexists _; isplitr
        swap; · iexact HS1
        ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS2]
      · unfold owns; iexists _; isplitr
        swap; · iexact HS2
        ipureintro; exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS3]
      · unfold owns; iexists _; isplitr
        swap; · iexact HS3
        ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      unfold owns; iexists _; isplitr
      swap; · iexact HS4
      ipureintro; exact View.read_writes_of_cover _ _ _ _ _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcC0 t h) (hcC1 t h) (hcC2 t h) (hcC3 t h) (hcC6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdeal.Hand

end
-- ==== Proof.K.BodyD.lean ====
/- The body obligation at the points of case D (pair index 3): the scratch buffers at what the point before left, the
   run accumulating pair 3 into them and then storing all seven outputs, which are live and written back there. -/
import proofs.«411553_j46600395162340_3_alg».proof.Proof.K.BodyPre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case D: the scratch buffers at what the point before left; the run accumulates pair 3 and stores the seven outputs. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3, before0_4]
  rw [show (dats m c).owesAt () t.succ = (dats m c).owesAt () t.castSucc from rfl]
  rw [show (dats m c).Φ t.succ = PhiS m c (t.val + 1) t.isLt from rfl, PhiS_succ]
  rw [PhiS_castSucc m c t, PhiS_pos m c _ _ hz]
  rw [leaves_in0, leaves_in1, leaves_in2, leaves_in3, leaves_in4]
  rw [leaves_out5 m c t h, leaves_out6 m c t h, leaves_out7 m c t h, leaves_out8 m c t h, leaves_out9 m c t h, leaves_out10 m c t h, leaves_out11 m c t h]
  rw [outsAt0_D m c t h]
  dsimp only
  unfold sout0_D_0 sout0_D_1 sout0_D_2 sout0_D_3 sout0_D_4 out0_D_5 out0_D_6 out0_D_7 out0_D_8 out0_D_9 out0_D_10 out0_D_11
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS1]
      · unfold owns; iexists _; isplitr
        swap; · iexact HS1
        ipureintro; exact View.read_writes_of_cover _ _ _ _ _ (scover0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS2]
      · unfold owns; iexists _; isplitr
        swap; · iexact HS2
        ipureintro; exact View.read_writes_of_cover _ _ _ _ _ (scover0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      isplitl [HS3]
      · unfold owns; iexists _; isplitr
        swap; · iexact HS3
        ipureintro; exact View.read_writes_of_cover _ _ _ _ _ (scover0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
      unfold owns; iexists _; isplitr
      swap; · iexact HS4
      ipureintro; exact View.read_writes_of_cover _ _ _ _ _ (scover0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H6]
  · unfold owns; iexists _; isplitr
    swap; · iexact H6
    ipureintro; exact View.read_writes_of_cover _ _ _ _ _ (cover0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H7]
  · unfold owns; iexists _; isplitr
    swap; · iexact H7
    ipureintro; exact View.read_writes_of_cover _ _ _ _ _ (cover0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H8]
  · unfold owns; iexists _; isplitr
    swap; · iexact H8
    ipureintro; exact View.read_writes_of_cover _ _ _ _ _ (cover0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H9]
  · unfold owns; iexists _; isplitr
    swap; · iexact H9
    ipureintro; exact View.read_writes_of_cover _ _ _ _ _ (cover0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  isplitl [H10]
  · unfold owns; iexists _; isplitr
    swap; · iexact H10
    ipureintro; exact View.read_writes_of_cover _ _ _ _ _ (cover0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)
  unfold owns; iexists _; isplitr
  swap; · iexact H11
  ipureintro; exact View.read_writes_of_cover _ _ _ _ _ (cover0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4)

end Cert.KernelIdeal.Hand

end
-- ==== Proof.K.Body.lean ====
/- The body obligation at every point, from the four cases by the point's residue mod 4; and the invariant's two ends:
   what the launch hands the region is the invariant before the first point, and the invariant after the last point
   gives it back. -/
import proofs.«411553_j46600395162340_3_alg».proof.Proof.K.BodyA
import proofs.«411553_j46600395162340_3_alg».proof.Proof.K.BodyB
import proofs.«411553_j46600395162340_3_alg».proof.Proof.K.BodyC
import proofs.«411553_j46600395162340_3_alg».proof.Proof.K.BodyD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: its residue mod 4 says which case it is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases hz : t.val = 0
    · exact sound_A0 m c t h0 hz
    · exact sound_A m c t h0 hz
  · by_cases h1 : t.val % 4 = 1
    · exact sound_B m c t h1
    · by_cases h2 : t.val % 4 = 2
      · exact sound_C m c t h2
      · exact sound_D m c t (by omega)

/-- At every point the body, started from the invariant, the debts and the twelve buffers as the pipeline hands them
    over, ends with the next invariant and every buffer at what the proof data say. -/
theorem body_obligation (c : Dev nD) : BodyObligation (dats (F := F) m c) (defs₀ (F := F)) Variants.none () Set.univ := fun t => by
  rw [bigSep_W0, bigSep_W0]
  exact sound_body m c t

/-- What the launch hands the region is the invariant before the first point. -/
theorem hinΦ (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- From the invariant after any point one recovers the scratch buffers at arbitrary contents, which is all the exit of
    the region asks. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-- The same after the last point. -/
theorem houtΦ (c : Dev nD) : (dats m c).Φ (Fin.last cfg0.N) ⊢ Pipeline.ΦA spec0 c :=
  Phi_out m c _ (by rw [Fin.val_last]; have : cfg0.N = 64 := N_0; omega)

end Cert.KernelIdeal.Hand

end
-- ==== Proof.K.TailKeeps.lean ====
import proofs.«411553_j46600395162340_3_alg».proof.Proof.Gen.KernelIdeal.Launch
import Idealize.ShloMosaic.Lib.StableHlo.Run

/-! The host operations after the kernel region leave the three arguments as they were.

Each of the 57 operations writes exactly one array, its own result, and no result is an argument. So an argument
holds after the whole list what it held before it. -/

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- An array that differs from every operation's result is written by no operation of the list: the set an
    operation writes is the singleton of its result, so membership is one inequality of names per operation. -/
theorem tail_keeps_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_keeps_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_keeps_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.Hand

end
-- ==== Proof.K.FrameK.lean ====
import proofs.«411553_j46600395162340_3_alg».proof.Proof.K.Region
import proofs.«411553_j46600395162340_3_alg».proof.Proof.K.Shares
import proofs.«411553_j46600395162340_3_alg».proof.Proof.K.Body
import proofs.«411553_j46600395162340_3_alg».proof.Proof.K.TailKeeps

/-! The kernel program's run and its frame, at any float family.

The launch of Region.lean at this kernel's proof data: the arrays' entry contents are the launch contents, nothing is
owed, the two shared arrays are halved between their windows, the body meets its obligation at every point, and the
invariant starts from and returns the scratch buffers at some contents. Each argument array is read back at the end
through the host operations (which write no argument) and the exit contents (which change only the output arrays) to
what it held at launch. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN of the kernel program: every unscoped buffer ends at what the host operations compute from the exit contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m (dats m) c b) :=
  run_main m ρ (dats m) (A_eq m) ⟨owed_eq m, recorded_eq m⟩
    (fun c Vv Fv hF => arrBufs_arrays c (dats m c) (q0 m c) (q1 m c) (q2 m c) (q3 m c) (q4 m c) Vv Fv hF)
    (fun c Vv Fv hF => arrays_arrBufs c (dats m c) (q0 m c) (q1 m c) (q2 m c) (q3 m c) (q4 m c) Vv Fv hF)
    (fun c => (body_obligation m c).loose) (hinΦ m) (houtΦ m)

/-- Every TensorCore buffer that is not scoped is one of the buffers the run's conclusion ranges over. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The three arguments end as launched. -/
theorem W3_arg0 (c : Dev nD) : W3 m (dats m) c (Proc.devRef .tc main_arg0) = m ((c.tc : Thread nD τ).loc main_arg0) :=
  (tail_keeps_arg0 _).trans (W2_of_ne m (dats m) c main_arg0 (by decide) (by decide) (by decide) (by decide) (by decide) (by decide) (by decide))
theorem W3_arg1 (c : Dev nD) : W3 m (dats m) c (Proc.devRef .tc main_arg1) = m ((c.tc : Thread nD τ).loc main_arg1) :=
  (tail_keeps_arg1 _).trans (W2_of_ne m (dats m) c main_arg1 (by decide) (by decide) (by decide) (by decide) (by decide) (by decide) (by decide))
theorem W3_arg2 (c : Dev nD) : W3 m (dats m) c (Proc.devRef .tc main_arg2) = m ((c.tc : Thread nD τ).loc main_arg2) :=
  (tail_keeps_arg2 _).trans (W2_of_ne m (dats m) c main_arg2 (by decide) (by decide) (by decide) (by decide) (by decide) (by decide) (by decide))

/-- THE RUN with the result named and the arguments read back: what both the frame and the value claim start from. -/
theorem run_named : θ_run defs (onTc (τ := τ) (main (F := F))) ⟨m, fun _ => 0, ρ⟩ (fun r => ∀ c : Dev nD,
      r.2.mem ((c.tc : Thread nD τ).loc main_v41) = W3 m (dats m) c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v41 (by decide)),
     (h c _ (mem_uc main_arg0 (by decide))).trans (W3_arg0 m c),
     (h c _ (mem_uc main_arg1 (by decide))).trans (W3_arg1 m c),
     (h c _ (mem_uc main_arg2 (by decide))).trans (W3_arg2 m c)⟩) (run_all m ρ)

/-- THE FRAME: the program runs to the end, faulting nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.KernelIdeal.Hand

end
-- ==== Proof.Spec.lean ====
import Idealize.ShloMosaic.PureOps.Ideal
import Idealize.ShloMosaic.Lib.ValueIdx

/-! The two programs' results as functions of the three argument arrays, over the extended reals.

x is the [16, 8, 512, 512] float array, t the [16, 1, 512, 512] integer array (read as [16, 512, 512]) and ct the
[16, 8, 512, 512] integer array. Channel i of the sigmoid of x is multiplied by channel 7 - i shifted by one pixel
in direction i (zero outside the image): the votes. Their maximum and minimum over the eight channels, the channel
sum of ct, and five sums of clamped logarithms give one number.

Rspec writes each cross-entropy term as t * clog p + (1 - t) * clog (1 - p) and sums over all coordinates at once.
Kspec takes the channels in the four pairs (k, 7 - k), folds maximum, minimum and channel sum over the pairs, chooses
p or 1 - p by the test t = 1 before the logarithm, and sums batch by batch. They agree when every word of t and
ct is 0 or 1. -/

noncomputable section

namespace Cert.Spec

open Idealize.ShloMosaic

abbrev A4 : Type := Fin 16 → Fin 8 → Fin 512 → Fin 512 → EReal
abbrev A3 : Type := Fin 16 → Fin 512 → Fin 512 → EReal
abbrev W4 : Type := Fin 16 → Fin 8 → Fin 512 → Fin 512 → BitVec 32
abbrev W3 : Type := Fin 16 → Fin 512 → Fin 512 → BitVec 32

/-- A rank-4 array of extents [16, 8, 512, 512] by its coordinates. -/
def a4 {α : Type} (v : (⟨4, ![16, 8, 512, 512]⟩ : Shape).Idx → α) : Fin 16 → Fin 8 → Fin 512 → Fin 512 → α :=
  fun b ch h w => v (ValueIdx.ix4 b ch h w)
/-- A rank-4 array of extents [16, 1, 512, 512] by its three free coordinates. -/
def a3 {α : Type} (v : (⟨4, ![16, 1, 512, 512]⟩ : Shape).Idx → α) : Fin 16 → Fin 512 → Fin 512 → α :=
  fun b h w => v (ValueIdx.ix4 b 0 h w)

/-! ## The float literals both programs carry, as their words -/
abbrev l0 : EReal := Ideal.ofBits .f32 0x00000000#32
abbrev l1 : EReal := Ideal.ofBits .f32 0x3F800000#32
abbrev l2 : EReal := Ideal.ofBits .f32 0x40000000#32
abbrev l8 : EReal := Ideal.ofBits .f32 0x41000000#32
abbrev lSmooth : EReal := Ideal.ofBits .f32 0x3A83126F#32
abbrev lFloor : EReal := Ideal.ofBits .f32 0xC2C80000#32
abbrev l8192 : EReal := Ideal.ofBits .f32 0x46000000#32
abbrev lN3 : EReal := Ideal.ofBits .f32 0x4A800000#32
abbrev lN4 : EReal := Ideal.ofBits .f32 0x4C000000#32
abbrev lW8 : EReal := Ideal.ofBits .f32 0x3F4CCCCD#32
abbrev lW2 : EReal := Ideal.ofBits .f32 0x3E4CCCCD#32

/-- A word read as a float: its signed value. -/
def wf (b : BitVec 32) : EReal := ((b.toInt : ℝ) : EReal)

/-! ## The votes -/

/-- Horizontal and vertical step of direction i. -/
def dx : Fin 8 → Int := ![1, 0, -1, 1, -1, 1, 0, -1]
def dy : Fin 8 → Int := ![1, 1, 1, 0, 0, -1, -1, -1]

/-- The coordinate n - d, when it lies in the image. -/
def src (d : Int) (n : Fin 512) : Option (Fin 512) :=
  if h : 0 ≤ (n.val : Int) - d ∧ (n.val : Int) - d < 512 then some ⟨((n.val : Int) - d).toNat, by omega⟩ else none

/-- An image shifted by (dxv, dyv), zero where the source pixel falls outside. -/
def shiftAt (q : Fin 512 → Fin 512 → EReal) (dxv dyv : Int) (h w : Fin 512) : EReal :=
  match src dyv h, src dxv w with
  | some h', some w' => q h' w'
  | _, _ => 0

/-- The opposite channel. -/
def rev (i : Fin 8) : Fin 8 := ⟨7 - i.val, by omega⟩

def P (x : A4) : A4 := fun b ch h w => Ideal.logistic (x b ch h w)
def vote (x : A4) : A4 := fun b i h w => P x b i h w * shiftAt (P x b (rev i)) (dx i) (dy i) h w

/-- The clamped logarithm. -/
def clog (p : EReal) : EReal := max (Ideal.log p) lFloor

/-- The five-term combination, from the four sums and the dice mean. -/
def combine (conmap dec bimap bce dice : EReal) : EReal := lW8 * conmap + dec + lW2 * bimap + bce + dice

/-- The dice mean from the three row sums. -/
def dice (isum jsum inter : Fin 16 → Fin 512 → EReal) : EReal :=
  Ideal.div (∑ b : Fin 16, ∑ w : Fin 512, (l1 - Ideal.div (l2 * inter b w + lSmooth) (isum b w + jsum b w + lSmooth))) l8192

/-! ## The reference's form -/

def bceR (p t : EReal) : EReal := t * clog p + (l1 - t) * clog (l1 - p)
def fpredR (x : A4) : A3 := fun b h w => ⨆ i : Fin 8, vote x b i h w
def pminR (x : A4) : A3 := fun b h w => ⨅ i : Fin 8, vote x b i h w
def sumConnR (ct : W4) : A3 := fun b h w => ∑ ch : Fin 8, wf (ct b ch h w)
def edgeOf (s : EReal) : EReal := if s < l8 ∧ l0 < s then 1 else 0
def predMinR (x : A4) (ct : W4) : A3 := fun b h w => pminR x b h w * edgeOf (sumConnR ct b h w)

def Rspec (x : A4) (t : W3) (ct : W4) : EReal :=
  combine
    (-(Ideal.div (∑ b : Fin 16, ∑ ch : Fin 8, ∑ h : Fin 512, ∑ w : Fin 512, bceR (P x b ch h w) (wf (ct b ch h w))) lN4))
    (-(Ideal.div (∑ b : Fin 16, ∑ h : Fin 512, ∑ w : Fin 512, bceR (predMinR x ct b h w) l0) lN3))
    (-(Ideal.div (∑ b : Fin 16, ∑ ch : Fin 8, ∑ h : Fin 512, ∑ w : Fin 512, bceR (vote x b ch h w) (wf (ct b ch h w))) lN4))
    (-(Ideal.div (∑ b : Fin 16, ∑ h : Fin 512, ∑ w : Fin 512, bceR (fpredR x b h w) (wf (t b h w))) lN3))
    (dice (fun b w => ∑ h : Fin 512, wf (t b h w)) (fun b w => ∑ h : Fin 512, fpredR x b h w)
      (fun b w => ∑ h : Fin 512, wf (t b h w) * fpredR x b h w))

/-! ## The kernel's form -/

/-- The lower and the upper channel of pair k. -/
def lo (k : Fin 4) : Fin 8 := ⟨k.val, by omega⟩
def hi (k : Fin 4) : Fin 8 := ⟨7 - k.val, by omega⟩

def bceK (p t : EReal) : EReal := clog (if t = l1 then p else l1 - p)

/-- Maximum, minimum and channel sum folded over the pairs 0, 1, 2, 3 in order, from bottom, top and 0. -/
def fpredK (x : A4) : A3 := fun b h w =>
  (List.finRange 4).foldl (fun acc k => max acc (max (vote x b (lo k) h w) (vote x b (hi k) h w))) ⊥
def pminK (x : A4) : A3 := fun b h w =>
  (List.finRange 4).foldl (fun acc k => min acc (min (vote x b (lo k) h w) (vote x b (hi k) h w))) ⊤
def sumConnK (ct : W4) : A3 := fun b h w =>
  (List.finRange 4).foldl (fun acc k => acc + wf (ct b (lo k) h w) + wf (ct b (hi k) h w)) 0
def predMinK (x : A4) (ct : W4) : A3 := fun b h w => pminK x b h w * edgeOf (sumConnK ct b h w)

/-- Per batch: a cross-entropy sum over the two channels of each pair, folded over the pairs from 0. -/
def pairSum (f : Fin 8 → Fin 512 → Fin 512 → EReal) : EReal :=
  (List.finRange 4).foldl (fun acc k => acc + (∑ h : Fin 512, ∑ w : Fin 512, f (lo k) h w) + (∑ h : Fin 512, ∑ w : Fin 512, f (hi k) h w)) 0

def conmapB (x : A4) (ct : W4) (b : Fin 16) : EReal := pairSum fun ch h w => bceK (P x b ch h w) (wf (ct b ch h w))
def bimapB (x : A4) (ct : W4) (b : Fin 16) : EReal := pairSum fun ch h w => bceK (vote x b ch h w) (wf (ct b ch h w))
def decB (x : A4) (ct : W4) (b : Fin 16) : EReal := ∑ h : Fin 512, ∑ w : Fin 512, clog (l1 - predMinK x ct b h w)
def bceB (x : A4) (t : W3) (b : Fin 16) : EReal := ∑ h : Fin 512, ∑ w : Fin 512, bceK (fpredK x b h w) (wf (t b h w))

def Kspec (x : A4) (t : W3) (ct : W4) : EReal :=
  combine
    (Ideal.div (-(∑ b : Fin 16, conmapB x ct b)) lN4)
    (Ideal.div (-(∑ b : Fin 16, decB x ct b)) lN3)
    (Ideal.div (-(∑ b : Fin 16, bimapB x ct b)) lN4)
    (Ideal.div (-(∑ b : Fin 16, bceB x t b)) lN3)
    (dice (fun b w => ∑ h : Fin 512, wf (t b h w)) (fun b w => ∑ h : Fin 512, fpredK x b h w)
      (fun b w => ∑ h : Fin 512, wf (t b h w) * fpredK x b h w))

end Cert.Spec

end
-- ==== Proof.K.Tail.lean ====
import proofs.«411553_j46600395162340_3_alg».proof.Proof.Gen.KernelIdeal.Launch
import proofs.«411553_j46600395162340_3_alg».proof.Proof.Spec
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.IdealHost

/-! The host operations after the kernel region.

They take the seven arrays the kernel wrote: three [16, 1, 512] arrays of row sums and four [16, 1, 128] arrays whose
entry (b, 0, 0) is a per-batch sum. Each of the four is summed over the batches, negated and divided by its count; the
three give the dice mean; the five numbers are combined with the two weights.

The four sums and the dice sum are each read at the extended reals as a sum over coordinates; every other operation
acts on rank-0 arrays and is read at their one index, where the combination is the stated one by definition. -/

noncomputable section

namespace Cert.KernelIdeal.Hand

open Cert.KernelIdeal Cert.KernelIdeal.Gen
open Idealize.ShloMosaic Idealize.ShloMosaic.TcCoe Idealize.SL.Sem Idealize.ShloMosaic.StableHlo

open Idealize.ShloMosaic.ValueIdx

/-- A sum over the indices of a vector is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => (i 0 : Fin n), fun a => ix1 a, fun i => (eq_ix1 i).symm, fun _ => rfl⟩ _ _
    fun i => congrArg f (eq_ix1 i)

/-- One of the four per-batch arrays: its entries (b, 0, 0) cut out as a [16, 1, 1] array, that read as a vector of
    16, and the vector summed from the zero constant. The result is the sum over the batches of entry (b, 0, 0).
    The reduction is over the vector's only axis, so it is the sum over every index of the vector. -/
theorem batchSum_apply (o : (⟨3, ![16, 1, 128]⟩ : Shape).Idx → EReal)
    (hs : S16x1x128.Slices ![0, 0, 0] S16x1x1) (hc : S16x1x1.ShapeCasts S16) (hr : S16.ReducesTo [0] S_)
    (hu : 0 < S_.numel) (j : S_.Idx) :
    Host.reduceAdd (F := Ideal) (φ := .f32) (fun i => shapeCast S16 (extractStridedSlice S16x1x1 ![0, 0, 0] o hs) hc i)
        (constant S_ .f32 0x00000000#32) hr hu j
      = ∑ b : Fin 16, o (ix3 b 0 0) := by
  rw [hostReduceAdd_apply, Ideal.hostReduceAdd_total hr (fun a => a.elim0), constant_apply, Ideal.ofBits_zero_f32,
    zero_add, sum_idx1]
  refine Finset.sum_congr rfl fun b _ => ?_
  refine (shapeCast_apply _ hc (ix1 b) (ix3 b 0 0) ?_).trans ?_
  · rw [Shape.rowMajor_val_three, Shape.rowMajor_val_one]
    show (b.val * 1 + 0) * 1 + 0 = b.val
    omega
  · exact extractStridedSlice_apply _ _ hs _ (ix3 b 0 0) fun a => match a with
      | ⟨0, _⟩ => by show b.val = 0 + b.val; omega
      | ⟨1, _⟩ => rfl
      | ⟨2, _⟩ => rfl

/-- A [16, 1, 512] array of row sums read as a [16, 512] array: entry (b, w) is entry (b, 0, w). -/
theorem rowCast_apply (o : (⟨3, ![16, 1, 512]⟩ : Shape).Idx → EReal) (hc : S16x1x512.ShapeCasts S16x512)
    (b : Fin 16) (w : Fin 512) : shapeCast S16x512 o hc (ix2 b w) = o (ix3 b 0 w) := by
  refine shapeCast_apply _ hc _ (ix3 b 0 w) ?_
  rw [Shape.rowMajor_val_three, Shape.rowMajor_val_two]
  show (b.val * 1 + 0) * 512 + w.val = b.val * 512 + w.val
  omega

/-- The dice numerator: 1 - (2 * inter + s) / (isum + jsum + s) at every (b, w), summed over both axes from the
    zero constant. The result is the double sum over batches and columns. -/
theorem diceSum_apply (o0 o1 o2 : (⟨3, ![16, 1, 512]⟩ : Shape).Idx → EReal) (hc : S16x1x512.ShapeCasts S16x512)
    (hb : S_.BroadcastsInDim S16x512 (![] : Fin 0 → Fin S16x512.rank)) (hr : S16x512.ReducesTo [0, 1] S_)
    (hu : 0 < S_.numel) (j : S_.Idx) :
    Host.reduceAdd (F := Ideal) (φ := .f32)
        (subf (broadcastInDim S16x512 ![] hb (constant S_ .f32 0x3F800000#32))
          (Host.divf
            (addf (mulf (broadcastInDim S16x512 ![] hb (constant S_ .f32 0x40000000#32)) fun i => shapeCast S16x512 o2 hc i)
              (broadcastInDim S16x512 ![] hb (constant S_ .f32 0x3A83126F#32)))
            (addf (addf (fun i => shapeCast S16x512 o0 hc i) fun i => shapeCast S16x512 o1 hc i)
              (broadcastInDim S16x512 ![] hb (constant S_ .f32 0x3A83126F#32)))))
        (constant S_ .f32 0x00000000#32) hr hu j
      = ∑ b : Fin 16, ∑ w : Fin 512,
          (Cert.Spec.l1 - Ideal.div (Cert.Spec.l2 * o2 (ix3 b 0 w) + Cert.Spec.lSmooth)
            (o0 (ix3 b 0 w) + o1 (ix3 b 0 w) + Cert.Spec.lSmooth)) := by
  rw [hostReduceAdd_apply, Ideal.hostReduceAdd_total hr (fun a => a.elim0), constant_apply, Ideal.ofBits_zero_f32,
    zero_add, sum_idx2]
  refine Finset.sum_congr rfl fun b _ => Finset.sum_congr rfl fun w _ => ?_
  show Ideal.ofBits .f32 0x3F800000#32
      - Ideal.div (Ideal.ofBits .f32 0x40000000#32 * shapeCast S16x512 o2 hc (ix2 b w) + Ideal.ofBits .f32 0x3A83126F#32)
          (shapeCast S16x512 o0 hc (ix2 b w) + shapeCast S16x512 o1 hc (ix2 b w) + Ideal.ofBits .f32 0x3A83126F#32) = _
  rw [rowCast_apply o0 hc b w, rowCast_apply o1 hc b w, rowCast_apply o2 hc b w]

/-- The five numbers combined: each of the four sums negated and divided by its count, the dice sum divided by 8192,
    and the weighted sum of the five. Every operation is read at the one index of a rank-0 array. -/
theorem combine_apply (s3 s4 s5 s6 r : S_.Idx → EReal) (j : S_.Idx) :
    addf (F := Ideal) (φ := .f32)
        (addf
          (addf
            (addf
              (mulf (constant S_ .f32 0x3F4CCCCD#32) (Host.divf (Host.negf s4) (constant S_ .f32 0x4C000000#32)))
              (Host.divf (Host.negf s6) (constant S_ .f32 0x4A800000#32)))
            (mulf (constant S_ .f32 0x3E4CCCCD#32) (Host.divf (Host.negf s5) (constant S_ .f32 0x4C000000#32))))
          (Host.divf (Host.negf s3) (constant S_ .f32 0x4A800000#32)))
        (Host.divf r (constant S_ .f32 0x46000000#32)) j
      = Cert.Spec.combine (Ideal.div (-(s4 j)) Cert.Spec.lN4) (Ideal.div (-(s6 j)) Cert.Spec.lN3)
          (Ideal.div (-(s5 j)) Cert.Spec.lN4) (Ideal.div (-(s3 j)) Cert.Spec.lN3) (Ideal.div (r j) Cert.Spec.l8192) := rfl

/-- The combination depends on its five numbers only. -/
theorem combine_congr {a a' b b' c c' d d' e e' : EReal} (ha : a = a') (hb : b = b') (hc : c = c') (hd : d = d')
    (he : e = e') : Cert.Spec.combine a b c d e = Cert.Spec.combine a' b' c' d' e' := by
  rw [ha, hb, hc, hd, he]

set_option maxRecDepth 8192 in
set_option maxHeartbeats 4000000 in
/-- The result of the host operations, from any contents of the buffers they start from, at the extended reals. -/
theorem tail_result (W : Valuation τ sig (Elt Ideal))
    (o0 o1 o2 : (⟨3, ![16, 1, 512]⟩ : Shape).Idx → EReal) (o3 o4 o5 o6 : (⟨3, ![16, 1, 128]⟩ : Shape).Idx → EReal)
    (h0 : W (Proc.devRef .tc main_v0_0) = o0) (h1 : W (Proc.devRef .tc main_v0_1) = o1) (h2 : W (Proc.devRef .tc main_v0_2) = o2)
    (h3 : W (Proc.devRef .tc main_v0_3) = o3) (h4 : W (Proc.devRef .tc main_v0_4) = o4) (h5 : W (Proc.devRef .tc main_v0_5) = o5)
    (h6 : W (Proc.devRef .tc main_v0_6) = o6) :
    StableHlo.after (hostOps1 (F := Ideal)) W (Proc.devRef .tc main_v41) = fun _ =>
      Cert.Spec.combine
        (Ideal.div (-(∑ b : Fin 16, o4 (ValueIdx.ix3 b 0 0))) Cert.Spec.lN4)
        (Ideal.div (-(∑ b : Fin 16, o6 (ValueIdx.ix3 b 0 0))) Cert.Spec.lN3)
        (Ideal.div (-(∑ b : Fin 16, o5 (ValueIdx.ix3 b 0 0))) Cert.Spec.lN4)
        (Ideal.div (-(∑ b : Fin 16, o3 (ValueIdx.ix3 b 0 0))) Cert.Spec.lN3)
        (Cert.Spec.dice (fun b w => o0 (ValueIdx.ix3 b 0 w)) (fun b w => o1 (ValueIdx.ix3 b 0 w)) (fun b w => o2 (ValueIdx.ix3 b 0 w))) := by
  subst h0 h1 h2 h3 h4 h5 h6
  after_results_simp
  funext j
  refine (combine_apply _ _ _ _ _ j).trans ?_
  exact combine_congr
    (congrArg (fun x => Ideal.div (-x) Cert.Spec.lN4)
      (batchSum_apply (W (Proc.devRef .tc main_v0_4)) slices_S16x1x128_S16x1x1_0_0_0 shapeCasts_S16x1x1_S16 reducesTo_S16_S_d0 h_S_ j))
    (congrArg (fun x => Ideal.div (-x) Cert.Spec.lN3)
      (batchSum_apply (W (Proc.devRef .tc main_v0_6)) slices_S16x1x128_S16x1x1_0_0_0 shapeCasts_S16x1x1_S16 reducesTo_S16_S_d0 h_S_ j))
    (congrArg (fun x => Ideal.div (-x) Cert.Spec.lN4)
      (batchSum_apply (W (Proc.devRef .tc main_v0_5)) slices_S16x1x128_S16x1x1_0_0_0 shapeCasts_S16x1x1_S16 reducesTo_S16_S_d0 h_S_ j))
    (congrArg (fun x => Ideal.div (-x) Cert.Spec.lN3)
      (batchSum_apply (W (Proc.devRef .tc main_v0_3)) slices_S16x1x128_S16x1x1_0_0_0 shapeCasts_S16x1x1_S16 reducesTo_S16_S_d0 h_S_ j))
    (congrArg (fun x => Ideal.div x Cert.Spec.l8192)
      (diceSum_apply (W (Proc.devRef .tc main_v0_0)) (W (Proc.devRef .tc main_v0_1)) (W (Proc.devRef .tc main_v0_2))
        shapeCasts_S16x1x512_S16x512 bcast_S_S16x512 reducesTo_S16x512_S_d0_1 h_S_ j))

end Cert.KernelIdeal.Hand
end
-- ==== Proof.K.ArrAt.lean ====
/- What each output array holds after the whole pipeline, entry by entry.

   An output window's block sits at (batch, 0, 0) of its array and is written back only at the last point of its batch,
   so the sixteen write-backs tile the array along the batch axis: row b ends holding what the last point of batch b
   left in the window's staging buffer. Per window: the block index decided over the grid, membership in a point's block,
   the whole-array function, that each write-back writes its block of it, and the array read at an entry. -/
import proofs.«411553_j46600395162340_3_alg».proof.Proof.K.Dats
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of batch `b`: the point that writes the outputs' blocks back. -/
theorem lastPt_lt (b : ℕ) (hb : b < 16) : 4 * b + 3 < cfg0.N := by
  have := N_0
  show 4 * b + 3 < grid0.N
  omega

/-- The accumulated contents depend on the point's number only. -/
theorem outsAt0_congr (c : Dev nD) {n n' : ℕ} (hn : n < cfg0.N) (hn' : n' < cfg0.N) (e : n = n') :
    outsAt0 m c n hn = outsAt0 m c n' hn' := by
  subst e; rfl

/-! ## Output window 5 -/

/-- Window 5's block index at point `t`, decided over the grid: the batch, and zero on the other two axes. -/
theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, _)

/-- Point `t`'s block is a box in the array: an entry lies in it exactly when on every axis its coordinate is at least
    the block's start and below the start plus the block's extent. -/
theorem mem_blk5 (t : Fin cfg0.N) (i : S16x1x512.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_v0_0).slice (win0_5.rect t)).set ↔ _
  rw [View.set_slice_whole, Rect.mem_set_unit]
  exact Iff.rfl

/-- What the array ends holding: row `b` is what the last point of batch `b` left in the window's buffer. -/
def G5 (c : Dev nD) : S16x1x512.Idx → Elt F .f32 := fun i =>
  (outsAt0 m c (4 * (i 0).val + 3) (lastPt_lt _ (i 0).isLt)).o5 (ValueIdx.ix3 0 0 ⟨(i 2).val, (i 2).isLt⟩)

/-- What a point that writes back writes is its block of that function. -/
theorem flushed5_eq (c : Dev nD) (t : Fin cfg0.N) (hf : (cfg0.win 5).flush t = true) :
    (dats m c).flushed 5 t = ((cfg0.win 5).blk t).view.read (Elt F) (G5 m c) := by
  have h3 : t.val % 4 = 3 := (flush0_5 t).mp hf
  obtain ⟨e0, e1, e2⟩ := idx5 t
  show (cfg0.win 5).cut (grid0.coords t) ((dats m c).after 5 t) = _
  rw [after0_5]
  funext j
  have hj0 : (j 0).val < 1 := (j 0).isLt
  have hj1 : (j 1).val < 1 := (j 1).isLt
  have k0 : ((((cfg0.win 5).blk t).view.emb j) 0).val = t.val / 4 := by
    show win0_5.index t (0 : Fin 3) * 1 + 1 * (j 0).val = _
    omega
  have k2 : ((((cfg0.win 5).blk t).view.emb j) 2).val = (j 2).val := by
    show win0_5.index t (2 : Fin 3) * 512 + 1 * (j 2).val = _
    omega
  show (outsAt0 m c t.val t.isLt).o5 j = G5 m c (((cfg0.win 5).blk t).view.emb j)
  unfold G5
  rw [outsAt0_congr m c t.isLt (lastPt_lt _ ((((cfg0.win 5).blk t).view.emb j) 0).isLt) (by rw [k0]; omega)]
  refine congrArg _ (funext fun a => Fin.ext ?_)
  match a with
  | ⟨0, _⟩ => show (j 0).val = 0; omega
  | ⟨1, _⟩ => show (j 1).val = 0; omega
  | ⟨2, _⟩ => show (j 2).val = ((((cfg0.win 5).blk t).view.emb j) 2).val; omega

/-- Row `b` of output 5 after the whole pipeline: what the last point of batch `b` left. -/
theorem arrAt5 (c : Dev nD) (b : Fin 16) (j : Fin 512) :
    ((dats m c).arrAt 5 cfg0.N : Vec F S16x1x512 .f32) (ValueIdx.ix3 b 0 j)
      = (outsAt0 m c (4 * b.val + 3) (lastPt_lt _ b.isLt)).o5 (ValueIdx.ix3 0 0 j) := by
  have ht : 4 * b.val + 3 < cfg0.N := lastPt_lt _ b.isLt
  obtain ⟨e0, e1, e2⟩ := idx5 ⟨4 * b.val + 3, ht⟩
  have e0' : win0_5.index ⟨4 * b.val + 3, ht⟩ (0 : Fin 3) = b.val := by rw [e0]; show (4 * b.val + 3) / 4 = b.val; omega
  refine ((dats m c).arrAt_apply_of_mem 5 (G5 m c) (flushed5_eq m c) cfg0.N ⟨4 * b.val + 3, ht⟩ (ValueIdx.ix3 b 0 j) ht
    ((flush0_5 _).mpr (by show (4 * b.val + 3) % 4 = 3; omega)) ?_).trans ?_
  · rw [mem_blk5]
    intro a
    match a with
    | ⟨0, _⟩ => show win0_5.index ⟨4 * b.val + 3, ht⟩ (0 : Fin 3) * 1 ≤ b.val ∧ b.val < win0_5.index ⟨4 * b.val + 3, ht⟩ (0 : Fin 3) * 1 + 1; omega
    | ⟨1, _⟩ => show win0_5.index ⟨4 * b.val + 3, ht⟩ (1 : Fin 3) * 1 ≤ 0 ∧ 0 < win0_5.index ⟨4 * b.val + 3, ht⟩ (1 : Fin 3) * 1 + 1; omega
    | ⟨2, _⟩ => show win0_5.index ⟨4 * b.val + 3, ht⟩ (2 : Fin 3) * 512 ≤ j.val ∧ j.val < win0_5.index ⟨4 * b.val + 3, ht⟩ (2 : Fin 3) * 512 + 512; have := j.isLt; omega
  · rfl

/-! ## Output window 6 -/

/-- Window 6's block index at point `t`, decided over the grid: the batch, and zero on the other two axes. -/
theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, _)

/-- Point `t`'s block is a box in the array: an entry lies in it exactly when on every axis its coordinate is at least
    the block's start and below the start plus the block's extent. -/
theorem mem_blk6 (t : Fin cfg0.N) (i : S16x1x512.Idx) :
    i ∈ ((cfg0.win 6).blk t).view.set ↔ ∀ a : Fin 3, win0_6.index t a * S1x1x512.size a ≤ (i a).val ∧ (i a).val < win0_6.index t a * S1x1x512.size a + S1x1x512.size a := by
  show i ∈ ((View.whole main_v0_1).slice (win0_6.rect t)).set ↔ _
  rw [View.set_slice_whole, Rect.mem_set_unit]
  exact Iff.rfl

/-- What the array ends holding: row `b` is what the last point of batch `b` left in the window's buffer. -/
def G6 (c : Dev nD) : S16x1x512.Idx → Elt F .f32 := fun i =>
  (outsAt0 m c (4 * (i 0).val + 3) (lastPt_lt _ (i 0).isLt)).o6 (ValueIdx.ix3 0 0 ⟨(i 2).val, (i 2).isLt⟩)

/-- What a point that writes back writes is its block of that function. -/
theorem flushed6_eq (c : Dev nD) (t : Fin cfg0.N) (hf : (cfg0.win 6).flush t = true) :
    (dats m c).flushed 6 t = ((cfg0.win 6).blk t).view.read (Elt F) (G6 m c) := by
  have h3 : t.val % 4 = 3 := (flush0_6 t).mp hf
  obtain ⟨e0, e1, e2⟩ := idx6 t
  show (cfg0.win 6).cut (grid0.coords t) ((dats m c).after 6 t) = _
  rw [after0_6]
  funext j
  have hj0 : (j 0).val < 1 := (j 0).isLt
  have hj1 : (j 1).val < 1 := (j 1).isLt
  have k0 : ((((cfg0.win 6).blk t).view.emb j) 0).val = t.val / 4 := by
    show win0_6.index t (0 : Fin 3) * 1 + 1 * (j 0).val = _
    omega
  have k2 : ((((cfg0.win 6).blk t).view.emb j) 2).val = (j 2).val := by
    show win0_6.index t (2 : Fin 3) * 512 + 1 * (j 2).val = _
    omega
  show (outsAt0 m c t.val t.isLt).o6 j = G6 m c (((cfg0.win 6).blk t).view.emb j)
  unfold G6
  rw [outsAt0_congr m c t.isLt (lastPt_lt _ ((((cfg0.win 6).blk t).view.emb j) 0).isLt) (by rw [k0]; omega)]
  refine congrArg _ (funext fun a => Fin.ext ?_)
  match a with
  | ⟨0, _⟩ => show (j 0).val = 0; omega
  | ⟨1, _⟩ => show (j 1).val = 0; omega
  | ⟨2, _⟩ => show (j 2).val = ((((cfg0.win 6).blk t).view.emb j) 2).val; omega

/-- Row `b` of output 6 after the whole pipeline: what the last point of batch `b` left. -/
theorem arrAt6 (c : Dev nD) (b : Fin 16) (j : Fin 512) :
    ((dats m c).arrAt 6 cfg0.N : Vec F S16x1x512 .f32) (ValueIdx.ix3 b 0 j)
      = (outsAt0 m c (4 * b.val + 3) (lastPt_lt _ b.isLt)).o6 (ValueIdx.ix3 0 0 j) := by
  have ht : 4 * b.val + 3 < cfg0.N := lastPt_lt _ b.isLt
  obtain ⟨e0, e1, e2⟩ := idx6 ⟨4 * b.val + 3, ht⟩
  have e0' : win0_6.index ⟨4 * b.val + 3, ht⟩ (0 : Fin 3) = b.val := by rw [e0]; show (4 * b.val + 3) / 4 = b.val; omega
  refine ((dats m c).arrAt_apply_of_mem 6 (G6 m c) (flushed6_eq m c) cfg0.N ⟨4 * b.val + 3, ht⟩ (ValueIdx.ix3 b 0 j) ht
    ((flush0_6 _).mpr (by show (4 * b.val + 3) % 4 = 3; omega)) ?_).trans ?_
  · rw [mem_blk6]
    intro a
    match a with
    | ⟨0, _⟩ => show win0_6.index ⟨4 * b.val + 3, ht⟩ (0 : Fin 3) * 1 ≤ b.val ∧ b.val < win0_6.index ⟨4 * b.val + 3, ht⟩ (0 : Fin 3) * 1 + 1; omega
    | ⟨1, _⟩ => show win0_6.index ⟨4 * b.val + 3, ht⟩ (1 : Fin 3) * 1 ≤ 0 ∧ 0 < win0_6.index ⟨4 * b.val + 3, ht⟩ (1 : Fin 3) * 1 + 1; omega
    | ⟨2, _⟩ => show win0_6.index ⟨4 * b.val + 3, ht⟩ (2 : Fin 3) * 512 ≤ j.val ∧ j.val < win0_6.index ⟨4 * b.val + 3, ht⟩ (2 : Fin 3) * 512 + 512; have := j.isLt; omega
  · rfl

/-! ## Output window 7 -/

/-- Window 7's block index at point `t`, decided over the grid: the batch, and zero on the other two axes. -/
theorem idx7 : ∀ t : Fin cfg0.N, win0_7.index t (0 : Fin 3) = t.val / 4 ∧ win0_7.index t (1 : Fin 3) = 0 ∧ win0_7.index t (2 : Fin 3) = 0 :=
  (by decide +kernel : ∀ t : Fin grid0.N, _)

/-- Point `t`'s block is a box in the array: an entry lies in it exactly when on every axis its coordinate is at least
    the block's start and below the start plus the block's extent. -/
theorem mem_blk7 (t : Fin cfg0.N) (i : S16x1x512.Idx) :
    i ∈ ((cfg0.win 7).blk t).view.set ↔ ∀ a : Fin 3, win0_7.index t a * S1x1x512.size a ≤ (i a).val ∧ (i a).val < win0_7.index t a * S1x1x512.size a + S1x1x512.size a := by
  show i ∈ ((View.whole main_v0_2).slice (win0_7.rect t)).set ↔ _
  rw [View.set_slice_whole, Rect.mem_set_unit]
  exact Iff.rfl

/-- What the array ends holding: row `b` is what the last point of batch `b` left in the window's buffer. -/
def G7 (c : Dev nD) : S16x1x512.Idx → Elt F .f32 := fun i =>
  (outsAt0 m c (4 * (i 0).val + 3) (lastPt_lt _ (i 0).isLt)).o7 (ValueIdx.ix3 0 0 ⟨(i 2).val, (i 2).isLt⟩)

/-- What a point that writes back writes is its block of that function. -/
theorem flushed7_eq (c : Dev nD) (t : Fin cfg0.N) (hf : (cfg0.win 7).flush t = true) :
    (dats m c).flushed 7 t = ((cfg0.win 7).blk t).view.read (Elt F) (G7 m c) := by
  have h3 : t.val % 4 = 3 := (flush0_7 t).mp hf
  obtain ⟨e0, e1, e2⟩ := idx7 t
  show (cfg0.win 7).cut (grid0.coords t) ((dats m c).after 7 t) = _
  rw [after0_7]
  funext j
  have hj0 : (j 0).val < 1 := (j 0).isLt
  have hj1 : (j 1).val < 1 := (j 1).isLt
  have k0 : ((((cfg0.win 7).blk t).view.emb j) 0).val = t.val / 4 := by
    show win0_7.index t (0 : Fin 3) * 1 + 1 * (j 0).val = _
    omega
  have k2 : ((((cfg0.win 7).blk t).view.emb j) 2).val = (j 2).val := by
    show win0_7.index t (2 : Fin 3) * 512 + 1 * (j 2).val = _
    omega
  show (outsAt0 m c t.val t.isLt).o7 j = G7 m c (((cfg0.win 7).blk t).view.emb j)
  unfold G7
  rw [outsAt0_congr m c t.isLt (lastPt_lt _ ((((cfg0.win 7).blk t).view.emb j) 0).isLt) (by rw [k0]; omega)]
  refine congrArg _ (funext fun a => Fin.ext ?_)
  match a with
  | ⟨0, _⟩ => show (j 0).val = 0; omega
  | ⟨1, _⟩ => show (j 1).val = 0; omega
  | ⟨2, _⟩ => show (j 2).val = ((((cfg0.win 7).blk t).view.emb j) 2).val; omega

/-- Row `b` of output 7 after the whole pipeline: what the last point of batch `b` left. -/
theorem arrAt7 (c : Dev nD) (b : Fin 16) (j : Fin 512) :
    ((dats m c).arrAt 7 cfg0.N : Vec F S16x1x512 .f32) (ValueIdx.ix3 b 0 j)
      = (outsAt0 m c (4 * b.val + 3) (lastPt_lt _ b.isLt)).o7 (ValueIdx.ix3 0 0 j) := by
  have ht : 4 * b.val + 3 < cfg0.N := lastPt_lt _ b.isLt
  obtain ⟨e0, e1, e2⟩ := idx7 ⟨4 * b.val + 3, ht⟩
  have e0' : win0_7.index ⟨4 * b.val + 3, ht⟩ (0 : Fin 3) = b.val := by rw [e0]; show (4 * b.val + 3) / 4 = b.val; omega
  refine ((dats m c).arrAt_apply_of_mem 7 (G7 m c) (flushed7_eq m c) cfg0.N ⟨4 * b.val + 3, ht⟩ (ValueIdx.ix3 b 0 j) ht
    ((flush0_7 _).mpr (by show (4 * b.val + 3) % 4 = 3; omega)) ?_).trans ?_
  · rw [mem_blk7]
    intro a
    match a with
    | ⟨0, _⟩ => show win0_7.index ⟨4 * b.val + 3, ht⟩ (0 : Fin 3) * 1 ≤ b.val ∧ b.val < win0_7.index ⟨4 * b.val + 3, ht⟩ (0 : Fin 3) * 1 + 1; omega
    | ⟨1, _⟩ => show win0_7.index ⟨4 * b.val + 3, ht⟩ (1 : Fin 3) * 1 ≤ 0 ∧ 0 < win0_7.index ⟨4 * b.val + 3, ht⟩ (1 : Fin 3) * 1 + 1; omega
    | ⟨2, _⟩ => show win0_7.index ⟨4 * b.val + 3, ht⟩ (2 : Fin 3) * 512 ≤ j.val ∧ j.val < win0_7.index ⟨4 * b.val + 3, ht⟩ (2 : Fin 3) * 512 + 512; have := j.isLt; omega
  · rfl

/-! ## Output window 8 -/

/-- Window 8's block index at point `t`, decided over the grid: the batch, and zero on the other two axes. -/
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)

/-- Point `t`'s block is a box in the array: an entry lies in it exactly when on every axis its coordinate is at least
    the block's start and below the start plus the block's extent. -/
theorem mem_blk8 (t : Fin cfg0.N) (i : S16x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v0_3).slice (win0_8.rect t)).set ↔ _
  rw [View.set_slice_whole, Rect.mem_set_unit]
  exact Iff.rfl

/-- What the array ends holding: row `b` is what the last point of batch `b` left in the window's buffer. -/
def G8 (c : Dev nD) : S16x1x128.Idx → Elt F .f32 := fun i =>
  (outsAt0 m c (4 * (i 0).val + 3) (lastPt_lt _ (i 0).isLt)).o8 (ValueIdx.ix3 0 0 ⟨(i 2).val, (i 2).isLt⟩)

/-- What a point that writes back writes is its block of that function. -/
theorem flushed8_eq (c : Dev nD) (t : Fin cfg0.N) (hf : (cfg0.win 8).flush t = true) :
    (dats m c).flushed 8 t = ((cfg0.win 8).blk t).view.read (Elt F) (G8 m c) := by
  have h3 : t.val % 4 = 3 := (flush0_8 t).mp hf
  obtain ⟨e0, e1, e2⟩ := idx8 t
  show (cfg0.win 8).cut (grid0.coords t) ((dats m c).after 8 t) = _
  rw [after0_8]
  funext j
  have hj0 : (j 0).val < 1 := (j 0).isLt
  have hj1 : (j 1).val < 1 := (j 1).isLt
  have k0 : ((((cfg0.win 8).blk t).view.emb j) 0).val = t.val / 4 := by
    show win0_8.index t (0 : Fin 3) * 1 + 1 * (j 0).val = _
    omega
  have k2 : ((((cfg0.win 8).blk t).view.emb j) 2).val = (j 2).val := by
    show win0_8.index t (2 : Fin 3) * 128 + 1 * (j 2).val = _
    omega
  show (outsAt0 m c t.val t.isLt).o8 j = G8 m c (((cfg0.win 8).blk t).view.emb j)
  unfold G8
  rw [outsAt0_congr m c t.isLt (lastPt_lt _ ((((cfg0.win 8).blk t).view.emb j) 0).isLt) (by rw [k0]; omega)]
  refine congrArg _ (funext fun a => Fin.ext ?_)
  match a with
  | ⟨0, _⟩ => show (j 0).val = 0; omega
  | ⟨1, _⟩ => show (j 1).val = 0; omega
  | ⟨2, _⟩ => show (j 2).val = ((((cfg0.win 8).blk t).view.emb j) 2).val; omega

/-- Row `b` of output 8 after the whole pipeline: what the last point of batch `b` left. -/
theorem arrAt8 (c : Dev nD) (b : Fin 16) (j : Fin 128) :
    ((dats m c).arrAt 8 cfg0.N : Vec F S16x1x128 .f32) (ValueIdx.ix3 b 0 j)
      = (outsAt0 m c (4 * b.val + 3) (lastPt_lt _ b.isLt)).o8 (ValueIdx.ix3 0 0 j) := by
  have ht : 4 * b.val + 3 < cfg0.N := lastPt_lt _ b.isLt
  obtain ⟨e0, e1, e2⟩ := idx8 ⟨4 * b.val + 3, ht⟩
  have e0' : win0_8.index ⟨4 * b.val + 3, ht⟩ (0 : Fin 3) = b.val := by rw [e0]; show (4 * b.val + 3) / 4 = b.val; omega
  refine ((dats m c).arrAt_apply_of_mem 8 (G8 m c) (flushed8_eq m c) cfg0.N ⟨4 * b.val + 3, ht⟩ (ValueIdx.ix3 b 0 j) ht
    ((flush0_8 _).mpr (by show (4 * b.val + 3) % 4 = 3; omega)) ?_).trans ?_
  · rw [mem_blk8]
    intro a
    match a with
    | ⟨0, _⟩ => show win0_8.index ⟨4 * b.val + 3, ht⟩ (0 : Fin 3) * 1 ≤ b.val ∧ b.val < win0_8.index ⟨4 * b.val + 3, ht⟩ (0 : Fin 3) * 1 + 1; omega
    | ⟨1, _⟩ => show win0_8.index ⟨4 * b.val + 3, ht⟩ (1 : Fin 3) * 1 ≤ 0 ∧ 0 < win0_8.index ⟨4 * b.val + 3, ht⟩ (1 : Fin 3) * 1 + 1; omega
    | ⟨2, _⟩ => show win0_8.index ⟨4 * b.val + 3, ht⟩ (2 : Fin 3) * 128 ≤ j.val ∧ j.val < win0_8.index ⟨4 * b.val + 3, ht⟩ (2 : Fin 3) * 128 + 128; have := j.isLt; omega
  · rfl

/-! ## Output window 9 -/

/-- Window 9's block index at point `t`, decided over the grid: the batch, and zero on the other two axes. -/
theorem idx9 : ∀ t : Fin cfg0.N, win0_9.index t (0 : Fin 3) = t.val / 4 ∧ win0_9.index t (1 : Fin 3) = 0 ∧ win0_9.index t (2 : Fin 3) = 0 :=
  (by decide +kernel : ∀ t : Fin grid0.N, _)

/-- Point `t`'s block is a box in the array: an entry lies in it exactly when on every axis its coordinate is at least
    the block's start and below the start plus the block's extent. -/
theorem mem_blk9 (t : Fin cfg0.N) (i : S16x1x128.Idx) :
    i ∈ ((cfg0.win 9).blk t).view.set ↔ ∀ a : Fin 3, win0_9.index t a * S1x1x128.size a ≤ (i a).val ∧ (i a).val < win0_9.index t a * S1x1x128.size a + S1x1x128.size a := by
  show i ∈ ((View.whole main_v0_4).slice (win0_9.rect t)).set ↔ _
  rw [View.set_slice_whole, Rect.mem_set_unit]
  exact Iff.rfl

/-- What the array ends holding: row `b` is what the last point of batch `b` left in the window's buffer. -/
def G9 (c : Dev nD) : S16x1x128.Idx → Elt F .f32 := fun i =>
  (outsAt0 m c (4 * (i 0).val + 3) (lastPt_lt _ (i 0).isLt)).o9 (ValueIdx.ix3 0 0 ⟨(i 2).val, (i 2).isLt⟩)

/-- What a point that writes back writes is its block of that function. -/
theorem flushed9_eq (c : Dev nD) (t : Fin cfg0.N) (hf : (cfg0.win 9).flush t = true) :
    (dats m c).flushed 9 t = ((cfg0.win 9).blk t).view.read (Elt F) (G9 m c) := by
  have h3 : t.val % 4 = 3 := (flush0_9 t).mp hf
  obtain ⟨e0, e1, e2⟩ := idx9 t
  show (cfg0.win 9).cut (grid0.coords t) ((dats m c).after 9 t) = _
  rw [after0_9]
  funext j
  have hj0 : (j 0).val < 1 := (j 0).isLt
  have hj1 : (j 1).val < 1 := (j 1).isLt
  have k0 : ((((cfg0.win 9).blk t).view.emb j) 0).val = t.val / 4 := by
    show win0_9.index t (0 : Fin 3) * 1 + 1 * (j 0).val = _
    omega
  have k2 : ((((cfg0.win 9).blk t).view.emb j) 2).val = (j 2).val := by
    show win0_9.index t (2 : Fin 3) * 128 + 1 * (j 2).val = _
    omega
  show (outsAt0 m c t.val t.isLt).o9 j = G9 m c (((cfg0.win 9).blk t).view.emb j)
  unfold G9
  rw [outsAt0_congr m c t.isLt (lastPt_lt _ ((((cfg0.win 9).blk t).view.emb j) 0).isLt) (by rw [k0]; omega)]
  refine congrArg _ (funext fun a => Fin.ext ?_)
  match a with
  | ⟨0, _⟩ => show (j 0).val = 0; omega
  | ⟨1, _⟩ => show (j 1).val = 0; omega
  | ⟨2, _⟩ => show (j 2).val = ((((cfg0.win 9).blk t).view.emb j) 2).val; omega

/-- Row `b` of output 9 after the whole pipeline: what the last point of batch `b` left. -/
theorem arrAt9 (c : Dev nD) (b : Fin 16) (j : Fin 128) :
    ((dats m c).arrAt 9 cfg0.N : Vec F S16x1x128 .f32) (ValueIdx.ix3 b 0 j)
      = (outsAt0 m c (4 * b.val + 3) (lastPt_lt _ b.isLt)).o9 (ValueIdx.ix3 0 0 j) := by
  have ht : 4 * b.val + 3 < cfg0.N := lastPt_lt _ b.isLt
  obtain ⟨e0, e1, e2⟩ := idx9 ⟨4 * b.val + 3, ht⟩
  have e0' : win0_9.index ⟨4 * b.val + 3, ht⟩ (0 : Fin 3) = b.val := by rw [e0]; show (4 * b.val + 3) / 4 = b.val; omega
  refine ((dats m c).arrAt_apply_of_mem 9 (G9 m c) (flushed9_eq m c) cfg0.N ⟨4 * b.val + 3, ht⟩ (ValueIdx.ix3 b 0 j) ht
    ((flush0_9 _).mpr (by show (4 * b.val + 3) % 4 = 3; omega)) ?_).trans ?_
  · rw [mem_blk9]
    intro a
    match a with
    | ⟨0, _⟩ => show win0_9.index ⟨4 * b.val + 3, ht⟩ (0 : Fin 3) * 1 ≤ b.val ∧ b.val < win0_9.index ⟨4 * b.val + 3, ht⟩ (0 : Fin 3) * 1 + 1; omega
    | ⟨1, _⟩ => show win0_9.index ⟨4 * b.val + 3, ht⟩ (1 : Fin 3) * 1 ≤ 0 ∧ 0 < win0_9.index ⟨4 * b.val + 3, ht⟩ (1 : Fin 3) * 1 + 1; omega
    | ⟨2, _⟩ => show win0_9.index ⟨4 * b.val + 3, ht⟩ (2 : Fin 3) * 128 ≤ j.val ∧ j.val < win0_9.index ⟨4 * b.val + 3, ht⟩ (2 : Fin 3) * 128 + 128; have := j.isLt; omega
  · rfl

/-! ## Output window 10 -/

/-- Window 10's block index at point `t`, decided over the grid: the batch, and zero on the other two axes. -/
theorem idx10 : ∀ t : Fin cfg0.N, win0_10.index t (0 : Fin 3) = t.val / 4 ∧ win0_10.index t (1 : Fin 3) = 0 ∧ win0_10.index t (2 : Fin 3) = 0 :=
  (by decide +kernel : ∀ t : Fin grid0.N, _)

/-- Point `t`'s block is a box in the array: an entry lies in it exactly when on every axis its coordinate is at least
    the block's start and below the start plus the block's extent. -/
theorem mem_blk10 (t : Fin cfg0.N) (i : S16x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_v0_5).slice (win0_10.rect t)).set ↔ _
  rw [View.set_slice_whole, Rect.mem_set_unit]
  exact Iff.rfl

/-- What the array ends holding: row `b` is what the last point of batch `b` left in the window's buffer. -/
def G10 (c : Dev nD) : S16x1x128.Idx → Elt F .f32 := fun i =>
  (outsAt0 m c (4 * (i 0).val + 3) (lastPt_lt _ (i 0).isLt)).o10 (ValueIdx.ix3 0 0 ⟨(i 2).val, (i 2).isLt⟩)

/-- What a point that writes back writes is its block of that function. -/
theorem flushed10_eq (c : Dev nD) (t : Fin cfg0.N) (hf : (cfg0.win 10).flush t = true) :
    (dats m c).flushed 10 t = ((cfg0.win 10).blk t).view.read (Elt F) (G10 m c) := by
  have h3 : t.val % 4 = 3 := (flush0_10 t).mp hf
  obtain ⟨e0, e1, e2⟩ := idx10 t
  show (cfg0.win 10).cut (grid0.coords t) ((dats m c).after 10 t) = _
  rw [after0_10]
  funext j
  have hj0 : (j 0).val < 1 := (j 0).isLt
  have hj1 : (j 1).val < 1 := (j 1).isLt
  have k0 : ((((cfg0.win 10).blk t).view.emb j) 0).val = t.val / 4 := by
    show win0_10.index t (0 : Fin 3) * 1 + 1 * (j 0).val = _
    omega
  have k2 : ((((cfg0.win 10).blk t).view.emb j) 2).val = (j 2).val := by
    show win0_10.index t (2 : Fin 3) * 128 + 1 * (j 2).val = _
    omega
  show (outsAt0 m c t.val t.isLt).o10 j = G10 m c (((cfg0.win 10).blk t).view.emb j)
  unfold G10
  rw [outsAt0_congr m c t.isLt (lastPt_lt _ ((((cfg0.win 10).blk t).view.emb j) 0).isLt) (by rw [k0]; omega)]
  refine congrArg _ (funext fun a => Fin.ext ?_)
  match a with
  | ⟨0, _⟩ => show (j 0).val = 0; omega
  | ⟨1, _⟩ => show (j 1).val = 0; omega
  | ⟨2, _⟩ => show (j 2).val = ((((cfg0.win 10).blk t).view.emb j) 2).val; omega

/-- Row `b` of output 10 after the whole pipeline: what the last point of batch `b` left. -/
theorem arrAt10 (c : Dev nD) (b : Fin 16) (j : Fin 128) :
    ((dats m c).arrAt 10 cfg0.N : Vec F S16x1x128 .f32) (ValueIdx.ix3 b 0 j)
      = (outsAt0 m c (4 * b.val + 3) (lastPt_lt _ b.isLt)).o10 (ValueIdx.ix3 0 0 j) := by
  have ht : 4 * b.val + 3 < cfg0.N := lastPt_lt _ b.isLt
  obtain ⟨e0, e1, e2⟩ := idx10 ⟨4 * b.val + 3, ht⟩
  have e0' : win0_10.index ⟨4 * b.val + 3, ht⟩ (0 : Fin 3) = b.val := by rw [e0]; show (4 * b.val + 3) / 4 = b.val; omega
  refine ((dats m c).arrAt_apply_of_mem 10 (G10 m c) (flushed10_eq m c) cfg0.N ⟨4 * b.val + 3, ht⟩ (ValueIdx.ix3 b 0 j) ht
    ((flush0_10 _).mpr (by show (4 * b.val + 3) % 4 = 3; omega)) ?_).trans ?_
  · rw [mem_blk10]
    intro a
    match a with
    | ⟨0, _⟩ => show win0_10.index ⟨4 * b.val + 3, ht⟩ (0 : Fin 3) * 1 ≤ b.val ∧ b.val < win0_10.index ⟨4 * b.val + 3, ht⟩ (0 : Fin 3) * 1 + 1; omega
    | ⟨1, _⟩ => show win0_10.index ⟨4 * b.val + 3, ht⟩ (1 : Fin 3) * 1 ≤ 0 ∧ 0 < win0_10.index ⟨4 * b.val + 3, ht⟩ (1 : Fin 3) * 1 + 1; omega
    | ⟨2, _⟩ => show win0_10.index ⟨4 * b.val + 3, ht⟩ (2 : Fin 3) * 128 ≤ j.val ∧ j.val < win0_10.index ⟨4 * b.val + 3, ht⟩ (2 : Fin 3) * 128 + 128; have := j.isLt; omega
  · rfl

/-! ## Output window 11 -/

/-- Window 11's block index at point `t`, decided over the grid: the batch, and zero on the other two axes. -/
theorem idx11 : ∀ t : Fin cfg0.N, win0_11.index t (0 : Fin 3) = t.val / 4 ∧ win0_11.index t (1 : Fin 3) = 0 ∧ win0_11.index t (2 : Fin 3) = 0 :=
  (by decide +kernel : ∀ t : Fin grid0.N, _)

/-- Point `t`'s block is a box in the array: an entry lies in it exactly when on every axis its coordinate is at least
    the block's start and below the start plus the block's extent. -/
theorem mem_blk11 (t : Fin cfg0.N) (i : S16x1x128.Idx) :
    i ∈ ((cfg0.win 11).blk t).view.set ↔ ∀ a : Fin 3, win0_11.index t a * S1x1x128.size a ≤ (i a).val ∧ (i a).val < win0_11.index t a * S1x1x128.size a + S1x1x128.size a := by
  show i ∈ ((View.whole main_v0_6).slice (win0_11.rect t)).set ↔ _
  rw [View.set_slice_whole, Rect.mem_set_unit]
  exact Iff.rfl

/-- What the array ends holding: row `b` is what the last point of batch `b` left in the window's buffer. -/
def G11 (c : Dev nD) : S16x1x128.Idx → Elt F .f32 := fun i =>
  (outsAt0 m c (4 * (i 0).val + 3) (lastPt_lt _ (i 0).isLt)).o11 (ValueIdx.ix3 0 0 ⟨(i 2).val, (i 2).isLt⟩)

/-- What a point that writes back writes is its block of that function. -/
theorem flushed11_eq (c : Dev nD) (t : Fin cfg0.N) (hf : (cfg0.win 11).flush t = true) :
    (dats m c).flushed 11 t = ((cfg0.win 11).blk t).view.read (Elt F) (G11 m c) := by
  have h3 : t.val % 4 = 3 := (flush0_11 t).mp hf
  obtain ⟨e0, e1, e2⟩ := idx11 t
  show (cfg0.win 11).cut (grid0.coords t) ((dats m c).after 11 t) = _
  rw [after0_11]
  funext j
  have hj0 : (j 0).val < 1 := (j 0).isLt
  have hj1 : (j 1).val < 1 := (j 1).isLt
  have k0 : ((((cfg0.win 11).blk t).view.emb j) 0).val = t.val / 4 := by
    show win0_11.index t (0 : Fin 3) * 1 + 1 * (j 0).val = _
    omega
  have k2 : ((((cfg0.win 11).blk t).view.emb j) 2).val = (j 2).val := by
    show win0_11.index t (2 : Fin 3) * 128 + 1 * (j 2).val = _
    omega
  show (outsAt0 m c t.val t.isLt).o11 j = G11 m c (((cfg0.win 11).blk t).view.emb j)
  unfold G11
  rw [outsAt0_congr m c t.isLt (lastPt_lt _ ((((cfg0.win 11).blk t).view.emb j) 0).isLt) (by rw [k0]; omega)]
  refine congrArg _ (funext fun a => Fin.ext ?_)
  match a with
  | ⟨0, _⟩ => show (j 0).val = 0; omega
  | ⟨1, _⟩ => show (j 1).val = 0; omega
  | ⟨2, _⟩ => show (j 2).val = ((((cfg0.win 11).blk t).view.emb j) 2).val; omega

/-- Row `b` of output 11 after the whole pipeline: what the last point of batch `b` left. -/
theorem arrAt11 (c : Dev nD) (b : Fin 16) (j : Fin 128) :
    ((dats m c).arrAt 11 cfg0.N : Vec F S16x1x128 .f32) (ValueIdx.ix3 b 0 j)
      = (outsAt0 m c (4 * b.val + 3) (lastPt_lt _ b.isLt)).o11 (ValueIdx.ix3 0 0 j) := by
  have ht : 4 * b.val + 3 < cfg0.N := lastPt_lt _ b.isLt
  obtain ⟨e0, e1, e2⟩ := idx11 ⟨4 * b.val + 3, ht⟩
  have e0' : win0_11.index ⟨4 * b.val + 3, ht⟩ (0 : Fin 3) = b.val := by rw [e0]; show (4 * b.val + 3) / 4 = b.val; omega
  refine ((dats m c).arrAt_apply_of_mem 11 (G11 m c) (flushed11_eq m c) cfg0.N ⟨4 * b.val + 3, ht⟩ (ValueIdx.ix3 b 0 j) ht
    ((flush0_11 _).mpr (by show (4 * b.val + 3) % 4 = 3; omega)) ?_).trans ?_
  · rw [mem_blk11]
    intro a
    match a with
    | ⟨0, _⟩ => show win0_11.index ⟨4 * b.val + 3, ht⟩ (0 : Fin 3) * 1 ≤ b.val ∧ b.val < win0_11.index ⟨4 * b.val + 3, ht⟩ (0 : Fin 3) * 1 + 1; omega
    | ⟨1, _⟩ => show win0_11.index ⟨4 * b.val + 3, ht⟩ (1 : Fin 3) * 1 ≤ 0 ∧ 0 < win0_11.index ⟨4 * b.val + 3, ht⟩ (1 : Fin 3) * 1 + 1; omega
    | ⟨2, _⟩ => show win0_11.index ⟨4 * b.val + 3, ht⟩ (2 : Fin 3) * 128 ≤ j.val ∧ j.val < win0_11.index ⟨4 * b.val + 3, ht⟩ (2 : Fin 3) * 128 + 128; have := j.isLt; omega
  · rfl

end Cert.KernelIdeal.Hand

end
-- ==== Proof.K.KSem.lean ====
import proofs.«411553_j46600395162340_3_alg».proof.Proof.Spec

/-! The kernel's per-point arithmetic, in the specification's words.

At one grid point the body sees two float blocks (channel k and channel 7 - k of one batch), the two integer blocks of the
same channels, and at the last pair the batch's label block. It carries five quantities from pair to pair: the running
maximum and minimum of the votes, the channel sum of the integer blocks (three images), and two running sums of clamped
logarithms (two numbers). This module names a block's pixel, its sigmoid, the two votes of a pair, one pair's update of the
carried state, and the seven quantities the last pair writes out. -/

noncomputable section

namespace Cert.KSem

open Idealize.ShloMosaic Cert.Spec

/-- A [1, 1, 512, 512] float block, a like integer block, a [512, 512] image, a [1, 1] cell, as index functions. -/
abbrev Blk : Type := (⟨4, ![1, 1, 512, 512]⟩ : Shape).Idx → EReal
abbrev BlkI : Type := (⟨4, ![1, 1, 512, 512]⟩ : Shape).Idx → BitVec 32
abbrev Img : Type := (⟨2, ![512, 512]⟩ : Shape).Idx → EReal
abbrev Cell : Type := (⟨2, ![1, 1]⟩ : Shape).Idx → EReal

/-- A block's pixel. -/
def px (x : Blk) (h w : Fin 512) : EReal := x (ValueIdx.ix4 0 0 h w)
/-- An integer block's pixel, read as a float. -/
def pxf (x : BlkI) (h w : Fin 512) : EReal := wf (x (ValueIdx.ix4 0 0 h w))
/-- An image's pixel and a cell's one entry. -/
def ipx (v : Img) (h w : Fin 512) : EReal := v (ValueIdx.ix2 h w)
def cel (v : Cell) : EReal := v (ValueIdx.ix2 0 0)

/-- The sigmoid of a block, pixel by pixel. -/
def sg (x : Blk) (h w : Fin 512) : EReal := Ideal.logistic (px x h w)

/-- The votes of pair k from its lower block x0 and upper block x1: each channel's sigmoid times the opposite channel's
    sigmoid shifted in that channel's direction. -/
def vlo (k : Fin 4) (x0 x1 : Blk) (h w : Fin 512) : EReal := sg x0 h w * shiftAt (sg x1) (dx (lo k)) (dy (lo k)) h w
def vhi (k : Fin 4) (x0 x1 : Blk) (h w : Fin 512) : EReal := sg x1 h w * shiftAt (sg x0) (dx (hi k)) (dy (hi k)) h w

/-- The five carried quantities. -/
structure St where
  fp : Fin 512 → Fin 512 → EReal
  cm : Fin 512 → Fin 512 → EReal
  sc : Fin 512 → Fin 512 → EReal
  ca : EReal
  ba : EReal

/-- What the first pair's reset stores. -/
def St.init : St := ⟨fun _ _ => ⊥, fun _ _ => ⊤, fun _ _ => 0, 0, 0⟩

/-- One pair's update. -/
def St.step (k : Fin 4) (x0 x1 : Blk) (x2 x3 : BlkI) (s : St) : St where
  fp h w := max (s.fp h w) (max (vlo k x0 x1 h w) (vhi k x0 x1 h w))
  cm h w := min (s.cm h w) (min (vlo k x0 x1 h w) (vhi k x0 x1 h w))
  sc h w := s.sc h w + pxf x2 h w + pxf x3 h w
  ca := s.ca + (∑ h : Fin 512, ∑ w : Fin 512, bceK (sg x0 h w) (pxf x2 h w)) + (∑ h : Fin 512, ∑ w : Fin 512, bceK (sg x1 h w) (pxf x3 h w))
  ba := s.ba + (∑ h : Fin 512, ∑ w : Fin 512, bceK (vlo k x0 x1 h w) (pxf x2 h w)) + (∑ h : Fin 512, ∑ w : Fin 512, bceK (vhi k x0 x1 h w) (pxf x3 h w))

/-! ## What the last pair writes out, from the final carried state and the label block -/
def outI (x4 : BlkI) (w : Fin 512) : EReal := ∑ h : Fin 512, pxf x4 h w
def outJ (s : St) (w : Fin 512) : EReal := ∑ h : Fin 512, s.fp h w
def outInter (s : St) (x4 : BlkI) (w : Fin 512) : EReal := ∑ h : Fin 512, pxf x4 h w * s.fp h w
def outBce (s : St) (x4 : BlkI) : EReal := ∑ h : Fin 512, ∑ w : Fin 512, bceK (s.fp h w) (pxf x4 h w)
def outDec (s : St) : EReal := ∑ h : Fin 512, ∑ w : Fin 512, clog (l1 - s.cm h w * edgeOf (s.sc h w))

end Cert.KSem

end
-- ==== Proof.K.StOf.lean ====
import proofs.«411553_j46600395162340_3_alg».proof.Proof.K.Outs
import proofs.«411553_j46600395162340_3_alg».proof.Proof.K.KSem

/-! The five carried buffers' contents after a point, read as the carried state of the specification's words:
three images by their pixels and two cells by their one entry. -/

noncomputable section

namespace Cert.KernelIdeal.HandV

open Idealize.ShloMosaic Cert.KernelIdeal Cert.KernelIdeal.Hand Cert.KSem

/-- The carried state held in the five scratch buffers' contents. -/
def stOf (o : Outs Ideal) : St :=
  ⟨fun h w => o.s0 (ValueIdx.ix2 h w), fun h w => o.s1 (ValueIdx.ix2 h w), fun h w => o.s2 (ValueIdx.ix2 h w),
    o.s3 (ValueIdx.ix2 0 0), o.s4 (ValueIdx.ix2 0 0)⟩

end Cert.KernelIdeal.HandV

end
-- ==== Proof.K.Pieces.lean ====
/- What each control case of the kernel body leaves in each carried scratch buffer, and what the finalizing case leaves
   in each output block, as pure terms over the skeleton's payloads of the case's input blocks and of the scratch
   contents the point before left. Every store goes through the whole-buffer rectangle at zero offsets, so the canon of
   a buffer's pieces is its last store's payload, and every load in that payload reads whole contents: an input block,
   a scratch as the point before left it, or (the resetting case after its reset, the finalizing case after its
   update) the payload a store of the same run has just left there. -/
import proofs.«411553_j46600395162340_3_alg».proof.Proof.K.Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Zero offsets -/

/-- The zero offsets of a rank-2 rectangle, however spelt. -/
theorem pieces_hz2 : (![0, 0] : Fin 2 → Nat) = fun _ => 0 := funext fun a => by fin_cases a <;> rfl
/-- The zero offsets of a rank-3 rectangle. -/
theorem pieces_hz3 : (![0, 0, 0] : Fin 3 → Nat) = fun _ => 0 := funext fun a => by fin_cases a <;> rfl
/-- The zero offsets of a rank-4 rectangle. -/
theorem pieces_hz4 : (![0, 0, 0, 0] : Fin 4 → Nat) = fun _ => 0 := funext fun a => by fin_cases a <;> rfl

/-! ## Case B (pair index 1) -/

/-- In the case of pair index 1 scratch 0 (the running maximum) ends holding its one covering store's payload, over the input
    blocks and the contents `xs0` the point before left. -/
theorem sout0_B_0_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay28 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_B
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 1 scratch 1 (the running minimum) ends holding its one covering store's payload, over the input
    blocks and the contents `xs1` the point before left. -/
theorem sout0_B_1_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay29 x0 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_B
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 1 scratch 2 (the channel sum) ends holding its one covering store's payload, over the input
    blocks and the contents `xs2` the point before left. -/
theorem sout0_B_2_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay32 (k0_pay30 x2) x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_B
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 1 scratch 3 (the first one-cell accumulator) ends holding its one covering store's payload, over the input
    blocks and the contents `xs3` the point before left. -/
theorem sout0_B_3_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay33 (k0_pay24 x0) (k0_pay25 x1) (k0_pay30 x2) x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_B
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 1 scratch 4 (the second one-cell accumulator) ends holding its one covering store's payload, over the input
    blocks and the contents `xs4` the point before left. -/
theorem sout0_B_4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : condP 1#32 i) (hc2 : ¬condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay8 (k0_pay26 x0 x1) (k0_pay27 x0 x1) (k0_pay30 x2) (k0_pay31 x3) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_B
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-! ## Case C (pair index 2) -/

/-- In the case of pair index 2 scratch 0 (the running maximum) ends holding its one covering store's payload, over the input
    blocks and the contents `xs0` the point before left. -/
theorem sout0_C_0_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay38 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_C
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 2 scratch 1 (the running minimum) ends holding its one covering store's payload, over the input
    blocks and the contents `xs1` the point before left. -/
theorem sout0_C_1_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay39 x0 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_C
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 2 scratch 2 (the channel sum) ends holding its one covering store's payload, over the input
    blocks and the contents `xs2` the point before left. -/
theorem sout0_C_2_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay42 x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_C
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 2 scratch 3 (the first one-cell accumulator) ends holding its one covering store's payload, over the input
    blocks and the contents `xs3` the point before left. -/
theorem sout0_C_3_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay9 (k0_pay43 (k0_pay34 x0) x2 xs3) (k0_pay44 (k0_pay35 x1) x3) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_C
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the case of pair index 2 scratch 4 (the second one-cell accumulator) ends holding its one covering store's payload, over the input
    blocks and the contents `xs4` the point before left. -/
theorem sout0_C_4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : condP 2#32 i) (hc3 : ¬condP 3#32 i) (hc6 : ¬cond6 i)
    (x0 x1 : Vec F S1x1x512x512 .f32) (x2 x3 x4 : Vec F S1x1x512x512 .i32) (xs0 xs1 xs2 : Vec F S512x512 .f32) (xs3 xs4 : Vec F S1x1 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay10 (k0_pay36 x0 x1) (k0_pay37 x0 x1) (k0_pay40 x2) (k0_pay41 x3) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_C
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-! ## Case A (pair index 0): reset, then pair 0's update -/

/-- In the resetting case (pair index 0) scratch 0 (the running maximum) is first reset, then read back and updated: the update's store covers
    it, so it ends holding that store's payload over the input blocks and the reset value. -/
theorem sout0_A_0_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 = k0_pay17 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4)]
  unfold kernelRun0_A
  dsimp only
  try sl_unfold_words
  rw [View.canon_cons_unit_zero (S := S512x512) pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the resetting case (pair index 0) scratch 1 (the running minimum) is first reset, then read back and updated: the update's store covers
    it, so it ends holding that store's payload over the input blocks and the reset value. -/
theorem sout0_A_1_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 = k0_pay18 x0 x1 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4)]
  unfold kernelRun0_A
  dsimp only
  try sl_unfold_words
  rw [View.canon_cons_unit_zero (S := S512x512) pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the resetting case (pair index 0) scratch 2 (the channel sum) is first reset, then read back and updated: the update's store covers
    it, so it ends holding that store's payload over the input blocks and the reset value. -/
theorem sout0_A_2_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 = k0_pay21 x2 x3 k0_pay3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4)]
  unfold kernelRun0_A
  dsimp only
  try sl_unfold_words
  rw [View.canon_cons_unit_zero (S := S512x512) pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the resetting case (pair index 0) scratch 3 (the first one-cell accumulator) is first reset, then read back and updated: the update's store covers
    it, so it ends holding that store's payload over the input blocks and the reset value. -/
theorem sout0_A_3_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 = k0_pay6 (k0_pay22 (k0_pay13 x0) x2 k0_pay4) (k0_pay23 (k0_pay14 x1) x3) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4)]
  unfold kernelRun0_A
  dsimp only
  try sl_unfold_words
  rw [View.canon_cons_unit_zero (S := S1x1) pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the resetting case (pair index 0) scratch 4 (the second one-cell accumulator) is first reset, then read back and updated: the update's store covers
    it, so it ends holding that store's payload over the input blocks and the reset value. -/
theorem sout0_A_4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : condP 0#32 i) (hc1 : ¬condP 1#32 i) (hc2 : ¬condP 2#32 i) (hc3 : ¬condP 3#32 i) (hc6 : ¬cond6 i)
    (x0 x1 : Vec F S1x1x512x512 .f32) (x2 x3 x4 : Vec F S1x1x512x512 .i32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 = k0_pay7 (k0_pay15 x0 x1) (k0_pay16 x0 x1) (k0_pay19 x2) (k0_pay20 x3) k0_pay5 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4)]
  unfold kernelRun0_A
  dsimp only
  try sl_unfold_words
  rw [View.canon_cons_unit_zero (S := S1x1) pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-! ## Case D (pair index 3): pair 3's update, then the outputs -/

/-- In the finalizing case (pair index 3) scratch 0 (the running maximum) ends holding its one covering store's payload, over the input
    blocks and the contents `xs0` the point before left. -/
theorem sout0_D_0_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay49 x0 x1 xs0 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the finalizing case (pair index 3) scratch 1 (the running minimum) ends holding its one covering store's payload, over the input
    blocks and the contents `xs1` the point before left. -/
theorem sout0_D_1_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay50 x0 x1 xs1 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the finalizing case (pair index 3) scratch 2 (the channel sum) ends holding its one covering store's payload, over the input
    blocks and the contents `xs2` the point before left. -/
theorem sout0_D_2_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    sout0_D_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay53 (k0_pay51 x2) x3 xs2 := by
  unfold sout0_D_2
  rw [View.read_writes_eq_canon _ _ _ (scover0_D_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the finalizing case (pair index 3) scratch 3 (the first one-cell accumulator) ends holding its one covering store's payload, over the input
    blocks and the contents `xs3` the point before left. -/
theorem sout0_D_3_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    sout0_D_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay54 (k0_pay45 x0) (k0_pay46 x1) (k0_pay51 x2) x3 xs3 := by
  unfold sout0_D_3
  rw [View.read_writes_eq_canon _ _ _ (scover0_D_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the finalizing case (pair index 3) scratch 4 (the second one-cell accumulator) ends holding its one covering store's payload, over the input
    blocks and the contents `xs4` the point before left. -/
theorem sout0_D_4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    sout0_D_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay11 (k0_pay47 x0 x1) (k0_pay48 x0 x1) (k0_pay51 x2) (k0_pay52 x3) xs4 := by
  unfold sout0_D_4
  rw [View.read_writes_eq_canon _ _ _ (scover0_D_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz2]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2]

/-- In the finalizing case (pair index 3) output block 5 ends holding its one covering store's payload: the label block's row statistic alone; each scratch it
    loads was stored into earlier in the same run, so the load reads back that store's payload. -/
theorem out0_D_5_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay60 (k0_pay58 x4) := by
  unfold out0_D_5
  rw [View.read_writes_eq_canon _ _ _ (cover0_D_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz3]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the finalizing case (pair index 3) output block 6 ends holding its one covering store's payload: a row statistic of the new running maximum; each scratch it
    loads was stored into earlier in the same run, so the load reads back that store's payload. -/
theorem out0_D_6_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay61 (k0_pay59 (k0_pay49 x0 x1 xs0)) := by
  unfold out0_D_6
  rw [View.read_writes_eq_canon _ _ _ (cover0_D_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz3]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the finalizing case (pair index 3) output block 7 ends holding its one covering store's payload: the label block combined with the new running maximum; each scratch it
    loads was stored into earlier in the same run, so the load reads back that store's payload. -/
theorem out0_D_7_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay62 (k0_pay56 x4) (k0_pay49 x0 x1 xs0) := by
  unfold out0_D_7
  rw [View.read_writes_eq_canon _ _ _ (cover0_D_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz3]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the finalizing case (pair index 3) output block 8 ends holding its one covering store's payload: a one-cell statistic of the label block and the new running maximum; each scratch it
    loads was stored into earlier in the same run, so the load reads back that store's payload. -/
theorem out0_D_8_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay63 (k0_pay57 x4 (k0_pay49 x0 x1 xs0)) := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz3]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the finalizing case (pair index 3) output block 9 ends holding its one covering store's payload: the new first one-cell accumulator, broadcast; each scratch it
    loads was stored into earlier in the same run, so the load reads back that store's payload. -/
theorem out0_D_9_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay64 (k0_pay54 (k0_pay45 x0) (k0_pay46 x1) (k0_pay51 x2) x3 xs3) := by
  unfold out0_D_9
  rw [View.read_writes_eq_canon _ _ _ (cover0_D_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz3]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the finalizing case (pair index 3) output block 10 ends holding its one covering store's payload: the new second one-cell accumulator, broadcast; each scratch it
    loads was stored into earlier in the same run, so the load reads back that store's payload. -/
theorem out0_D_10_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay65 (k0_pay11 (k0_pay47 x0 x1) (k0_pay48 x0 x1) (k0_pay51 x2) (k0_pay52 x3) xs4) := by
  unfold out0_D_10
  rw [View.read_writes_eq_canon _ _ _ (cover0_D_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz3]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- In the finalizing case (pair index 3) output block 11 ends holding its one covering store's payload: a one-cell statistic of the new channel sum and the new running minimum, broadcast; each scratch it
    loads was stored into earlier in the same run, so the load reads back that store's payload. -/
theorem out0_D_11_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay12 (k0_pay66 (k0_pay55 (k0_pay53 (k0_pay51 x2) x3 xs2) (k0_pay50 x0 x1 xs1))) := by
  unfold out0_D_11
  rw [View.read_writes_eq_canon _ _ _ (cover0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)]
  unfold kernelRun0_D
  dsimp only
  try sl_unfold_words
  rw [View.canon_unit_zero pieces_hz3]
  simp only [View.readAt_eq_ld, harg2.read_unread, harg3.read_unread, harg4.read_unread, harg5.read_unread, harg6.read_unread, harg14.read_unread, harg15.read_unread, harg16.read_unread, harg17.read_unread, harg18.read_unread, View.ld_unit_zero (S := S1x1x512x512) pieces_hz4, View.ld_unit_zero (S := S512x512) pieces_hz2, View.ld_unit_zero (S := S1x1) pieces_hz2, View.readCov_unit_zero (S := S512x512) _ pieces_hz2, View.readCov_unit_zero (S := S1x1) _ pieces_hz2]

/-- The same with the scratch it reads written as what the finalizing case leaves in that scratch. -/
theorem out0_D_6_eq_new (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay61 (k0_pay59 (sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)) := by
  rw [out0_D_6_eq, sout0_D_0_eq]

/-- The same with the scratch it reads written as what the finalizing case leaves in that scratch. -/
theorem out0_D_7_eq_new (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay62 (k0_pay56 x4) (sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4) := by
  rw [out0_D_7_eq, sout0_D_0_eq]

/-- The same with the scratch it reads written as what the finalizing case leaves in that scratch. -/
theorem out0_D_8_eq_new (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay63 (k0_pay57 x4 (sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4)) := by
  rw [out0_D_8_eq, sout0_D_0_eq]

/-- The same with the scratch it reads written as what the finalizing case leaves in that scratch. -/
theorem out0_D_9_eq_new (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay64 (sout0_D_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4) := by
  rw [out0_D_9_eq, sout0_D_3_eq]

/-- The same with the scratch it reads written as what the finalizing case leaves in that scratch. -/
theorem out0_D_10_eq_new (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay65 (sout0_D_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4) := by
  rw [out0_D_10_eq, sout0_D_4_eq]

/-- The same with the scratch it reads written as what the finalizing case leaves in that scratch. -/
theorem out0_D_11_eq_new (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x512x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S1x1 .f32) (harg17 : arg17.IsWhole) (arg18 : Memref sig .tc .vmem S1x1 .f32) (harg18 : arg18.IsWhole)
    (hc0 : ¬condP 0#32 i) (hc1 : ¬condP 1#32 i) (hc2 : ¬condP 2#32 i) (hc3 : condP 3#32 i) (hc6 : cond6 i)
    (x0 x1 : Vec F S1x1x512x512 .f32) (x2 x3 x4 : Vec F S1x1x512x512 .i32) (xs0 xs1 xs2 : Vec F S512x512 .f32) (xs3 xs4 : Vec F S1x1 .f32) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4 = k0_pay12 (k0_pay66 (k0_pay55 (sout0_D_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4) (sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc6 x0 x1 x2 x3 x4 xs0 xs1 xs2 xs3 xs4))) := by
  rw [out0_D_11_eq, sout0_D_2_eq, sout0_D_1_eq]

end Cert.KernelIdeal.Hand

end
-- ==== Proof.K.PayA.lean ====
import proofs.«411553_j46600395162340_3_alg».proof.Proof.Gen.KernelIdeal.Skeleton
import proofs.«411553_j46600395162340_3_alg».proof.Proof.K.KSem
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

/-! The first pair's values at a pixel.

What each value the body computes at the pair of channels 0 and 7 is at an index, over the extended reals, as a function
of the blocks and of the carried state it reads, in the specification's words. The facts every pair shares come first:
the reset values, a [1, 1, 512, 512] block read as an image, the four one-pixel shifts, the sum of a whole image and one
cross-entropy term. -/

noncomputable section

namespace Cert.KernelIdeal.PayMath

open Cert.KernelIdeal Cert.KernelIdeal.Gen
open Idealize.ShloMosaic Idealize.ShloMosaic.ValueIdx
open Cert.Spec Cert.KSem

/-! ## The reset values -/

theorem ofBits_negInf : Ideal.ofBits .f32 0xFF800000#32 = ⊥ := by
  simp [Ideal.ofBits, Ideal.ieee]
theorem ofBits_posInf : Ideal.ofBits .f32 0x7F800000#32 = ⊤ := by
  simp [Ideal.ofBits, Ideal.ieee]

theorem pay1_apply (j : S512x512.Idx) : (k0_pay1 (F := Ideal)) j = ⊥ := by
  unfold k0_pay1
  rw [shapeCast_self]
  exact ofBits_negInf
theorem pay2_apply (j : S512x512.Idx) : (k0_pay2 (F := Ideal)) j = ⊤ := by
  unfold k0_pay2
  rw [shapeCast_self]
  exact ofBits_posInf
theorem pay3_apply (j : S512x512.Idx) : (k0_pay3 (F := Ideal)) j = 0 := by
  unfold k0_pay3
  rw [shapeCast_self]
  exact Ideal.ofBits_zero_f32
theorem pay4_apply (j : S1x1.Idx) : (k0_pay4 (F := Ideal)) j = 0 := by
  unfold k0_pay4
  rw [shapeCast_self]
  exact Ideal.ofBits_zero_f32
theorem pay5_apply (j : S1x1.Idx) : (k0_pay5 (F := Ideal)) j = 0 := by
  unfold k0_pay5
  rw [shapeCast_self]
  exact Ideal.ofBits_zero_f32

/-! ## A block read as an image -/

theorem cast4_apply {α : Type} (x : S1x1x512x512.Idx → α) (hsc : S1x1x512x512.ShapeCasts S512x512) (h w : Fin 512) :
    shapeCast S512x512 x hsc (ix2 h w) = x (ix4 0 0 h w) := by
  refine shapeCast_apply x hsc (ix2 h w) (ix4 0 0 h w) ?_
  rw [Shape.rowMajor_val_two, Shape.rowMajor_val_four]
  show (((0 : Fin 1).val * 1 + (0 : Fin 1).val) * 512 + h.val) * 512 + w.val = h.val * 512 + w.val
  simp

theorem pay13_apply (x0 : Vec Ideal S1x1x512x512 .f32) (h w : Fin 512) : k0_pay13 x0 (ix2 h w) = sg x0 h w := by
  unfold k0_pay13
  show Ideal.logistic (shapeCast S512x512 x0 shapeCasts_S1x1x512x512_S512x512 (ix2 h w)) = _
  rw [cast4_apply]
  rfl
theorem pay14_apply (x1 : Vec Ideal S1x1x512x512 .f32) (h w : Fin 512) : k0_pay14 x1 (ix2 h w) = sg x1 h w := by
  unfold k0_pay14
  show Ideal.logistic (shapeCast S512x512 x1 shapeCasts_S1x1x512x512_S512x512 (ix2 h w)) = _
  rw [cast4_apply]
  rfl
theorem pay19_apply (x2 : Vec Ideal S1x1x512x512 .i32) (h w : Fin 512) : k0_pay19 x2 (ix2 h w) = pxf x2 h w := by
  unfold k0_pay19
  show (((shapeCast S512x512 x2 shapeCasts_S1x1x512x512_S512x512 (ix2 h w)).toInt : ℝ) : EReal) = _
  rw [cast4_apply]
  rfl
theorem pay20_apply (x3 : Vec Ideal S1x1x512x512 .i32) (h w : Fin 512) : k0_pay20 x3 (ix2 h w) = pxf x3 h w := by
  unfold k0_pay20
  show (((shapeCast S512x512 x3 shapeCasts_S1x1x512x512_S512x512 (ix2 h w)).toInt : ℝ) : EReal) = _
  rw [cast4_apply]
  rfl

/-! ## One-pixel shifts

The kernel shifts an image by one pixel along an axis by cutting off the far row or column and putting a zero row or
column at the near side. Read at a pixel this is the source one step away, or zero at the border: the one-axis form of
the specification's shifted image. -/

/-- A function of one coordinate read at the coordinate `n - d`, zero when that falls outside. -/
def shift1 (d : Int) (f : Fin 512 → EReal) (n : Fin 512) : EReal :=
  match src d n with
  | some n' => f n'
  | none => 0

/-- The shifted image is the one-axis shift of the rows of the one-axis shifts along each row. -/
theorem shiftAt_eq (q : Fin 512 → Fin 512 → EReal) (dxv dyv : Int) (h w : Fin 512) :
    shiftAt q dxv dyv h w = shift1 dyv (fun h' => shift1 dxv (q h') w) h := by
  unfold shiftAt shift1
  cases src dyv h <;> cases src dxv w <;> rfl

theorem src_one_pos (n : Fin 512) (hn : 0 < n.val) : src 1 n = some ⟨n.val - 1, by omega⟩ := by
  unfold src
  rw [dif_pos (by omega)]
  refine congrArg some (Fin.ext ?_)
  show ((n.val : Int) - 1).toNat = n.val - 1
  omega
theorem src_one_zero (n : Fin 512) (hn : n.val = 0) : src 1 n = none := by
  unfold src
  rw [dif_neg (by omega)]
theorem src_negOne_lt (n : Fin 512) (hn : n.val + 1 < 512) : src (-1) n = some ⟨n.val + 1, hn⟩ := by
  unfold src
  rw [dif_pos (by omega)]
  refine congrArg some (Fin.ext ?_)
  show ((n.val : Int) - -1).toNat = n.val + 1
  omega
theorem src_negOne_last (n : Fin 512) (hn : ¬ n.val + 1 < 512) : src (-1) n = none := by
  unfold src
  rw [dif_neg (by omega)]
theorem src_zero (n : Fin 512) : src 0 n = some n := by
  unfold src
  rw [dif_pos (by omega)]
  refine congrArg some (Fin.ext ?_)
  show ((n.val : Int) - 0).toNat = n.val
  omega

/-- Cut off the last column and put a zero column in front: the source one column to the left. -/
theorem colRight_apply (z : EReal) (hz : z = 0) (v : S512x512.Idx → EReal) (hs : S512x512.Slices ![0, 0] S512x511)
    (hc : Shape.Concatenates [S512x1, S512x511] S512x512 1) (h w : Fin 512) :
    concatenate S512x512 1 [⟨S512x1, broadcast S512x1 z⟩, ⟨S512x511, extractStridedSlice S512x511 ![0, 0] v hs⟩] hc (ix2 h w)
      = shift1 1 (fun w' => v (ix2 h w')) w := by
  unfold shift1
  by_cases hw : 0 < w.val
  · rw [src_one_pos w hw]
    refine (concatenate_pair_apply_right 1 _ _ hc (ix2 h w) rfl rfl (ix2 h ⟨w.val - 1, by omega⟩)
      (fun b hb => by
        match b with
        | ⟨0, _⟩ => rfl
        | ⟨1, _⟩ => exact absurd rfl hb)
      (by show (w.val - 1) + 1 = w.val; omega)).trans ?_
    exact extractStridedSlice_apply _ v hs _ (ix2 h ⟨w.val - 1, by omega⟩) (fun a => by
      match a with
      | ⟨0, _⟩ => show h.val = 0 + h.val; omega
      | ⟨1, _⟩ => show w.val - 1 = 0 + (w.val - 1); omega)
  · rw [src_one_zero w (by omega)]
    refine (concatenate_pair_apply_left 1 _ _ hc (ix2 h w) rfl (ix2 h 0) (fun b => by
      match b with
      | ⟨0, _⟩ => rfl
      | ⟨1, _⟩ => show (0 : ℕ) = w.val; omega)).trans ?_
    exact hz

/-- Cut off the first column and put a zero column behind: the source one column to the right. -/
theorem colLeft_apply (z : EReal) (hz : z = 0) (v : S512x512.Idx → EReal) (hs : S512x512.Slices ![0, 1] S512x511)
    (hc : Shape.Concatenates [S512x511, S512x1] S512x512 1) (h w : Fin 512) :
    concatenate S512x512 1 [⟨S512x511, extractStridedSlice S512x511 ![0, 1] v hs⟩, ⟨S512x1, broadcast S512x1 z⟩] hc (ix2 h w)
      = shift1 (-1) (fun w' => v (ix2 h w')) w := by
  unfold shift1
  by_cases hw : w.val + 1 < 512
  · rw [src_negOne_lt w hw]
    refine (concatenate_pair_apply_left 1 _ _ hc (ix2 h w) rfl (ix2 h ⟨w.val, by omega⟩) (fun b => by
      match b with
      | ⟨0, _⟩ => rfl
      | ⟨1, _⟩ => rfl)).trans ?_
    exact extractStridedSlice_apply _ v hs _ (ix2 h ⟨w.val + 1, hw⟩) (fun a => by
      match a with
      | ⟨0, _⟩ => show h.val = 0 + h.val; omega
      | ⟨1, _⟩ => show w.val + 1 = 1 + w.val; omega)
  · rw [src_negOne_last w hw]
    refine (concatenate_pair_apply_right 1 _ _ hc (ix2 h w) rfl rfl (ix2 h 0)
      (fun b hb => by
        match b with
        | ⟨0, _⟩ => rfl
        | ⟨1, _⟩ => exact absurd rfl hb)
      (by have := w.isLt; show 0 + 511 = w.val; omega)).trans ?_
    exact hz

/-- Cut off the last row and put a zero row on top: the source one row up. -/
theorem rowDown_apply (z : EReal) (hz : z = 0) (v : S512x512.Idx → EReal) (hs : S512x512.Slices ![0, 0] S511x512)
    (hc : Shape.Concatenates [S1x512, S511x512] S512x512 0) (h w : Fin 512) :
    concatenate S512x512 0 [⟨S1x512, broadcast S1x512 z⟩, ⟨S511x512, extractStridedSlice S511x512 ![0, 0] v hs⟩] hc (ix2 h w)
      = shift1 1 (fun h' => v (ix2 h' w)) h := by
  unfold shift1
  by_cases hh : 0 < h.val
  · rw [src_one_pos h hh]
    refine (concatenate_pair_apply_right 0 _ _ hc (ix2 h w) rfl rfl (ix2 ⟨h.val - 1, by omega⟩ w)
      (fun b hb => by
        match b with
        | ⟨0, _⟩ => exact absurd rfl hb
        | ⟨1, _⟩ => rfl)
      (by show (h.val - 1) + 1 = h.val; omega)).trans ?_
    exact extractStridedSlice_apply _ v hs _ (ix2 ⟨h.val - 1, by omega⟩ w) (fun a => by
      match a with
      | ⟨0, _⟩ => show h.val - 1 = 0 + (h.val - 1); omega
      | ⟨1, _⟩ => show w.val = 0 + w.val; omega)
  · rw [src_one_zero h (by omega)]
    refine (concatenate_pair_apply_left 0 _ _ hc (ix2 h w) rfl (ix2 0 w) (fun b => by
      match b with
      | ⟨0, _⟩ => show (0 : ℕ) = h.val; omega
      | ⟨1, _⟩ => rfl)).trans ?_
    exact hz

/-- Cut off the first row and put a zero row at the bottom: the source one row down. -/
theorem rowUp_apply (z : EReal) (hz : z = 0) (v : S512x512.Idx → EReal) (hs : S512x512.Slices ![1, 0] S511x512)
    (hc : Shape.Concatenates [S511x512, S1x512] S512x512 0) (h w : Fin 512) :
    concatenate S512x512 0 [⟨S511x512, extractStridedSlice S511x512 ![1, 0] v hs⟩, ⟨S1x512, broadcast S1x512 z⟩] hc (ix2 h w)
      = shift1 (-1) (fun h' => v (ix2 h' w)) h := by
  unfold shift1
  by_cases hh : h.val + 1 < 512
  · rw [src_negOne_lt h hh]
    refine (concatenate_pair_apply_left 0 _ _ hc (ix2 h w) rfl (ix2 ⟨h.val, by omega⟩ w) (fun b => by
      match b with
      | ⟨0, _⟩ => rfl
      | ⟨1, _⟩ => rfl)).trans ?_
    exact extractStridedSlice_apply _ v hs _ (ix2 ⟨h.val + 1, hh⟩ w) (fun a => by
      match a with
      | ⟨0, _⟩ => show h.val + 1 = 1 + h.val; omega
      | ⟨1, _⟩ => show w.val = 0 + w.val; omega)
  · rw [src_negOne_last h hh]
    refine (concatenate_pair_apply_right 0 _ _ hc (ix2 h w) rfl rfl (ix2 0 w)
      (fun b hb => by
        match b with
        | ⟨0, _⟩ => exact absurd rfl hb
        | ⟨1, _⟩ => rfl)
      (by have := h.isLt; show 0 + 511 = h.val; omega)).trans ?_
    exact hz

/-! ## The sum of a whole image, and one cross-entropy term -/

/-- An image viewed [1, 512, 512], summed over its two image axes into one number, that number taken out: the double
    sum over the pixels. -/
theorem sumAll_apply (v : FVec Ideal S512x512 .f32) (h1 : S512x512.ShapeCasts S1x512x512) (hr : S1x512x512.Reduces [1, 2] S1)
    (hφ : FKind.Formats .f32) (hacc : (0x00000000#32 : BitVec 32) = 0x00000000#32) (h2 : S1.ShapeCasts S1x1x1)
    (hp : ∀ a, (![0, 0, 0] : Fin 3 → Nat) a < S1x1x1.size a) :
    extractAt ![0, 0, 0] (shapeCast S1x1x1 (multiReduction (F := Ideal) .add [1, 2] S1 (shapeCast S1x512x512 v h1) 0x00000000#32 hr hφ hacc) h2) hp
      = ∑ h : Fin 512, ∑ w : Fin 512, v (ix2 h w) := by
  unfold extractAt
  show multiReduction (F := Ideal) .add [1, 2] S1 (shapeCast S1x512x512 v h1) 0x00000000#32 hr hφ hacc (Shape.reshapeEquiv h2 _) = _
  refine (Ideal.multiReduction_add_total (shapeCast S1x512x512 v h1) 0x00000000#32 hr (fun b => by
    match b with
    | ⟨0, _⟩ => rfl) hφ hacc _).trans ?_
  refine ((Shape.reshapeEquiv h1).sum_comp v).trans ?_
  exact sum_idx2 v

/-- The test against 1 chooses p or 1 - p before the clamped logarithm. -/
theorem select_oeq (t u p q : EReal) : Scalar.select (Ideal.cmp .oeq t u) p q = if t = u then p else q := by
  unfold Scalar.select Ideal.cmp
  by_cases htu : t = u
  · rw [if_pos htu]; simp [htu]
  · rw [if_neg htu]; simp [htu]

theorem bce_apply (p t : EReal) : max (Ideal.log (Scalar.select (Ideal.cmp .oeq t l1) p (l1 - p))) lFloor = bceK p t := by
  rw [select_oeq]
  rfl

/-- The same term as the kernel prints it over two images, read at a pixel. -/
theorem bceImg_apply (p t : FVec Ideal S512x512 .f32) (j : S512x512.Idx) :
    maximumf (log (select (cmpf .oeq t (broadcast S512x512 (Scalar.ofBits .f32 0x3F800000#32))) p
        (subf (broadcast S512x512 (Scalar.ofBits .f32 0x3F800000#32)) p)))
      (broadcast S512x512 (Scalar.ofBits .f32 0xC2C80000#32)) j = bceK (p j) (t j) :=
  bce_apply (p j) (t j)

/-! ## The first pair: channels 0 and 7 -/

theorem dx_lo0 : dx (lo 0) = 1 := rfl
theorem dy_lo0 : dy (lo 0) = 1 := rfl
theorem dx_hi0 : dx (hi 0) = -1 := rfl
theorem dy_hi0 : dy (hi 0) = -1 := rfl

section CaseA
variable (x0 x1 : Vec Ideal S1x1x512x512 .f32) (x2 x3 : Vec Ideal S1x1x512x512 .i32)

theorem pay15_apply (h w : Fin 512) : k0_pay15 x0 x1 (ix2 h w) = vlo 0 x0 x1 h w := by
  unfold k0_pay15
  refine (mulf_apply _ _ _).trans ?_
  rw [pay13_apply]
  unfold vlo
  refine congrArg (sg x0 h w * ·) ?_
  rw [shiftAt_eq, dx_lo0, dy_lo0]
  refine (rowDown_apply _ sitofp_zero _ _ _ h w).trans ?_
  refine congrArg (fun f => shift1 1 f h) (funext fun h' => ?_)
  refine (colRight_apply _ sitofp_zero _ _ _ h' w).trans ?_
  refine congrArg (fun f => shift1 1 f w) (funext fun w' => ?_)
  exact pay14_apply x1 h' w'

theorem pay16_apply (h w : Fin 512) : k0_pay16 x0 x1 (ix2 h w) = vhi 0 x0 x1 h w := by
  unfold k0_pay16
  refine (mulf_apply _ _ _).trans ?_
  rw [pay14_apply]
  unfold vhi
  refine congrArg (sg x1 h w * ·) ?_
  rw [shiftAt_eq, dx_hi0, dy_hi0]
  refine (rowUp_apply _ sitofp_zero _ _ _ h w).trans ?_
  refine congrArg (fun f => shift1 (-1) f h) (funext fun h' => ?_)
  refine (colLeft_apply _ sitofp_zero _ _ _ h' w).trans ?_
  refine congrArg (fun f => shift1 (-1) f w) (funext fun w' => ?_)
  exact pay13_apply x0 h' w'

theorem pay17_apply (xs : Vec Ideal S512x512 .f32) (h w : Fin 512) :
    k0_pay17 x0 x1 xs (ix2 h w) = max (ipx xs h w) (max (vlo 0 x0 x1 h w) (vhi 0 x0 x1 h w)) := by
  unfold k0_pay17
  rw [shapeCast_self]
  refine (maximumf_apply _ _ _).trans ?_
  refine congrArg (max (xs (ix2 h w))) ?_
  refine (maximumf_apply _ _ _).trans ?_
  rw [pay15_apply, pay16_apply]

theorem pay18_apply (xs : Vec Ideal S512x512 .f32) (h w : Fin 512) :
    k0_pay18 x0 x1 xs (ix2 h w) = min (ipx xs h w) (min (vlo 0 x0 x1 h w) (vhi 0 x0 x1 h w)) := by
  unfold k0_pay18
  rw [shapeCast_self]
  refine (minimumf_apply _ _ _).trans ?_
  refine congrArg (min (xs (ix2 h w))) ?_
  refine (minimumf_apply _ _ _).trans ?_
  rw [pay15_apply, pay16_apply]

theorem pay21_apply (xs : Vec Ideal S512x512 .f32) (h w : Fin 512) :
    k0_pay21 x2 x3 xs (ix2 h w) = ipx xs h w + pxf x2 h w + pxf x3 h w := by
  unfold k0_pay21
  rw [shapeCast_self]
  refine (addf_apply _ _ _).trans ?_
  rw [pay20_apply]
  refine congrArg (· + pxf x3 h w) ?_
  refine (addf_apply _ _ _).trans ?_
  rw [pay19_apply]
  rfl

theorem pay22_apply (v20 : FVec Ideal S512x512 .f32) (c : Vec Ideal S1x1 .f32) :
    cel (k0_pay22 v20 x2 c) = cel c + ∑ h : Fin 512, ∑ w : Fin 512, bceK (ipx v20 h w) (pxf x2 h w) := by
  unfold cel k0_pay22
  refine (addf_apply _ _ _).trans ?_
  refine congrArg (c (ix2 0 0) + ·) ?_
  refine (broadcast_apply _ _).trans ?_
  refine (sumAll_apply _ _ _ _ _ _ _).trans ?_
  refine Finset.sum_congr rfl fun h _ => Finset.sum_congr rfl fun w _ => ?_
  refine (bceImg_apply v20 (k0_pay19 x2) (ix2 h w)).trans ?_
  rw [pay19_apply]
  rfl

theorem pay23_apply (v23 : FVec Ideal S512x512 .f32) :
    k0_pay23 v23 x3 = ∑ h : Fin 512, ∑ w : Fin 512, bceK (ipx v23 h w) (pxf x3 h w) := by
  unfold k0_pay23
  refine (sumAll_apply _ _ _ _ _ _ _).trans ?_
  refine Finset.sum_congr rfl fun h _ => Finset.sum_congr rfl fun w _ => ?_
  refine (bceImg_apply v23 (k0_pay20 x3) (ix2 h w)).trans ?_
  rw [pay20_apply]
  rfl

end CaseA

theorem pay6_apply (v80 : FVec Ideal S1x1 .f32) (v92 : Ideal .f32) : cel (k0_pay6 v80 v92) = cel v80 + v92 := by
  unfold cel k0_pay6
  rw [shapeCast_self]
  refine (addf_apply _ _ _).trans ?_
  refine congrArg (v80 (ix2 0 0) + ·) ?_
  exact broadcast_apply _ _

theorem pay7_apply (v40 v41 v56 v59 : FVec Ideal S512x512 .f32) (c : Vec Ideal S1x1 .f32) :
    cel (k0_pay7 v40 v41 v56 v59 c)
      = cel c + (∑ h : Fin 512, ∑ w : Fin 512, bceK (ipx v40 h w) (ipx v56 h w))
          + (∑ h : Fin 512, ∑ w : Fin 512, bceK (ipx v41 h w) (ipx v59 h w)) := by
  unfold cel k0_pay7
  rw [shapeCast_self]
  refine (addf_apply _ _ _).trans ?_
  refine congrArg₂ (· + ·) ?_ ?_
  · refine (addf_apply _ _ _).trans ?_
    refine congrArg (c (ix2 0 0) + ·) ?_
    refine (broadcast_apply _ _).trans ?_
    refine (sumAll_apply _ _ _ _ _ _ _).trans ?_
    refine Finset.sum_congr rfl fun h _ => Finset.sum_congr rfl fun w _ => ?_
    exact bceImg_apply v40 v56 (ix2 h w)
  · refine (broadcast_apply _ _).trans ?_
    refine (sumAll_apply _ _ _ _ _ _ _).trans ?_
    refine Finset.sum_congr rfl fun h _ => Finset.sum_congr rfl fun w _ => ?_
    exact bceImg_apply v41 v59 (ix2 h w)

/-! ## The first pair's update of the carried state -/

/-- From the reset values, the five quantities the first pair stores are one update of the initial state. -/
theorem stepA (x0 x1 : Vec Ideal S1x1x512x512 .f32) (x2 x3 : Vec Ideal S1x1x512x512 .i32) :
    (⟨ipx (k0_pay17 x0 x1 (k0_pay1 (F := Ideal))), ipx (k0_pay18 x0 x1 (k0_pay2 (F := Ideal))),
      ipx (k0_pay21 x2 x3 (k0_pay3 (F := Ideal))),
      cel (k0_pay6 (k0_pay22 (k0_pay13 x0) x2 (k0_pay4 (F := Ideal))) (k0_pay23 (k0_pay14 x1) x3)),
      cel (k0_pay7 (k0_pay15 x0 x1) (k0_pay16 x0 x1) (k0_pay19 x2) (k0_pay20 x3) (k0_pay5 (F := Ideal)))⟩ : St)
      = St.step 0 x0 x1 x2 x3 St.init := by
  have e1 : ipx (k0_pay17 x0 x1 (k0_pay1 (F := Ideal)))
      = fun h w => max ⊥ (max (vlo 0 x0 x1 h w) (vhi 0 x0 x1 h w)) := by
    funext h w
    refine (pay17_apply x0 x1 _ h w).trans ?_
    refine congrArg (max · _) ?_
    exact pay1_apply _
  have e2 : ipx (k0_pay18 x0 x1 (k0_pay2 (F := Ideal)))
      = fun h w => min ⊤ (min (vlo 0 x0 x1 h w) (vhi 0 x0 x1 h w)) := by
    funext h w
    refine (pay18_apply x0 x1 _ h w).trans ?_
    refine congrArg (min · _) ?_
    exact pay2_apply _
  have e3 : ipx (k0_pay21 x2 x3 (k0_pay3 (F := Ideal))) = fun h w => 0 + pxf x2 h w + pxf x3 h w := by
    funext h w
    refine (pay21_apply x2 x3 _ h w).trans ?_
    refine congrArg (· + pxf x2 h w + pxf x3 h w) ?_
    exact pay3_apply _
  have e4 : cel (k0_pay6 (k0_pay22 (k0_pay13 x0) x2 (k0_pay4 (F := Ideal))) (k0_pay23 (k0_pay14 x1) x3))
      = 0 + (∑ h : Fin 512, ∑ w : Fin 512, bceK (sg x0 h w) (pxf x2 h w))
          + (∑ h : Fin 512, ∑ w : Fin 512, bceK (sg x1 h w) (pxf x3 h w)) := by
    rw [pay6_apply, pay22_apply, pay23_apply]
    refine congrArg₂ (· + ·) (congrArg₂ (· + ·) (pay4_apply _) ?_) ?_
    · exact Finset.sum_congr rfl fun h _ => Finset.sum_congr rfl fun w _ => congrArg (bceK · _) (pay13_apply x0 h w)
    · exact Finset.sum_congr rfl fun h _ => Finset.sum_congr rfl fun w _ => congrArg (bceK · _) (pay14_apply x1 h w)
  have e5 : cel (k0_pay7 (k0_pay15 x0 x1) (k0_pay16 x0 x1) (k0_pay19 x2) (k0_pay20 x3) (k0_pay5 (F := Ideal)))
      = 0 + (∑ h : Fin 512, ∑ w : Fin 512, bceK (vlo 0 x0 x1 h w) (pxf x2 h w))
          + (∑ h : Fin 512, ∑ w : Fin 512, bceK (vhi 0 x0 x1 h w) (pxf x3 h w)) := by
    rw [pay7_apply]
    refine congrArg₂ (· + ·) (congrArg₂ (· + ·) (pay5_apply _) ?_) ?_
    · exact Finset.sum_congr rfl fun h _ => Finset.sum_congr rfl fun w _ =>
        congrArg₂ bceK (pay15_apply x0 x1 h w) (pay19_apply x2 h w)
    · exact Finset.sum_congr rfl fun h _ => Finset.sum_congr rfl fun w _ =>
        congrArg₂ bceK (pay16_apply x0 x1 h w) (pay20_apply x3 h w)
  rw [e1, e2, e3, e4, e5]
  rfl

end Cert.KernelIdeal.PayMath

end
-- ==== Proof.K.PayB.lean ====
/- The values the kernel body stores at pair 1 (channels 1 and 6, which shift vertically only), index by index over the
   extended reals: each payload of that pair's update as a function of its own arguments at indices, in the words of the
   per-point arithmetic (a block's pixel, its sigmoid, the pair's two votes, the clamped-logarithm terms), and the five
   stored values together as one step of the carried state. -/
import proofs.«411553_j46600395162340_3_alg».proof.Proof.Gen.KernelIdeal.Skeleton
import proofs.«411553_j46600395162340_3_alg».proof.Proof.K.KSem
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayMath

open Idealize.ShloMosaic Idealize.ShloMosaic.ValueIdx
open Cert.KernelIdeal Cert.KernelIdeal.Gen Cert.Spec Cert.KSem

/-! ## Where the source coordinate of a one-pixel step lies -/

/-- No step: the coordinate itself. -/
private theorem src_zero (n : Fin 512) : src 0 n = some n := by
  unfold src
  rw [dif_pos ⟨by omega, by omega⟩]
  exact congrArg some (Fin.ext (by simp))

/-- One step back from a coordinate that is not the first: the one before. -/
private theorem src_one_of_pos (n : Fin 512) (hn : 1 ≤ n.val) : src 1 n = some ⟨n.val - 1, by omega⟩ := by
  unfold src
  rw [dif_pos ⟨by omega, by omega⟩]
  exact congrArg some (Fin.ext (by show ((n.val : Int) - 1).toNat = n.val - 1; omega))

/-- One step back from the first coordinate falls outside. -/
private theorem src_one_of_zero (n : Fin 512) (hn : n.val = 0) : src 1 n = none := by
  unfold src
  rw [dif_neg (by omega)]

/-- One step forward from a coordinate that is not the last: the one after. -/
private theorem src_negOne_of_lt (n : Fin 512) (hn : n.val + 1 < 512) : src (-1) n = some ⟨n.val + 1, hn⟩ := by
  unfold src
  rw [dif_pos ⟨by omega, by omega⟩]
  exact congrArg some (Fin.ext (by show ((n.val : Int) - -1).toNat = n.val + 1; omega))

/-- One step forward from the last coordinate falls outside. -/
private theorem src_negOne_of_last (n : Fin 512) (hn : n.val = 511) : src (-1) n = none := by
  unfold src
  rw [dif_neg (by omega)]

/-! ## The layout operations of the pair's update, read at an index -/

/-- A [1, 1, a, b] block viewed as an [a, b] image reads, at (i, j), the block at (0, 0, i, j). -/
private theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The payloads of pair 1, index by index -/

/-- The lower block's sigmoid. -/
theorem k0_pay24_at (x0 : Vec Ideal S1x1x512x512 .f32) (h w : Fin 512) :
    k0_pay24 x0 (ix2 h w) = sg x0 h w := by
  unfold k0_pay24 sg px
  exact congrArg Ideal.logistic (shapeCast_11ab_ab_apply x0 _ h w)

/-- The upper block's sigmoid. -/
theorem k0_pay25_at (x1 : Vec Ideal S1x1x512x512 .f32) (h w : Fin 512) :
    k0_pay25 x1 (ix2 h w) = sg x1 h w := by
  unfold k0_pay25 sg px
  exact congrArg Ideal.logistic (shapeCast_11ab_ab_apply x1 _ h w)

/-- The lower integer block read as floats. -/
theorem k0_pay30_at (x2 : Vec Ideal S1x1x512x512 .i32) (h w : Fin 512) :
    k0_pay30 x2 (ix2 h w) = pxf x2 h w := by
  unfold k0_pay30 pxf wf
  exact congrArg (fun b : BitVec 32 => ((b.toInt : ℝ) : EReal)) (shapeCast_11ab_ab_apply x2 _ h w)

/-- The upper integer block read as floats. -/
theorem k0_pay31_at (x3 : Vec Ideal S1x1x512x512 .i32) (h w : Fin 512) :
    k0_pay31 x3 (ix2 h w) = pxf x3 h w := by
  unfold k0_pay31 pxf wf
  exact congrArg (fun b : BitVec 32 => ((b.toInt : ℝ) : EReal)) (shapeCast_11ab_ab_apply x3 _ h w)

/-! ## The one-pixel vertical shifts -/

/-- A zero row put above an image's first 511 rows: the image one step down, zero in the first row. -/
private theorem rowAbove_at (X : (⟨2, ![512, 512]⟩ : Shape).Idx → EReal) (z : EReal) (hz : z = 0)
    (hs : (⟨2, ![512, 512]⟩ : Shape).Slices ![0, 0] ⟨2, ![511, 512]⟩)
    (hc : Shape.Concatenates [(⟨2, ![1, 512]⟩ : Shape), ⟨2, ![511, 512]⟩] ⟨2, ![512, 512]⟩ 0) (h w : Fin 512) :
    concatenate ⟨2, ![512, 512]⟩ 0 [⟨⟨2, ![1, 512]⟩, broadcast ⟨2, ![1, 512]⟩ z⟩,
        ⟨⟨2, ![511, 512]⟩, extractStridedSlice ⟨2, ![511, 512]⟩ ![0, 0] X hs⟩] hc (ix2 h w)
      = shiftAt (fun h w => X (ix2 h w)) 0 1 h w := by
  unfold shiftAt
  rw [src_zero w]
  by_cases h0 : h.val = 0
  · rw [src_one_of_zero h h0]
    refine (concatenate_pair_apply_left 0 _ _ hc (ix2 h w) rfl (ix2 (0 : Fin 1) w) ?_).trans hz
    intro b
    match b with
    | ⟨0, _⟩ => exact h0.symm
    | ⟨1, _⟩ => rfl
  · rw [src_one_of_pos h (by omega)]
    refine (concatenate_pair_apply_right 0 _ _ hc (ix2 h w) rfl rfl (ix2 (⟨h.val - 1, by omega⟩ : Fin 511) w) ?_ ?_).trans ?_
    · intro b hb
      match b with
      | ⟨0, _⟩ => exact absurd rfl hb
      | ⟨1, _⟩ => rfl
    · show (h.val - 1) + 1 = h.val
      omega
    · exact slice2_axis0_apply 0 X hs _ w ⟨h.val - 1, by omega⟩ (by show h.val - 1 = 0 + (h.val - 1); omega)

/-- A zero row put below an image's last 511 rows: the image one step up, zero in the last row. -/
private theorem rowBelow_at (X : (⟨2, ![512, 512]⟩ : Shape).Idx → EReal) (z : EReal) (hz : z = 0)
    (hs : (⟨2, ![512, 512]⟩ : Shape).Slices ![1, 0] ⟨2, ![511, 512]⟩)
    (hc : Shape.Concatenates [(⟨2, ![511, 512]⟩ : Shape), ⟨2, ![1, 512]⟩] ⟨2, ![512, 512]⟩ 0) (h w : Fin 512) :
    concatenate ⟨2, ![512, 512]⟩ 0 [⟨⟨2, ![511, 512]⟩, extractStridedSlice ⟨2, ![511, 512]⟩ ![1, 0] X hs⟩,
        ⟨⟨2, ![1, 512]⟩, broadcast ⟨2, ![1, 512]⟩ z⟩] hc (ix2 h w)
      = shiftAt (fun h w => X (ix2 h w)) 0 (-1) h w := by
  unfold shiftAt
  rw [src_zero w]
  by_cases h1 : h.val = 511
  · rw [src_negOne_of_last h h1]
    refine (concatenate_pair_apply_right 0 _ _ hc (ix2 h w) rfl rfl (ix2 (0 : Fin 1) w) ?_ ?_).trans hz
    · intro b hb
      match b with
      | ⟨0, _⟩ => exact absurd rfl hb
      | ⟨1, _⟩ => rfl
    · show 0 + 511 = h.val
      omega
  · have hlt : h.val + 1 < 512 := by omega
    rw [src_negOne_of_lt h hlt]
    refine (concatenate_pair_apply_left 0 _ _ hc (ix2 h w) rfl (ix2 (⟨h.val, by omega⟩ : Fin 511) w) ?_).trans ?_
    · intro b
      match b with
      | ⟨0, _⟩ => rfl
      | ⟨1, _⟩ => rfl
    · exact slice2_axis0_apply 1 X hs _ w ⟨h.val + 1, hlt⟩ (by show h.val + 1 = 1 + h.val; omega)

/-- The zero the shifts pad with: the integer zero converted. -/
private theorem sitofp_zero : (Scalar.sitofp (F := Ideal) .f32 0#32 : EReal) = 0 := by
  rw [Ideal.scalar_sitofp_def]
  simp

/-- Pair 1's lower vote: channel 1's sigmoid times channel 6's sigmoid one step down. -/
theorem k0_pay26_at (x0 x1 : Vec Ideal S1x1x512x512 .f32) (h w : Fin 512) :
    k0_pay26 x0 x1 (ix2 h w) = vlo 1 x0 x1 h w := by
  have hsg : (fun h w => k0_pay25 x1 (ix2 h w)) = sg x1 := funext fun h => funext fun w => k0_pay25_at x1 h w
  unfold k0_pay26 vlo
  refine (congrArg₂ (· * ·) (k0_pay24_at x0 h w) (rowAbove_at (k0_pay25 x1) _ sitofp_zero _ _ h w)).trans ?_
  rw [hsg]
  rfl

/-- Pair 1's upper vote: channel 6's sigmoid times channel 1's sigmoid one step up. -/
theorem k0_pay27_at (x0 x1 : Vec Ideal S1x1x512x512 .f32) (h w : Fin 512) :
    k0_pay27 x0 x1 (ix2 h w) = vhi 1 x0 x1 h w := by
  have hsg : (fun h w => k0_pay24 x0 (ix2 h w)) = sg x0 := funext fun h => funext fun w => k0_pay24_at x0 h w
  unfold k0_pay27 vhi
  refine (congrArg₂ (· * ·) (k0_pay25_at x1 h w) (rowBelow_at (k0_pay24 x0) _ sitofp_zero _ _ h w)).trans ?_
  rw [hsg]
  rfl

/-- The running maximum after pair 1. -/
theorem k0_pay28_at (x0 x1 : Vec Ideal S1x1x512x512 .f32) (prev : Vec Ideal S512x512 .f32) (h w : Fin 512) :
    k0_pay28 x0 x1 prev (ix2 h w) = max (prev (ix2 h w)) (max (vlo 1 x0 x1 h w) (vhi 1 x0 x1 h w)) := by
  unfold k0_pay28
  refine (congrFun (shapeCast_self _ _) _).trans ?_
  exact congrArg (max (prev (ix2 h w))) (congrArg₂ max (k0_pay26_at x0 x1 h w) (k0_pay27_at x0 x1 h w))

/-- The running minimum after pair 1. -/
theorem k0_pay29_at (x0 x1 : Vec Ideal S1x1x512x512 .f32) (prev : Vec Ideal S512x512 .f32) (h w : Fin 512) :
    k0_pay29 x0 x1 prev (ix2 h w) = min (prev (ix2 h w)) (min (vlo 1 x0 x1 h w) (vhi 1 x0 x1 h w)) := by
  unfold k0_pay29
  refine (congrFun (shapeCast_self _ _) _).trans ?_
  exact congrArg (min (prev (ix2 h w))) (congrArg₂ min (k0_pay26_at x0 x1 h w) (k0_pay27_at x0 x1 h w))

/-- The channel sum after pair 1: the lower integer block arrives already as floats, the upper as words. -/
theorem k0_pay32_at (v48 : FVec Ideal S512x512 .f32) (v49 : Vec Ideal S1x1x512x512 .i32) (prev : Vec Ideal S512x512 .f32)
    (h w : Fin 512) :
    k0_pay32 v48 v49 prev (ix2 h w) = prev (ix2 h w) + v48 (ix2 h w) + pxf v49 h w := by
  unfold k0_pay32
  refine (congrFun (shapeCast_self _ _) _).trans ?_
  exact congrArg (prev (ix2 h w) + v48 (ix2 h w) + ·) (k0_pay31_at v49 h w)

/-! ## The sums of clamped logarithms -/

/-- An image viewed as [1, 512, 512], summed over its two long axes into one cell, and that cell read out: the double
    sum over the image's pixels. -/
private theorem sumAll (V : (⟨2, ![512, 512]⟩ : Shape).Idx → EReal)
    (hsc : (⟨2, ![512, 512]⟩ : Shape).ShapeCasts ⟨3, ![1, 512, 512]⟩)
    (hr : (⟨3, ![1, 512, 512]⟩ : Shape).Reduces [1, 2] ⟨1, ![1]⟩)
    (hφ : FKind.Formats .f32) (hacc : (0x00000000#32 : BitVec 32) = FKind.add.neutral .f32 hφ)
    (hsc2 : (⟨1, ![1]⟩ : Shape).ShapeCasts ⟨3, ![1, 1, 1]⟩)
    (hpos : ∀ a, (![0, 0, 0] : Fin 3 → Nat) a < (⟨3, ![1, 1, 1]⟩ : Shape).size a) :
    extractAt ![0, 0, 0] (shapeCast ⟨3, ![1, 1, 1]⟩ (multiReduction (F := Ideal) .add [1, 2] ⟨1, ![1]⟩
        (shapeCast ⟨3, ![1, 512, 512]⟩ V hsc) 0x00000000#32 hr hφ hacc) hsc2) hpos
      = ∑ h : Fin 512, ∑ w : Fin 512, V (ix2 h w) := by
  unfold extractAt
  show multiReduction (F := Ideal) .add [1, 2] ⟨1, ![1]⟩ (shapeCast ⟨3, ![1, 512, 512]⟩ V hsc) 0x00000000#32 hr hφ hacc
      (Shape.reshapeEquiv hsc2 _) = _
  rw [Ideal.multiReduction_add_total _ _ hr (fun b => by match b with | ⟨0, _⟩ => rfl) hφ hacc]
  unfold shapeCast
  rw [Equiv.sum_comp (Shape.reshapeEquiv hsc) V, sum_idx2]

/-- The choice of p or 1 - p by the test t = 1, the logarithm and the floor: one cross-entropy term. -/
private theorem bce_at (p t : EReal) :
    max (Ideal.log (Scalar.select (Ideal.cmp .oeq t l1) p (l1 - p))) lFloor = bceK p t := by
  unfold bceK clog Ideal.cmp Scalar.select
  by_cases ht : t = l1
  · simp [ht]
  · simp [ht]

/-- A cell plus two numbers, each spread over the cell's shape: read at the cell's index. -/
private theorem acc2_apply (prev : (⟨2, ![1, 1]⟩ : Shape).Idx → EReal) (a b : EReal) (i : (⟨2, ![1, 1]⟩ : Shape).Idx) :
    addf (F := Ideal) (φ := .f32) (addf (F := Ideal) (φ := .f32) prev (broadcast ⟨2, ![1, 1]⟩ a)) (broadcast ⟨2, ![1, 1]⟩ b) i
      = prev i + a + b := rfl

/-- One cross-entropy term as the body spells it, at a pixel. -/
private theorem bceVec_at (p t : (⟨2, ![512, 512]⟩ : Shape).Idx → EReal) (i : (⟨2, ![512, 512]⟩ : Shape).Idx) :
    maximumf (F := Ideal) (φ := .f32)
        (log (F := Ideal) (φ := .f32)
          (select (cmpf (F := Ideal) (φ := .f32) .oeq t (broadcast ⟨2, ![512, 512]⟩ (FloatOps.ofBits (F := Ideal) .f32 0x3F800000#32))) p
            (subf (F := Ideal) (φ := .f32) (broadcast ⟨2, ![512, 512]⟩ (FloatOps.ofBits (F := Ideal) .f32 0x3F800000#32)) p)))
        (broadcast ⟨2, ![512, 512]⟩ (FloatOps.ofBits (F := Ideal) .f32 0xC2C80000#32)) i
      = bceK (p i) (t i) :=
  bce_at (p i) (t i)

/-- The first accumulator after pair 1: the two sigmoids' cross-entropy sums against the two integer blocks. -/
theorem k0_pay33_at (v20 v23 v48 : FVec Ideal S512x512 .f32) (v49 : Vec Ideal S1x1x512x512 .i32)
    (prev : Vec Ideal S1x1 .f32) :
    k0_pay33 v20 v23 v48 v49 prev (ix2 0 0)
      = prev (ix2 0 0) + (∑ h : Fin 512, ∑ w : Fin 512, bceK (v20 (ix2 h w)) (v48 (ix2 h w)))
          + (∑ h : Fin 512, ∑ w : Fin 512, bceK (v23 (ix2 h w)) (pxf v49 h w)) := by
  unfold k0_pay33
  refine (congrFun (shapeCast_self _ _) _).trans ?_
  refine (acc2_apply _ _ _ _).trans ?_
  refine congrArg₂ (· + ·) (congrArg (prev (ix2 0 0) + ·) ((sumAll _ _ _ _ _ _ _).trans ?_)) ((sumAll _ _ _ _ _ _ _).trans ?_)
  · exact Finset.sum_congr rfl fun h _ => Finset.sum_congr rfl fun w _ => bceVec_at v20 v48 (ix2 h w)
  · refine Finset.sum_congr rfl fun h _ => Finset.sum_congr rfl fun w _ => ?_
    exact (bceVec_at v23 (k0_pay31 v49) (ix2 h w)).trans (congrArg (bceK (v23 (ix2 h w))) (k0_pay31_at v49 h w))

/-- The second accumulator after pair 1: the two votes' cross-entropy sums against the two integer blocks as floats. -/
theorem k0_pay8_at (v32 v33 v48 v51 : FVec Ideal S512x512 .f32) (prev : Vec Ideal S1x1 .f32) :
    k0_pay8 v32 v33 v48 v51 prev (ix2 0 0)
      = prev (ix2 0 0) + (∑ h : Fin 512, ∑ w : Fin 512, bceK (v32 (ix2 h w)) (v48 (ix2 h w)))
          + (∑ h : Fin 512, ∑ w : Fin 512, bceK (v33 (ix2 h w)) (v51 (ix2 h w))) := by
  unfold k0_pay8
  refine (congrFun (shapeCast_self _ _) _).trans ?_
  refine (acc2_apply _ _ _ _).trans ?_
  refine congrArg₂ (· + ·) (congrArg (prev (ix2 0 0) + ·) ((sumAll _ _ _ _ _ _ _).trans ?_)) ((sumAll _ _ _ _ _ _ _).trans ?_)
  · exact Finset.sum_congr rfl fun h _ => Finset.sum_congr rfl fun w _ => bceVec_at v32 v48 (ix2 h w)
  · exact Finset.sum_congr rfl fun h _ => Finset.sum_congr rfl fun w _ => bceVec_at v33 v51 (ix2 h w)

/-! ## Pair 1's update as one step of the carried state

The five values the body stores into the scratch buffers at pair 1, composed as the body composes them (the sigmoids, the
votes and the two integer blocks as floats feeding the stores), are one step of the carried state at pair 1 from what the
buffers held. -/

/-- The stored running maximum, minimum and channel sum at a pixel, and the two stored accumulators, are `St.step 1` of
    the previous contents. -/
theorem stepB (x0 x1 : Vec Ideal S1x1x512x512 .f32) (x2 x3 : Vec Ideal S1x1x512x512 .i32)
    (xs0 xs1 xs2 : Vec Ideal S512x512 .f32) (xs3 xs4 : Vec Ideal S1x1 .f32) :
    (⟨ipx (k0_pay28 x0 x1 xs0), ipx (k0_pay29 x0 x1 xs1), ipx (k0_pay32 (k0_pay30 x2) x3 xs2),
        cel (k0_pay33 (k0_pay24 x0) (k0_pay25 x1) (k0_pay30 x2) x3 xs3),
        cel (k0_pay8 (k0_pay26 x0 x1) (k0_pay27 x0 x1) (k0_pay30 x2) (k0_pay31 x3) xs4)⟩ : St)
      = St.step 1 x0 x1 x2 x3 ⟨ipx xs0, ipx xs1, ipx xs2, cel xs3, cel xs4⟩ := by
  unfold St.step
  refine congr (congr (congr (congr (congrArg St.mk ?_) ?_) ?_) ?_) ?_
  · exact funext fun h => funext fun w => k0_pay28_at x0 x1 xs0 h w
  · exact funext fun h => funext fun w => k0_pay29_at x0 x1 xs1 h w
  · exact funext fun h => funext fun w =>
      (k0_pay32_at (k0_pay30 x2) x3 xs2 h w).trans (congrArg (xs2 (ix2 h w) + · + pxf x3 h w) (k0_pay30_at x2 h w))
  · refine (k0_pay33_at (k0_pay24 x0) (k0_pay25 x1) (k0_pay30 x2) x3 xs3).trans ?_
    refine congrArg₂ (· + ·) (congrArg (xs3 (ix2 0 0) + ·) ?_) ?_
    · exact Finset.sum_congr rfl fun h _ => Finset.sum_congr rfl fun w _ =>
        congrArg₂ bceK (k0_pay24_at x0 h w) (k0_pay30_at x2 h w)
    · exact Finset.sum_congr rfl fun h _ => Finset.sum_congr rfl fun w _ =>
        congrArg (bceK · (pxf x3 h w)) (k0_pay25_at x1 h w)
  · refine (k0_pay8_at (k0_pay26 x0 x1) (k0_pay27 x0 x1) (k0_pay30 x2) (k0_pay31 x3) xs4).trans ?_
    refine congrArg₂ (· + ·) (congrArg (xs4 (ix2 0 0) + ·) ?_) ?_
    · exact Finset.sum_congr rfl fun h _ => Finset.sum_congr rfl fun w _ =>
        congrArg₂ bceK (k0_pay26_at x0 x1 h w) (k0_pay30_at x2 h w)
    · exact Finset.sum_congr rfl fun h _ => Finset.sum_congr rfl fun w _ =>
        congrArg₂ bceK (k0_pay27_at x0 x1 h w) (k0_pay31_at x3 h w)

end Cert.KernelIdeal.PayMath

end
-- ==== Proof.K.PayC.lean ====
import proofs.«411553_j46600395162340_3_alg».proof.Proof.Gen.KernelIdeal.Skeleton
import proofs.«411553_j46600395162340_3_alg».proof.Proof.K.KSem
import proofs.«411553_j46600395162340_3_alg».proof.Proof.K.PayA

/-! The third pair's values at a pixel.

What each value the body computes at the pair of channels 2 and 5 is at an index, over the extended reals, as a function
of the blocks and of the carried state it reads, in the specification's words: the two sigmoids, the two votes (channel 2
against channel 5 one row up and one column to the right, channel 5 against channel 2 one row down and one column to the
left), the carried maximum, minimum and channel sum, and the two running sums of clamped logarithms; then the five of them
together as one step of the specification's fold over the pairs. The facts every pair shares (a block read as an image,
the one-pixel shifts, the sum of a whole image, one cross-entropy term) are the first pair's module's. -/

noncomputable section

namespace Cert.KernelIdeal.PayMath

open Cert.KernelIdeal Cert.KernelIdeal.Gen
open Idealize.ShloMosaic Idealize.ShloMosaic.ValueIdx
open Cert.Spec Cert.KSem

/-! ## Pair 2: the sigmoids, the two votes, the carried maximum and minimum -/

/-- The lower block's sigmoid at a pixel. -/
theorem pay34_apply (x0 : Vec Ideal S1x1x512x512 .f32) (h w : Fin 512) : k0_pay34 x0 (ix2 h w) = sg x0 h w := by
  unfold k0_pay34
  show Ideal.logistic (shapeCast S512x512 x0 shapeCasts_S1x1x512x512_S512x512 (ix2 h w)) = _
  rw [cast4_apply]
  rfl

/-- The upper block's sigmoid at a pixel. -/
theorem pay35_apply (x1 : Vec Ideal S1x1x512x512 .f32) (h w : Fin 512) : k0_pay35 x1 (ix2 h w) = sg x1 h w := by
  unfold k0_pay35
  show Ideal.logistic (shapeCast S512x512 x1 shapeCasts_S1x1x512x512_S512x512 (ix2 h w)) = _
  rw [cast4_apply]
  rfl

/-- Channel 2 steps by (-1, 1) and channel 5 by (1, -1). -/
private theorem dx_lo2 : dx (lo 2) = -1 := by decide
private theorem dy_lo2 : dy (lo 2) = 1 := by decide
private theorem dx_hi2 : dx (hi 2) = 1 := by decide
private theorem dy_hi2 : dy (hi 2) = -1 := by decide

/-- The vote of channel 2: its sigmoid times channel 5's sigmoid one row up and one column to the right. -/
theorem pay36_apply (x0 x1 : Vec Ideal S1x1x512x512 .f32) (h w : Fin 512) :
    k0_pay36 x0 x1 (ix2 h w) = vlo 2 x0 x1 h w := by
  unfold k0_pay36 vlo
  rw [shiftAt_eq, dx_lo2, dy_lo2]
  show k0_pay34 x0 (ix2 h w) * _ = _
  rw [pay34_apply, rowDown_apply _ sitofp_zero]
  simp only [colLeft_apply _ sitofp_zero, pay35_apply]

/-- The vote of channel 5: its sigmoid times channel 2's sigmoid one row down and one column to the left. -/
theorem pay37_apply (x0 x1 : Vec Ideal S1x1x512x512 .f32) (h w : Fin 512) :
    k0_pay37 x0 x1 (ix2 h w) = vhi 2 x0 x1 h w := by
  unfold k0_pay37 vhi
  rw [shiftAt_eq, dx_hi2, dy_hi2]
  show k0_pay35 x1 (ix2 h w) * _ = _
  rw [pay35_apply, rowUp_apply _ sitofp_zero]
  simp only [colRight_apply _ sitofp_zero, pay34_apply]

/-- What the running maximum becomes: the maximum of what it held and the pair's two votes. -/
theorem pay38_apply (x0 x1 : Vec Ideal S1x1x512x512 .f32) (xs : Vec Ideal S512x512 .f32) (h w : Fin 512) :
    k0_pay38 x0 x1 xs (ix2 h w) = max (ipx xs h w) (max (vlo 2 x0 x1 h w) (vhi 2 x0 x1 h w)) := by
  unfold k0_pay38
  rw [shapeCast_self]
  show max (xs (ix2 h w)) (max (k0_pay36 x0 x1 (ix2 h w)) (k0_pay37 x0 x1 (ix2 h w))) = _
  rw [pay36_apply, pay37_apply]
  rfl

/-- What the running minimum becomes: the minimum of what it held and the pair's two votes. -/
theorem pay39_apply (x0 x1 : Vec Ideal S1x1x512x512 .f32) (xs : Vec Ideal S512x512 .f32) (h w : Fin 512) :
    k0_pay39 x0 x1 xs (ix2 h w) = min (ipx xs h w) (min (vlo 2 x0 x1 h w) (vhi 2 x0 x1 h w)) := by
  unfold k0_pay39
  rw [shapeCast_self]
  show min (xs (ix2 h w)) (min (k0_pay36 x0 x1 (ix2 h w)) (k0_pay37 x0 x1 (ix2 h w))) = _
  rw [pay36_apply, pay37_apply]
  rfl

/-! ## Pair 2: the integer blocks as floats and the channel sum -/

/-- The lower integer block as floats, at a pixel. -/
theorem pay40_apply (x2 : Vec Ideal S1x1x512x512 .i32) (h w : Fin 512) : k0_pay40 x2 (ix2 h w) = pxf x2 h w := by
  unfold k0_pay40
  show (((shapeCast S512x512 x2 shapeCasts_S1x1x512x512_S512x512 (ix2 h w)).toInt : ℝ) : EReal) = _
  rw [cast4_apply]
  rfl

/-- The upper integer block as floats, at a pixel. -/
theorem pay41_apply (x3 : Vec Ideal S1x1x512x512 .i32) (h w : Fin 512) : k0_pay41 x3 (ix2 h w) = pxf x3 h w := by
  unfold k0_pay41
  show (((shapeCast S512x512 x3 shapeCasts_S1x1x512x512_S512x512 (ix2 h w)).toInt : ℝ) : EReal) = _
  rw [cast4_apply]
  rfl

/-- What the channel sum becomes: what it held plus the pair's two integer pixels. -/
theorem pay42_apply (x2 x3 : Vec Ideal S1x1x512x512 .i32) (xs : Vec Ideal S512x512 .f32) (h w : Fin 512) :
    k0_pay42 x2 x3 xs (ix2 h w) = ipx xs h w + pxf x2 h w + pxf x3 h w := by
  unfold k0_pay42
  rw [shapeCast_self]
  show xs (ix2 h w) + k0_pay40 x2 (ix2 h w) + k0_pay41 x3 (ix2 h w) = _
  rw [pay40_apply, pay41_apply]
  rfl
/-! ## Pair 2: the two running sums of clamped logarithms -/

/-- The first running sum with the lower channel's term added: what it held plus the sum over the pixels of the
    cross-entropy term of the lower sigmoid against the lower integer block. -/
theorem pay43_apply (v20 : FVec Ideal S512x512 .f32) (x2 : Vec Ideal S1x1x512x512 .i32) (c : Vec Ideal S1x1 .f32) :
    cel (k0_pay43 v20 x2 c) = cel c + ∑ h : Fin 512, ∑ w : Fin 512, bceK (ipx v20 h w) (pxf x2 h w) := by
  unfold k0_pay43 cel
  dsimp only
  rw [addf_apply, broadcast_apply, sumAll_apply]
  refine congrArg (c (ix2 0 0) + ·) ?_
  refine Finset.sum_congr rfl fun h _ => Finset.sum_congr rfl fun w _ => ?_
  exact (bceImg_apply _ _ _).trans (by rw [pay40_apply]; rfl)

/-- The upper channel's term of the first running sum: the sum over the pixels of the cross-entropy term of the upper
    sigmoid against the upper integer block. -/
theorem pay44_apply (v23 : FVec Ideal S512x512 .f32) (x3 : Vec Ideal S1x1x512x512 .i32) :
    k0_pay44 v23 x3 = ∑ h : Fin 512, ∑ w : Fin 512, bceK (ipx v23 h w) (pxf x3 h w) := by
  unfold k0_pay44
  refine (sumAll_apply _ _ _ _ _ _ _).trans ?_
  refine Finset.sum_congr rfl fun h _ => Finset.sum_congr rfl fun w _ => ?_
  exact (bceImg_apply _ _ _).trans (by rw [pay41_apply]; rfl)

/-- What the first running sum becomes: the lower channel's partial result plus the upper channel's term. -/
theorem pay9_apply (v80 : FVec Ideal S1x1 .f32) (v92 : Ideal .f32) : cel (k0_pay9 v80 v92) = cel v80 + v92 := by
  unfold k0_pay9 cel
  show shapeCast S1x1 (addf v80 (broadcast S1x1 v92)) shapeCasts_S1x1_S1x1 (ix2 0 0) = _
  rw [shapeCast_self]
  rfl

/-- What the second running sum becomes: what it held plus, for each of the pair's two votes, the sum over the pixels of
    its cross-entropy term against its integer block read as floats. -/
theorem pay10_apply (v40 v41 v56 v59 : FVec Ideal S512x512 .f32) (c : Vec Ideal S1x1 .f32) :
    cel (k0_pay10 v40 v41 v56 v59 c)
      = cel c + (∑ h : Fin 512, ∑ w : Fin 512, bceK (ipx v40 h w) (ipx v56 h w))
          + (∑ h : Fin 512, ∑ w : Fin 512, bceK (ipx v41 h w) (ipx v59 h w)) := by
  unfold k0_pay10 cel
  dsimp only
  rw [shapeCast_self (s := S1x1), addf_apply, addf_apply, broadcast_apply, broadcast_apply, sumAll_apply, sumAll_apply]
  refine congrArg₂ (· + ·) (congrArg (c (ix2 0 0) + ·) ?_) ?_
  · exact Finset.sum_congr rfl fun h _ => Finset.sum_congr rfl fun w _ => bceImg_apply _ _ _
  · exact Finset.sum_congr rfl fun h _ => Finset.sum_congr rfl fun w _ => bceImg_apply _ _ _

/-! ## Pair 2's update of the carried state -/

/-- What the five scratch buffers hold after pair 2, read as the carried state, is one step of the specification's fold
    from what they held before. -/
theorem stepC (x0 x1 : Vec Ideal S1x1x512x512 .f32) (x2 x3 : Vec Ideal S1x1x512x512 .i32)
    (xs0 xs1 xs2 : Vec Ideal S512x512 .f32) (xs3 xs4 : Vec Ideal S1x1 .f32) :
    (⟨ipx (k0_pay38 x0 x1 xs0), ipx (k0_pay39 x0 x1 xs1), ipx (k0_pay42 x2 x3 xs2),
        cel (k0_pay9 (k0_pay43 (k0_pay34 x0) x2 xs3) (k0_pay44 (k0_pay35 x1) x3)),
        cel (k0_pay10 (k0_pay36 x0 x1) (k0_pay37 x0 x1) (k0_pay40 x2) (k0_pay41 x3) xs4)⟩ : St)
      = St.step 2 x0 x1 x2 x3 ⟨ipx xs0, ipx xs1, ipx xs2, cel xs3, cel xs4⟩ := by
  unfold St.step
  refine congr (congr (congr (congr (congrArg St.mk ?_) ?_) ?_) ?_) ?_
  · funext h w; exact pay38_apply x0 x1 xs0 h w
  · funext h w; exact pay39_apply x0 x1 xs1 h w
  · funext h w; exact pay42_apply x2 x3 xs2 h w
  · rw [pay9_apply, pay43_apply, pay44_apply]
    simp only [ipx, pay34_apply, pay35_apply]
  · rw [pay10_apply]
    simp only [ipx, pay36_apply, pay37_apply, pay40_apply, pay41_apply]

end Cert.KernelIdeal.PayMath

end
-- ==== Proof.K.Accum.lean ====
/- The carried state after each point of the first three pairs of a batch, in the words of the per-point arithmetic:
   what the five carried buffers hold after the point, read as the carried state, is one step of that state at the
   point's pair, from the point's four blocks and the state the point before left (the first pair starts from the
   reset values). Each buffer's contents after a point are the value the body stores there, and the five stored values
   of a pair together are that pair's step (the first pair's over the reset values: minus infinity for the running maximum,
   plus infinity for the running minimum, zero for the channel sum and the two accumulators). -/
import proofs.«411553_j46600395162340_3_alg».proof.Proof.K.StOf
import proofs.«411553_j46600395162340_3_alg».proof.Proof.K.Pieces
import proofs.«411553_j46600395162340_3_alg».proof.Proof.K.PayA
import proofs.«411553_j46600395162340_3_alg».proof.Proof.K.PayB
import proofs.«411553_j46600395162340_3_alg».proof.Proof.K.PayC
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand Cert.KSem Cert.Spec Cert.KernelIdeal.PayMath
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The carried state after a point

At a point the buffers' contents are the body's stored values at the point's blocks and at what the point before left;
the stored values are the pair's payloads, and the pair's five payloads together are one step. -/

/-- After a point of pair 0 the carried buffers hold one step of the carried state at pair 0, from the point's four
    blocks and the reset values. -/
theorem st_A (c : Dev nD) (t : Fin cfg0.N) (h : t.val % 4 = 0) :
    stOf (outsAt0 m c t.val t.isLt)
      = St.step 0 (iblk m c 0 t) (iblk m c 1 t) (iblk m c 2 t) (iblk m c 3 t)
          St.init := by
  rw [outsAt0_A m c t h]
  unfold stOf
  dsimp only
  rw [sout0_A_0_eq, sout0_A_1_eq, sout0_A_2_eq, sout0_A_3_eq, sout0_A_4_eq]
  exact stepA _ _ _ _

/-- After a point of pair 1 the carried buffers hold one step of the carried state at pair 1, from the point's four
    blocks and the state the point before left. -/
theorem st_B (c : Dev nD) (t : Fin cfg0.N) (h : t.val % 4 = 1) :
    stOf (outsAt0 m c t.val t.isLt)
      = St.step 1 (iblk m c 0 t) (iblk m c 1 t) (iblk m c 2 t) (iblk m c 3 t)
          (stOf (outsAt0 m c (t.val - 1) (Nat.lt_of_le_of_lt (Nat.sub_le _ _) t.isLt))) := by
  rw [outsAt0_B m c t h]
  unfold stOf
  dsimp only
  rw [sout0_B_0_eq, sout0_B_1_eq, sout0_B_2_eq, sout0_B_3_eq, sout0_B_4_eq]
  exact stepB _ _ _ _ _ _ _ _ _

/-- After a point of pair 2 the carried buffers hold one step of the carried state at pair 2, from the point's four
    blocks and the state the point before left. -/
theorem st_C (c : Dev nD) (t : Fin cfg0.N) (h : t.val % 4 = 2) :
    stOf (outsAt0 m c t.val t.isLt)
      = St.step 2 (iblk m c 0 t) (iblk m c 1 t) (iblk m c 2 t) (iblk m c 3 t)
          (stOf (outsAt0 m c (t.val - 1) (Nat.lt_of_le_of_lt (Nat.sub_le _ _) t.isLt))) := by
  rw [outsAt0_C m c t h]
  unfold stOf
  dsimp only
  rw [sout0_C_0_eq, sout0_C_1_eq, sout0_C_2_eq, sout0_C_3_eq, sout0_C_4_eq]
  exact stepC _ _ _ _ _ _ _ _ _

end Cert.KernelIdeal.HandV

end
-- ==== Proof.K.PayD.lean ====
/- The finalizing block's payloads and the last pair's update payloads of the kernel body, each read at an index over the
   extended reals as a function of its own arguments at indices, in the words of the per-point arithmetic. -/
import proofs.«411553_j46600395162340_3_alg».proof.Proof.Gen.KernelIdeal.Skeleton
import proofs.«411553_j46600395162340_3_alg».proof.Proof.K.KSem
import Idealize.ShloMosaic.Lib.ValueIdx
import Idealize.ShloMosaic.Lib.Pipeline.Value
import Idealize.ShloMosaic.Lib.ValueLayout
import Idealize.ShloMosaic.Lib.WordArith
import Idealize.ShloMosaic.PureOps.Ideal.Laws

noncomputable section

namespace Cert.KernelIdeal.PayMath

open Idealize.ShloMosaic Idealize.ShloMosaic.ValueIdx Idealize.ShloMosaic.WordArith
open Cert.KernelIdeal Cert.KernelIdeal.Gen Cert.Spec Cert.KSem
open scoped BigOperators

/-! ## Layout operations of the body's shapes, read at coordinates -/

/-- A [1, 1, 512, 512] block viewed as a [512, 512] image reads, at (h, w), the block at (0, 0, h, w). -/
private theorem cast_blk_img {α : Type} (v : (⟨4, ![1, 1, 512, 512]⟩ : Shape).Idx → α)
    (hc : (⟨4, ![1, 1, 512, 512]⟩ : Shape).ShapeCasts ⟨2, ![512, 512]⟩) (h w : Fin 512) :
    shapeCast ⟨2, ![512, 512]⟩ v hc (ix2 h w) = v (ix4 (0 : Fin 1) (0 : Fin 1) h w) :=
  shapeCast_apply v hc _ _ (by
    rw [Shape.rowMajor_val_four, Shape.rowMajor_val_two]
    show ((0 * 1 + 0) * 512 + h.val) * 512 + w.val = h.val * 512 + w.val
    omega)

/-- A [512] row viewed as a [1, 1, 512] block reads, at (u, u', w), the row at w. -/
private theorem cast_row_blk {α : Type} (v : (⟨1, ![512]⟩ : Shape).Idx → α)
    (hc : (⟨1, ![512]⟩ : Shape).ShapeCasts ⟨3, ![1, 1, 512]⟩) (u u' : Fin 1) (w : Fin 512) :
    shapeCast ⟨3, ![1, 1, 512]⟩ v hc (ix3 u u' w) = v (ix1 w) :=
  shapeCast_apply v hc _ _ (by
    have hu : u.val = 0 := by omega
    have hu' : u'.val = 0 := by omega
    rw [Shape.rowMajor_val_three, Shape.rowMajor_val_one]
    show w.val = (u.val * 1 + u'.val) * 512 + w.val
    omega)

/-- A [1, 1] cell broadcast along a row of 128 reads the cell's one entry everywhere. -/
private theorem bcast_cell_row {α : Type} (v : (⟨2, ![1, 1]⟩ : Shape).Idx → α)
    (hb : (⟨2, ![1, 1]⟩ : Shape).Broadcasts ⟨2, ![1, 128]⟩) (u : Fin 1) (j : Fin 128) :
    broadcastTo ⟨2, ![1, 128]⟩ v hb (ix2 u j) = v (ix2 (0 : Fin 1) (0 : Fin 1)) :=
  broadcastTo_apply v hb (ix2 u j) (ix2 (0 : Fin 1) (0 : Fin 1)) fun ax => by
    match ax with
    | ⟨0, _⟩ => rfl
    | ⟨1, _⟩ => rfl

/-- The sum over a [512, 512] image viewed as [1, 512, 512] is the double sum over rows and columns. -/
private theorem sum_cast_img (v : (⟨2, ![512, 512]⟩ : Shape).Idx → EReal)
    (hc : (⟨2, ![512, 512]⟩ : Shape).ShapeCasts ⟨3, ![1, 512, 512]⟩) :
    ∑ i : (⟨3, ![1, 512, 512]⟩ : Shape).Idx, shapeCast ⟨3, ![1, 512, 512]⟩ v hc i
      = ∑ h : Fin 512, ∑ w : Fin 512, v (ix2 h w) := by
  unfold shapeCast
  rw [Equiv.sum_comp (Shape.reshapeEquiv hc) v]
  exact sum_idx2 v

/-- The total of an image as the body takes it: view as [1, 512, 512], add over the two long axes from the zero word, view
    the one entry as [1, 1, 1] and extract it. -/
private theorem total_img (v : FVec Ideal S512x512 .f32) (hc : S512x512.ShapeCasts S1x512x512)
    (hr : S1x512x512.Reduces [1, 2] S1) (hφ : FKind.Formats .f32) (hacc : (0x00000000#32 : BitVec 32) = FKind.add.neutral .f32 hφ)
    (hc' : S1.ShapeCasts S1x1x1) (hp : ∀ a, (![0, 0, 0] : Fin 3 → Nat) a < S1x1x1.size a) :
    extractAt ![0, 0, 0] (shapeCast S1x1x1 (multiReduction .add [1, 2] S1 (shapeCast S1x512x512 v hc) 0x00000000#32 hr hφ hacc) hc') hp
      = ∑ h : Fin 512, ∑ w : Fin 512, v (ix2 h w) := by
  unfold extractAt
  show multiReduction .add [1, 2] S1 (shapeCast S1x512x512 v hc) 0x00000000#32 hr hφ hacc _ = _
  refine (Ideal.multiReduction_add_total _ _ hr (fun b => by match b with | ⟨0, _⟩ => rfl) hφ hacc _).trans ?_
  exact sum_cast_img v hc

/-- The column sums of an image: add over axis 0 from the zero word. -/
private theorem colsum_img (v : FVec Ideal S512x512 .f32) (hr : S512x512.Reduces [0] S512) (hφ : FKind.Formats .f32)
    (hacc : (0x00000000#32 : BitVec 32) = FKind.add.neutral .f32 hφ) (w : Fin 512) :
    multiReduction .add [0] S512 v 0x00000000#32 hr hφ hacc (ix1 w) = ∑ h : Fin 512, v (ix2 h w) := by
  refine (Ideal.multiReduction_add_single v _ hr hφ hacc (ix1 w)).trans ?_
  show ∑ k : Fin 512, v (hr.lift (ix1 w) k) = _
  refine Finset.sum_congr rfl fun k _ => congrArg v ?_
  funext a
  match a with
  | ⟨0, _⟩ => rfl
  | ⟨1, _⟩ => rfl

/-- A running sum in a cell with two totals added, read at the cell's index. -/
private theorem acc_two (prev : FVec Ideal S1x1 .f32) (a b : EReal) (i : S1x1.Idx) :
    addf (addf prev (broadcast S1x1 a)) (broadcast S1x1 b) i = prev i + a + b := rfl

/-! ## The words a comparison leaves -/

/-- The edge factor as the body computes it: the conjunction of the two comparison bits, widened and read as a float. -/
private theorem edge_bits (s : EReal) :
    ((((IntOp.andi (Ideal.cmp .olt s l8) (Ideal.cmp .ogt s l0)).setWidth 32).toInt : ℝ) : EReal) = edgeOf s := by
  show ((((IntOp.andi (BitVec.ofBool (decide (s < l8))) (BitVec.ofBool (decide (l0 < s)))).setWidth 32).toInt : ℝ) : EReal) = _
  have key : ∀ b : Bool, ((((BitVec.ofBool b).setWidth 32).toInt : ℝ) : EReal) = if b = true then 1 else 0 := by
    intro b
    cases b
    · have h0 : ((BitVec.ofBool false).setWidth 32).toInt = 0 := by decide
      rw [h0]; simp
    · have h1 : ((BitVec.ofBool true).setWidth 32).toInt = 1 := by decide
      rw [h1]; simp
  rw [andi_ofBool, key]
  unfold edgeOf
  simp only [Bool.and_eq_true, decide_eq_true_eq]

/-- The comparison "equal" leaves the bit one exactly at equality. -/
private theorem cmp_oeq_eq_one_iff (t c : EReal) : Ideal.cmp .oeq t c = 1#1 ↔ t = c := by
  simp only [Ideal.cmp, ofBool_eq_one_iff, decide_eq_true_eq]

/-- One cross-entropy term as the body computes it: the probability or its complement, chosen by the test "the target is
    one", then the clamped logarithm. -/
private theorem bce_bits (p t : EReal) :
    max (Ideal.log (Scalar.select (Ideal.cmp .oeq t l1) p (l1 - p))) lFloor = bceK p t := by
  unfold bceK clog
  refine congrArg (fun z => max (Ideal.log z) lFloor) ?_
  by_cases h : t = l1
  · rw [if_pos h]; exact if_pos ((cmp_oeq_eq_one_iff t l1).2 h)
  · rw [if_neg h]; exact if_neg (fun hb => h ((cmp_oeq_eq_one_iff t l1).1 hb))

/-- The cross-entropy image as the body computes it, at a pixel. -/
private theorem bce_img (p t : FVec Ideal S512x512 .f32) (i : S512x512.Idx) :
    maximumf (log (select (cmpf .oeq t (broadcast S512x512 (Scalar.ofBits (F := Ideal) .f32 0x3F800000#32))) p
        (subf (broadcast S512x512 (Scalar.ofBits (F := Ideal) .f32 0x3F800000#32)) p)))
      (broadcast S512x512 (Scalar.ofBits (F := Ideal) .f32 0xC2C80000#32)) i = bceK (p i) (t i) :=
  bce_bits (p i) (t i)

/-! ## The one-pixel horizontal shifts -/

/-- A coordinate shifted by nothing is itself. -/
private theorem src_zero (n : Fin 512) : src 0 n = some n := by
  have hn := n.isLt
  unfold src
  rw [dif_pos (by omega)]
  exact congrArg some (Fin.ext (by show ((n.val : Int) - 0).toNat = n.val; omega))

/-- The coordinate one to the left, inside the image. -/
private theorem src_one_of_pos (n : Fin 512) (h : n.val ≠ 0) : src 1 n = some ⟨n.val - 1, by have := n.isLt; omega⟩ := by
  have hn := n.isLt
  unfold src
  rw [dif_pos (by omega)]
  exact congrArg some (Fin.ext (by show ((n.val : Int) - 1).toNat = n.val - 1; omega))

/-- At the left border there is none. -/
private theorem src_one_of_zero (n : Fin 512) (h : n.val = 0) : src 1 n = none := by
  unfold src
  rw [dif_neg (by omega)]

/-- The coordinate one to the right, inside the image. -/
private theorem src_neg_one_of_lt (n : Fin 512) (h : n.val < 511) : src (-1) n = some ⟨n.val + 1, by omega⟩ := by
  unfold src
  rw [dif_pos (by omega)]
  exact congrArg some (Fin.ext (by show ((n.val : Int) - (-1)).toNat = n.val + 1; omega))

/-- At the right border there is none. -/
private theorem src_neg_one_of_not_lt (n : Fin 512) (h : ¬ n.val < 511) : src (-1) n = none := by
  have hn := n.isLt
  unfold src
  rw [dif_neg (by omega)]

/-- The zero the body pads with: the integer zero converted. -/
private theorem pad_zero : (Scalar.sitofp (F := Ideal) .f32 (0#32 : BitVec 32) : EReal) = 0 := by
  show (((0#32 : BitVec 32).toInt : ℝ) : EReal) = 0
  have h0 : (0#32 : BitVec 32).toInt = 0 := by decide
  rw [h0]; simp

/-- Drop the last column and put a zero column in front: the image shifted one pixel to the right, zero at the left border. -/
private theorem shift_right (q : FVec Ideal S512x512 .f32) (hs : S512x512.Slices ![0, 0] S512x511)
    (hcat : Shape.Concatenates [S512x1, S512x511] S512x512 1) (h w : Fin 512) :
    concatenate S512x512 1 [⟨S512x1, broadcast S512x1 (Scalar.sitofp (F := Ideal) .f32 (0#32 : BitVec 32))⟩,
        ⟨S512x511, extractStridedSlice S512x511 ![0, 0] q hs⟩] hcat (ix2 h w)
      = shiftAt (fun a b => q (ix2 a b)) 1 0 h w := by
  have hw := w.isLt
  unfold shiftAt
  rw [src_zero]
  by_cases hw0 : w.val = 0
  · rw [src_one_of_zero w hw0]
    refine (concatenate_pair_apply_left _ _ _ hcat (ix2 h w) rfl (ix2 h (0 : Fin 1)) fun b => ?_).trans pad_zero
    match b with
    | ⟨0, _⟩ => rfl
    | ⟨1, _⟩ => exact hw0.symm
  · rw [src_one_of_pos w hw0]
    refine (concatenate_pair_apply_right _ _ _ hcat (ix2 h w) rfl rfl
      (ix2 h (⟨w.val - 1, by omega⟩ : Fin 511)) (fun b hb => ?_) ?_).trans ?_
    · match b with
      | ⟨0, _⟩ => rfl
      | ⟨1, _⟩ => exact absurd rfl hb
    · show w.val - 1 + 1 = w.val
      omega
    · exact slice2_axis1_apply 0 q hs h _ _ (by show w.val - 1 = 0 + (w.val - 1); omega)

/-- Drop the first column and put a zero column behind: the image shifted one pixel to the left, zero at the right border. -/
private theorem shift_left (q : FVec Ideal S512x512 .f32) (hs : S512x512.Slices ![0, 1] S512x511)
    (hcat : Shape.Concatenates [S512x511, S512x1] S512x512 1) (h w : Fin 512) :
    concatenate S512x512 1 [⟨S512x511, extractStridedSlice S512x511 ![0, 1] q hs⟩,
        ⟨S512x1, broadcast S512x1 (Scalar.sitofp (F := Ideal) .f32 (0#32 : BitVec 32))⟩] hcat (ix2 h w)
      = shiftAt (fun a b => q (ix2 a b)) (-1) 0 h w := by
  have hw := w.isLt
  unfold shiftAt
  rw [src_zero]
  by_cases hw1 : w.val < 511
  · rw [src_neg_one_of_lt w hw1]
    refine (concatenate_pair_apply_left _ _ _ hcat (ix2 h w) rfl (ix2 h (⟨w.val, hw1⟩ : Fin 511)) fun b => ?_).trans ?_
    · match b with
      | ⟨0, _⟩ => rfl
      | ⟨1, _⟩ => rfl
    · exact slice2_axis1_apply 1 q hs h _ _ (by show w.val + 1 = 1 + w.val; omega)
  · rw [src_neg_one_of_not_lt w hw1]
    refine (concatenate_pair_apply_right _ _ _ hcat (ix2 h w) rfl rfl
      (ix2 h (0 : Fin 1)) (fun b hb => ?_) ?_).trans pad_zero
    · match b with
      | ⟨0, _⟩ => rfl
      | ⟨1, _⟩ => exact absurd rfl hb
    · show 0 + 511 = w.val
      omega

/-! ## The finalizing block's payloads -/

/-- The label block as an image of floats. -/
theorem pay56_apply (x4 : Vec Ideal S1x1x512x512 .i32) (h w : Fin 512) :
    k0_pay56 x4 (ix2 h w) = pxf x4 h w := by
  unfold k0_pay56
  refine (sitofp_apply _ _).trans ?_
  rw [cast_blk_img]
  rfl

/-- The label block's column sums. -/
theorem pay58_apply (x4 : Vec Ideal S1x1x512x512 .i32) (w : Fin 512) :
    k0_pay58 x4 (ix1 w) = ∑ h : Fin 512, pxf x4 h w := by
  unfold k0_pay58
  refine (colsum_img _ _ _ _ w).trans ?_
  exact Finset.sum_congr rfl fun h _ => pay56_apply x4 h w

/-- The running maximum's column sums. -/
theorem pay59_apply (fp : Vec Ideal S512x512 .f32) (w : Fin 512) :
    k0_pay59 fp (ix1 w) = ∑ h : Fin 512, fp (ix2 h w) := by
  unfold k0_pay59
  exact colsum_img _ _ _ _ w

/-- A row stored as a [1, 1, 512] block. -/
theorem pay60_apply (v : FVec Ideal S512 .f32) (u u' : Fin 1) (w : Fin 512) :
    k0_pay60 v (ix3 u u' w) = v (ix1 w) := by
  unfold k0_pay60
  exact cast_row_blk v _ u u' w

theorem pay61_apply (v : FVec Ideal S512 .f32) (u u' : Fin 1) (w : Fin 512) :
    k0_pay61 v (ix3 u u' w) = v (ix1 w) := by
  unfold k0_pay61
  exact cast_row_blk v _ u u' w

/-- The column sums of the product of two images, stored as a [1, 1, 512] block. -/
theorem pay62_apply (v40 : FVec Ideal S512x512 .f32) (fp : Vec Ideal S512x512 .f32) (u u' : Fin 1) (w : Fin 512) :
    k0_pay62 v40 fp (ix3 u u' w) = ∑ h : Fin 512, v40 (ix2 h w) * fp (ix2 h w) := by
  unfold k0_pay62
  refine (cast_row_blk _ _ u u' w).trans ?_
  exact colsum_img _ _ _ _ w

/-- The decoupling sum: the clamped logarithm of one minus the running minimum times the edge factor, over the image. -/
theorem pay55_apply (sc cm : Vec Ideal S512x512 .f32) (u u' : Fin 1) :
    k0_pay55 sc cm (ix2 u u') = ∑ h : Fin 512, ∑ w : Fin 512, clog (l1 - cm (ix2 h w) * edgeOf (sc (ix2 h w))) := by
  unfold k0_pay55
  refine (broadcast_apply _ _).trans ?_
  refine (total_img _ _ _ _ _ _ _).trans ?_
  refine Finset.sum_congr rfl fun h _ => Finset.sum_congr rfl fun w _ => ?_
  rw [← edge_bits (sc (ix2 h w))]
  rfl

/-- The cross-entropy sum of the running maximum against the label block. -/
theorem pay57_apply (x4 : Vec Ideal S1x1x512x512 .i32) (fp : Vec Ideal S512x512 .f32) (u u' : Fin 1) :
    k0_pay57 x4 fp (ix2 u u') = ∑ h : Fin 512, ∑ w : Fin 512, bceK (fp (ix2 h w)) (pxf x4 h w) := by
  unfold k0_pay57
  refine (broadcast_apply _ _).trans ?_
  refine (total_img _ _ _ _ _ _ _).trans ?_
  refine Finset.sum_congr rfl fun h _ => Finset.sum_congr rfl fun w _ => ?_
  refine (bce_img fp (k0_pay56 x4) (ix2 h w)).trans ?_
  rw [pay56_apply]

/-- A cell broadcast along a row of 128 and stored as a [1, 1, 128] block. -/
theorem pay63_apply (cell : FVec Ideal S1x1 .f32) (u u' : Fin 1) (j : Fin 128) :
    k0_pay63 cell (ix3 u u' j) = cell (ix2 (0 : Fin 1) (0 : Fin 1)) := by
  unfold k0_pay63
  refine (shapeCast_ab_1ab_apply _ _ u u' j).trans ?_
  refine (bcast_cell_row _ _ u' j).trans ?_
  exact congrFun (shapeCast_self cell _) _

theorem pay64_apply (cell : Vec Ideal S1x1 .f32) (u u' : Fin 1) (j : Fin 128) :
    k0_pay64 cell (ix3 u u' j) = cell (ix2 (0 : Fin 1) (0 : Fin 1)) := by
  unfold k0_pay64
  refine (shapeCast_ab_1ab_apply _ _ u u' j).trans ?_
  refine (bcast_cell_row _ _ u' j).trans ?_
  exact congrFun (shapeCast_self cell _) _

theorem pay65_apply (cell : Vec Ideal S1x1 .f32) (u u' : Fin 1) (j : Fin 128) :
    k0_pay65 cell (ix3 u u' j) = cell (ix2 (0 : Fin 1) (0 : Fin 1)) := by
  unfold k0_pay65
  refine (shapeCast_ab_1ab_apply _ _ u u' j).trans ?_
  refine (bcast_cell_row _ _ u' j).trans ?_
  exact congrFun (shapeCast_self cell _) _

/-- A cell broadcast along a row of 128. -/
theorem pay66_apply (cell : FVec Ideal S1x1 .f32) (u : Fin 1) (j : Fin 128) :
    k0_pay66 cell (ix2 u j) = cell (ix2 (0 : Fin 1) (0 : Fin 1)) := by
  unfold k0_pay66
  refine (bcast_cell_row _ _ u j).trans ?_
  exact congrFun (shapeCast_self cell _) _

/-- A [1, 128] row stored as a [1, 1, 128] block. -/
theorem pay12_apply (v : FVec Ideal S1x128 .f32) (u u' : Fin 1) (j : Fin 128) :
    k0_pay12 v (ix3 u u' j) = v (ix2 u' j) := by
  unfold k0_pay12
  exact shapeCast_ab_1ab_apply v _ u u' j

/-! ## The last pair's update payloads (pair 3: channels 3 and 4, horizontal shifts) -/

/-- The lower block's sigmoid. -/
theorem pay45_apply (x0 : Vec Ideal S1x1x512x512 .f32) (h w : Fin 512) :
    k0_pay45 x0 (ix2 h w) = sg x0 h w := by
  unfold k0_pay45
  show Ideal.logistic ((shapeCast S512x512 x0 shapeCasts_S1x1x512x512_S512x512) (ix2 h w)) = _
  rw [cast_blk_img]
  rfl

/-- The upper block's sigmoid. -/
theorem pay46_apply (x1 : Vec Ideal S1x1x512x512 .f32) (h w : Fin 512) :
    k0_pay46 x1 (ix2 h w) = sg x1 h w := by
  unfold k0_pay46
  show Ideal.logistic ((shapeCast S512x512 x1 shapeCasts_S1x1x512x512_S512x512) (ix2 h w)) = _
  rw [cast_blk_img]
  rfl

/-- The lower channel's vote: its sigmoid times the upper channel's sigmoid shifted one pixel to the right. -/
theorem pay47_apply (x0 x1 : Vec Ideal S1x1x512x512 .f32) (h w : Fin 512) :
    k0_pay47 x0 x1 (ix2 h w) = vlo 3 x0 x1 h w := by
  unfold k0_pay47
  refine (mulf_apply _ _ _).trans ?_
  refine congrArg₂ (· * ·) (pay45_apply x0 h w) ((shift_right (k0_pay46 x1) _ _ h w).trans ?_)
  have e : (fun a b => k0_pay46 x1 (ix2 a b)) = sg x1 := funext fun a => funext fun b => pay46_apply x1 a b
  rw [e]
  rfl

/-- The upper channel's vote: its sigmoid times the lower channel's sigmoid shifted one pixel to the left. -/
theorem pay48_apply (x0 x1 : Vec Ideal S1x1x512x512 .f32) (h w : Fin 512) :
    k0_pay48 x0 x1 (ix2 h w) = vhi 3 x0 x1 h w := by
  unfold k0_pay48
  refine (mulf_apply _ _ _).trans ?_
  refine congrArg₂ (· * ·) (pay46_apply x1 h w) ((shift_left (k0_pay45 x0) _ _ h w).trans ?_)
  have e : (fun a b => k0_pay45 x0 (ix2 a b)) = sg x0 := funext fun a => funext fun b => pay45_apply x0 a b
  rw [e]
  rfl

/-- The running maximum's update. -/
theorem pay49_apply (x0 x1 : Vec Ideal S1x1x512x512 .f32) (xs : Vec Ideal S512x512 .f32) (h w : Fin 512) :
    k0_pay49 x0 x1 xs (ix2 h w) = max (xs (ix2 h w)) (max (vlo 3 x0 x1 h w) (vhi 3 x0 x1 h w)) := by
  unfold k0_pay49
  refine (congrFun (shapeCast_self _ _) _).trans ?_
  refine (maximumf_apply _ _ _).trans ?_
  refine congrArg (max (xs (ix2 h w))) ((maximumf_apply _ _ _).trans ?_)
  exact congrArg₂ max (pay47_apply x0 x1 h w) (pay48_apply x0 x1 h w)

/-- The running minimum's update. -/
theorem pay50_apply (x0 x1 : Vec Ideal S1x1x512x512 .f32) (xs : Vec Ideal S512x512 .f32) (h w : Fin 512) :
    k0_pay50 x0 x1 xs (ix2 h w) = min (xs (ix2 h w)) (min (vlo 3 x0 x1 h w) (vhi 3 x0 x1 h w)) := by
  unfold k0_pay50
  refine (congrFun (shapeCast_self _ _) _).trans ?_
  refine (minimumf_apply _ _ _).trans ?_
  refine congrArg (min (xs (ix2 h w))) ((minimumf_apply _ _ _).trans ?_)
  exact congrArg₂ min (pay47_apply x0 x1 h w) (pay48_apply x0 x1 h w)

/-- The lower integer block as an image of floats. -/
theorem pay51_apply (x2 : Vec Ideal S1x1x512x512 .i32) (h w : Fin 512) :
    k0_pay51 x2 (ix2 h w) = pxf x2 h w := by
  unfold k0_pay51
  refine (sitofp_apply _ _).trans ?_
  rw [cast_blk_img]
  rfl

/-- The upper integer block as an image of floats. -/
theorem pay52_apply (x3 : Vec Ideal S1x1x512x512 .i32) (h w : Fin 512) :
    k0_pay52 x3 (ix2 h w) = pxf x3 h w := by
  unfold k0_pay52
  refine (sitofp_apply _ _).trans ?_
  rw [cast_blk_img]
  rfl

/-- The channel sum's update. -/
theorem pay53_apply (v48 : FVec Ideal S512x512 .f32) (x3 : Vec Ideal S1x1x512x512 .i32) (xs : Vec Ideal S512x512 .f32) (h w : Fin 512) :
    k0_pay53 v48 x3 xs (ix2 h w) = xs (ix2 h w) + v48 (ix2 h w) + pxf x3 h w := by
  unfold k0_pay53
  refine (congrFun (shapeCast_self _ _) _).trans ?_
  refine (addf_apply _ _ _).trans ?_
  exact congrArg₂ (· + ·) (addf_apply _ _ _) (pay52_apply x3 h w)

/-- The first accumulator's update: the two sigmoids' cross-entropy sums against the two integer blocks. -/
theorem pay54_apply (v20 v23 v48 : FVec Ideal S512x512 .f32) (x3 : Vec Ideal S1x1x512x512 .i32) (cell : Vec Ideal S1x1 .f32) (u u' : Fin 1) :
    k0_pay54 v20 v23 v48 x3 cell (ix2 u u')
      = cell (ix2 u u') + (∑ h : Fin 512, ∑ w : Fin 512, bceK (v20 (ix2 h w)) (v48 (ix2 h w)))
          + (∑ h : Fin 512, ∑ w : Fin 512, bceK (v23 (ix2 h w)) (pxf x3 h w)) := by
  unfold k0_pay54
  refine (congrFun (shapeCast_self _ _) _).trans ?_
  refine (acc_two _ _ _ _).trans ?_
  refine congrArg₂ (· + ·) (congrArg (cell (ix2 u u') + ·) ((total_img _ _ _ _ _ _ _).trans ?_)) ((total_img _ _ _ _ _ _ _).trans ?_)
  · exact Finset.sum_congr rfl fun h _ => Finset.sum_congr rfl fun w _ => bce_img v20 v48 (ix2 h w)
  · refine Finset.sum_congr rfl fun h _ => Finset.sum_congr rfl fun w _ => ?_
    refine (bce_img v23 (k0_pay52 x3) (ix2 h w)).trans ?_
    rw [pay52_apply]

/-- The second accumulator's update: the two votes' cross-entropy sums against the two integer blocks. -/
theorem pay11_apply (v32 v33 v48 v51 : FVec Ideal S512x512 .f32) (cell : Vec Ideal S1x1 .f32) (u u' : Fin 1) :
    k0_pay11 v32 v33 v48 v51 cell (ix2 u u')
      = cell (ix2 u u') + (∑ h : Fin 512, ∑ w : Fin 512, bceK (v32 (ix2 h w)) (v48 (ix2 h w)))
          + (∑ h : Fin 512, ∑ w : Fin 512, bceK (v33 (ix2 h w)) (v51 (ix2 h w))) := by
  unfold k0_pay11
  refine (congrFun (shapeCast_self _ _) _).trans ?_
  refine (acc_two _ _ _ _).trans ?_
  refine congrArg₂ (· + ·) (congrArg (cell (ix2 u u') + ·) ((total_img _ _ _ _ _ _ _).trans ?_)) ((total_img _ _ _ _ _ _ _).trans ?_)
  · exact Finset.sum_congr rfl fun h _ => Finset.sum_congr rfl fun w _ => bce_img v32 v48 (ix2 h w)
  · exact Finset.sum_congr rfl fun h _ => Finset.sum_congr rfl fun w _ => bce_img v33 v51 (ix2 h w)

/-! ## The last pair's update as one step of the carried state, and the seven outputs -/

/-- What the last pair's five stores leave, read as a carried state, is one update step from what the buffers held. -/
theorem stepD (x0 x1 : Vec Ideal S1x1x512x512 .f32) (x2 x3 : Vec Ideal S1x1x512x512 .i32)
    (xs0 xs1 xs2 : Vec Ideal S512x512 .f32) (xs3 xs4 : Vec Ideal S1x1 .f32) :
    (⟨ipx (k0_pay49 x0 x1 xs0), ipx (k0_pay50 x0 x1 xs1), ipx (k0_pay53 (k0_pay51 x2) x3 xs2),
        cel (k0_pay54 (k0_pay45 x0) (k0_pay46 x1) (k0_pay51 x2) x3 xs3),
        cel (k0_pay11 (k0_pay47 x0 x1) (k0_pay48 x0 x1) (k0_pay51 x2) (k0_pay52 x3) xs4)⟩ : St)
      = St.step 3 x0 x1 x2 x3 ⟨ipx xs0, ipx xs1, ipx xs2, cel xs3, cel xs4⟩ := by
  unfold St.step ipx cel
  refine congr (congr (congr (congr (congrArg St.mk ?_) ?_) ?_) ?_) ?_
  · exact funext fun h => funext fun w => pay49_apply x0 x1 xs0 h w
  · exact funext fun h => funext fun w => pay50_apply x0 x1 xs1 h w
  · refine funext fun h => funext fun w => (pay53_apply _ x3 xs2 h w).trans ?_
    rw [pay51_apply]
  · refine (pay54_apply _ _ _ x3 xs3 0 0).trans ?_
    refine congrArg₂ (· + ·) (congrArg (xs3 (ix2 0 0) + ·) ?_) ?_
    · refine Finset.sum_congr rfl fun h _ => Finset.sum_congr rfl fun w _ => ?_
      rw [pay45_apply, pay51_apply]
    · refine Finset.sum_congr rfl fun h _ => Finset.sum_congr rfl fun w _ => ?_
      rw [pay46_apply]
  · refine (pay11_apply _ _ _ _ xs4 0 0).trans ?_
    refine congrArg₂ (· + ·) (congrArg (xs4 (ix2 0 0) + ·) ?_) ?_
    · refine Finset.sum_congr rfl fun h _ => Finset.sum_congr rfl fun w _ => ?_
      rw [pay47_apply, pay51_apply]
    · refine Finset.sum_congr rfl fun h _ => Finset.sum_congr rfl fun w _ => ?_
      rw [pay48_apply, pay52_apply]

/-- Output 5: the label block's column sums. -/
theorem payD_out5 (x4 : Vec Ideal S1x1x512x512 .i32) (u u' : Fin 1) (w : Fin 512) :
    k0_pay60 (k0_pay58 x4) (ix3 u u' w) = outI x4 w :=
  (pay60_apply _ u u' w).trans (pay58_apply x4 w)

/-- Output 6: the running maximum's column sums. -/
theorem payD_out6 (S0 : Vec Ideal S512x512 .f32) (u u' : Fin 1) (w : Fin 512) :
    k0_pay61 (k0_pay59 S0) (ix3 u u' w) = ∑ h : Fin 512, S0 (ix2 h w) :=
  (pay61_apply _ u u' w).trans (pay59_apply S0 w)

/-- Output 7: the column sums of the label block times the running maximum. -/
theorem payD_out7 (x4 : Vec Ideal S1x1x512x512 .i32) (S0 : Vec Ideal S512x512 .f32) (u u' : Fin 1) (w : Fin 512) :
    k0_pay62 (k0_pay56 x4) S0 (ix3 u u' w) = ∑ h : Fin 512, pxf x4 h w * S0 (ix2 h w) := by
  refine (pay62_apply _ S0 u u' w).trans ?_
  refine Finset.sum_congr rfl fun h _ => ?_
  rw [pay56_apply]

/-- Output 8: the cross-entropy sum of the running maximum against the label block, along the row. -/
theorem payD_out8 (x4 : Vec Ideal S1x1x512x512 .i32) (S0 : Vec Ideal S512x512 .f32) (u u' : Fin 1) (j : Fin 128) :
    k0_pay63 (k0_pay57 x4 S0) (ix3 u u' j) = ∑ h : Fin 512, ∑ w : Fin 512, bceK (S0 (ix2 h w)) (pxf x4 h w) :=
  (pay63_apply _ u u' j).trans (pay57_apply x4 S0 0 0)

/-- Output 9: the first accumulator, along the row. -/
theorem payD_out9 (S3 : Vec Ideal S1x1 .f32) (u u' : Fin 1) (j : Fin 128) :
    k0_pay64 S3 (ix3 u u' j) = S3 (ix2 (0 : Fin 1) (0 : Fin 1)) :=
  pay64_apply S3 u u' j

/-- Output 10: the second accumulator, along the row. -/
theorem payD_out10 (S4 : Vec Ideal S1x1 .f32) (u u' : Fin 1) (j : Fin 128) :
    k0_pay65 S4 (ix3 u u' j) = S4 (ix2 (0 : Fin 1) (0 : Fin 1)) :=
  pay65_apply S4 u u' j

/-- Output 11: the decoupling sum, along the row. -/
theorem payD_out11 (S2 S1 : Vec Ideal S512x512 .f32) (u u' : Fin 1) (j : Fin 128) :
    k0_pay12 (k0_pay66 (k0_pay55 S2 S1)) (ix3 u u' j)
      = ∑ h : Fin 512, ∑ w : Fin 512, clog (l1 - S1 (ix2 h w) * edgeOf (S2 (ix2 h w))) :=
  (pay12_apply _ u u' j).trans ((pay66_apply _ u' j).trans (pay55_apply S2 S1 0 0))

end Cert.KernelIdeal.PayMath

end
-- ==== Proof.K.AccumD.lean ====
/- The finalizing case of the kernel body (pair index 3), read in the specification's words at the extended reals: the
   carried state after such a point is one step at pair 3 of the carried state the point before left, and the seven
   output blocks the point writes are the seven quantities of the final carried state and the label block. Each buffer
   ends at its one covering store's payload; the five scratch payloads together are the step, and each output's payload
   reads the scratch buffers as the same point has just left them. -/
import proofs.«411553_j46600395162340_3_alg».proof.Proof.K.Pieces
import proofs.«411553_j46600395162340_3_alg».proof.Proof.K.StOf
import proofs.«411553_j46600395162340_3_alg».proof.Proof.K.KSem
import proofs.«411553_j46600395162340_3_alg».proof.Proof.K.PayD
import Idealize.ShloMosaic.Lib.ValueIdx

set_option maxRecDepth 16384

noncomputable section

namespace Cert.KernelIdeal.HandV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Cert.KSem Cert.Spec

variable (m : (ℓ : Loc nD τ sig) → Buf (Elt Ideal) ℓ)

/-! ## The carried state -/

/-- The carried state after a point of the finalizing case (pair index 3) is one step, at pair 3, of the carried state
    the point before left, on the point's two float blocks and two integer blocks: the five scratch buffers end at
    their covering stores' payloads, and those five payloads together are that step. -/
theorem st_D (c : Dev nD) (t : Fin cfg0.N) (h : t.val % 4 = 3) :
    stOf (outsAt0 m c t.val t.isLt) = St.step 3 (iblk m c 0 t) (iblk m c 1 t) (iblk m c 2 t) (iblk m c 3 t) (stOf (outsAt0 m c (t.val - 1) (Nat.lt_of_le_of_lt (Nat.sub_le _ _) t.isLt))) := by
  rw [outsAt0_D m c t h]
  unfold stOf
  dsimp only
  rw [sout0_D_0_eq, sout0_D_1_eq, sout0_D_2_eq, sout0_D_3_eq, sout0_D_4_eq]
  exact PayMath.stepD (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4

/-! ## The seven outputs -/

/-- Output block 5 after a finalizing point: the label block's column sums. -/
theorem out_D5 (c : Dev nD) (t : Fin cfg0.N) (h : t.val % 4 = 3) (w : Fin 512) :
    (outsAt0 m c t.val t.isLt).o5 (ValueIdx.ix3 0 0 w) = outI (iblk m c 4 t) w := by
  rw [outsAt0_D m c t h]
  dsimp only
  rw [out0_D_5_eq]
  exact PayMath.payD_out5 (iblk m c 4 t) 0 0 w

/-- Output block 6 after a finalizing point: the column sums of the final running maximum. -/
theorem out_D6 (c : Dev nD) (t : Fin cfg0.N) (h : t.val % 4 = 3) (w : Fin 512) :
    (outsAt0 m c t.val t.isLt).o6 (ValueIdx.ix3 0 0 w) = outJ (stOf (outsAt0 m c t.val t.isLt)) w := by
  rw [outsAt0_D m c t h]
  unfold outJ stOf
  dsimp only
  rw [out0_D_6_eq_new]
  exact PayMath.payD_out6 (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) 0 0 w

/-- Output block 7 after a finalizing point: the column sums of the label block times the final running maximum. -/
theorem out_D7 (c : Dev nD) (t : Fin cfg0.N) (h : t.val % 4 = 3) (w : Fin 512) :
    (outsAt0 m c t.val t.isLt).o7 (ValueIdx.ix3 0 0 w) = outInter (stOf (outsAt0 m c t.val t.isLt)) (iblk m c 4 t) w := by
  rw [outsAt0_D m c t h]
  unfold outInter stOf
  dsimp only
  rw [out0_D_7_eq_new]
  exact PayMath.payD_out7 (iblk m c 4 t) (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) 0 0 w

/-- Output block 8 after a finalizing point, at every lane: the cross-entropy sum of the final running maximum against
    the label block. -/
theorem out_D8 (c : Dev nD) (t : Fin cfg0.N) (h : t.val % 4 = 3) (j : Fin 128) :
    (outsAt0 m c t.val t.isLt).o8 (ValueIdx.ix3 0 0 j) = outBce (stOf (outsAt0 m c t.val t.isLt)) (iblk m c 4 t) := by
  rw [outsAt0_D m c t h]
  unfold outBce stOf
  dsimp only
  rw [out0_D_8_eq_new]
  exact PayMath.payD_out8 (iblk m c 4 t) (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) 0 0 j

/-- Output block 9 after a finalizing point, at every lane: the final first accumulator. -/
theorem out_D9 (c : Dev nD) (t : Fin cfg0.N) (h : t.val % 4 = 3) (j : Fin 128) :
    (outsAt0 m c t.val t.isLt).o9 (ValueIdx.ix3 0 0 j) = (stOf (outsAt0 m c t.val t.isLt)).ca := by
  rw [outsAt0_D m c t h]
  unfold stOf
  dsimp only
  rw [out0_D_9_eq_new]
  exact PayMath.payD_out9 (sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) 0 0 j

/-- Output block 10 after a finalizing point, at every lane: the final second accumulator. -/
theorem out_D10 (c : Dev nD) (t : Fin cfg0.N) (h : t.val % 4 = 3) (j : Fin 128) :
    (outsAt0 m c t.val t.isLt).o10 (ValueIdx.ix3 0 0 j) = (stOf (outsAt0 m c t.val t.isLt)).ba := by
  rw [outsAt0_D m c t h]
  unfold stOf
  dsimp only
  rw [out0_D_10_eq_new]
  exact PayMath.payD_out10 (sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) 0 0 j

/-- Output block 11 after a finalizing point, at every lane: the clamped-logarithm sum over the final running minimum
    and the edge indicator of the final channel sum. -/
theorem out_D11 (c : Dev nD) (t : Fin cfg0.N) (h : t.val % 4 = 3) (j : Fin 128) :
    (outsAt0 m c t.val t.isLt).o11 (ValueIdx.ix3 0 0 j) = outDec (stOf (outsAt0 m c t.val t.isLt)) := by
  rw [outsAt0_D m c t h]
  unfold outDec stOf
  dsimp only
  rw [out0_D_11_eq_new]
  exact PayMath.payD_out11 (sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) (sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (hcD0 t h) (hcD1 t h) (hcD2 t h) (hcD3 t h) (hcD6 t h) (iblk m c 0 t) (iblk m c 1 t) (iblk m c 2 t) (iblk m c 3 t) (iblk m c 4 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4) 0 0 j

end Cert.KernelIdeal.HandV

end
-- ==== Proof.K.Blocks.lean ====
/- Each input window's block at a grid point, read at a pixel, is an entry of the argument array: the block's
   coordinate on an axis is the block index times the block's extent plus the coordinate inside the block, and the
   block indices are decided once over the grid (batch = t / 4, pair index = t % 4). -/
import proofs.«411553_j46600395162340_3_alg».proof.Proof.K.Runs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The grid -/

/-- A grid point's number is below 64 (the grid is 16 batches by 4 channel pairs). -/
theorem pt_lt (t : Fin cfg0.N) : t.val < 64 := by
  have h : t.val < grid0.N := t.isLt
  rw [N_0] at h; exact h

/-! ## The windows' block indices, decided over the grid

Point `t` has batch `t / 4` and pair index `t % 4`. The two windows on each eight-channel array take channel `p` and
channel `7 - p` of the batch; the window on the one-channel array takes the batch's only channel. -/

/-- Window 0 is at batch `t / 4`, channel `t % 4` of its array, and spans the whole image. -/
theorem idx0 : ∀ t : Fin cfg0.N, win0_0.index t (0 : Fin 4) = t.val / 4 ∧ win0_0.index t (1 : Fin 4) = t.val % 4
    ∧ win0_0.index t (2 : Fin 4) = 0 ∧ win0_0.index t (3 : Fin 4) = 0 :=
  (by decide +kernel : ∀ t : Fin grid0.N, _)

/-- Window 1 is at batch `t / 4`, channel `7 - t % 4` of the same array, and spans the whole image. -/
theorem idx1 : ∀ t : Fin cfg0.N, win0_1.index t (0 : Fin 4) = t.val / 4 ∧ win0_1.index t (1 : Fin 4) = 7 - t.val % 4
    ∧ win0_1.index t (2 : Fin 4) = 0 ∧ win0_1.index t (3 : Fin 4) = 0 :=
  (by decide +kernel : ∀ t : Fin grid0.N, _)

/-- Window 2 is at batch `t / 4`, channel `t % 4` of its array, and spans the whole image. -/
theorem idx2 : ∀ t : Fin cfg0.N, win0_2.index t (0 : Fin 4) = t.val / 4 ∧ win0_2.index t (1 : Fin 4) = t.val % 4
    ∧ win0_2.index t (2 : Fin 4) = 0 ∧ win0_2.index t (3 : Fin 4) = 0 :=
  (by decide +kernel : ∀ t : Fin grid0.N, _)

/-- Window 3 is at batch `t / 4`, channel `7 - t % 4` of the same array, and spans the whole image. -/
theorem idx3 : ∀ t : Fin cfg0.N, win0_3.index t (0 : Fin 4) = t.val / 4 ∧ win0_3.index t (1 : Fin 4) = 7 - t.val % 4
    ∧ win0_3.index t (2 : Fin 4) = 0 ∧ win0_3.index t (3 : Fin 4) = 0 :=
  (by decide +kernel : ∀ t : Fin grid0.N, _)

/-- Window 4 is at batch `t / 4` of the one-channel array, and spans the whole image. -/
theorem idx4 : ∀ t : Fin cfg0.N, win0_4.index t (0 : Fin 4) = t.val / 4 ∧ win0_4.index t (1 : Fin 4) = 0
    ∧ win0_4.index t (2 : Fin 4) = 0 ∧ win0_4.index t (3 : Fin 4) = 0 :=
  (by decide +kernel : ∀ t : Fin grid0.N, _)

/-! ## The blocks read at a pixel

A block's coordinate on an axis is the block index times the block's extent plus the coordinate inside the block; the
blocks have extent 1 on the batch and channel axes and the full 512 on the two image axes. -/

/-- Window 0's block at point `t`, read at pixel `(h, w)`, is the first array's entry at batch `t / 4`, channel `t % 4`. -/
theorem iblk0_apply (c : Dev nD) (t : Fin cfg0.N) (h w : Fin 512) :
    (iblk m c 0 t : Vec F S1x1x512x512 .f32) (ValueIdx.ix4 (0 : Fin 1) (0 : Fin 1) h w)
      = (V m c main_arg0 : Vec F S16x8x512x512 .f32)
          (ValueIdx.ix4 (⟨t.val / 4, by have := pt_lt t; omega⟩ : Fin 16) (⟨t.val % 4, by omega⟩ : Fin 8) h w) := by
  obtain ⟨e0, e1, e2, e3⟩ := idx0 t
  unfold iblk
  rw [View.read_apply]
  show V m c main_arg0 (((cfg0.win 0).blk t).view.emb _) = V m c main_arg0 _
  congr 1
  funext a
  apply Fin.ext
  match a with
  | ⟨0, _⟩ => show win0_0.index t (0 : Fin 4) * 1 + 1 * 0 = t.val / 4; omega
  | ⟨1, _⟩ => show win0_0.index t (1 : Fin 4) * 1 + 1 * 0 = t.val % 4; omega
  | ⟨2, _⟩ => show win0_0.index t (2 : Fin 4) * 512 + 1 * h.val = h.val; omega
  | ⟨3, _⟩ => show win0_0.index t (3 : Fin 4) * 512 + 1 * w.val = w.val; omega

/-- Window 1's block at point `t`, read at pixel `(h, w)`, is the first array's entry at batch `t / 4`, channel `7 - t % 4`. -/
theorem iblk1_apply (c : Dev nD) (t : Fin cfg0.N) (h w : Fin 512) :
    (iblk m c 1 t : Vec F S1x1x512x512 .f32) (ValueIdx.ix4 (0 : Fin 1) (0 : Fin 1) h w)
      = (V m c main_arg0 : Vec F S16x8x512x512 .f32)
          (ValueIdx.ix4 (⟨t.val / 4, by have := pt_lt t; omega⟩ : Fin 16) (⟨7 - t.val % 4, by omega⟩ : Fin 8) h w) := by
  obtain ⟨e0, e1, e2, e3⟩ := idx1 t
  unfold iblk
  rw [View.read_apply]
  show V m c main_arg0 (((cfg0.win 1).blk t).view.emb _) = V m c main_arg0 _
  congr 1
  funext a
  apply Fin.ext
  match a with
  | ⟨0, _⟩ => show win0_1.index t (0 : Fin 4) * 1 + 1 * 0 = t.val / 4; omega
  | ⟨1, _⟩ => show win0_1.index t (1 : Fin 4) * 1 + 1 * 0 = 7 - t.val % 4; omega
  | ⟨2, _⟩ => show win0_1.index t (2 : Fin 4) * 512 + 1 * h.val = h.val; omega
  | ⟨3, _⟩ => show win0_1.index t (3 : Fin 4) * 512 + 1 * w.val = w.val; omega

/-- Window 2's block at point `t`, read at pixel `(h, w)`, is the third array's entry at batch `t / 4`, channel `t % 4`. -/
theorem iblk2_apply (c : Dev nD) (t : Fin cfg0.N) (h w : Fin 512) :
    (iblk m c 2 t : Vec F S1x1x512x512 .i32) (ValueIdx.ix4 (0 : Fin 1) (0 : Fin 1) h w)
      = (V m c main_arg2 : Vec F S16x8x512x512 .i32)
          (ValueIdx.ix4 (⟨t.val / 4, by have := pt_lt t; omega⟩ : Fin 16) (⟨t.val % 4, by omega⟩ : Fin 8) h w) := by
  obtain ⟨e0, e1, e2, e3⟩ := idx2 t
  unfold iblk
  rw [View.read_apply]
  show V m c main_arg2 (((cfg0.win 2).blk t).view.emb _) = V m c main_arg2 _
  congr 1
  funext a
  apply Fin.ext
  match a with
  | ⟨0, _⟩ => show win0_2.index t (0 : Fin 4) * 1 + 1 * 0 = t.val / 4; omega
  | ⟨1, _⟩ => show win0_2.index t (1 : Fin 4) * 1 + 1 * 0 = t.val % 4; omega
  | ⟨2, _⟩ => show win0_2.index t (2 : Fin 4) * 512 + 1 * h.val = h.val; omega
  | ⟨3, _⟩ => show win0_2.index t (3 : Fin 4) * 512 + 1 * w.val = w.val; omega

/-- Window 3's block at point `t`, read at pixel `(h, w)`, is the third array's entry at batch `t / 4`, channel `7 - t % 4`. -/
theorem iblk3_apply (c : Dev nD) (t : Fin cfg0.N) (h w : Fin 512) :
    (iblk m c 3 t : Vec F S1x1x512x512 .i32) (ValueIdx.ix4 (0 : Fin 1) (0 : Fin 1) h w)
      = (V m c main_arg2 : Vec F S16x8x512x512 .i32)
          (ValueIdx.ix4 (⟨t.val / 4, by have := pt_lt t; omega⟩ : Fin 16) (⟨7 - t.val % 4, by omega⟩ : Fin 8) h w) := by
  obtain ⟨e0, e1, e2, e3⟩ := idx3 t
  unfold iblk
  rw [View.read_apply]
  show V m c main_arg2 (((cfg0.win 3).blk t).view.emb _) = V m c main_arg2 _
  congr 1
  funext a
  apply Fin.ext
  match a with
  | ⟨0, _⟩ => show win0_3.index t (0 : Fin 4) * 1 + 1 * 0 = t.val / 4; omega
  | ⟨1, _⟩ => show win0_3.index t (1 : Fin 4) * 1 + 1 * 0 = 7 - t.val % 4; omega
  | ⟨2, _⟩ => show win0_3.index t (2 : Fin 4) * 512 + 1 * h.val = h.val; omega
  | ⟨3, _⟩ => show win0_3.index t (3 : Fin 4) * 512 + 1 * w.val = w.val; omega

/-- Window 4's block at point `t`, read at pixel `(h, w)`, is the second array's entry at batch `t / 4`, its only channel. -/
theorem iblk4_apply (c : Dev nD) (t : Fin cfg0.N) (h w : Fin 512) :
    (iblk m c 4 t : Vec F S1x1x512x512 .i32) (ValueIdx.ix4 (0 : Fin 1) (0 : Fin 1) h w)
      = (V m c main_arg1 : Vec F S16x1x512x512 .i32)
          (ValueIdx.ix4 (⟨t.val / 4, by have := pt_lt t; omega⟩ : Fin 16) (0 : Fin 1) h w) := by
  obtain ⟨e0, e1, e2, e3⟩ := idx4 t
  unfold iblk
  rw [View.read_apply]
  show V m c main_arg1 (((cfg0.win 4).blk t).view.emb _) = V m c main_arg1 _
  congr 1
  funext a
  apply Fin.ext
  match a with
  | ⟨0, _⟩ => show win0_4.index t (0 : Fin 4) * 1 + 1 * 0 = t.val / 4; omega
  | ⟨1, _⟩ => show win0_4.index t (1 : Fin 4) * 1 + 1 * 0 = 0; omega
  | ⟨2, _⟩ => show win0_4.index t (2 : Fin 4) * 512 + 1 * h.val = h.val; omega
  | ⟨3, _⟩ => show win0_4.index t (3 : Fin 4) * 512 + 1 * w.val = w.val; omega

end Cert.KernelIdeal.Hand

end
-- ==== Proof.Math.lean ====
import proofs.«411553_j46600395162340_3_alg».proof.Proof.Spec

/-! The kernel's form of the result equals the reference's when the integer arrays hold only 0 and 1.

Three facts carry it. For a label t that is 0 or 1, t * a + (1 - t) * b is a when t = 1 and b when t = 0, which is the
logarithm of the chosen one of p and 1 - p. A fold of max (min, +) over the four channel pairs from bottom (top, 0) is the
supremum (infimum, sum) over the eight channels, the pairs (k, 7 - k) listing each channel once. And a sum over batches of
per-batch sums over the pairs is the sum over all coordinates; dividing by a nonzero literal is multiplying by its inverse,
which commutes with negation for every extended real, so the sums need not be shown finite. -/

noncomputable section

namespace Cert.Spec

open Idealize.ShloMosaic

/-! ## The literals -/

theorem l0_eq : l0 = 0 := by simp [Ideal.ofBits, Ideal.ieee]

theorem l1_eq : l1 = 1 := by
  simp [Ideal.ofBits, Ideal.ieee, -EReal.coe_mul]; norm_num

theorem lN3_eq : lN3 = ((4194304 : ℝ) : EReal) := by
  simp [Ideal.ofBits, Ideal.ieee, -EReal.coe_mul]; norm_num

theorem lN4_eq : lN4 = ((33554432 : ℝ) : EReal) := by
  simp [Ideal.ofBits, Ideal.ieee, -EReal.coe_mul]; norm_num

theorem lN3_ne : lN3 ≠ 0 := by
  rw [lN3_eq]; exact_mod_cast (by norm_num : (4194304 : ℝ) ≠ 0)

theorem lN4_ne : lN4 ≠ 0 := by
  rw [lN4_eq]; exact_mod_cast (by norm_num : (33554432 : ℝ) ≠ 0)

theorem wf_zero : wf 0#32 = 0 := by simp [wf]

theorem wf_one : wf 1#32 = 1 := by simp [wf]

/-! ## Division by a nonzero number commutes with negation -/

theorem div_neg_left (s N : EReal) (hN : N ≠ 0) : Ideal.div (-s) N = -(Ideal.div s N) := by
  simp only [Ideal.div, if_neg hN, EReal.neg_mul]

/-! ## The cross-entropy term at a label 0 or 1 -/

theorem one_sub_one : (1 : EReal) - 1 = 0 := by
  rw [← EReal.coe_one, ← EReal.coe_sub, sub_self, EReal.coe_zero]

theorem bceR_one (p : EReal) : bceR p 1 = clog p := by
  simp only [bceR, l1_eq]
  rw [one_mul, one_sub_one, zero_mul, add_zero]

theorem bceR_zero (p : EReal) : bceR p 0 = clog (1 - p) := by
  simp only [bceR, l1_eq]
  rw [zero_mul, sub_zero, one_mul, zero_add]

theorem bceK_one (p : EReal) : bceK p 1 = clog p := by
  simp only [bceK, l1_eq, if_true]

theorem bceK_zero (p : EReal) : bceK p 0 = clog (1 - p) := by
  simp only [bceK, l1_eq]
  rw [if_neg (by norm_num : (0 : EReal) ≠ 1)]

theorem bceK_eq_bceR (p : EReal) (w : BitVec 32) (hw : w = 0#32 ∨ w = 1#32) :
    bceK p (wf w) = bceR p (wf w) := by
  rcases hw with rfl | rfl
  · rw [wf_zero, bceK_zero, bceR_zero]
  · rw [wf_one, bceK_one, bceR_one]

theorem bceR_l0 (q : EReal) : bceR q l0 = clog (l1 - q) := by
  rw [l0_eq, bceR_zero, l1_eq]

/-! ## The four channel pairs list the eight channels once -/

theorem finRange_four : List.finRange 4 = [0, 1, 2, 3] := by decide

theorem lo_0 : lo 0 = 0 := rfl
theorem lo_1 : lo 1 = 1 := rfl
theorem lo_2 : lo 2 = 2 := rfl
theorem lo_3 : lo 3 = 3 := rfl
theorem hi_0 : hi 0 = 7 := rfl
theorem hi_1 : hi 1 = 6 := rfl
theorem hi_2 : hi 2 = 5 := rfl
theorem hi_3 : hi 3 = 4 := rfl

/-- The sum folded over the pairs is the sum over the channels. -/
theorem foldl_pairs_add (g : Fin 8 → EReal) :
    (List.finRange 4).foldl (fun acc k => acc + g (lo k) + g (hi k)) 0 = ∑ ch : Fin 8, g ch := by
  rw [finRange_four, Fin.sum_univ_eight]
  simp only [List.foldl_cons, List.foldl_nil, lo_0, lo_1, lo_2, lo_3, hi_0, hi_1, hi_2, hi_3, zero_add]
  abel

/-- The maximum folded over the pairs from bottom is the supremum over the channels. -/
theorem foldl_pairs_max (g : Fin 8 → EReal) :
    (List.finRange 4).foldl (fun acc k => max acc (max (g (lo k)) (g (hi k)))) ⊥ = ⨆ i : Fin 8, g i := by
  rw [finRange_four]
  simp only [List.foldl_cons, List.foldl_nil, lo_0, lo_1, lo_2, lo_3, hi_0, hi_1, hi_2, hi_3]
  apply le_antisymm
  · simp only [max_le_iff, bot_le, true_and]
    exact ⟨⟨⟨⟨le_iSup g 0, le_iSup g 7⟩, le_iSup g 1, le_iSup g 6⟩, le_iSup g 2, le_iSup g 5⟩, le_iSup g 3, le_iSup g 4⟩
  · refine iSup_le fun i => ?_
    fin_cases i <;> simp [le_max_iff]

/-- The minimum folded over the pairs from top is the infimum over the channels. -/
theorem foldl_pairs_min (g : Fin 8 → EReal) :
    (List.finRange 4).foldl (fun acc k => min acc (min (g (lo k)) (g (hi k)))) ⊤ = ⨅ i : Fin 8, g i := by
  rw [finRange_four]
  simp only [List.foldl_cons, List.foldl_nil, lo_0, lo_1, lo_2, lo_3, hi_0, hi_1, hi_2, hi_3]
  apply le_antisymm
  · refine le_iInf fun i => ?_
    fin_cases i <;> simp [min_le_iff]
  · simp only [le_min_iff, le_top, true_and]
    exact ⟨⟨⟨⟨iInf_le g 0, iInf_le g 7⟩, iInf_le g 1, iInf_le g 6⟩, iInf_le g 2, iInf_le g 5⟩, iInf_le g 3, iInf_le g 4⟩

theorem fpredK_eq (x : A4) : fpredK x = fpredR x := by
  funext b h w
  exact foldl_pairs_max fun i => vote x b i h w

theorem pminK_eq (x : A4) : pminK x = pminR x := by
  funext b h w
  exact foldl_pairs_min fun i => vote x b i h w

theorem sumConnK_eq (ct : W4) : sumConnK ct = sumConnR ct := by
  funext b h w
  exact foldl_pairs_add fun ch => wf (ct b ch h w)

theorem predMinK_eq (x : A4) (ct : W4) : predMinK x ct = predMinR x ct := by
  funext b h w
  simp only [predMinK, predMinR, pminK_eq, sumConnK_eq]

theorem pairSum_eq (f : Fin 8 → Fin 512 → Fin 512 → EReal) :
    pairSum f = ∑ ch : Fin 8, ∑ h : Fin 512, ∑ w : Fin 512, f ch h w :=
  foldl_pairs_add fun ch => ∑ h : Fin 512, ∑ w : Fin 512, f ch h w

/-! ## The four sums -/

/-- Over the channel pairs: a sum over batches of pair sums of the kernel's terms is the sum over all coordinates
of the reference's terms. -/
theorem sum_pairSum_bce (p : A4) (ct : W4) (hct : ∀ b ch h w, ct b ch h w = 0#32 ∨ ct b ch h w = 1#32) :
    ∑ b : Fin 16, pairSum (fun ch h w => bceK (p b ch h w) (wf (ct b ch h w)))
      = ∑ b : Fin 16, ∑ ch : Fin 8, ∑ h : Fin 512, ∑ w : Fin 512, bceR (p b ch h w) (wf (ct b ch h w)) := by
  refine Finset.sum_congr rfl fun b _ => ?_
  rw [pairSum_eq]
  refine Finset.sum_congr rfl fun ch _ => Finset.sum_congr rfl fun h _ => Finset.sum_congr rfl fun w _ => ?_
  exact bceK_eq_bceR _ _ (hct b ch h w)

/-- Without channels: the kernel's terms and the reference's terms have the same sum. -/
theorem sum_bce (p : A3) (t : W3) (ht : ∀ b h w, t b h w = 0#32 ∨ t b h w = 1#32) :
    ∑ b : Fin 16, ∑ h : Fin 512, ∑ w : Fin 512, bceK (p b h w) (wf (t b h w))
      = ∑ b : Fin 16, ∑ h : Fin 512, ∑ w : Fin 512, bceR (p b h w) (wf (t b h w)) := by
  refine Finset.sum_congr rfl fun b _ => Finset.sum_congr rfl fun h _ => Finset.sum_congr rfl fun w _ => ?_
  exact bceK_eq_bceR _ _ (ht b h w)

theorem conmap_eq (x : A4) (ct : W4) (hct : ∀ b ch h w, ct b ch h w = 0#32 ∨ ct b ch h w = 1#32) :
    Ideal.div (-(∑ b : Fin 16, conmapB x ct b)) lN4
      = -(Ideal.div (∑ b : Fin 16, ∑ ch : Fin 8, ∑ h : Fin 512, ∑ w : Fin 512,
            bceR (P x b ch h w) (wf (ct b ch h w))) lN4) := by
  unfold conmapB
  rw [div_neg_left _ _ lN4_ne, sum_pairSum_bce (P x) ct hct]

theorem bimap_eq (x : A4) (ct : W4) (hct : ∀ b ch h w, ct b ch h w = 0#32 ∨ ct b ch h w = 1#32) :
    Ideal.div (-(∑ b : Fin 16, bimapB x ct b)) lN4
      = -(Ideal.div (∑ b : Fin 16, ∑ ch : Fin 8, ∑ h : Fin 512, ∑ w : Fin 512,
            bceR (vote x b ch h w) (wf (ct b ch h w))) lN4) := by
  unfold bimapB
  rw [div_neg_left _ _ lN4_ne, sum_pairSum_bce (vote x) ct hct]

theorem dec_eq (x : A4) (ct : W4) :
    Ideal.div (-(∑ b : Fin 16, decB x ct b)) lN3
      = -(Ideal.div (∑ b : Fin 16, ∑ h : Fin 512, ∑ w : Fin 512, bceR (predMinR x ct b h w) l0) lN3) := by
  unfold decB
  rw [div_neg_left _ _ lN3_ne, predMinK_eq]
  simp only [bceR_l0]

theorem bce_eq (x : A4) (t : W3) (ht : ∀ b h w, t b h w = 0#32 ∨ t b h w = 1#32) :
    Ideal.div (-(∑ b : Fin 16, bceB x t b)) lN3
      = -(Ideal.div (∑ b : Fin 16, ∑ h : Fin 512, ∑ w : Fin 512,
            bceR (fpredR x b h w) (wf (t b h w))) lN3) := by
  unfold bceB
  rw [div_neg_left _ _ lN3_ne, fpredK_eq, sum_bce (fpredR x) t ht]

/-- The kernel's form equals the reference's form when every float entry is real and every integer word is 0 or 1. -/
theorem Kspec_eq_Rspec (x : A4) (t : W3) (ct : W4)
    (hx : ∀ b ch h w, ∃ r : ℝ, x b ch h w = (r : EReal))
    (ht : ∀ b h w, t b h w = 0#32 ∨ t b h w = 1#32)
    (hct : ∀ b ch h w, ct b ch h w = 0#32 ∨ ct b ch h w = 1#32) :
    Kspec x t ct = Rspec x t ct := by
  unfold Kspec Rspec
  rw [conmap_eq x ct hct, dec_eq x ct, bimap_eq x ct hct, bce_eq x t ht, fpredK_eq]

end Cert.Spec

end
-- ==== Proof.K.ValueK.lean ====
/- The kernel side's result in the arrays' words. One grid point's blocks are channels of the argument arrays; the four
   points of a batch apply the four pair updates in order from the reset state, which are the folds over the pairs that
   the kernel's form of the result is written with; the last point of a batch writes the batch's row of each output from
   that state and the label block; and the host operations after the region combine the seven output arrays into the
   one number. -/
import proofs.«411553_j46600395162340_3_alg».proof.Proof.K.Region
import proofs.«411553_j46600395162340_3_alg».proof.Proof.K.Tail
import proofs.«411553_j46600395162340_3_alg».proof.Proof.K.ArrAt
import proofs.«411553_j46600395162340_3_alg».proof.Proof.K.Accum
import proofs.«411553_j46600395162340_3_alg».proof.Proof.K.AccumD
import proofs.«411553_j46600395162340_3_alg».proof.Proof.K.Blocks
import proofs.«411553_j46600395162340_3_alg».proof.Proof.K.KSem
import proofs.«411553_j46600395162340_3_alg».proof.Proof.Math
import Idealize.ShloMosaic.Lib.ValueIdx
import Idealize.ShloMosaic.Lib.Pipeline.Value

set_option maxRecDepth 16384

noncomputable section

namespace Cert.KernelIdeal.HandV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.KSem Cert.Spec
open Idealize.ShloMosaic.ValueIdx

variable (m : (ℓ : Loc nD τ sig) → Buf (Elt Ideal) ℓ)

/-! ## The three argument arrays by coordinates -/

/-- The float array, the label array and the integer array as the region finds them on core `c`. -/
abbrev xA (c : Dev nD) : A4 := a4 (V m c main_arg0 : Vec Ideal S16x8x512x512 .f32)
abbrev tA (c : Dev nD) : Cert.Spec.W3 := a3 (V m c main_arg1 : Vec Ideal S16x1x512x512 .i32)
abbrev ctA (c : Dev nD) : W4 := a4 (V m c main_arg2 : Vec Ideal S16x8x512x512 .i32)

/-! ## One point's blocks in those words

Point `t = 4 b + k` sees channel `lo k` and channel `hi k` of batch `b` of the float and the integer array, and batch
`b` of the label array. -/

theorem px_blk0 (c : Dev nD) (t : Fin cfg0.N) (b : Fin 16) (k : Fin 4) (ht : t.val = 4 * b.val + k.val) (h w : Fin 512) :
    px (iblk m c 0 t) h w = xA m c b (lo k) h w := by
  refine (iblk0_apply m c t h w).trans ?_
  have hk := k.isLt
  exact congrArg₂ (fun (bb : Fin 16) (ch : Fin 8) => (V m c main_arg0 : Vec Ideal S16x8x512x512 .f32) (ix4 bb ch h w))
    (Fin.ext (by show t.val / 4 = b.val; omega)) (Fin.ext (by show t.val % 4 = k.val; omega))

theorem px_blk1 (c : Dev nD) (t : Fin cfg0.N) (b : Fin 16) (k : Fin 4) (ht : t.val = 4 * b.val + k.val) (h w : Fin 512) :
    px (iblk m c 1 t) h w = xA m c b (hi k) h w := by
  refine (iblk1_apply m c t h w).trans ?_
  have hk := k.isLt
  exact congrArg₂ (fun (bb : Fin 16) (ch : Fin 8) => (V m c main_arg0 : Vec Ideal S16x8x512x512 .f32) (ix4 bb ch h w))
    (Fin.ext (by show t.val / 4 = b.val; omega)) (Fin.ext (by show 7 - t.val % 4 = 7 - k.val; omega))

theorem pxf_blk2 (c : Dev nD) (t : Fin cfg0.N) (b : Fin 16) (k : Fin 4) (ht : t.val = 4 * b.val + k.val) (h w : Fin 512) :
    pxf (iblk m c 2 t) h w = wf (ctA m c b (lo k) h w) := by
  refine congrArg wf ((iblk2_apply m c t h w).trans ?_)
  have hk := k.isLt
  exact congrArg₂ (fun (bb : Fin 16) (ch : Fin 8) => (V m c main_arg2 : Vec Ideal S16x8x512x512 .i32) (ix4 bb ch h w))
    (Fin.ext (by show t.val / 4 = b.val; omega)) (Fin.ext (by show t.val % 4 = k.val; omega))

theorem pxf_blk3 (c : Dev nD) (t : Fin cfg0.N) (b : Fin 16) (k : Fin 4) (ht : t.val = 4 * b.val + k.val) (h w : Fin 512) :
    pxf (iblk m c 3 t) h w = wf (ctA m c b (hi k) h w) := by
  refine congrArg wf ((iblk3_apply m c t h w).trans ?_)
  have hk := k.isLt
  exact congrArg₂ (fun (bb : Fin 16) (ch : Fin 8) => (V m c main_arg2 : Vec Ideal S16x8x512x512 .i32) (ix4 bb ch h w))
    (Fin.ext (by show t.val / 4 = b.val; omega)) (Fin.ext (by show 7 - t.val % 4 = 7 - k.val; omega))

theorem pxf_blk4 (c : Dev nD) (t : Fin cfg0.N) (b : Fin 16) (k : Fin 4) (ht : t.val = 4 * b.val + k.val) (h w : Fin 512) :
    pxf (iblk m c 4 t) h w = wf (tA m c b h w) := by
  refine congrArg wf ((iblk4_apply m c t h w).trans ?_)
  have hk := k.isLt
  exact congrArg (fun (bb : Fin 16) => (V m c main_arg1 : Vec Ideal S16x1x512x512 .i32) (ix4 bb (0 : Fin 1) h w))
    (Fin.ext (by show t.val / 4 = b.val; omega))

/-- The two sigmoids of the point's float blocks are the sigmoids of the pair's two channels. -/
theorem sg_blk0 (c : Dev nD) (t : Fin cfg0.N) (b : Fin 16) (k : Fin 4) (ht : t.val = 4 * b.val + k.val) :
    sg (iblk m c 0 t) = P (xA m c) b (lo k) :=
  funext fun h => funext fun w => congrArg Ideal.logistic (px_blk0 m c t b k ht h w)

theorem sg_blk1 (c : Dev nD) (t : Fin cfg0.N) (b : Fin 16) (k : Fin 4) (ht : t.val = 4 * b.val + k.val) :
    sg (iblk m c 1 t) = P (xA m c) b (hi k) :=
  funext fun h => funext fun w => congrArg Ideal.logistic (px_blk1 m c t b k ht h w)

/-- The opposite channel of a pair's lower channel is its upper channel, and back. -/
theorem rev_lo (k : Fin 4) : rev (lo k) = hi k := rfl
theorem rev_hi (k : Fin 4) : rev (hi k) = lo k := Fin.ext (by have := k.isLt; show 7 - (7 - k.val) = k.val; omega)

/-- The point's two votes are the votes of the pair's two channels. -/
theorem vlo_blk (c : Dev nD) (t : Fin cfg0.N) (b : Fin 16) (k : Fin 4) (ht : t.val = 4 * b.val + k.val) (h w : Fin 512) :
    vlo k (iblk m c 0 t) (iblk m c 1 t) h w = vote (xA m c) b (lo k) h w := by
  unfold vlo vote
  rw [sg_blk0 m c t b k ht, sg_blk1 m c t b k ht, rev_lo]

theorem vhi_blk (c : Dev nD) (t : Fin cfg0.N) (b : Fin 16) (k : Fin 4) (ht : t.val = 4 * b.val + k.val) (h w : Fin 512) :
    vhi k (iblk m c 0 t) (iblk m c 1 t) h w = vote (xA m c) b (hi k) h w := by
  unfold vhi vote
  rw [sg_blk0 m c t b k ht, sg_blk1 m c t b k ht, rev_hi]

/-! ## One pair's update in the arrays' words, and the four pairs of a batch -/

/-- One pair's update of the carried state, over the arrays: pair `k` of batch `b`. -/
def stepS (x : A4) (ct : W4) (b : Fin 16) (k : Fin 4) (s : St) : St where
  fp h w := max (s.fp h w) (max (vote x b (lo k) h w) (vote x b (hi k) h w))
  cm h w := min (s.cm h w) (min (vote x b (lo k) h w) (vote x b (hi k) h w))
  sc h w := s.sc h w + wf (ct b (lo k) h w) + wf (ct b (hi k) h w)
  ca := s.ca + (∑ h : Fin 512, ∑ w : Fin 512, bceK (P x b (lo k) h w) (wf (ct b (lo k) h w)))
      + (∑ h : Fin 512, ∑ w : Fin 512, bceK (P x b (hi k) h w) (wf (ct b (hi k) h w)))
  ba := s.ba + (∑ h : Fin 512, ∑ w : Fin 512, bceK (vote x b (lo k) h w) (wf (ct b (lo k) h w)))
      + (∑ h : Fin 512, ∑ w : Fin 512, bceK (vote x b (hi k) h w) (wf (ct b (hi k) h w)))

/-- The body's update at point `4 b + k` is that update. -/
theorem step_eq (c : Dev nD) (t : Fin cfg0.N) (b : Fin 16) (k : Fin 4) (ht : t.val = 4 * b.val + k.val) (s : St) :
    St.step k (iblk m c 0 t) (iblk m c 1 t) (iblk m c 2 t) (iblk m c 3 t) s = stepS (xA m c) (ctA m c) b k s := by
  unfold St.step stepS
  refine congr (congr (congr (congr (congrArg St.mk ?_) ?_) ?_) ?_) ?_
  · exact funext fun h => funext fun w =>
      congrArg (max (s.fp h w)) (congrArg₂ max (vlo_blk m c t b k ht h w) (vhi_blk m c t b k ht h w))
  · exact funext fun h => funext fun w =>
      congrArg (min (s.cm h w)) (congrArg₂ min (vlo_blk m c t b k ht h w) (vhi_blk m c t b k ht h w))
  · exact funext fun h => funext fun w =>
      congrArg₂ (fun p q => s.sc h w + p + q) (pxf_blk2 m c t b k ht h w) (pxf_blk3 m c t b k ht h w)
  · refine congrArg₂ (fun p q => s.ca + p + q) ?_ ?_
    · exact Finset.sum_congr rfl fun h _ => Finset.sum_congr rfl fun w _ =>
        congrArg₂ bceK (congrArg Ideal.logistic (px_blk0 m c t b k ht h w)) (pxf_blk2 m c t b k ht h w)
    · exact Finset.sum_congr rfl fun h _ => Finset.sum_congr rfl fun w _ =>
        congrArg₂ bceK (congrArg Ideal.logistic (px_blk1 m c t b k ht h w)) (pxf_blk3 m c t b k ht h w)
  · refine congrArg₂ (fun p q => s.ba + p + q) ?_ ?_
    · exact Finset.sum_congr rfl fun h _ => Finset.sum_congr rfl fun w _ =>
        congrArg₂ bceK (vlo_blk m c t b k ht h w) (pxf_blk2 m c t b k ht h w)
    · exact Finset.sum_congr rfl fun h _ => Finset.sum_congr rfl fun w _ =>
        congrArg₂ bceK (vhi_blk m c t b k ht h w) (pxf_blk3 m c t b k ht h w)

/-- The folds over the four pairs, from bottom, top and zero, are four updates in order from the reset state. -/
theorem fold4 (x : A4) (ct : W4) (b : Fin 16) :
    (⟨fpredK x b, pminK x b, sumConnK ct b, conmapB x ct b, bimapB x ct b⟩ : St)
      = stepS x ct b 3 (stepS x ct b 2 (stepS x ct b 1 (stepS x ct b 0 St.init))) := by
  unfold fpredK pminK sumConnK conmapB bimapB pairSum
  simp only [finRange_four, List.foldl_cons, List.foldl_nil]
  rfl

/-! ## A batch's four points -/

/-- The last point of batch `b` is a point of the finalizing case. -/
theorem lastPt_mod (b : Fin 16) : (4 * b.val + 3) % 4 = 3 := by omega

/-- What the scratch buffers hold after the last point of batch `b`: the folds over the four pairs of that batch. -/
theorem st_batch (c : Dev nD) (b : Fin 16) :
    stOf (outsAt0 m c (4 * b.val + 3) (lastPt_lt _ b.isLt))
      = ⟨fpredK (xA m c) b, pminK (xA m c) b, sumConnK (ctA m c) b, conmapB (xA m c) (ctA m c) b,
          bimapB (xA m c) (ctA m c) b⟩ := by
  have h3 : 4 * b.val + 3 < cfg0.N := lastPt_lt _ b.isLt
  have h2 : 4 * b.val + 2 < cfg0.N := Nat.lt_of_succ_lt h3
  have h1 : 4 * b.val + 1 < cfg0.N := Nat.lt_of_succ_lt h2
  have h0 : 4 * b.val < cfg0.N := Nat.lt_of_succ_lt h1
  have s0 : stOf (outsAt0 m c (4 * b.val) h0) = stepS (xA m c) (ctA m c) b 0 St.init :=
    (st_A m c ⟨4 * b.val, h0⟩ (by show (4 * b.val) % 4 = 0; omega)).trans
      (step_eq m c ⟨4 * b.val, h0⟩ b 0 (by show 4 * b.val = 4 * b.val + 0; omega) St.init)
  have s1 : stOf (outsAt0 m c (4 * b.val + 1) h1)
      = stepS (xA m c) (ctA m c) b 1 (stOf (outsAt0 m c (4 * b.val) h0)) :=
    (st_B m c ⟨4 * b.val + 1, h1⟩ (by show (4 * b.val + 1) % 4 = 1; omega)).trans
      ((step_eq m c ⟨4 * b.val + 1, h1⟩ b 1 rfl _).trans
        (congrArg (stepS (xA m c) (ctA m c) b 1) (congrArg stOf
          (outsAt0_congr m c _ h0 (by show 4 * b.val + 1 - 1 = 4 * b.val; omega)))))
  have s2 : stOf (outsAt0 m c (4 * b.val + 2) h2)
      = stepS (xA m c) (ctA m c) b 2 (stOf (outsAt0 m c (4 * b.val + 1) h1)) :=
    (st_C m c ⟨4 * b.val + 2, h2⟩ (by show (4 * b.val + 2) % 4 = 2; omega)).trans
      ((step_eq m c ⟨4 * b.val + 2, h2⟩ b 2 rfl _).trans
        (congrArg (stepS (xA m c) (ctA m c) b 2) (congrArg stOf
          (outsAt0_congr m c _ h1 (by show 4 * b.val + 2 - 1 = 4 * b.val + 1; omega)))))
  have s3 : stOf (outsAt0 m c (4 * b.val + 3) h3)
      = stepS (xA m c) (ctA m c) b 3 (stOf (outsAt0 m c (4 * b.val + 2) h2)) :=
    (st_D m c ⟨4 * b.val + 3, h3⟩ (lastPt_mod b)).trans
      ((step_eq m c ⟨4 * b.val + 3, h3⟩ b 3 rfl _).trans
        (congrArg (stepS (xA m c) (ctA m c) b 3) (congrArg stOf
          (outsAt0_congr m c _ h2 (by show 4 * b.val + 3 - 1 = 4 * b.val + 2; omega)))))
  exact (s3.trans (congrArg (stepS (xA m c) (ctA m c) b 3) (s2.trans (congrArg (stepS (xA m c) (ctA m c) b 2)
    (s1.trans (congrArg (stepS (xA m c) (ctA m c) b 1) s0)))))).trans (fold4 (xA m c) (ctA m c) b).symm

/-! ## What the last point of a batch leaves in the seven outputs -/

theorem batch_o5 (c : Dev nD) (b : Fin 16) (w : Fin 512) :
    (outsAt0 m c (4 * b.val + 3) (lastPt_lt _ b.isLt)).o5 (ix3 0 0 w) = ∑ h : Fin 512, wf (tA m c b h w) :=
  (out_D5 m c ⟨4 * b.val + 3, lastPt_lt _ b.isLt⟩ (lastPt_mod b) w).trans
    (Finset.sum_congr rfl fun h _ => pxf_blk4 m c ⟨4 * b.val + 3, lastPt_lt _ b.isLt⟩ b 3 rfl h w)

theorem batch_o6 (c : Dev nD) (b : Fin 16) (w : Fin 512) :
    (outsAt0 m c (4 * b.val + 3) (lastPt_lt _ b.isLt)).o6 (ix3 0 0 w) = ∑ h : Fin 512, fpredK (xA m c) b h w :=
  (out_D6 m c ⟨4 * b.val + 3, lastPt_lt _ b.isLt⟩ (lastPt_mod b) w).trans
    (congrArg (fun s => outJ s w) (st_batch m c b))

theorem batch_o7 (c : Dev nD) (b : Fin 16) (w : Fin 512) :
    (outsAt0 m c (4 * b.val + 3) (lastPt_lt _ b.isLt)).o7 (ix3 0 0 w)
      = ∑ h : Fin 512, wf (tA m c b h w) * fpredK (xA m c) b h w :=
  (out_D7 m c ⟨4 * b.val + 3, lastPt_lt _ b.isLt⟩ (lastPt_mod b) w).trans
    ((congrArg (fun s => outInter s (iblk m c 4 ⟨4 * b.val + 3, lastPt_lt _ b.isLt⟩) w) (st_batch m c b)).trans
      (Finset.sum_congr rfl fun h _ => congrArg (· * fpredK (xA m c) b h w)
        (pxf_blk4 m c ⟨4 * b.val + 3, lastPt_lt _ b.isLt⟩ b 3 rfl h w)))

theorem batch_o8 (c : Dev nD) (b : Fin 16) (j : Fin 128) :
    (outsAt0 m c (4 * b.val + 3) (lastPt_lt _ b.isLt)).o8 (ix3 0 0 j) = bceB (xA m c) (tA m c) b :=
  (out_D8 m c ⟨4 * b.val + 3, lastPt_lt _ b.isLt⟩ (lastPt_mod b) j).trans
    ((congrArg (fun s => outBce s (iblk m c 4 ⟨4 * b.val + 3, lastPt_lt _ b.isLt⟩)) (st_batch m c b)).trans
      (Finset.sum_congr rfl fun h _ => Finset.sum_congr rfl fun w _ => congrArg (bceK (fpredK (xA m c) b h w))
        (pxf_blk4 m c ⟨4 * b.val + 3, lastPt_lt _ b.isLt⟩ b 3 rfl h w)))

theorem batch_o9 (c : Dev nD) (b : Fin 16) (j : Fin 128) :
    (outsAt0 m c (4 * b.val + 3) (lastPt_lt _ b.isLt)).o9 (ix3 0 0 j) = conmapB (xA m c) (ctA m c) b :=
  (out_D9 m c ⟨4 * b.val + 3, lastPt_lt _ b.isLt⟩ (lastPt_mod b) j).trans (congrArg St.ca (st_batch m c b))

theorem batch_o10 (c : Dev nD) (b : Fin 16) (j : Fin 128) :
    (outsAt0 m c (4 * b.val + 3) (lastPt_lt _ b.isLt)).o10 (ix3 0 0 j) = bimapB (xA m c) (ctA m c) b :=
  (out_D10 m c ⟨4 * b.val + 3, lastPt_lt _ b.isLt⟩ (lastPt_mod b) j).trans (congrArg St.ba (st_batch m c b))

theorem batch_o11 (c : Dev nD) (b : Fin 16) (j : Fin 128) :
    (outsAt0 m c (4 * b.val + 3) (lastPt_lt _ b.isLt)).o11 (ix3 0 0 j) = decB (xA m c) (ctA m c) b :=
  (out_D11 m c ⟨4 * b.val + 3, lastPt_lt _ b.isLt⟩ (lastPt_mod b) j).trans
    ((congrArg outDec (st_batch m c b)).trans (by unfold outDec decB predMinK; rfl))

/-! ## The program's result -/

/-- On every core the result buffer after the host operations holds the kernel's form of the result, at its one index. -/
theorem kernel_value (c : Dev nD) :
    Cert.KernelIdeal.Hand.W3 m (dats m) c (Proc.devRef .tc main_v41)
      = fun _ => Kspec (xA m c) (tA m c) (ctA m c) := by
  refine (tail_result (W2 m (dats m) c) _ _ _ _ _ _ _ (W2_out0 m (dats m) c) (W2_out1 m (dats m) c)
    (W2_out2 m (dats m) c) (W2_out3 m (dats m) c) (W2_out4 m (dats m) c) (W2_out5 m (dats m) c)
    (W2_out6 m (dats m) c)).trans ?_
  funext _
  unfold Kspec
  have e0 : (fun (b : Fin 16) (w : Fin 512) => ((dats m c).arrAt 5 cfg0.N : Vec Ideal S16x1x512 .f32) (ix3 b 0 w))
      = fun b w => ∑ h : Fin 512, wf (tA m c b h w) :=
    funext fun b => funext fun w => (arrAt5 m c b w).trans (batch_o5 m c b w)
  have e1 : (fun (b : Fin 16) (w : Fin 512) => ((dats m c).arrAt 6 cfg0.N : Vec Ideal S16x1x512 .f32) (ix3 b 0 w))
      = fun b w => ∑ h : Fin 512, fpredK (xA m c) b h w :=
    funext fun b => funext fun w => (arrAt6 m c b w).trans (batch_o6 m c b w)
  have e2 : (fun (b : Fin 16) (w : Fin 512) => ((dats m c).arrAt 7 cfg0.N : Vec Ideal S16x1x512 .f32) (ix3 b 0 w))
      = fun b w => ∑ h : Fin 512, wf (tA m c b h w) * fpredK (xA m c) b h w :=
    funext fun b => funext fun w => (arrAt7 m c b w).trans (batch_o7 m c b w)
  refine combine_congr ?_ ?_ ?_ ?_ ?_
  · exact congrArg (fun s => Ideal.div (-s) lN4)
      (Finset.sum_congr rfl fun b _ => (arrAt9 m c b 0).trans (batch_o9 m c b 0))
  · exact congrArg (fun s => Ideal.div (-s) lN3)
      (Finset.sum_congr rfl fun b _ => (arrAt11 m c b 0).trans (batch_o11 m c b 0))
  · exact congrArg (fun s => Ideal.div (-s) lN4)
      (Finset.sum_congr rfl fun b _ => (arrAt10 m c b 0).trans (batch_o10 m c b 0))
  · exact congrArg (fun s => Ideal.div (-s) lN3)
      (Finset.sum_congr rfl fun b _ => (arrAt8 m c b 0).trans (batch_o8 m c b 0))
  · exact (congrArg (fun f => dice f _ _) e0).trans ((congrArg (fun f => dice _ f _) e1).trans (congrArg (fun f => dice _ _ f) e2))

end Cert.KernelIdeal.HandV

end
-- ==== Proof.RefValue.lean ====
import proofs.«411553_j46600395162340_3_alg».proof.Proof.RefRunDefs
import proofs.«411553_j46600395162340_3_alg».proof.Proof.RefRead
import proofs.«411553_j46600395162340_3_alg».proof.Proof.Spec
import Idealize.ShloMosaic.Lib.ValueIdx
import Idealize.ShloMosaic.Lib.Pipeline.Value
import Idealize.ShloMosaic.Lib.KernelVsHost
import Idealize.ShloMosaic.PureOps.Ideal.Laws

/-! The reference program's result, read at the extended reals, is the reference's form of the specification. -/

noncomputable section

open scoped BigOperators

namespace Cert.RefSide

open Idealize.ShloMosaic Idealize.ShloMosaic.ValueIdx

/-! ## The float words that are not left as words -/

theorem ofBits_one : Ideal.ofBits .f32 0x3F800000#32 = 1 := by
  simp [Ideal.ofBits, Ideal.ieee, -EReal.coe_mul]; norm_num
theorem ofBits_negInf : Ideal.ofBits .f32 0xFF800000#32 = ⊥ := by
  simp [Ideal.ofBits, Ideal.ieee]
theorem ofBits_posInf : Ideal.ofBits .f32 0x7F800000#32 = ⊤ := by
  simp [Ideal.ofBits, Ideal.ieee]

/-! ## Sums over index sets by coordinates -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over a one-element range is its one term. -/
theorem sum_fin_one {M : Type*} [AddCommMonoid M] (f : Fin 1 → M) : ∑ a : Fin 1, f a = f 0 := by
  simp

/-! ## A maximum and a minimum over a finite range, from bottom and from top -/

theorem fold_max_bot {n : Nat} (f : Fin n → EReal) : (Finset.univ : Finset (Fin n)).fold max ⊥ f = ⨆ i, f i := by
  rw [← Finset.sup_univ_eq_iSup]; rfl

theorem fold_min_top {n : Nat} (f : Fin n → EReal) : (Finset.univ : Finset (Fin n)).fold min ⊤ f = ⨅ i, f i := by
  rw [← Finset.inf_univ_eq_iInf]; rfl

/-! ## The row sums: a sum over the unit axis and the rows of a [16, 1, 512, 512] array -/

theorem hostReduceAdd_rows (h' : (⟨4, ![16, 1, 512, 512]⟩ : Shape).ReducesTo [1, 2] ⟨2, ![16, 512]⟩)
    (x : (⟨4, ![16, 1, 512, 512]⟩ : Shape).Idx → EReal) (init : EReal) (b : Fin 16) (w : Fin 512) :
    Ideal.hostReduceAdd h' x init (ix2 b w) = init + ∑ h : Fin 512, x (ix4 b 0 h w) := by
  unfold Ideal.hostReduceAdd
  refine congrArg (init + ·) ?_
  refine Finset.sum_nbij' (fun i => i 2) (fun k => ix4 b 0 k w) ?_ ?_ ?_ ?_ ?_
  · intro i _; exact Finset.mem_univ _
  · intro k _
    refine Finset.mem_filter.2 ⟨Finset.mem_univ _, funext fun a => Fin.ext ?_⟩
    match a with
    | ⟨0, _⟩ => exact h'.drop_apply_val_of_eq _ 0 0
    | ⟨1, _⟩ => exact h'.drop_apply_val_of_eq _ 1 3
  · intro i hi
    have hj := (Finset.mem_filter.1 hi).2
    have e0 : (i 0).val = b.val := (h'.drop_apply_val_of_eq i 0 0).symm.trans (congrArg (fun j => (j 0).val) hj)
    have e3 : (i 3).val = w.val := (h'.drop_apply_val_of_eq i 1 3).symm.trans (congrArg (fun j => (j 1).val) hj)
    have e1 : (i 1).val < 1 := (i 1).isLt
    funext a
    match a with
    | ⟨0, _⟩ => exact Fin.ext e0.symm
    | ⟨1, _⟩ => exact Fin.ext (by show 0 = (i 1).val; omega)
    | ⟨2, _⟩ => rfl
    | ⟨3, _⟩ => exact Fin.ext e3.symm
  · intro k _; rfl
  · intro i hi
    have hj := (Finset.mem_filter.1 hi).2
    have e0 : (i 0).val = b.val := (h'.drop_apply_val_of_eq i 0 0).symm.trans (congrArg (fun j => (j 0).val) hj)
    have e3 : (i 3).val = w.val := (h'.drop_apply_val_of_eq i 1 3).symm.trans (congrArg (fun j => (j 1).val) hj)
    have e1 : (i 1).val < 1 := (i 1).isLt
    refine congrArg x (funext fun a => ?_)
    match a with
    | ⟨0, _⟩ => exact Fin.ext e0
    | ⟨1, _⟩ => exact Fin.ext (by show (i 1).val = 0; omega)
    | ⟨2, _⟩ => rfl
    | ⟨3, _⟩ => exact Fin.ext e3

/-! ## A slice of all but one row or column put back with one row or column of padding -/

section Pads
variable {α : Type}

/-- Columns 0 to 510 moved one place up, the padding value in column 0. -/
theorem pad_lowW_slice (z : (⟨3, ![16, 512, 512]⟩ : Shape).Idx → α) {u : Shape} (v : u.Idx → α)
    (hs : (⟨3, ![16, 512, 512]⟩ : Shape).Slices ![0, 0, 0] ⟨3, ![16, 512, 511]⟩)
    (hp : (⟨3, ![16, 512, 511]⟩ : Shape).Pads (![0, 0, 1] : Fin 3 → Nat) ![0, 0, 0] ![0, 0, 0] ⟨3, ![16, 512, 512]⟩)
    (hu : 0 < u.numel) (b : Fin 16) (h w : Fin 512) :
    pad ⟨3, ![16, 512, 512]⟩ ![0, 0, 1] ![0, 0, 0] ![0, 0, 0]
        (extractStridedSlice ⟨3, ![16, 512, 511]⟩ ![0, 0, 0] z hs) v hp hu (ix3 b h w)
      = if hw : 1 ≤ w.val then z (ix3 b h ⟨w.val - 1, by omega⟩) else v (Shape.Idx.first hu) := by
  by_cases hw : 1 ≤ w.val
  · rw [dif_pos hw]
    refine (pad_apply_of_inside _ _ _ _ v hp hu _ (ix3 b h (⟨w.val - 1, by omega⟩ : Fin 511)) (fun a => ?_)).trans ?_
    · match a with
      | ⟨0, _⟩ => show b.val = 0 + b.val * (0 + 1); omega
      | ⟨1, _⟩ => show h.val = 0 + h.val * (0 + 1); omega
      | ⟨2, _⟩ => show w.val = 1 + (w.val - 1) * (0 + 1); omega
    · exact extractStridedSlice_apply _ z hs _ _ (fun a => match a with
        | ⟨0, _⟩ => by show b.val = 0 + b.val; omega
        | ⟨1, _⟩ => by show h.val = 0 + h.val; omega
        | ⟨2, _⟩ => by show w.val - 1 = 0 + (w.val - 1); omega)
  · rw [dif_neg hw]
    exact pad_apply_of_not_inside _ _ _ _ v hp hu _ (2 : Fin 3) (by
      show ¬(1 ≤ w.val ∧ (w.val - 1) % (0 + 1) = 0 ∧ (w.val - 1) / (0 + 1) < 511)
      omega)

/-- Columns 1 to 511 moved one place down, the padding value in column 511. -/
theorem pad_highW_slice (z : (⟨3, ![16, 512, 512]⟩ : Shape).Idx → α) {u : Shape} (v : u.Idx → α)
    (hs : (⟨3, ![16, 512, 512]⟩ : Shape).Slices ![0, 0, 1] ⟨3, ![16, 512, 511]⟩)
    (hp : (⟨3, ![16, 512, 511]⟩ : Shape).Pads (![0, 0, 0] : Fin 3 → Nat) ![0, 0, 1] ![0, 0, 0] ⟨3, ![16, 512, 512]⟩)
    (hu : 0 < u.numel) (b : Fin 16) (h w : Fin 512) :
    pad ⟨3, ![16, 512, 512]⟩ ![0, 0, 0] ![0, 0, 1] ![0, 0, 0]
        (extractStridedSlice ⟨3, ![16, 512, 511]⟩ ![0, 0, 1] z hs) v hp hu (ix3 b h w)
      = if hw : w.val + 1 < 512 then z (ix3 b h ⟨w.val + 1, hw⟩) else v (Shape.Idx.first hu) := by
  by_cases hw : w.val + 1 < 512
  · rw [dif_pos hw]
    refine (pad_apply_of_inside _ _ _ _ v hp hu _ (ix3 b h (⟨w.val, by omega⟩ : Fin 511)) (fun a => ?_)).trans ?_
    · match a with
      | ⟨0, _⟩ => show b.val = 0 + b.val * (0 + 1); omega
      | ⟨1, _⟩ => show h.val = 0 + h.val * (0 + 1); omega
      | ⟨2, _⟩ => show w.val = 0 + w.val * (0 + 1); omega
    · exact extractStridedSlice_apply _ z hs _ _ (fun a => match a with
        | ⟨0, _⟩ => by show b.val = 0 + b.val; omega
        | ⟨1, _⟩ => by show h.val = 0 + h.val; omega
        | ⟨2, _⟩ => by show w.val + 1 = 1 + w.val; omega)
  · rw [dif_neg hw]
    exact pad_apply_of_not_inside _ _ _ _ v hp hu _ (2 : Fin 3) (by
      show ¬(0 ≤ w.val ∧ (w.val - 0) % (0 + 1) = 0 ∧ (w.val - 0) / (0 + 1) < 511)
      omega)

/-- Rows 0 to 510 moved one place up, the padding value in row 0. -/
theorem pad_lowH_slice (z : (⟨3, ![16, 512, 512]⟩ : Shape).Idx → α) {u : Shape} (v : u.Idx → α)
    (hs : (⟨3, ![16, 512, 512]⟩ : Shape).Slices ![0, 0, 0] ⟨3, ![16, 511, 512]⟩)
    (hp : (⟨3, ![16, 511, 512]⟩ : Shape).Pads (![0, 1, 0] : Fin 3 → Nat) ![0, 0, 0] ![0, 0, 0] ⟨3, ![16, 512, 512]⟩)
    (hu : 0 < u.numel) (b : Fin 16) (h w : Fin 512) :
    pad ⟨3, ![16, 512, 512]⟩ ![0, 1, 0] ![0, 0, 0] ![0, 0, 0]
        (extractStridedSlice ⟨3, ![16, 511, 512]⟩ ![0, 0, 0] z hs) v hp hu (ix3 b h w)
      = if hh : 1 ≤ h.val then z (ix3 b ⟨h.val - 1, by omega⟩ w) else v (Shape.Idx.first hu) := by
  by_cases hh : 1 ≤ h.val
  · rw [dif_pos hh]
    refine (pad_apply_of_inside _ _ _ _ v hp hu _ (ix3 b (⟨h.val - 1, by omega⟩ : Fin 511) w) (fun a => ?_)).trans ?_
    · match a with
      | ⟨0, _⟩ => show b.val = 0 + b.val * (0 + 1); omega
      | ⟨1, _⟩ => show h.val = 1 + (h.val - 1) * (0 + 1); omega
      | ⟨2, _⟩ => show w.val = 0 + w.val * (0 + 1); omega
    · exact extractStridedSlice_apply _ z hs _ _ (fun a => match a with
        | ⟨0, _⟩ => by show b.val = 0 + b.val; omega
        | ⟨1, _⟩ => by show h.val - 1 = 0 + (h.val - 1); omega
        | ⟨2, _⟩ => by show w.val = 0 + w.val; omega)
  · rw [dif_neg hh]
    exact pad_apply_of_not_inside _ _ _ _ v hp hu _ (1 : Fin 3) (by
      show ¬(1 ≤ h.val ∧ (h.val - 1) % (0 + 1) = 0 ∧ (h.val - 1) / (0 + 1) < 511)
      omega)

/-- Rows 1 to 511 moved one place down, the padding value in row 511. -/
theorem pad_highH_slice (z : (⟨3, ![16, 512, 512]⟩ : Shape).Idx → α) {u : Shape} (v : u.Idx → α)
    (hs : (⟨3, ![16, 512, 512]⟩ : Shape).Slices ![0, 1, 0] ⟨3, ![16, 511, 512]⟩)
    (hp : (⟨3, ![16, 511, 512]⟩ : Shape).Pads (![0, 0, 0] : Fin 3 → Nat) ![0, 1, 0] ![0, 0, 0] ⟨3, ![16, 512, 512]⟩)
    (hu : 0 < u.numel) (b : Fin 16) (h w : Fin 512) :
    pad ⟨3, ![16, 512, 512]⟩ ![0, 0, 0] ![0, 1, 0] ![0, 0, 0]
        (extractStridedSlice ⟨3, ![16, 511, 512]⟩ ![0, 1, 0] z hs) v hp hu (ix3 b h w)
      = if hh : h.val + 1 < 512 then z (ix3 b ⟨h.val + 1, hh⟩ w) else v (Shape.Idx.first hu) := by
  by_cases hh : h.val + 1 < 512
  · rw [dif_pos hh]
    refine (pad_apply_of_inside _ _ _ _ v hp hu _ (ix3 b (⟨h.val, by omega⟩ : Fin 511) w) (fun a => ?_)).trans ?_
    · match a with
      | ⟨0, _⟩ => show b.val = 0 + b.val * (0 + 1); omega
      | ⟨1, _⟩ => show h.val = 0 + h.val * (0 + 1); omega
      | ⟨2, _⟩ => show w.val = 0 + w.val * (0 + 1); omega
    · exact extractStridedSlice_apply _ z hs _ _ (fun a => match a with
        | ⟨0, _⟩ => by show b.val = 0 + b.val; omega
        | ⟨1, _⟩ => by show h.val + 1 = 1 + h.val; omega
        | ⟨2, _⟩ => by show w.val = 0 + w.val; omega)
  · rw [dif_neg hh]
    exact pad_apply_of_not_inside _ _ _ _ v hp hu _ (1 : Fin 3) (by
      show ¬(0 ≤ h.val ∧ (h.val - 0) % (0 + 1) = 0 ∧ (h.val - 0) / (0 + 1) < 511)
      omega)

end Pads

/-! ## A one-pixel shift along one axis, and the two-axis shift as two of them -/

/-- One axis of the shift: the value at the source coordinate, zero where there is none. -/
def shift1 (d : Int) (f : Fin 512 → EReal) (n : Fin 512) : EReal :=
  match Cert.Spec.src d n with
  | some n' => f n'
  | none => 0

theorem shiftAt_eq (q : Fin 512 → Fin 512 → EReal) (dxv dyv : Int) (h w : Fin 512) :
    Cert.Spec.shiftAt q dxv dyv h w = shift1 dyv (fun h' => shift1 dxv (q h') w) h := by
  unfold Cert.Spec.shiftAt shift1
  cases Cert.Spec.src dyv h <;> cases Cert.Spec.src dxv w <;> rfl

theorem shift1_one (f : Fin 512 → EReal) (n : Fin 512) :
    shift1 1 f n = if hn : 1 ≤ n.val then f ⟨n.val - 1, by omega⟩ else 0 := by
  unfold shift1 Cert.Spec.src
  by_cases hn : 1 ≤ n.val
  · rw [dif_pos (by omega : 0 ≤ (n.val : Int) - 1 ∧ (n.val : Int) - 1 < 512), dif_pos hn]
    exact congrArg f (Fin.ext (by show ((n.val : Int) - 1).toNat = n.val - 1; omega))
  · rw [dif_neg (by omega : ¬(0 ≤ (n.val : Int) - 1 ∧ (n.val : Int) - 1 < 512)), dif_neg hn]

theorem shift1_neg_one (f : Fin 512 → EReal) (n : Fin 512) :
    shift1 (-1) f n = if hn : n.val + 1 < 512 then f ⟨n.val + 1, hn⟩ else 0 := by
  unfold shift1 Cert.Spec.src
  by_cases hn : n.val + 1 < 512
  · rw [dif_pos (by omega : 0 ≤ (n.val : Int) - -1 ∧ (n.val : Int) - -1 < 512), dif_pos hn]
    exact congrArg f (Fin.ext (by show ((n.val : Int) - -1).toNat = n.val + 1; omega))
  · rw [dif_neg (by omega : ¬(0 ≤ (n.val : Int) - -1 ∧ (n.val : Int) - -1 < 512)), dif_neg hn]

theorem shift1_zero (f : Fin 512 → EReal) (n : Fin 512) : shift1 0 f n = f n := by
  unfold shift1 Cert.Spec.src
  rw [dif_pos (by omega : 0 ≤ (n.val : Int) - 0 ∧ (n.val : Int) - 0 < 512)]
  exact congrArg f (Fin.ext (by show ((n.val : Int) - 0).toNat = n.val; omega))

/-- An array of images moved along the columns, and along the rows. -/
def mvW (d : Int) (z : (⟨3, ![16, 512, 512]⟩ : Shape).Idx → EReal) : (⟨3, ![16, 512, 512]⟩ : Shape).Idx → EReal :=
  fun i => shift1 d (fun w' => z (ix3 (i 0) (i 1) w')) (i 2)
def mvH (d : Int) (z : (⟨3, ![16, 512, 512]⟩ : Shape).Idx → EReal) : (⟨3, ![16, 512, 512]⟩ : Shape).Idx → EReal :=
  fun i => shift1 d (fun h' => z (ix3 (i 0) h' (i 2))) (i 1)

theorem mvH_mvW_at (dxv dyv : Int) (z : (⟨3, ![16, 512, 512]⟩ : Shape).Idx → EReal) (b : Fin 16) (h w : Fin 512) :
    mvH dyv (mvW dxv z) (ix3 b h w) = Cert.Spec.shiftAt (fun h' w' => z (ix3 b h' w')) dxv dyv h w := by
  rw [shiftAt_eq]; rfl

theorem mvW_at (dxv : Int) (z : (⟨3, ![16, 512, 512]⟩ : Shape).Idx → EReal) (b : Fin 16) (h w : Fin 512) :
    mvW dxv z (ix3 b h w) = Cert.Spec.shiftAt (fun h' w' => z (ix3 b h' w')) dxv 0 h w := by
  rw [shiftAt_eq, shift1_zero]; rfl

theorem mvH_at (dyv : Int) (z : (⟨3, ![16, 512, 512]⟩ : Shape).Idx → EReal) (b : Fin 16) (h w : Fin 512) :
    mvH dyv z (ix3 b h w) = Cert.Spec.shiftAt (fun h' w' => z (ix3 b h' w')) 0 dyv h w := by
  rw [shiftAt_eq]
  show shift1 dyv (fun h' => z (ix3 b h' w)) h = shift1 dyv (fun h' => shift1 0 (fun w' => z (ix3 b h' w')) w) h
  exact congrArg (fun g => shift1 dyv g h) (funext fun h' => (shift1_zero (fun w' => z (ix3 b h' w')) w).symm)

section PadsAreMoves

theorem padLowW_eq (z : (⟨3, ![16, 512, 512]⟩ : Shape).Idx → EReal) {u : Shape} (v : u.Idx → EReal) (hv : ∀ i, v i = 0)
    (hs : (⟨3, ![16, 512, 512]⟩ : Shape).Slices ![0, 0, 0] ⟨3, ![16, 512, 511]⟩)
    (hp : (⟨3, ![16, 512, 511]⟩ : Shape).Pads (![0, 0, 1] : Fin 3 → Nat) ![0, 0, 0] ![0, 0, 0] ⟨3, ![16, 512, 512]⟩)
    (hu : 0 < u.numel) :
    pad ⟨3, ![16, 512, 512]⟩ ![0, 0, 1] ![0, 0, 0] ![0, 0, 0]
        (extractStridedSlice ⟨3, ![16, 512, 511]⟩ ![0, 0, 0] z hs) v hp hu = mvW 1 z := by
  funext i
  obtain ⟨b, h, w, rfl⟩ : ∃ (b : Fin 16) (h w : Fin 512), i = ix3 b h w := ⟨i 0, i 1, i 2, eq_ix3 i⟩
  rw [pad_lowW_slice, hv]
  exact (shift1_one (fun w' => z (ix3 b h w')) w).symm

theorem padHighW_eq (z : (⟨3, ![16, 512, 512]⟩ : Shape).Idx → EReal) {u : Shape} (v : u.Idx → EReal) (hv : ∀ i, v i = 0)
    (hs : (⟨3, ![16, 512, 512]⟩ : Shape).Slices ![0, 0, 1] ⟨3, ![16, 512, 511]⟩)
    (hp : (⟨3, ![16, 512, 511]⟩ : Shape).Pads (![0, 0, 0] : Fin 3 → Nat) ![0, 0, 1] ![0, 0, 0] ⟨3, ![16, 512, 512]⟩)
    (hu : 0 < u.numel) :
    pad ⟨3, ![16, 512, 512]⟩ ![0, 0, 0] ![0, 0, 1] ![0, 0, 0]
        (extractStridedSlice ⟨3, ![16, 512, 511]⟩ ![0, 0, 1] z hs) v hp hu = mvW (-1) z := by
  funext i
  obtain ⟨b, h, w, rfl⟩ : ∃ (b : Fin 16) (h w : Fin 512), i = ix3 b h w := ⟨i 0, i 1, i 2, eq_ix3 i⟩
  rw [pad_highW_slice, hv]
  exact (shift1_neg_one (fun w' => z (ix3 b h w')) w).symm

theorem padLowH_eq (z : (⟨3, ![16, 512, 512]⟩ : Shape).Idx → EReal) {u : Shape} (v : u.Idx → EReal) (hv : ∀ i, v i = 0)
    (hs : (⟨3, ![16, 512, 512]⟩ : Shape).Slices ![0, 0, 0] ⟨3, ![16, 511, 512]⟩)
    (hp : (⟨3, ![16, 511, 512]⟩ : Shape).Pads (![0, 1, 0] : Fin 3 → Nat) ![0, 0, 0] ![0, 0, 0] ⟨3, ![16, 512, 512]⟩)
    (hu : 0 < u.numel) :
    pad ⟨3, ![16, 512, 512]⟩ ![0, 1, 0] ![0, 0, 0] ![0, 0, 0]
        (extractStridedSlice ⟨3, ![16, 511, 512]⟩ ![0, 0, 0] z hs) v hp hu = mvH 1 z := by
  funext i
  obtain ⟨b, h, w, rfl⟩ : ∃ (b : Fin 16) (h w : Fin 512), i = ix3 b h w := ⟨i 0, i 1, i 2, eq_ix3 i⟩
  rw [pad_lowH_slice, hv]
  exact (shift1_one (fun h' => z (ix3 b h' w)) h).symm

theorem padHighH_eq (z : (⟨3, ![16, 512, 512]⟩ : Shape).Idx → EReal) {u : Shape} (v : u.Idx → EReal) (hv : ∀ i, v i = 0)
    (hs : (⟨3, ![16, 512, 512]⟩ : Shape).Slices ![0, 1, 0] ⟨3, ![16, 511, 512]⟩)
    (hp : (⟨3, ![16, 511, 512]⟩ : Shape).Pads (![0, 0, 0] : Fin 3 → Nat) ![0, 1, 0] ![0, 0, 0] ⟨3, ![16, 512, 512]⟩)
    (hu : 0 < u.numel) :
    pad ⟨3, ![16, 512, 512]⟩ ![0, 0, 0] ![0, 1, 0] ![0, 0, 0]
        (extractStridedSlice ⟨3, ![16, 511, 512]⟩ ![0, 1, 0] z hs) v hp hu = mvH (-1) z := by
  funext i
  obtain ⟨b, h, w, rfl⟩ : ∃ (b : Fin 16) (h w : Fin 512), i = ix3 b h w := ⟨i 0, i 1, i 2, eq_ix3 i⟩
  rw [pad_highH_slice, hv]
  exact (shift1_neg_one (fun h' => z (ix3 b h' w)) h).symm

end PadsAreMoves

/-! ## The edge indicator from its two comparisons -/

theorem edge_eq (s a c : EReal) :
    (FloatOps.uitofp (F := Ideal) .f32 (IntOp.andi (FloatOps.cmpf (F := Ideal) (φ := .f32) .olt s a) (FloatOps.cmpf (F := Ideal) (φ := .f32) .ogt s c)) : EReal)
      = if s < a ∧ c < s then 1 else 0 := by
  show (((IntOp.andi (Ideal.cmp .olt s a) (Ideal.cmp .ogt s c)).toNat : ℝ) : EReal) = _
  unfold Ideal.cmp IntOp.andi
  by_cases h1 : s < a <;> by_cases h2 : c < s <;> simp [h1, h2]

/-- The padding value of every shift: the integer zero read as a float. -/
theorem sitofp_zero_word : (FloatOps.sitofp (F := Ideal) .f32 (0#32 : BitVec 32) : EReal) = 0 := by
  show (((0#32 : BitVec 32).toInt : ℝ) : EReal) = 0
  simp

/-! ## The reference program, stage by stage -/

section Stages

open Cert.ReferenceIdeal Cert.ReferenceIdeal.Gen Cert.ReferenceIdeal.ReadP

variable (x0 : (⟨S16x8x512x512, .f32⟩ : BufTy).Contents (Elt Ideal)) (x1 : (⟨S16x1x512x512, .i32⟩ : BufTy).Contents (Elt Ideal)) (x2 : (⟨S16x8x512x512, .i32⟩ : BufTy).Contents (Elt Ideal))

/-- The sigmoid, written out by the program as 1 / (1 + exp (-x)). -/
theorem p_at (b : Fin 16) (ch : Fin 8) (h w : Fin 512) :
    val_main_v7 (F := Ideal) x0 (ix4 b ch h w) = Cert.Spec.P (Cert.Spec.a4 x0) b ch h w := by
  rw [val_main_v7_apply, val_main_v6_apply, val_main_cst_0_apply, val_main_v5_apply, val_main_v4_apply, val_main_cst_apply,
    val_main_v3_apply, val_main_v2_apply]
  simp only [Ideal.ofBits_def, Ideal.hostDivf_def, Ideal.addf_def, Ideal.hostUnary_exp_def, Ideal.hostNegf_def, Ideal.negf_def]
  rw [ofBits_one]
  rfl

/-! ### One channel of the sigmoid as an array of images -/

theorem chan7_at (b : Fin 16) (h w : Fin 512) :
    val_main_v9 (F := Ideal) x0 (ix3 b h w) = Cert.Spec.P (Cert.Spec.a4 x0) b 7 h w := by
  rw [val_main_v9_apply, val_main_v8_apply]
  refine Eq.trans (congrArg (val_main_v7 (F := Ideal) x0) (funext fun a => Fin.ext ?_)) (p_at x0 b 7 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem chan6_at (b : Fin 16) (h w : Fin 512) :
    val_main_v15 (F := Ideal) x0 (ix3 b h w) = Cert.Spec.P (Cert.Spec.a4 x0) b 6 h w := by
  rw [val_main_v15_apply, val_main_v14_apply]
  refine Eq.trans (congrArg (val_main_v7 (F := Ideal) x0) (funext fun a => Fin.ext ?_)) (p_at x0 b 6 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem chan5_at (b : Fin 16) (h w : Fin 512) :
    val_main_v19 (F := Ideal) x0 (ix3 b h w) = Cert.Spec.P (Cert.Spec.a4 x0) b 5 h w := by
  rw [val_main_v19_apply, val_main_v18_apply]
  refine Eq.trans (congrArg (val_main_v7 (F := Ideal) x0) (funext fun a => Fin.ext ?_)) (p_at x0 b 5 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem chan4_at (b : Fin 16) (h w : Fin 512) :
    val_main_v25 (F := Ideal) x0 (ix3 b h w) = Cert.Spec.P (Cert.Spec.a4 x0) b 4 h w := by
  rw [val_main_v25_apply, val_main_v24_apply]
  refine Eq.trans (congrArg (val_main_v7 (F := Ideal) x0) (funext fun a => Fin.ext ?_)) (p_at x0 b 4 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem chan3_at (b : Fin 16) (h w : Fin 512) :
    val_main_v29 (F := Ideal) x0 (ix3 b h w) = Cert.Spec.P (Cert.Spec.a4 x0) b 3 h w := by
  rw [val_main_v29_apply, val_main_v28_apply]
  refine Eq.trans (congrArg (val_main_v7 (F := Ideal) x0) (funext fun a => Fin.ext ?_)) (p_at x0 b 3 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem chan2_at (b : Fin 16) (h w : Fin 512) :
    val_main_v33 (F := Ideal) x0 (ix3 b h w) = Cert.Spec.P (Cert.Spec.a4 x0) b 2 h w := by
  rw [val_main_v33_apply, val_main_v32_apply]
  refine Eq.trans (congrArg (val_main_v7 (F := Ideal) x0) (funext fun a => Fin.ext ?_)) (p_at x0 b 2 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem chan1_at (b : Fin 16) (h w : Fin 512) :
    val_main_v39 (F := Ideal) x0 (ix3 b h w) = Cert.Spec.P (Cert.Spec.a4 x0) b 1 h w := by
  rw [val_main_v39_apply, val_main_v38_apply]
  refine Eq.trans (congrArg (val_main_v7 (F := Ideal) x0) (funext fun a => Fin.ext ?_)) (p_at x0 b 1 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem chan0_at (b : Fin 16) (h w : Fin 512) :
    val_main_v43 (F := Ideal) x0 (ix3 b h w) = Cert.Spec.P (Cert.Spec.a4 x0) b 0 h w := by
  rw [val_main_v43_apply, val_main_v42_apply]
  refine Eq.trans (congrArg (val_main_v7 (F := Ideal) x0) (funext fun a => Fin.ext ?_)) (p_at x0 b 0 h w)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-! ### The padding value of the twelve pads -/

theorem call0_zero (i : S_.Idx) : val_main_call0_v0 (F := Ideal) i = 0 := sitofp_zero_word
theorem call1_zero (i : S_.Idx) : val_main_call1_v0 (F := Ideal) i = 0 := sitofp_zero_word
theorem call2_zero (i : S_.Idx) : val_main_call2_v0 (F := Ideal) i = 0 := sitofp_zero_word
theorem call3_zero (i : S_.Idx) : val_main_call3_v0 (F := Ideal) i = 0 := sitofp_zero_word
theorem call4_zero (i : S_.Idx) : val_main_call4_v0 (F := Ideal) i = 0 := sitofp_zero_word
theorem call5_zero (i : S_.Idx) : val_main_call5_v0 (F := Ideal) i = 0 := sitofp_zero_word
theorem call6_zero (i : S_.Idx) : val_main_call6_v0 (F := Ideal) i = 0 := sitofp_zero_word
theorem call7_zero (i : S_.Idx) : val_main_call7_v0 (F := Ideal) i = 0 := sitofp_zero_word
theorem call8_zero (i : S_.Idx) : val_main_call8_v0 (F := Ideal) i = 0 := sitofp_zero_word
theorem call9_zero (i : S_.Idx) : val_main_call9_v0 (F := Ideal) i = 0 := sitofp_zero_word
theorem call10_zero (i : S_.Idx) : val_main_call10_v0 (F := Ideal) i = 0 := sitofp_zero_word
theorem call11_zero (i : S_.Idx) : val_main_call11_v0 (F := Ideal) i = 0 := sitofp_zero_word

/-! ### The eight shifted channels -/

theorem dir0_eq : val_main_v13 (F := Ideal) x0 = mvH 1 (mvW 1 (val_main_v9 (F := Ideal) x0)) := by
  unfold val_main_v13 val_main_v12 val_main_v11 val_main_v10
  rw [padLowW_eq (val_main_v9 (F := Ideal) x0) (val_main_call0_v0 (F := Ideal)) call0_zero,
    padLowH_eq (mvW 1 (val_main_v9 (F := Ideal) x0)) (val_main_call1_v0 (F := Ideal)) call1_zero]

theorem dir0_at (b : Fin 16) (h w : Fin 512) :
    val_main_v13 (F := Ideal) x0 (ix3 b h w) = Cert.Spec.shiftAt (Cert.Spec.P (Cert.Spec.a4 x0) b 7) 1 1 h w := by
  rw [dir0_eq, mvH_mvW_at]
  exact congrArg (fun q => Cert.Spec.shiftAt q 1 1 h w) (funext fun h' => funext fun w' => chan7_at x0 b h' w')

theorem dir1_eq : val_main_v17 (F := Ideal) x0 = mvH 1 (val_main_v15 (F := Ideal) x0) := by
  unfold val_main_v17 val_main_v16
  rw [padLowH_eq (val_main_v15 (F := Ideal) x0) (val_main_call2_v0 (F := Ideal)) call2_zero]

theorem dir1_at (b : Fin 16) (h w : Fin 512) :
    val_main_v17 (F := Ideal) x0 (ix3 b h w) = Cert.Spec.shiftAt (Cert.Spec.P (Cert.Spec.a4 x0) b 6) 0 1 h w := by
  rw [dir1_eq, mvH_at]
  exact congrArg (fun q => Cert.Spec.shiftAt q 0 1 h w) (funext fun h' => funext fun w' => chan6_at x0 b h' w')

theorem dir2_eq : val_main_v23 (F := Ideal) x0 = mvH 1 (mvW (-1) (val_main_v19 (F := Ideal) x0)) := by
  unfold val_main_v23 val_main_v22 val_main_v21 val_main_v20
  rw [padHighW_eq (val_main_v19 (F := Ideal) x0) (val_main_call3_v0 (F := Ideal)) call3_zero,
    padLowH_eq (mvW (-1) (val_main_v19 (F := Ideal) x0)) (val_main_call4_v0 (F := Ideal)) call4_zero]

theorem dir2_at (b : Fin 16) (h w : Fin 512) :
    val_main_v23 (F := Ideal) x0 (ix3 b h w) = Cert.Spec.shiftAt (Cert.Spec.P (Cert.Spec.a4 x0) b 5) (-1) 1 h w := by
  rw [dir2_eq, mvH_mvW_at]
  exact congrArg (fun q => Cert.Spec.shiftAt q (-1) 1 h w) (funext fun h' => funext fun w' => chan5_at x0 b h' w')

theorem dir3_eq : val_main_v27 (F := Ideal) x0 = mvW 1 (val_main_v25 (F := Ideal) x0) := by
  unfold val_main_v27 val_main_v26
  rw [padLowW_eq (val_main_v25 (F := Ideal) x0) (val_main_call5_v0 (F := Ideal)) call5_zero]

theorem dir3_at (b : Fin 16) (h w : Fin 512) :
    val_main_v27 (F := Ideal) x0 (ix3 b h w) = Cert.Spec.shiftAt (Cert.Spec.P (Cert.Spec.a4 x0) b 4) 1 0 h w := by
  rw [dir3_eq, mvW_at]
  exact congrArg (fun q => Cert.Spec.shiftAt q 1 0 h w) (funext fun h' => funext fun w' => chan4_at x0 b h' w')

theorem dir4_eq : val_main_v31 (F := Ideal) x0 = mvW (-1) (val_main_v29 (F := Ideal) x0) := by
  unfold val_main_v31 val_main_v30
  rw [padHighW_eq (val_main_v29 (F := Ideal) x0) (val_main_call6_v0 (F := Ideal)) call6_zero]

theorem dir4_at (b : Fin 16) (h w : Fin 512) :
    val_main_v31 (F := Ideal) x0 (ix3 b h w) = Cert.Spec.shiftAt (Cert.Spec.P (Cert.Spec.a4 x0) b 3) (-1) 0 h w := by
  rw [dir4_eq, mvW_at]
  exact congrArg (fun q => Cert.Spec.shiftAt q (-1) 0 h w) (funext fun h' => funext fun w' => chan3_at x0 b h' w')

theorem dir5_eq : val_main_v37 (F := Ideal) x0 = mvH (-1) (mvW 1 (val_main_v33 (F := Ideal) x0)) := by
  unfold val_main_v37 val_main_v36 val_main_v35 val_main_v34
  rw [padLowW_eq (val_main_v33 (F := Ideal) x0) (val_main_call7_v0 (F := Ideal)) call7_zero,
    padHighH_eq (mvW 1 (val_main_v33 (F := Ideal) x0)) (val_main_call8_v0 (F := Ideal)) call8_zero]

theorem dir5_at (b : Fin 16) (h w : Fin 512) :
    val_main_v37 (F := Ideal) x0 (ix3 b h w) = Cert.Spec.shiftAt (Cert.Spec.P (Cert.Spec.a4 x0) b 2) 1 (-1) h w := by
  rw [dir5_eq, mvH_mvW_at]
  exact congrArg (fun q => Cert.Spec.shiftAt q 1 (-1) h w) (funext fun h' => funext fun w' => chan2_at x0 b h' w')

theorem dir6_eq : val_main_v41 (F := Ideal) x0 = mvH (-1) (val_main_v39 (F := Ideal) x0) := by
  unfold val_main_v41 val_main_v40
  rw [padHighH_eq (val_main_v39 (F := Ideal) x0) (val_main_call9_v0 (F := Ideal)) call9_zero]

theorem dir6_at (b : Fin 16) (h w : Fin 512) :
    val_main_v41 (F := Ideal) x0 (ix3 b h w) = Cert.Spec.shiftAt (Cert.Spec.P (Cert.Spec.a4 x0) b 1) 0 (-1) h w := by
  rw [dir6_eq, mvH_at]
  exact congrArg (fun q => Cert.Spec.shiftAt q 0 (-1) h w) (funext fun h' => funext fun w' => chan1_at x0 b h' w')

theorem dir7_eq : val_main_v47 (F := Ideal) x0 = mvH (-1) (mvW (-1) (val_main_v43 (F := Ideal) x0)) := by
  unfold val_main_v47 val_main_v46 val_main_v45 val_main_v44
  rw [padHighW_eq (val_main_v43 (F := Ideal) x0) (val_main_call10_v0 (F := Ideal)) call10_zero,
    padHighH_eq (mvW (-1) (val_main_v43 (F := Ideal) x0)) (val_main_call11_v0 (F := Ideal)) call11_zero]

theorem dir7_at (b : Fin 16) (h w : Fin 512) :
    val_main_v47 (F := Ideal) x0 (ix3 b h w) = Cert.Spec.shiftAt (Cert.Spec.P (Cert.Spec.a4 x0) b 0) (-1) (-1) h w := by
  rw [dir7_eq, mvH_mvW_at]
  exact congrArg (fun q => Cert.Spec.shiftAt q (-1) (-1) h w) (funext fun h' => funext fun w' => chan0_at x0 b h' w')

/-! ### The shifted channels stacked -/

theorem piece0_at (b : Fin 16) (h w : Fin 512) :
    val_main_v48 (F := Ideal) x0 (ix4 b 0 h w) = Cert.Spec.shiftAt (Cert.Spec.P (Cert.Spec.a4 x0) b 7) 1 1 h w := by
  rw [val_main_v48_apply]
  refine Eq.trans (congrArg (val_main_v13 (F := Ideal) x0) (funext fun a => ?_)) (dir0_at x0 b h w)
  match a with
  | ⟨0, _⟩ => rfl
  | ⟨1, _⟩ => rfl
  | ⟨2, _⟩ => rfl

theorem piece1_at (b : Fin 16) (h w : Fin 512) :
    val_main_v49 (F := Ideal) x0 (ix4 b 0 h w) = Cert.Spec.shiftAt (Cert.Spec.P (Cert.Spec.a4 x0) b 6) 0 1 h w := by
  rw [val_main_v49_apply]
  refine Eq.trans (congrArg (val_main_v17 (F := Ideal) x0) (funext fun a => ?_)) (dir1_at x0 b h w)
  match a with
  | ⟨0, _⟩ => rfl
  | ⟨1, _⟩ => rfl
  | ⟨2, _⟩ => rfl

theorem piece2_at (b : Fin 16) (h w : Fin 512) :
    val_main_v50 (F := Ideal) x0 (ix4 b 0 h w) = Cert.Spec.shiftAt (Cert.Spec.P (Cert.Spec.a4 x0) b 5) (-1) 1 h w := by
  rw [val_main_v50_apply]
  refine Eq.trans (congrArg (val_main_v23 (F := Ideal) x0) (funext fun a => ?_)) (dir2_at x0 b h w)
  match a with
  | ⟨0, _⟩ => rfl
  | ⟨1, _⟩ => rfl
  | ⟨2, _⟩ => rfl

theorem piece3_at (b : Fin 16) (h w : Fin 512) :
    val_main_v51 (F := Ideal) x0 (ix4 b 0 h w) = Cert.Spec.shiftAt (Cert.Spec.P (Cert.Spec.a4 x0) b 4) 1 0 h w := by
  rw [val_main_v51_apply]
  refine Eq.trans (congrArg (val_main_v27 (F := Ideal) x0) (funext fun a => ?_)) (dir3_at x0 b h w)
  match a with
  | ⟨0, _⟩ => rfl
  | ⟨1, _⟩ => rfl
  | ⟨2, _⟩ => rfl

theorem piece4_at (b : Fin 16) (h w : Fin 512) :
    val_main_v52 (F := Ideal) x0 (ix4 b 0 h w) = Cert.Spec.shiftAt (Cert.Spec.P (Cert.Spec.a4 x0) b 3) (-1) 0 h w := by
  rw [val_main_v52_apply]
  refine Eq.trans (congrArg (val_main_v31 (F := Ideal) x0) (funext fun a => ?_)) (dir4_at x0 b h w)
  match a with
  | ⟨0, _⟩ => rfl
  | ⟨1, _⟩ => rfl
  | ⟨2, _⟩ => rfl

theorem piece5_at (b : Fin 16) (h w : Fin 512) :
    val_main_v53 (F := Ideal) x0 (ix4 b 0 h w) = Cert.Spec.shiftAt (Cert.Spec.P (Cert.Spec.a4 x0) b 2) 1 (-1) h w := by
  rw [val_main_v53_apply]
  refine Eq.trans (congrArg (val_main_v37 (F := Ideal) x0) (funext fun a => ?_)) (dir5_at x0 b h w)
  match a with
  | ⟨0, _⟩ => rfl
  | ⟨1, _⟩ => rfl
  | ⟨2, _⟩ => rfl

theorem piece6_at (b : Fin 16) (h w : Fin 512) :
    val_main_v54 (F := Ideal) x0 (ix4 b 0 h w) = Cert.Spec.shiftAt (Cert.Spec.P (Cert.Spec.a4 x0) b 1) 0 (-1) h w := by
  rw [val_main_v54_apply]
  refine Eq.trans (congrArg (val_main_v41 (F := Ideal) x0) (funext fun a => ?_)) (dir6_at x0 b h w)
  match a with
  | ⟨0, _⟩ => rfl
  | ⟨1, _⟩ => rfl
  | ⟨2, _⟩ => rfl

theorem piece7_at (b : Fin 16) (h w : Fin 512) :
    val_main_v55 (F := Ideal) x0 (ix4 b 0 h w) = Cert.Spec.shiftAt (Cert.Spec.P (Cert.Spec.a4 x0) b 0) (-1) (-1) h w := by
  rw [val_main_v55_apply]
  refine Eq.trans (congrArg (val_main_v47 (F := Ideal) x0) (funext fun a => ?_)) (dir7_at x0 b h w)
  match a with
  | ⟨0, _⟩ => rfl
  | ⟨1, _⟩ => rfl
  | ⟨2, _⟩ => rfl

theorem stacked_at (b : Fin 16) (i : Fin 8) (h w : Fin 512) :
    val_main_v56 (F := Ideal) x0 (ix4 b i h w)
      = Cert.Spec.shiftAt (Cert.Spec.P (Cert.Spec.a4 x0) b (Cert.Spec.rev i)) (Cert.Spec.dx i) (Cert.Spec.dy i) h w := by
  unfold val_main_v56
  match i with
  | ⟨0, _⟩ =>
    refine Eq.trans (concatenate_apply_piece (t := S16x8x512x512) 1 _ _ _ 0 (by show 0 < 8; omega) S16x1x512x512 (val_main_v48 (F := Ideal) x0) rfl rfl 0 rfl
      (ix4 b 0 h w) (fun a ha => ?_) rfl) (piece0_at x0 b h w)
    match a with
    | ⟨0, _⟩ => rfl
    | ⟨1, _⟩ => exact absurd rfl ha
    | ⟨2, _⟩ => rfl
    | ⟨3, _⟩ => rfl
  | ⟨1, _⟩ =>
    refine Eq.trans (concatenate_apply_piece (t := S16x8x512x512) 1 _ _ _ 1 (by show 1 < 8; omega) S16x1x512x512 (val_main_v49 (F := Ideal) x0) rfl rfl 1 rfl
      (ix4 b 0 h w) (fun a ha => ?_) rfl) (piece1_at x0 b h w)
    match a with
    | ⟨0, _⟩ => rfl
    | ⟨1, _⟩ => exact absurd rfl ha
    | ⟨2, _⟩ => rfl
    | ⟨3, _⟩ => rfl
  | ⟨2, _⟩ =>
    refine Eq.trans (concatenate_apply_piece (t := S16x8x512x512) 1 _ _ _ 2 (by show 2 < 8; omega) S16x1x512x512 (val_main_v50 (F := Ideal) x0) rfl rfl 2 rfl
      (ix4 b 0 h w) (fun a ha => ?_) rfl) (piece2_at x0 b h w)
    match a with
    | ⟨0, _⟩ => rfl
    | ⟨1, _⟩ => exact absurd rfl ha
    | ⟨2, _⟩ => rfl
    | ⟨3, _⟩ => rfl
  | ⟨3, _⟩ =>
    refine Eq.trans (concatenate_apply_piece (t := S16x8x512x512) 1 _ _ _ 3 (by show 3 < 8; omega) S16x1x512x512 (val_main_v51 (F := Ideal) x0) rfl rfl 3 rfl
      (ix4 b 0 h w) (fun a ha => ?_) rfl) (piece3_at x0 b h w)
    match a with
    | ⟨0, _⟩ => rfl
    | ⟨1, _⟩ => exact absurd rfl ha
    | ⟨2, _⟩ => rfl
    | ⟨3, _⟩ => rfl
  | ⟨4, _⟩ =>
    refine Eq.trans (concatenate_apply_piece (t := S16x8x512x512) 1 _ _ _ 4 (by show 4 < 8; omega) S16x1x512x512 (val_main_v52 (F := Ideal) x0) rfl rfl 4 rfl
      (ix4 b 0 h w) (fun a ha => ?_) rfl) (piece4_at x0 b h w)
    match a with
    | ⟨0, _⟩ => rfl
    | ⟨1, _⟩ => exact absurd rfl ha
    | ⟨2, _⟩ => rfl
    | ⟨3, _⟩ => rfl
  | ⟨5, _⟩ =>
    refine Eq.trans (concatenate_apply_piece (t := S16x8x512x512) 1 _ _ _ 5 (by show 5 < 8; omega) S16x1x512x512 (val_main_v53 (F := Ideal) x0) rfl rfl 5 rfl
      (ix4 b 0 h w) (fun a ha => ?_) rfl) (piece5_at x0 b h w)
    match a with
    | ⟨0, _⟩ => rfl
    | ⟨1, _⟩ => exact absurd rfl ha
    | ⟨2, _⟩ => rfl
    | ⟨3, _⟩ => rfl
  | ⟨6, _⟩ =>
    refine Eq.trans (concatenate_apply_piece (t := S16x8x512x512) 1 _ _ _ 6 (by show 6 < 8; omega) S16x1x512x512 (val_main_v54 (F := Ideal) x0) rfl rfl 6 rfl
      (ix4 b 0 h w) (fun a ha => ?_) rfl) (piece6_at x0 b h w)
    match a with
    | ⟨0, _⟩ => rfl
    | ⟨1, _⟩ => exact absurd rfl ha
    | ⟨2, _⟩ => rfl
    | ⟨3, _⟩ => rfl
  | ⟨7, _⟩ =>
    refine Eq.trans (concatenate_apply_piece (t := S16x8x512x512) 1 _ _ _ 7 (by show 7 < 8; omega) S16x1x512x512 (val_main_v55 (F := Ideal) x0) rfl rfl 7 rfl
      (ix4 b 0 h w) (fun a ha => ?_) rfl) (piece7_at x0 b h w)
    match a with
    | ⟨0, _⟩ => rfl
    | ⟨1, _⟩ => exact absurd rfl ha
    | ⟨2, _⟩ => rfl
    | ⟨3, _⟩ => rfl

/-- The votes. -/
theorem vote_at (b : Fin 16) (i : Fin 8) (h w : Fin 512) :
    val_main_v57 (F := Ideal) x0 (ix4 b i h w) = Cert.Spec.vote (Cert.Spec.a4 x0) b i h w := by
  rw [val_main_v57_apply, p_at, stacked_at]
  rfl

/-! ### The maximum and the minimum over the eight votes -/

theorem lift_chan (hR : S16x8x512x512.Reduces [1] S16x512x512) (b : Fin 16) (h w : Fin 512) (i : Fin 8) :
    hR.lift (ix3 b h w) i = ix4 b i h w :=
  funext fun a => Fin.ext (by match a with | ⟨0, _⟩ => rfl | ⟨1, _⟩ => rfl | ⟨2, _⟩ => rfl | ⟨3, _⟩ => rfl)

theorem fpred_at (b : Fin 16) (h w : Fin 512) :
    val_main_v58 (F := Ideal) x0 (ix3 b h w) = Cert.Spec.fpredR (Cert.Spec.a4 x0) b h w := by
  have hR : S16x8x512x512.Reduces [1] S16x512x512 := by decide
  unfold val_main_v58
  rw [Host.reduce_eq_fold_single FloatOps.maximumf _ _ reducesTo_S16x8x512x512_S16x512x512_d1 hR h_S_]
  show Finset.fold max (Ideal.ofBits .f32 0xFF800000#32) (fun i : Fin 8 => val_main_v57 (F := Ideal) x0 (hR.lift (ix3 b h w) i)) Finset.univ = _
  rw [ofBits_negInf, fold_max_bot]
  refine congrArg iSup (funext fun i => ?_)
  rw [lift_chan hR b h w i]
  exact vote_at x0 b i h w

theorem pmin_at (b : Fin 16) (h w : Fin 512) :
    val_main_v83 (F := Ideal) x0 (ix3 b h w) = Cert.Spec.pminR (Cert.Spec.a4 x0) b h w := by
  have hR : S16x8x512x512.Reduces [1] S16x512x512 := by decide
  unfold val_main_v83
  rw [Host.reduce_eq_fold_single FloatOps.minimumf _ _ reducesTo_S16x8x512x512_S16x512x512_d1 hR h_S_]
  show Finset.fold min (Ideal.ofBits .f32 0x7F800000#32) (fun i : Fin 8 => val_main_v57 (F := Ideal) x0 (hR.lift (ix3 b h w) i)) Finset.univ = _
  rw [ofBits_posInf, fold_min_top]
  refine congrArg iInf (funext fun i => ?_)
  rw [lift_chan hR b h w i]
  exact vote_at x0 b i h w

/-- The maximum with its unit channel axis back. -/
theorem fpred4_at (b : Fin 16) (h w : Fin 512) :
    val_main_v59 (F := Ideal) x0 (ix4 b 0 h w) = Cert.Spec.fpredR (Cert.Spec.a4 x0) b h w := by
  rw [val_main_v59_apply]
  refine Eq.trans (congrArg (val_main_v58 (F := Ideal) x0) (funext fun a => ?_)) (fpred_at x0 b h w)
  match a with
  | ⟨0, _⟩ => rfl
  | ⟨1, _⟩ => rfl
  | ⟨2, _⟩ => rfl

/-! ### The three row sums and the dice mean -/

theorem isum_at (b : Fin 16) (w : Fin 512) :
    val_main_v60 (F := Ideal) x1 (ix2 b w) = ∑ h : Fin 512, Cert.Spec.wf ((Cert.Spec.a3 x1) b h w) := by
  unfold val_main_v60
  simp only [Host.reduceAdd, Ideal.hostReduceAdd_def]
  rw [hostReduceAdd_rows, val_main_cst_13_apply, Ideal.ofBits_def, Ideal.ofBits_zero_f32, zero_add]
  rfl

theorem jsum_at (b : Fin 16) (w : Fin 512) :
    val_main_v61 (F := Ideal) x0 (ix2 b w) = ∑ h : Fin 512, Cert.Spec.fpredR (Cert.Spec.a4 x0) b h w := by
  unfold val_main_v61
  simp only [Host.reduceAdd, Ideal.hostReduceAdd_def]
  rw [hostReduceAdd_rows, val_main_cst_14_apply, Ideal.ofBits_def, Ideal.ofBits_zero_f32, zero_add]
  exact Finset.sum_congr rfl fun h _ => fpred4_at x0 b h w

theorem inter_at (b : Fin 16) (w : Fin 512) :
    val_main_v63 (F := Ideal) x0 x1 (ix2 b w) = ∑ h : Fin 512, Cert.Spec.wf ((Cert.Spec.a3 x1) b h w) * Cert.Spec.fpredR (Cert.Spec.a4 x0) b h w := by
  unfold val_main_v63
  simp only [Host.reduceAdd, Ideal.hostReduceAdd_def]
  rw [hostReduceAdd_rows, val_main_cst_15_apply, Ideal.ofBits_def, Ideal.ofBits_zero_f32, zero_add]
  refine Finset.sum_congr rfl fun h _ => ?_
  rw [val_main_v62_apply, fpred4_at]
  rfl

theorem diceTerm_at (b : Fin 16) (w : Fin 512) :
    val_main_v73 (F := Ideal) x0 x1 (ix2 b w)
      = Cert.Spec.l1 - Ideal.div (Cert.Spec.l2 * (∑ h : Fin 512, Cert.Spec.wf ((Cert.Spec.a3 x1) b h w) * Cert.Spec.fpredR (Cert.Spec.a4 x0) b h w) + Cert.Spec.lSmooth)
          ((∑ h : Fin 512, Cert.Spec.wf ((Cert.Spec.a3 x1) b h w)) + (∑ h : Fin 512, Cert.Spec.fpredR (Cert.Spec.a4 x0) b h w) + Cert.Spec.lSmooth) := by
  simp only [val_main_v73_apply, val_main_v72_apply, val_main_cst_19_apply, val_main_v71_apply, val_main_v67_apply, val_main_v65_apply, val_main_v64_apply, val_main_cst_16_apply, val_main_v66_apply, val_main_cst_17_apply, val_main_v70_apply, val_main_v68_apply, val_main_v69_apply, val_main_cst_18_apply, isum_at, jsum_at, inter_at]
  rfl

theorem dice_eq (i : S_.Idx) :
    val_main_v75 (F := Ideal) x0 x1 i
      = Cert.Spec.dice (fun b w => ∑ h : Fin 512, Cert.Spec.wf ((Cert.Spec.a3 x1) b h w)) (fun b w => ∑ h : Fin 512, Cert.Spec.fpredR (Cert.Spec.a4 x0) b h w)
          (fun b w => ∑ h : Fin 512, Cert.Spec.wf ((Cert.Spec.a3 x1) b h w) * Cert.Spec.fpredR (Cert.Spec.a4 x0) b h w) := by
  have hs : (∑ j : S16x512.Idx, val_main_v73 (F := Ideal) x0 x1 j)
      = ∑ b : Fin 16, ∑ w : Fin 512, (Cert.Spec.l1 - Ideal.div (Cert.Spec.l2 * (∑ h : Fin 512, Cert.Spec.wf ((Cert.Spec.a3 x1) b h w) * Cert.Spec.fpredR (Cert.Spec.a4 x0) b h w) + Cert.Spec.lSmooth)
          ((∑ h : Fin 512, Cert.Spec.wf ((Cert.Spec.a3 x1) b h w)) + (∑ h : Fin 512, Cert.Spec.fpredR (Cert.Spec.a4 x0) b h w) + Cert.Spec.lSmooth)) := by
    rw [sum_idx2]
    exact Finset.sum_congr rfl fun b _ => Finset.sum_congr rfl fun w _ => diceTerm_at x0 x1 b w
  rw [val_main_v75_apply, val_main_v74_apply, val_main_cst_20_apply, val_main_cst_21_apply, hs]
  unfold Cert.Spec.dice
  simp only [Ideal.ofBits_def, Ideal.ofBits_zero_f32, zero_add, Ideal.hostDivf_def]

/-! ### The edge indicator and the masked minimum -/

theorem sumConn_at (b : Fin 16) (h w : Fin 512) :
    val_main_v76 (F := Ideal) x2 (ix3 b h w) = Cert.Spec.sumConnR (Cert.Spec.a4 x2) b h w := by
  rw [val_main_v76_apply, val_main_cst_22_apply, Ideal.ofBits_def, Ideal.ofBits_zero_f32, zero_add]
  refine Finset.sum_congr rfl fun k _ => ?_
  refine Eq.trans (congrArg (val_main_v1 (F := Ideal) x2) (funext fun a => ?_)) (rfl : val_main_v1 (F := Ideal) x2 (ix4 b k h w) = _)
  match a with
  | ⟨0, _⟩ => rfl
  | ⟨1, _⟩ => rfl
  | ⟨2, _⟩ => rfl
  | ⟨3, _⟩ => rfl

theorem edge_at (b : Fin 16) (h w : Fin 512) :
    val_main_v82 (F := Ideal) x2 (ix3 b h w) = Cert.Spec.edgeOf (Cert.Spec.sumConnR (Cert.Spec.a4 x2) b h w) := by
  rw [val_main_v82_apply, val_main_v81_apply, val_main_v78_apply, val_main_v80_apply, val_main_v77_apply, val_main_cst_23_apply, val_main_v79_apply, val_main_cst_24_apply, sumConn_at]
  exact edge_eq _ _ _

theorem predMin_at (b : Fin 16) (h w : Fin 512) :
    val_main_v84 (F := Ideal) x0 x2 (ix3 b h w) = Cert.Spec.predMinR (Cert.Spec.a4 x0) (Cert.Spec.a4 x2) b h w := by
  rw [val_main_v84_apply, pmin_at, edge_at]
  rfl

/-! ### The four cross-entropy sums -/

theorem decTerm_at (b : Fin 16) (h w : Fin 512) :
    val_main_v98 (F := Ideal) x0 x2 (ix3 b h w) = Cert.Spec.bceR (Cert.Spec.predMinR (Cert.Spec.a4 x0) (Cert.Spec.a4 x2) b h w) Cert.Spec.l0 := by
  rw [val_main_v98_apply, val_main_v94_apply, val_main_v97_apply, val_main_v96_apply, val_main_v95_apply, val_main_v85_apply,
    val_main_cst_26_apply, val_main_cst_30_apply, val_main_v88_apply, val_main_v86_apply, val_main_v87_apply, val_main_cst_27_apply,
    val_main_v93_apply, val_main_v91_apply, val_main_v90_apply, val_main_v89_apply, val_main_cst_28_apply, val_main_v92_apply,
    val_main_cst_29_apply, predMin_at]
  unfold Cert.Spec.bceR Cert.Spec.clog
  simp only [Ideal.ofBits_def, Ideal.addf_def, Ideal.mulf_def, Ideal.subf_def, Ideal.maximumf_def, Ideal.hostUnary_log_def]

theorem dec_eq (i : S_.Idx) :
    val_main_v101 (F := Ideal) x0 x2 i
      = -(Ideal.div (∑ b : Fin 16, ∑ h : Fin 512, ∑ w : Fin 512, Cert.Spec.bceR (Cert.Spec.predMinR (Cert.Spec.a4 x0) (Cert.Spec.a4 x2) b h w) Cert.Spec.l0) Cert.Spec.lN3) := by
  have hs : (∑ j : S16x512x512.Idx, val_main_v98 (F := Ideal) x0 x2 j) = ∑ b : Fin 16, ∑ h : Fin 512, ∑ w : Fin 512, Cert.Spec.bceR (Cert.Spec.predMinR (Cert.Spec.a4 x0) (Cert.Spec.a4 x2) b h w) Cert.Spec.l0 := by
    rw [sum_idx3]
    exact Finset.sum_congr rfl fun b _ => Finset.sum_congr rfl fun h _ => Finset.sum_congr rfl fun w _ => decTerm_at x0 x2 b h w
  rw [val_main_v101_apply, val_main_v100_apply, val_main_v99_apply, val_main_cst_31_apply, val_main_cst_32_apply, hs]
  simp only [Ideal.ofBits_def, Ideal.ofBits_zero_f32, zero_add, Ideal.hostDivf_def, Ideal.hostNegf_def, Ideal.negf_def]

theorem t_at (b : Fin 16) (h w : Fin 512) : val_main_v0 (F := Ideal) x1 (ix4 b 0 h w) = Cert.Spec.wf ((Cert.Spec.a3 x1) b h w) := rfl

theorem ct_at (b : Fin 16) (ch : Fin 8) (h w : Fin 512) : val_main_v1 (F := Ideal) x2 (ix4 b ch h w) = Cert.Spec.wf ((Cert.Spec.a4 x2) b ch h w) := rfl

theorem bceTerm_at (b : Fin 16) (h w : Fin 512) :
    val_main_v114 (F := Ideal) x0 x1 (ix4 b 0 h w) = Cert.Spec.bceR (Cert.Spec.fpredR (Cert.Spec.a4 x0) b h w) (Cert.Spec.wf ((Cert.Spec.a3 x1) b h w)) := by
  rw [val_main_v114_apply, val_main_v110_apply, val_main_v113_apply, val_main_v112_apply, val_main_v111_apply, val_main_cst_36_apply, val_main_v104_apply, val_main_v102_apply, val_main_v103_apply, val_main_cst_33_apply, val_main_v109_apply, val_main_v107_apply, val_main_v106_apply, val_main_v105_apply, val_main_cst_34_apply, val_main_v108_apply, val_main_cst_35_apply, fpred4_at, t_at]
  unfold Cert.Spec.bceR Cert.Spec.clog
  simp only [Ideal.ofBits_def, Ideal.addf_def, Ideal.mulf_def, Ideal.subf_def, Ideal.maximumf_def, Ideal.hostUnary_log_def]

theorem bce_eq (i : S_.Idx) :
    val_main_v117 (F := Ideal) x0 x1 i
      = -(Ideal.div (∑ b : Fin 16, ∑ h : Fin 512, ∑ w : Fin 512, Cert.Spec.bceR (Cert.Spec.fpredR (Cert.Spec.a4 x0) b h w) (Cert.Spec.wf ((Cert.Spec.a3 x1) b h w))) Cert.Spec.lN3) := by
  have hs : (∑ j : S16x1x512x512.Idx, val_main_v114 (F := Ideal) x0 x1 j) = ∑ b : Fin 16, ∑ h : Fin 512, ∑ w : Fin 512, Cert.Spec.bceR (Cert.Spec.fpredR (Cert.Spec.a4 x0) b h w) (Cert.Spec.wf ((Cert.Spec.a3 x1) b h w)) := by
    rw [sum_idx4]
    exact Finset.sum_congr rfl fun b _ => (sum_fin_one _).trans
      (Finset.sum_congr rfl fun h _ => Finset.sum_congr rfl fun w _ => bceTerm_at x0 x1 b h w)
  rw [val_main_v117_apply, val_main_v116_apply, val_main_v115_apply, val_main_cst_37_apply, val_main_cst_38_apply, hs]
  simp only [Ideal.ofBits_def, Ideal.ofBits_zero_f32, zero_add, Ideal.hostDivf_def, Ideal.hostNegf_def, Ideal.negf_def]

theorem conmapTerm_at (b : Fin 16) (ch : Fin 8) (h w : Fin 512) :
    val_main_v130 (F := Ideal) x0 x2 (ix4 b ch h w) = Cert.Spec.bceR (Cert.Spec.P (Cert.Spec.a4 x0) b ch h w) (Cert.Spec.wf ((Cert.Spec.a4 x2) b ch h w)) := by
  rw [val_main_v130_apply, val_main_v126_apply, val_main_v129_apply, val_main_v128_apply, val_main_v127_apply, val_main_cst_42_apply, val_main_v120_apply, val_main_v118_apply, val_main_v119_apply, val_main_cst_39_apply, val_main_v125_apply, val_main_v123_apply, val_main_v122_apply, val_main_v121_apply, val_main_cst_40_apply, val_main_v124_apply, val_main_cst_41_apply, p_at, ct_at]
  unfold Cert.Spec.bceR Cert.Spec.clog
  simp only [Ideal.ofBits_def, Ideal.addf_def, Ideal.mulf_def, Ideal.subf_def, Ideal.maximumf_def, Ideal.hostUnary_log_def]

theorem conmap_eq (i : S_.Idx) :
    val_main_v133 (F := Ideal) x0 x2 i
      = -(Ideal.div (∑ b : Fin 16, ∑ ch : Fin 8, ∑ h : Fin 512, ∑ w : Fin 512, Cert.Spec.bceR (Cert.Spec.P (Cert.Spec.a4 x0) b ch h w) (Cert.Spec.wf ((Cert.Spec.a4 x2) b ch h w))) Cert.Spec.lN4) := by
  have hs : (∑ j : S16x8x512x512.Idx, val_main_v130 (F := Ideal) x0 x2 j) = ∑ b : Fin 16, ∑ ch : Fin 8, ∑ h : Fin 512, ∑ w : Fin 512, Cert.Spec.bceR (Cert.Spec.P (Cert.Spec.a4 x0) b ch h w) (Cert.Spec.wf ((Cert.Spec.a4 x2) b ch h w)) := by
    rw [sum_idx4]
    exact Finset.sum_congr rfl fun b _ => Finset.sum_congr rfl fun ch _ => Finset.sum_congr rfl fun h _ => Finset.sum_congr rfl fun w _ =>
      conmapTerm_at x0 x2 b ch h w
  rw [val_main_v133_apply, val_main_v132_apply, val_main_v131_apply, val_main_cst_43_apply, val_main_cst_44_apply, hs]
  simp only [Ideal.ofBits_def, Ideal.ofBits_zero_f32, zero_add, Ideal.hostDivf_def, Ideal.hostNegf_def, Ideal.negf_def]

theorem bimapTerm_at (b : Fin 16) (ch : Fin 8) (h w : Fin 512) :
    val_main_v146 (F := Ideal) x0 x2 (ix4 b ch h w) = Cert.Spec.bceR (Cert.Spec.vote (Cert.Spec.a4 x0) b ch h w) (Cert.Spec.wf ((Cert.Spec.a4 x2) b ch h w)) := by
  rw [val_main_v146_apply, val_main_v142_apply, val_main_v145_apply, val_main_v144_apply, val_main_v143_apply, val_main_cst_48_apply, val_main_v136_apply, val_main_v134_apply, val_main_v135_apply, val_main_cst_45_apply, val_main_v141_apply, val_main_v139_apply, val_main_v138_apply, val_main_v137_apply, val_main_cst_46_apply, val_main_v140_apply, val_main_cst_47_apply, vote_at, ct_at]
  unfold Cert.Spec.bceR Cert.Spec.clog
  simp only [Ideal.ofBits_def, Ideal.addf_def, Ideal.mulf_def, Ideal.subf_def, Ideal.maximumf_def, Ideal.hostUnary_log_def]

theorem bimap_eq (i : S_.Idx) :
    val_main_v149 (F := Ideal) x0 x2 i
      = -(Ideal.div (∑ b : Fin 16, ∑ ch : Fin 8, ∑ h : Fin 512, ∑ w : Fin 512, Cert.Spec.bceR (Cert.Spec.vote (Cert.Spec.a4 x0) b ch h w) (Cert.Spec.wf ((Cert.Spec.a4 x2) b ch h w))) Cert.Spec.lN4) := by
  have hs : (∑ j : S16x8x512x512.Idx, val_main_v146 (F := Ideal) x0 x2 j) = ∑ b : Fin 16, ∑ ch : Fin 8, ∑ h : Fin 512, ∑ w : Fin 512, Cert.Spec.bceR (Cert.Spec.vote (Cert.Spec.a4 x0) b ch h w) (Cert.Spec.wf ((Cert.Spec.a4 x2) b ch h w)) := by
    rw [sum_idx4]
    exact Finset.sum_congr rfl fun b _ => Finset.sum_congr rfl fun ch _ => Finset.sum_congr rfl fun h _ => Finset.sum_congr rfl fun w _ =>
      bimapTerm_at x0 x2 b ch h w
  rw [val_main_v149_apply, val_main_v148_apply, val_main_v147_apply, val_main_cst_49_apply, val_main_cst_50_apply, hs]
  simp only [Ideal.ofBits_def, Ideal.ofBits_zero_f32, zero_add, Ideal.hostDivf_def, Ideal.hostNegf_def, Ideal.negf_def]

/-! ### The five terms combined -/

theorem result_eq (i : S_.Idx) :
    val_main_v155 (F := Ideal) x0 x1 x2 i = Cert.Spec.Rspec (Cert.Spec.a4 x0) (Cert.Spec.a3 x1) (Cert.Spec.a4 x2) := by
  rw [val_main_v155_apply, val_main_v154_apply, val_main_v153_apply, val_main_v151_apply, val_main_v150_apply, val_main_cst_51_apply,
    val_main_v152_apply, val_main_cst_52_apply, conmap_eq, dec_eq, bimap_eq, bce_eq, dice_eq]
  unfold Cert.Spec.Rspec Cert.Spec.combine
  simp only [Ideal.ofBits_def, Ideal.addf_def, Ideal.mulf_def]

end Stages

open Cert.ReferenceIdeal Cert.ReferenceIdeal.Gen Idealize.ShloMosaic.TcCoe Idealize.SL.Sem

/-- The run's composed term for the one result is, at every memory, the reference's form of the three argument arrays. -/
theorem ref_value (m : (ℓ : Loc nD τ sig) → Buf (Elt Ideal) ℓ) (c : Dev nD) :
    Cert.ReferenceIdeal.ValueP.res_main_v155 (F := Ideal) m c
      = fun _ => Cert.Spec.Rspec (Cert.Spec.a4 (m ((c.tc : Thread nD τ).loc main_arg0)))
          (Cert.Spec.a3 (m ((c.tc : Thread nD τ).loc main_arg1))) (Cert.Spec.a4 (m ((c.tc : Thread nD τ).loc main_arg2))) := by
  rw [Cert.ReferenceIdeal.ReadP.val_main_v155_eq]
  funext i
  exact result_eq _ _ _ i

end Cert.RefSide

end
-- ==== Proof.PreDecode.lean ====
import proofs.«411553_j46600395162340_3_alg».proof.Pre_finite_inputs
import Idealize.ShloMosaic.PureOps.Ideal
import Idealize.ShloMosaic.Lib.ReduceAll
import Idealize.ShloMosaic.Lib.StableHlo.Predicate
import Idealize.ShloMosaic.Lib.ValueIdx

/-! What the precondition says, entry by entry.

The stated precondition is the conjunction of three whole-array tests: every entry of the float input has
absolute value below +inf; every word of the first integer input is 0 or 1; every word of the second integer
input is 0 or 1. Read at the extended reals the first test says that each entry is a real number. -/

noncomputable section

namespace Cert.PreDecode

open Idealize.ShloMosaic

variable [Cert.Pre_finite_inputs.Facts]

/-- The rank-0 shape has exactly one index: an index is a function out of the empty set of axes. -/
instance : Subsingleton Cert.Pre_finite_inputs.S_.Idx := ⟨fun a b => funext fun d => d.elim0⟩

/-- The pattern 0x7F800000 denotes +inf, and max x (-x) is below +inf only when x is neither +inf nor -inf:
    at -inf the maximum is -(-inf) = +inf, at +inf it is +inf itself. What is left of the extended reals is
    the reals. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- The or of the two equality tests w == 0 and w == 1 is set exactly when w is 0 or w is 1. -/
theorem bit_of_or (w : BitVec 32)
    (h : IntOp.ori (IntOp.cmpi .eq w 0#32) (IntOp.cmpi .eq w 1#32) = 1#1) : w = 0#32 ∨ w = 1#32 := by
  rw [IntOp.ori_eq_one, IntOp.cmpi_eq, IntOp.cmpi_eq] at h
  exact h

/-- If the precondition evaluates to all ones, then every entry of the float input is a real number and every
    word of each integer input is 0 or 1. -/
theorem pre_ideal (x : FVec Ideal Cert.Pre_finite_inputs.S16x8x512x512 .f32)
    (t : IVec Cert.Pre_finite_inputs.S16x1x512x512 32) (ct : IVec Cert.Pre_finite_inputs.S16x8x512x512 32)
    (h : Cert.Pre_finite_inputs.fn (F := Ideal) x t ct = (fun _ => 1#1)) :
    (∀ i, ∃ r : ℝ, x i = (r : EReal)) ∧ (∀ i, t i = 0#32 ∨ t i = 1#32) ∧ (∀ i, ct i = 0#32 ∨ ct i = 1#32) := by
  -- the value at the one index of the rank-0 result: a conjunction of three and-reductions
  have h0 := congrFun h ValueIdx.ix0
  dsimp only [Cert.Pre_finite_inputs.fn, Cert.Pre_finite_inputs.fn_part1] at h0
  simp only [andi] at h0
  rw [IntOp.andi_eq_one, IntOp.andi_eq_one] at h0
  obtain ⟨⟨hx, ht⟩, hct⟩ := h0
  -- an and-reduction over all axes that came out 1 met a 1 at every entry; read each entry's test back
  refine ⟨fun i => ?_, fun i => ?_, fun i => ?_⟩
  · exact real_of_abs_lt_top (x i) (Host.reduce_andi_all _ _ _ _ _ hx i)
  · exact bit_of_or (t i) (Host.reduce_andi_all _ _ _ _ _ ht i)
  · exact bit_of_or (ct i) (Host.reduce_andi_all _ _ _ _ _ hct i)

end Cert.PreDecode

end
-- ==== Proof.RefHalf.lean ====
import proofs.«411553_j46600395162340_3_alg».proof.Defs
import proofs.«411553_j46600395162340_3_alg».proof.Proof.Gen.Pre_finite_inputs
import proofs.«411553_j46600395162340_3_alg».proof.Proof.RefValue
import proofs.«411553_j46600395162340_3_alg».proof.Proof.PreDecode
import proofs.«411553_j46600395162340_3_alg».proof.Proof.Math
import proofs.«411553_j46600395162340_3_alg».proof.Proof.Spec

/-! The reference program's result is the kernel's form of the specification.

Under the precondition every entry of the float argument is a real number and every word of the two integer arguments is
0 or 1; there the reference's form and the kernel's form of the specification agree. So, from memories that agree on the
three argument arrays, the reference program's one result is the kernel's form of the specification evaluated on the
kernel program's arguments. -/

noncomputable section

namespace Cert.RefSide

open Idealize.ShloMosaic Idealize.ShloMosaic.TcCoe Idealize.SL.Sem

/-- The reference program's result, from a memory agreeing with the kernel program's on the arguments of which the
    precondition holds, is the kernel's form of the specification of the kernel program's arguments. -/
theorem ref_is_Kspec
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.ReferenceIdeal.nD) :
    Cert.ReferenceIdeal.ValueP.res_main_v155 (F := Ideal) m' c
      = fun _ => Cert.Spec.Kspec (Cert.Spec.a4 (m ((c.tc : Thread Cert.KernelIdeal.nD Cert.KernelIdeal.τ).loc Cert.KernelIdeal.main_arg0)))
          (Cert.Spec.a3 (m ((c.tc : Thread Cert.KernelIdeal.nD Cert.KernelIdeal.τ).loc Cert.KernelIdeal.main_arg1)))
          (Cert.Spec.a4 (m ((c.tc : Thread Cert.KernelIdeal.nD Cert.KernelIdeal.τ).loc Cert.KernelIdeal.main_arg2))) := by
  rw [ref_value m' c, (hagree c).1, (hagree c).2.1, (hagree c).2.2]
  funext _
  obtain ⟨hx, ht, hct⟩ := Cert.PreDecode.pre_ideal _ _ _ (hpre c)
  exact (Cert.Spec.Kspec_eq_Rspec _ _ _ (fun b ch h w => hx _) (fun b h w => ht _) (fun b ch h w => hct _)).symm

end Cert.RefSide

end
-- ==== Proof.lean ====
/- The kernel computes, batch by batch and channel pair by channel pair, the same five-term loss the reference computes
   over whole arrays. With s the sigmoid of the float input, each channel's vote is s of that channel times s of the
   opposite channel shifted one pixel in the channel's direction. The loss combines: the clamped cross-entropy of s and of
   the votes against the connectivity labels, of the votes' maximum against the mask labels, the clamped logarithm of one
   minus the votes' minimum on the edge pixels, and a dice mean of row sums. The kernel keeps the running maximum, minimum,
   label sum and two cross-entropy sums in scratch buffers across the four channel pairs of a batch, and takes the logarithm
   of p or of 1 - p according to the label instead of weighting two logarithms by the label and its complement: the same
   number when every label is 0 or 1, which the precondition says. Sums are regrouped freely (addition of extended reals is
   commutative and associative), and a maximum folded over the pairs from the bottom element is the supremum over the channels.
   The three frame claims are the programs' runs with the results dropped; the idealization rewrote nothing. -/
import proofs.«411553_j46600395162340_3_alg».proof.Defs
import proofs.«411553_j46600395162340_3_alg».proof.Proof.Gen.Kernel
import proofs.«411553_j46600395162340_3_alg».proof.Proof.Gen.KernelIdeal
import proofs.«411553_j46600395162340_3_alg».proof.Proof.Gen.ReferenceIdeal
import proofs.«411553_j46600395162340_3_alg».proof.Proof.Gen.Pre_finite_inputs
import proofs.«411553_j46600395162340_3_alg».proof.Proof.KB.FrameK
import proofs.«411553_j46600395162340_3_alg».proof.Proof.K.FrameK
import proofs.«411553_j46600395162340_3_alg».proof.Proof.K.ValueK
import proofs.«411553_j46600395162340_3_alg».proof.Proof.RefRun
import proofs.«411553_j46600395162340_3_alg».proof.Proof.RefHalf
import Idealize.ShloMosaic.Adequacy
import Idealize.ShloMosaic.Init

noncomputable section

namespace Cert.Proof

open Idealize.ShloMosaic Idealize.SL.Sem

/-- The word-level kernel program runs to the end and leaves its arguments as they were. -/
theorem frame_k : Cert.frame_Kernel (hKernel := Cert.Kernel.Gen.facts) (hPre_finite_inputs := Cert.Pre_finite_inputs.Gen.facts) :=
  fun m g _ => Cert.Kernel.Hand.frame (F := Bits) m g

/-- So does the kernel program read over the extended reals. -/
theorem frame_ki : Cert.frame_KernelIdeal (hKernelIdeal := Cert.KernelIdeal.Gen.facts) (hPre_finite_inputs := Cert.Pre_finite_inputs.Gen.facts) :=
  fun m g _ => Cert.KernelIdeal.Hand.frame (F := Ideal) m g

/-- And the reference: its run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.RefSide.run (F := Ideal) m g)

/-- Over the extended reals both programs end with the kernel's form of the loss of the three arguments: the kernel by
    its run and the value of its result, the reference by its run, its result read as the reference's form, and the two
    forms' agreement under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => fun _ => Cert.Spec.Kspec
      (Cert.Spec.a4 (m ((c.tc : Thread Cert.KernelIdeal.nD Cert.KernelIdeal.τ).loc Cert.KernelIdeal.main_arg0)))
      (Cert.Spec.a3 (m ((c.tc : Thread Cert.KernelIdeal.nD Cert.KernelIdeal.τ).loc Cert.KernelIdeal.main_arg1)))
      (Cert.Spec.a4 (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.KernelIdeal.HandV.kernel_value m c), (h c).2⟩)
      (Cert.KernelIdeal.Hand.run_named (F := Ideal) m g)
  · exact (θ_run Cert.ReferenceIdeal.defs _ _).mono
      (fun _ h c => ⟨(h c).1.trans (Cert.RefSide.ref_is_Kspec m m' hpre hagree c), (h c).2⟩)
      (Cert.RefSide.run (F := Ideal) m' g')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
